-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v328) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S8192x2048 : Shape := ⟨2, ![8192, 2048]⟩
abbrev S8192 : Shape := ⟨1, ![8192]⟩
abbrev S4x4096x256 : Shape := ⟨3, ![4, 4096, 256]⟩
abbrev S4x512x1 : Shape := ⟨3, ![4, 512, 1]⟩
abbrev S4x4096x1 : Shape := ⟨3, ![4, 4096, 1]⟩
abbrev S2048 : Shape := ⟨1, ![2048]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S4x4096x1 : S_.BroadcastsInDim S4x4096x1 (![] : Fin 0 → Fin S4x4096x1.rank)
  reducesTo_S4x4096x1_S_d0_1_2 : S4x4096x1.ReducesTo [0, 1, 2] S_

variable [Facts]

def fn_part1 {F : FTy → Type} [FloatOps F] (main_arg8 : FVec F S4x4096x1 .f32) (main_v13 : IVec S_ 1) (main_v16 : IVec S4x4096x1 1) : IVec S_ 1 :=
  let main_c_5 : IVec S_ 1 := constantI S_ 1 1#1
  let main_v17 : IVec S_ 1 := (fun x v => Host.reduce IntOp.andi x v reducesTo_S4x4096x1_S_d0_1_2 h_S_) main_v16 main_c_5
  let main_v18 : IVec S_ 1 := andi main_v13 main_v17
  let main_v19 : FVec F S4x4096x1 .f32 := Host.absf main_arg8
  let main_cst_6 : FVec F S_ .f32 := constant S_ .f32 0x7F800000#32
  let main_v20 : FVec F S4x4096x1 .f32 := broadcastInDim S4x4096x1 ![] bcast_S_S4x4096x1 main_cst_6
  let main_v21 : IVec S4x4096x1 1 := cmpf .olt main_v19 main_v20
  let main_c_7 : IVec S_ 1 := constantI S_ 1 1#1
  let main_v22 : IVec S_ 1 := (fun x v => Host.reduce IntOp.andi x v reducesTo_S4x4096x1_S_d0_1_2 h_S_) main_v21 main_c_7
  let main_v23 : IVec S_ 1 := andi main_v18 main_v22
  main_v23

def fn {F : FTy → Type} [FloatOps F] (main_arg0 : FVec F S1024x2048 .f32) (main_arg1 : FVec F S8192x2048 .f32) (main_arg2 : FVec F S8192 .f32) (main_arg3 : IVec S4x4096x256 32) (main_arg4 : IVec S4x4096x256 32) (main_arg5 : IVec S4x512x1 32) (main_arg6 : IVec S4x512x1 32) (main_arg7 : FVec F S4x4096x1 .f32) (main_arg8 : FVec F S4x4096x1 .f32) (main_arg9 : IVec S2048 32) (main_arg10 : IVec S2048 32) (main_arg11 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S4x4096x1 .f32 := Host.absf main_arg7
  let main_cst_4 : FVec F S_ .f32 := constant S_ .f32 0x7F800000#32
  let main_v15 : FVec F S4x4096x1 .f32 := broadcastInDim S4x4096x1 ![] bcast_S_S4x4096x1 main_cst_4
  let main_v16 : IVec S4x4096x1 1 := cmpf .olt main_v14 main_v15
  fn_part1 (F := F) main_arg8 main_v13 main_v16
-- ==== Kernel.lean ====
abbrev S1024x2048 : Shape := ⟨2, ![1024, 2048]⟩
abbrev S8192x2048 : Shape := ⟨2, ![8192, 2048]⟩
abbrev S8192 : Shape := ⟨1, ![8192]⟩
abbrev S4x4096x256 : Shape := ⟨3, ![4, 4096, 256]⟩
abbrev S4x512x1 : Shape := ⟨3, ![4, 512, 1]⟩
abbrev S4x4096x1 : Shape := ⟨3, ![4, 4096, 1]⟩
abbrev S2048 : Shape := ⟨1, ![2048]⟩
abbrev S1024 : Shape := ⟨1, ![1024]⟩
abbrev S_ : Shape := ⟨0, ![]⟩
abbrev S1024x1 : Shape := ⟨2, ![1024, 1]⟩
abbrev S5 : Shape := ⟨1, ![5]⟩
abbrev S1 : Shape := ⟨1, ![1]⟩
abbrev S4 : Shape := ⟨1, ![4]⟩
abbrev S2048x2048 : Shape := ⟨2, ![2048, 2048]⟩
abbrev S8 : Shape := ⟨1, ![8]⟩
abbrev S8x1 : Shape := ⟨2, ![8, 1]⟩
abbrev S1x5 : Shape := ⟨2, ![1, 5]⟩
abbrev S8x5 : Shape := ⟨2, ![8, 5]⟩
abbrev S4096x2048 : Shape := ⟨2, ![4096, 2048]⟩
abbrev S4x4096x256x1 : Shape := ⟨4, ![4, 4096, 256, 1]⟩
abbrev S1x1x8 : Shape := ⟨3, ![1, 1, 8]⟩
abbrev S1x1x1x8 : Shape := ⟨4, ![1, 1, 1, 8]⟩
abbrev S4x4096x256x8 : Shape := ⟨4, ![4, 4096, 256, 8]⟩
abbrev S4x4096x2048 : Shape := ⟨3, ![4, 4096, 2048]⟩
abbrev S4x512 : Shape := ⟨2, ![4, 512]⟩
abbrev S1x8 : Shape := ⟨2, ![1, 8]⟩
abbrev S4x512x8 : Shape := ⟨3, ![4, 512, 8]⟩
abbrev S4x4096 : Shape := ⟨2, ![4, 4096]⟩
abbrev S1x4096x2048 : Shape := ⟨3, ![1, 4096, 2048]⟩
abbrev S5x4096x2048 : Shape := ⟨3, ![5, 4096, 2048]⟩
abbrev S10x4096x2048 : Shape := ⟨3, ![10, 4096, 2048]⟩
abbrev S1x8192 : Shape := ⟨2, ![1, 8192]⟩
abbrev S2048x8192 : Shape := ⟨2, ![2048, 8192]⟩
abbrev S256x2048 : Shape := ⟨2, ![256, 2048]⟩
abbrev S1x1024x2048 : Shape := ⟨3, ![1, 1024, 2048]⟩
abbrev S1x1024 : Shape := ⟨2, ![1, 1024]⟩
abbrev S256x1024 : Shape := ⟨2, ![256, 1024]⟩
abbrev S1024x8192 : Shape := ⟨2, ![1024, 8192]⟩

abbrev nBuf : Space → Nat
  | .hbm => 277
  | .vmem => 8
  | .smem => 2
  | _ => 0

abbrev hbmTy0_0 (i : Nat) : BufTy := match i % 128 with
  | 0 => ⟨S1024x2048, .f32⟩
  | 1 => ⟨S8192x2048, .f32⟩
  | 2 => ⟨S8192, .f32⟩
  | 3 => ⟨S4x4096x256, .i32⟩
  | 4 => ⟨S4x4096x256, .i32⟩
  | 5 => ⟨S4x512x1, .i32⟩
  | 6 => ⟨S4x512x1, .i32⟩
  | 7 => ⟨S4x4096x1, .f32⟩
  | 8 => ⟨S4x4096x1, .f32⟩
  | 9 => ⟨S2048, .i32⟩
  | 10 => ⟨S2048, .i32⟩
  | 11 => ⟨S1024, .i32⟩
  | 12 => ⟨S_, .i32⟩
  | 13 => ⟨S1024, .i32⟩
  | 14 => ⟨S1024, .i1⟩
  | 15 => ⟨S_, .i32⟩
  | 16 => ⟨S1024, .i32⟩
  | 17 => ⟨S1024, .i1⟩
  | 18 => ⟨S1024, .i1⟩
  | 19 => ⟨S_, .i32⟩
  | 20 => ⟨S_, .i32⟩
  | 21 => ⟨S1024, .i32⟩
  | 22 => ⟨S1024, .i32⟩
  | 23 => ⟨S1024, .i32⟩
  | 24 => ⟨S1024, .i32⟩
  | 25 => ⟨S1024, .i32⟩
  | 26 => ⟨S_, .i32⟩
  | 27 => ⟨S1024, .i32⟩
  | 28 => ⟨S1024, .i1⟩
  | 29 => ⟨S_, .i32⟩
  | 30 => ⟨S1024, .i32⟩
  | 31 => ⟨S1024, .i32⟩
  | 32 => ⟨S1024, .i32⟩
  | 33 => ⟨S1024x1, .i32⟩
  | 34 => ⟨S1024, .i32⟩
  | 35 => ⟨S1024x2048, .bf16⟩
  | 36 => ⟨S_, .i32⟩
  | 37 => ⟨S1024, .i32⟩
  | 38 => ⟨S1024, .i1⟩
  | 39 => ⟨S_, .i32⟩
  | 40 => ⟨S1024, .i32⟩
  | 41 => ⟨S1024, .i32⟩
  | 42 => ⟨S1024, .i32⟩
  | 43 => ⟨S1024x1, .i32⟩
  | 44 => ⟨S1024x2048, .bf16⟩
  | 45 => ⟨S_, .i32⟩
  | 46 => ⟨S5, .i32⟩
  | 47 => ⟨S_, .i32⟩
  | 48 => ⟨S_, .i32⟩
  | 49 => ⟨S1024, .i32⟩
  | 50 => ⟨S1024, .i32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S1024x1, .i32⟩
  | 59 => ⟨S_, .i32⟩
  | 60 => ⟨S1024, .i32⟩
  | 61 => ⟨S5, .i32⟩
  | 62 => ⟨S_, .i32⟩
  | 63 => ⟨S1, .i32⟩
  | 64 => ⟨S_, .i32⟩
  | 65 => ⟨S_, .i32⟩
  | 66 => ⟨S5, .i32⟩
  | 67 => ⟨S4, .i32⟩
  | 68 => ⟨S5, .i32⟩
  | 69 => ⟨S_, .i32⟩
  | 70 => ⟨S5, .i32⟩
  | 71 => ⟨S5, .i32⟩
  | 72 => ⟨S_, .i32⟩
  | 73 => ⟨S5, .i32⟩
  | 74 => ⟨S5, .i32⟩
  | 75 => ⟨S_, .i32⟩
  | 76 => ⟨S_, .i32⟩
  | 77 => ⟨S5, .i32⟩
  | 78 => ⟨S5, .i32⟩
  | 79 => ⟨S5, .i32⟩
  | 80 => ⟨S_, .i32⟩
  | 81 => ⟨S5, .i32⟩
  | 82 => ⟨S5, .i1⟩
  | 83 => ⟨S5, .i32⟩
  | 84 => ⟨S5, .i32⟩
  | 85 => ⟨S_, .i32⟩
  | 86 => ⟨S5, .i32⟩
  | 87 => ⟨S5, .i1⟩
  | 88 => ⟨S5, .i1⟩
  | 89 => ⟨S_, .i32⟩
  | 90 => ⟨S5, .i32⟩
  | 91 => ⟨S5, .i32⟩
  | 92 => ⟨S5, .i32⟩
  | 93 => ⟨S_, .i32⟩
  | 94 => ⟨S5, .i32⟩
  | 95 => ⟨S5, .i32⟩
  | 96 => ⟨S_, .i32⟩
  | 97 => ⟨S1, .i32⟩
  | 98 => ⟨S_, .i32⟩
  | 99 => ⟨S_, .i32⟩
  | 100 => ⟨S5, .i32⟩
  | 101 => ⟨S4, .i32⟩
  | 102 => ⟨S5, .i32⟩
  | 103 => ⟨S1024, .i32⟩
  | 104 => ⟨S_, .i32⟩
  | 105 => ⟨S1024, .i32⟩
  | 106 => ⟨S1024, .i1⟩
  | 107 => ⟨S_, .i32⟩
  | 108 => ⟨S1024, .i32⟩
  | 109 => ⟨S1024, .i32⟩
  | 110 => ⟨S1024, .i32⟩
  | 111 => ⟨S1024x1, .i32⟩
  | 112 => ⟨S1024, .i32⟩
  | 113 => ⟨S1024, .i32⟩
  | 114 => ⟨S_, .i32⟩
  | 115 => ⟨S1024, .i32⟩
  | 116 => ⟨S1024, .i1⟩
  | 117 => ⟨S_, .i32⟩
  | 118 => ⟨S1024, .i32⟩
  | 119 => ⟨S1024, .i32⟩
  | 120 => ⟨S1024, .i32⟩
  | 121 => ⟨S1024x1, .i32⟩
  | 122 => ⟨S1024, .i32⟩
  | 123 => ⟨S1024, .i32⟩
  | 124 => ⟨S_, .bf16⟩
  | 125 => ⟨S2048x2048, .bf16⟩
  | 126 => ⟨S_, .i32⟩
  | 127 => ⟨S1024, .i32⟩
  | _ => ⟨S1024x2048, .f32⟩

abbrev hbmTy0_1 (i : Nat) : BufTy := match i % 128 with
  | 0 => ⟨S1024, .i1⟩
  | 1 => ⟨S_, .i32⟩
  | 2 => ⟨S1024, .i32⟩
  | 3 => ⟨S1024, .i32⟩
  | 4 => ⟨S1024, .i32⟩
  | 5 => ⟨S1024x1, .i32⟩
  | 6 => ⟨S2048x2048, .bf16⟩
  | 7 => ⟨S_, .i32⟩
  | 8 => ⟨S_, .i32⟩
  | 9 => ⟨S5, .i32⟩
  | 10 => ⟨S5, .i32⟩
  | 11 => ⟨S5, .i32⟩
  | 12 => ⟨S_, .i32⟩
  | 13 => ⟨S5, .i32⟩
  | 14 => ⟨S5, .i1⟩
  | 15 => ⟨S5, .i32⟩
  | 16 => ⟨S5, .i32⟩
  | 17 => ⟨S_, .i32⟩
  | 18 => ⟨S5, .i32⟩
  | 19 => ⟨S5, .i1⟩
  | 20 => ⟨S5, .i1⟩
  | 21 => ⟨S_, .i32⟩
  | 22 => ⟨S5, .i32⟩
  | 23 => ⟨S5, .i32⟩
  | 24 => ⟨S5, .i32⟩
  | 25 => ⟨S_, .i32⟩
  | 26 => ⟨S_, .i32⟩
  | 27 => ⟨S5, .i32⟩
  | 28 => ⟨S1, .i32⟩
  | 29 => ⟨S_, .i32⟩
  | 30 => ⟨S8, .i32⟩
  | 31 => ⟨S8x1, .i32⟩
  | 32 => ⟨S1x5, .i32⟩
  | 33 => ⟨S8x5, .i32⟩
  | 34 => ⟨S8x5, .i32⟩
  | 35 => ⟨S8x5, .i1⟩
  | 36 => ⟨S8x5, .i32⟩
  | 37 => ⟨S_, .i32⟩
  | 38 => ⟨S8, .i32⟩
  | 39 => ⟨S_, .i32⟩
  | 40 => ⟨S_, .i32⟩
  | 41 => ⟨S_, .i32⟩
  | 42 => ⟨S8, .i32⟩
  | 43 => ⟨S8, .i32⟩
  | 44 => ⟨S_, .i32⟩
  | 45 => ⟨S8, .i32⟩
  | 46 => ⟨S8, .i32⟩
  | 47 => ⟨S8, .i1⟩
  | 48 => ⟨S_, .i32⟩
  | 49 => ⟨S1024, .i32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S1024x1, .i32⟩
  | 58 => ⟨S1024, .i32⟩
  | 59 => ⟨S4096x2048, .f32⟩
  | 60 => ⟨S8, .i32⟩
  | 61 => ⟨S_, .i32⟩
  | 62 => ⟨S8, .i32⟩
  | 63 => ⟨S8, .i32⟩
  | 64 => ⟨S4x4096x256x1, .i32⟩
  | 65 => ⟨S1x1x8, .i32⟩
  | 66 => ⟨S1x1x1x8, .i32⟩
  | 67 => ⟨S4x4096x256x8, .i32⟩
  | 68 => ⟨S4x4096x256x8, .i32⟩
  | 69 => ⟨S4x4096x256x8, .i32⟩
  | 70 => ⟨S_, .i32⟩
  | 71 => ⟨S4x4096x256x8, .i32⟩
  | 72 => ⟨S4x4096x256x8, .i32⟩
  | 73 => ⟨S4x4096x2048, .i32⟩
  | 74 => ⟨S4x4096x2048, .f32⟩
  | 75 => ⟨S4x512, .i32⟩
  | 76 => ⟨S4x512x1, .i32⟩
  | 77 => ⟨S1x8, .i32⟩
  | 78 => ⟨S1x1x8, .i32⟩
  | 79 => ⟨S4x512x8, .i32⟩
  | 80 => ⟨S4x512x8, .i32⟩
  | 81 => ⟨S4x512x8, .i32⟩
  | 82 => ⟨S_, .i32⟩
  | 83 => ⟨S4x512x8, .i32⟩
  | 84 => ⟨S4x512x8, .i32⟩
  | 85 => ⟨S4x4096, .i32⟩
  | 86 => ⟨S4x4096x1, .i32⟩
  | 87 => ⟨S4x4096x1, .f32⟩
  | 88 => ⟨S4x4096x2048, .f32⟩
  | 89 => ⟨S4x4096x2048, .f32⟩
  | 90 => ⟨S4x4096x2048, .f32⟩
  | 91 => ⟨S4x4096x2048, .f32⟩
  | 92 => ⟨S1x4096x2048, .f32⟩
  | 93 => ⟨S4x4096x2048, .f32⟩
  | 94 => ⟨S4x4096x2048, .f32⟩
  | 95 => ⟨S1x4096x2048, .f32⟩
  | 96 => ⟨S5x4096x2048, .f32⟩
  | 97 => ⟨S5x4096x2048, .bf16⟩
  | 98 => ⟨S4096x2048, .f32⟩
  | 99 => ⟨S8, .i32⟩
  | 100 => ⟨S_, .i32⟩
  | 101 => ⟨S8, .i32⟩
  | 102 => ⟨S8, .i32⟩
  | 103 => ⟨S4x4096x256x1, .i32⟩
  | 104 => ⟨S1x1x8, .i32⟩
  | 105 => ⟨S1x1x1x8, .i32⟩
  | 106 => ⟨S4x4096x256x8, .i32⟩
  | 107 => ⟨S4x4096x256x8, .i32⟩
  | 108 => ⟨S4x4096x256x8, .i32⟩
  | 109 => ⟨S_, .i32⟩
  | 110 => ⟨S4x4096x256x8, .i32⟩
  | 111 => ⟨S4x4096x256x8, .i32⟩
  | 112 => ⟨S4x4096x2048, .i32⟩
  | 113 => ⟨S4x4096x2048, .f32⟩
  | 114 => ⟨S4x512, .i32⟩
  | 115 => ⟨S4x512x1, .i32⟩
  | 116 => ⟨S1x8, .i32⟩
  | 117 => ⟨S1x1x8, .i32⟩
  | 118 => ⟨S4x512x8, .i32⟩
  | 119 => ⟨S4x512x8, .i32⟩
  | 120 => ⟨S4x512x8, .i32⟩
  | 121 => ⟨S_, .i32⟩
  | 122 => ⟨S4x512x8, .i32⟩
  | 123 => ⟨S4x512x8, .i32⟩
  | 124 => ⟨S4x4096, .i32⟩
  | 125 => ⟨S4x4096x1, .i32⟩
  | 126 => ⟨S4x4096x1, .f32⟩
  | 127 => ⟨S4x4096x2048, .f32⟩
  | _ => ⟨S1024x2048, .f32⟩

abbrev hbmTy0_2 (i : Nat) : BufTy := match i % 128 with
  | 0 => ⟨S4x4096x2048, .f32⟩
  | 1 => ⟨S4x4096x2048, .f32⟩
  | 2 => ⟨S4x4096x2048, .f32⟩
  | 3 => ⟨S1x4096x2048, .f32⟩
  | 4 => ⟨S4x4096x2048, .f32⟩
  | 5 => ⟨S4x4096x2048, .f32⟩
  | 6 => ⟨S1x4096x2048, .f32⟩
  | 7 => ⟨S5x4096x2048, .f32⟩
  | 8 => ⟨S5x4096x2048, .bf16⟩
  | 9 => ⟨S10x4096x2048, .bf16⟩
  | 10 => ⟨S1x8192, .f32⟩
  | 11 => ⟨S2048x8192, .f32⟩
  | 12 => ⟨S_, .i32⟩
  | 13 => ⟨S1024, .i32⟩
  | 14 => ⟨S1024, .i1⟩
  | 15 => ⟨S_, .i32⟩
  | 16 => ⟨S1024, .i32⟩
  | 17 => ⟨S1024, .i32⟩
  | 18 => ⟨S1024, .i32⟩
  | 19 => ⟨S1024x1, .i32⟩
  | 20 => ⟨S1024x8192, .f32⟩
  | _ => ⟨S1024x2048, .f32⟩

abbrev hbmTy (i : Nat) : BufTy := match i / 128 with
  | 0 => hbmTy0_0 i
  | 1 => hbmTy0_1 i
  | 2 => hbmTy0_2 i
  | _ => ⟨S1024x2048, .f32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .smem, ⟨0, _⟩ => ⟨S8, .i32⟩
  | .local _ .smem, ⟨1, _⟩ => ⟨S8, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v5 : Ref sig .tc := ⟨.hbm, 22, rfl⟩
abbrev main_call1_v0 : Ref sig .tc := ⟨.hbm, 23, rfl⟩
abbrev main_call1_v1_0 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_c_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_c_7 : Ref sig .tc := ⟨.hbm, 47, rfl⟩
abbrev main_call2_v0 : Ref sig .tc := ⟨.hbm, 48, rfl⟩
abbrev main_call2_v1 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_10 : Ref sig .tc := ⟨.hbm, 59, rfl⟩
abbrev main_v30 : Ref sig .tc := ⟨.hbm, 60, rfl⟩
abbrev main_v31 : Ref sig .tc := ⟨.hbm, 61, rfl⟩
abbrev main_c_11 : Ref sig .tc := ⟨.hbm, 62, rfl⟩
abbrev main_v32 : Ref sig .tc := ⟨.hbm, 63, rfl⟩
abbrev main_call3_call0_c : Ref sig .tc := ⟨.hbm, 64, rfl⟩
abbrev main_call3_call0_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_12 : Ref sig .tc := ⟨.hbm, 69, rfl⟩
abbrev main_v36 : Ref sig .tc := ⟨.hbm, 70, rfl⟩
abbrev main_v37 : Ref sig .tc := ⟨.hbm, 71, rfl⟩
abbrev main_c_13 : Ref sig .tc := ⟨.hbm, 72, rfl⟩
abbrev main_v38 : Ref sig .tc := ⟨.hbm, 73, rfl⟩
abbrev main_v39 : Ref sig .tc := ⟨.hbm, 74, rfl⟩
abbrev main_c_14 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_c : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_0 : Ref sig .tc := ⟨.hbm, 89, rfl⟩
abbrev main_call4_v12 : Ref sig .tc := ⟨.hbm, 90, rfl⟩
abbrev main_call4_v13 : Ref sig .tc := ⟨.hbm, 91, rfl⟩
abbrev main_v40 : Ref sig .tc := ⟨.hbm, 92, rfl⟩
abbrev main_c_15 : Ref sig .tc := ⟨.hbm, 93, rfl⟩
abbrev main_v41 : Ref sig .tc := ⟨.hbm, 94, rfl⟩
abbrev main_v42 : Ref sig .tc := ⟨.hbm, 95, rfl⟩
abbrev main_c_16 : Ref sig .tc := ⟨.hbm, 96, rfl⟩
abbrev main_v43 : Ref sig .tc := ⟨.hbm, 97, rfl⟩
abbrev main_call5_call0_c : Ref sig .tc := ⟨.hbm, 98, rfl⟩
abbrev main_call5_call0_v0 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_c_17 : Ref sig .tc := ⟨.hbm, 104, rfl⟩
abbrev main_v48 : Ref sig .tc := ⟨.hbm, 105, rfl⟩
abbrev main_v49 : Ref sig .tc := ⟨.hbm, 106, rfl⟩
abbrev main_c_18 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_c_19 : Ref sig .tc := ⟨.hbm, 114, rfl⟩
abbrev main_v56 : Ref sig .tc := ⟨.hbm, 115, rfl⟩
abbrev main_v57 : Ref sig .tc := ⟨.hbm, 116, rfl⟩
abbrev main_c_20 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst : Ref sig .tc := ⟨.hbm, 124, rfl⟩
abbrev main_v64 : Ref sig .tc := ⟨.hbm, 125, rfl⟩
abbrev main_c_21 : Ref sig .tc := ⟨.hbm, 126, rfl⟩
abbrev main_v65 : Ref sig .tc := ⟨.hbm, 127, rfl⟩
abbrev main_v66 : Ref sig .tc := ⟨.hbm, 128, rfl⟩
abbrev main_c_22 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_c_23 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_call6_v5 : Ref sig .tc := ⟨.hbm, 141, rfl⟩
abbrev main_call6_v6 : Ref sig .tc := ⟨.hbm, 142, rfl⟩
abbrev main_call6_v7 : Ref sig .tc := ⟨.hbm, 143, rfl⟩
abbrev main_call6_v8 : Ref sig .tc := ⟨.hbm, 144, rfl⟩
abbrev main_call6_c : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_c_0 : Ref sig .tc := ⟨.hbm, 149, rfl⟩
abbrev main_call6_v12 : Ref sig .tc := ⟨.hbm, 150, rfl⟩
abbrev main_call6_v13 : Ref sig .tc := ⟨.hbm, 151, rfl⟩
abbrev main_v72 : Ref sig .tc := ⟨.hbm, 152, rfl⟩
abbrev main_call7_call0_c : Ref sig .tc := ⟨.hbm, 153, rfl⟩
abbrev main_call7_call0_v0 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_c_24 : Ref sig .tc := ⟨.hbm, 165, rfl⟩
abbrev main_v83 : Ref sig .tc := ⟨.hbm, 166, rfl⟩
abbrev main_c_25 : Ref sig .tc := ⟨.hbm, 167, rfl⟩
abbrev main_c_26 : Ref sig .tc := ⟨.hbm, 168, rfl⟩
abbrev main_call8_v0 : Ref sig .tc := ⟨.hbm, 169, rfl⟩
abbrev main_call8_v1 : Ref sig .tc := ⟨.hbm, 170, rfl⟩
abbrev main_call8_v2 : Ref sig .tc := ⟨.hbm, 171, rfl⟩
abbrev main_call8_v3 : Ref sig .tc := ⟨.hbm, 172, rfl⟩
abbrev main_call8_v4 : Ref sig .tc := ⟨.hbm, 173, rfl⟩
abbrev main_v85 : Ref sig .tc := ⟨.hbm, 174, rfl⟩
abbrev main_v86 : Ref sig .tc := ⟨.hbm, 175, rfl⟩
abbrev main_c_27 : Ref sig .tc := ⟨.hbm, 176, rfl⟩
abbrev main_v88 : Ref sig .tc := ⟨.hbm, 177, rfl⟩
abbrev main_c_28 : Ref sig .tc := ⟨.hbm, 178, rfl⟩
abbrev main_v89 : Ref sig .tc := ⟨.hbm, 179, rfl⟩
abbrev main_v90 : Ref sig .tc := ⟨.hbm, 180, rfl⟩
abbrev main_c_29 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_c_30 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_c_31 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_c_32 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_c_33 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_c_34 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_c_35 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_c_36 : Ref sig .tc := ⟨.hbm, 268, rfl⟩
abbrev main_v171 : Ref sig .tc := ⟨.hbm, 269, rfl⟩
abbrev main_v172 : Ref sig .tc := ⟨.hbm, 270, rfl⟩
abbrev main_c_37 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v84 : Ref sig .tc := ⟨.smem, 0, rfl⟩
abbrev main_v87 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

abbrev pre0 : Pipeline.Prefetch sig := ⟨2, ![main_v84.idx, main_v87.idx], fun | 0 => main_v84.names | 1 => main_v87.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v28 : Index := Scalar.indexCast arg1
  ![v28.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32 : BitVec 32 := 0#32
  let v2 : BitVec 1 := Scalar.cmpi .ne v1 c0_i32
  let v_true : BitVec 1 := 1#1
  let v5 : BitVec 1 := Scalar.xori v2 v_true
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.muli v16 c5_i32
  let v28 : Index := Scalar.indexCast arg1
  let v29 : BitVec 32 := pf.at 0 (Rect.unit (s := S8) ![v28.toNat] S1.size (k0_off1_inb i)) numel1_S1
  let v30 : BitVec 32 := Scalar.addi v27 v29
  let c0_i32_10 : BitVec 32 := 0#32
  let c0_i32_11 : BitVec 32 := 0#32
  ![v30.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bitsLt_bf16_f32 : FTy.bits .bf16 < FTy.bits .f32
  bcast_S_S5 : S_.BroadcastsInDim S5 (![] : Fin 0 → Fin S5.rank)
  bcast_S_S1 : S_.BroadcastsInDim S1 (![] : Fin 0 → Fin S1.rank)
  bcast_S_S_ : S_.BroadcastsInDim S_ (![] : Fin 0 → Fin S_.rank)
  reduceWindows_S5_S5_w5s1p4_0 : S5.ReduceWindows (![5] : Fin 1 → Nat) ![1] ![4] ![0] S5
  h_S_ : 0 < S_.numel
  slices_S5_S4_0 : S5.Slices ![0] S4
  concatenates_S1_S4_S5_d0 : Shape.Concatenates [S1, S4] S5 0
  bcast_S_S2048x2048 : S_.BroadcastsInDim S2048x2048 (![] : Fin 0 → Fin S2048x2048.rank)
  slices_S5_S1_4 : S5.Slices ![4] S1
  shapeCasts_S1_S_ : S1.ShapeCasts S_
  bcast_S8_S8x1_0 : S8.BroadcastsInDim S8x1 (![0] : Fin 1 → Fin S8x1.rank)
  bcast_S5_S1x5_1 : S5.BroadcastsInDim S1x5 (![1] : Fin 1 → Fin S1x5.rank)
  bcast_S8x1_S8x5_0_1 : S8x1.BroadcastsInDim S8x5 (![0, 1] : Fin 2 → Fin S8x5.rank)
  bcast_S1x5_S8x5_0_1 : S1x5.BroadcastsInDim S8x5 (![0, 1] : Fin 2 → Fin S8x5.rank)
  natLt_1_32 : 1 < 32
  reducesTo_S8x5_S8_d1 : S8x5.ReducesTo [1] S8
  bcast_S_S8 : S_.BroadcastsInDim S8 (![] : Fin 0 → Fin S8.rank)
  slices_S8192x2048_S4096x2048_0_0 : S8192x2048.Slices ![0, 0] S4096x2048
  bcast_S4x4096x256_S4x4096x256x1_0_1_2 : S4x4096x256.BroadcastsInDim S4x4096x256x1 (![0, 1, 2] : Fin 3 → Fin S4x4096x256x1.rank)
  bcast_S8_S1x1x8_2 : S8.BroadcastsInDim S1x1x8 (![2] : Fin 1 → Fin S1x1x8.rank)
  bcast_S1x1x8_S1x1x1x8_1_2_3 : S1x1x8.BroadcastsInDim S1x1x1x8 (![1, 2, 3] : Fin 3 → Fin S1x1x1x8.rank)
  bcast_S4x4096x256x1_S4x4096x256x8_0_1_2_3 : S4x4096x256x1.BroadcastsInDim S4x4096x256x8 (![0, 1, 2, 3] : Fin 4 → Fin S4x4096x256x8.rank)
  bcast_S1x1x1x8_S4x4096x256x8_0_1_2_3 : S1x1x1x8.BroadcastsInDim S4x4096x256x8 (![0, 1, 2, 3] : Fin 4 → Fin S4x4096x256x8.rank)
  bcast_S_S4x4096x256x8 : S_.BroadcastsInDim S4x4096x256x8 (![] : Fin 0 → Fin S4x4096x256x8.rank)
  shapeCasts_S4x4096x256x8_S4x4096x2048 : S4x4096x256x8.ShapeCasts S4x4096x2048
  shapeCasts_S4x512x1_S4x512 : S4x512x1.ShapeCasts S4x512
  bcast_S4x512_S4x512x1_0_1 : S4x512.BroadcastsInDim S4x512x1 (![0, 1] : Fin 2 → Fin S4x512x1.rank)
  bcast_S8_S1x8_1 : S8.BroadcastsInDim S1x8 (![1] : Fin 1 → Fin S1x8.rank)
  bcast_S1x8_S1x1x8_1_2 : S1x8.BroadcastsInDim S1x1x8 (![1, 2] : Fin 2 → Fin S1x1x8.rank)
  bcast_S4x512x1_S4x512x8_0_1_2 : S4x512x1.BroadcastsInDim S4x512x8 (![0, 1, 2] : Fin 3 → Fin S4x512x8.rank)
  bcast_S1x1x8_S4x512x8_0_1_2 : S1x1x8.BroadcastsInDim S4x512x8 (![0, 1, 2] : Fin 3 → Fin S4x512x8.rank)
  bcast_S_S4x512x8 : S_.BroadcastsInDim S4x512x8 (![] : Fin 0 → Fin S4x512x8.rank)
  shapeCasts_S4x512x8_S4x4096 : S4x512x8.ShapeCasts S4x4096
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  bcast_S4096x2048_S1x4096x2048_1_2 : S4096x2048.BroadcastsInDim S1x4096x2048 (![1, 2] : Fin 2 → Fin S1x4096x2048.rank)
  bcast_S1x4096x2048_S4x4096x2048_0_1_2 : S1x4096x2048.BroadcastsInDim S4x4096x2048 (![0, 1, 2] : Fin 3 → Fin S4x4096x2048.rank)
  concatenates_S4x4096x2048_S1x4096x2048_S5x4096x2048_d0 : Shape.Concatenates [S4x4096x2048, S1x4096x2048] S5x4096x2048 0
  slices_S8192x2048_S4096x2048_4096_0 : S8192x2048.Slices ![4096, 0] S4096x2048
  concatenates_S5x4096x2048_S5x4096x2048_S10x4096x2048_d0 : Shape.Concatenates [S5x4096x2048, S5x4096x2048] S10x4096x2048 0
  shapeCasts_S8192_S1x8192 : S8192.ShapeCasts S1x8192
  numel1_S1 : S1.numel = 1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  gather_S1024_S1024x1_S1024_n_0_n_n_0_1_1_wf : GatherDims.WF S1024 S1024x1 S1024 [] [0] [] [0] [] 1 ![1]
  gather_S1024x2048_S1024x1_S1024x2048_1_0_n_n_0_1_12048_wf : GatherDims.WF S1024x2048 S1024x1 S1024x2048 [1] [0] [] [0] [] 1 ![1, 2048]
  scatter_S5_S1024x1_S1024_n_0_0_1_wf : ScatterDims.WF S5 S1024x1 S1024 [] [0] [0] 1
  gather_S5_S1024x1_S1024_n_0_n_n_0_1_1_wf : GatherDims.WF S5 S1024x1 S1024 [] [0] [] [0] [] 1 ![1]
  scatter_S2048x2048_S1024x1_S1024x2048_1_0_0_1_wf : ScatterDims.WF S2048x2048 S1024x1 S1024x2048 [1] [0] [0] 1
  scatter_S1024_S1024x1_S1024_n_0_0_1_wf : ScatterDims.WF S1024 S1024x1 S1024 [] [0] [0] 1
  dot_S256x2048_S1024x2048_S256x1024_1_1_0_0_n_n_wf : DotDims.WF S256x2048 S1024x2048 S256x1024 [1] [1] [0] [0] [] []
  gather_S2048x8192_S1024x1_S1024x8192_1_0_n_n_0_1_18192_wf : GatherDims.WF S2048x8192 S1024x1 S1024x8192 [1] [0] [] [0] [] 1 ![1, 8192]
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .bf16 = 32 ∨ (Rect.block (s := S2048x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x8192.size a
  hwx0_3 : ∀ i : grid0.Coords, EltTy.bits .f32 = 32 ∨ (Rect.block (s := S2048x8192) S256x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1024_S1024x1_S1024_n_0_n_n_0_1_1 : GatherDims S1024 S1024x1 S1024 where
  offsetDims := []
  collapsedSliceDims := [0]
  operandBatchingDims := []
  startIndicesBatchingDims := []
  startIndexMap := [0]
  indexVectorDim := 1
  sliceSizes := ![1]
  wf := gather_S1024_S1024x1_S1024_n_0_n_n_0_1_1_wf
def gather_S1024x2048_S1024x1_S1024x2048_1_0_n_n_0_1_12048 : GatherDims S1024x2048 S1024x1 S1024x2048 where
  offsetDims := [1]
  collapsedSliceDims := [0]
  operandBatchingDims := []
  startIndicesBatchingDims := []
  startIndexMap := [0]
  indexVectorDim := 1
  sliceSizes := ![1, 2048]
  wf := gather_S1024x2048_S1024x1_S1024x2048_1_0_n_n_0_1_12048_wf
def scatter_S5_S1024x1_S1024_n_0_0_1 : ScatterDims S5 S1024x1 S1024 where
  updateWindowDims := []
  insertedWindowDims := [0]
  scatterDimsToOperandDims := [0]
  indexVectorDim := 1
  wf := scatter_S5_S1024x1_S1024_n_0_0_1_wf
def gather_S5_S1024x1_S1024_n_0_n_n_0_1_1 : GatherDims S5 S1024x1 S1024 where
  offsetDims := []
  collapsedSliceDims := [0]
  operandBatchingDims := []
  startIndicesBatchingDims := []
  startIndexMap := [0]
  indexVectorDim := 1
  sliceSizes := ![1]
  wf := gather_S5_S1024x1_S1024_n_0_n_n_0_1_1_wf
def scatter_S2048x2048_S1024x1_S1024x2048_1_0_0_1 : ScatterDims S2048x2048 S1024x1 S1024x2048 where
  updateWindowDims := [1]
  insertedWindowDims := [0]
  scatterDimsToOperandDims := [0]
  indexVectorDim := 1
  wf := scatter_S2048x2048_S1024x1_S1024x2048_1_0_0_1_wf
def scatter_S1024_S1024x1_S1024_n_0_0_1 : ScatterDims S1024 S1024x1 S1024 where
  updateWindowDims := []
  insertedWindowDims := [0]
  scatterDimsToOperandDims := [0]
  indexVectorDim := 1
  wf := scatter_S1024_S1024x1_S1024_n_0_0_1_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def gather_S2048x8192_S1024x1_S1024x8192_1_0_n_n_0_1_18192 : GatherDims S2048x8192 S1024x1 S1024x8192 where
  offsetDims := [1]
  collapsedSliceDims := [0]
  operandBatchingDims := []
  startIndicesBatchingDims := []
  startIndexMap := [0]
  indexVectorDim := 1
  sliceSizes := ![1, 8192]
  wf := gather_S2048x8192_S1024x1_S1024x8192_1_0_n_n_0_1_18192_wf

abbrev spec0_0 : Pipeline.WinSpec sig grid0.rank :=
  Pipeline.WinSpec.ofSpec (Memref.whole main_v71) S256x2048.size reads0_0 false false 2 stage0_0 sem0_0 nbuf0_0 hstage0_0

abbrev spec0_1 : Pipeline.WinSpec sig grid0.rank :=
  Pipeline.WinSpec.ofSpec (Memref.whole main_v168) S1x1024x2048.size reads0_1 false false 2 stage0_1 sem0_1 nbuf0_1 hstage0_1

abbrev spec0_2 : Pipeline.WinSpec sig grid0.rank :=
  Pipeline.WinSpec.ofSpec (Memref.whole main_v169) S1x1024.size reads0_2 false false 2 stage0_2 sem0_2 nbuf0_2 hstage0_2

abbrev spec0_3 : Pipeline.WinSpec sig grid0.rank :=
  Pipeline.WinSpec.ofSpec (Memref.whole main_v170) S256x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x2048.size a ≤ S10x4096x2048.size a), EltTy.bits .bf16 = 32 ∨ (Rect.block (s := S10x4096x2048) S1x1024x2048.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | ⟨_ + 4, h⟩ => absurd h (Nat.not_lt.2 (Nat.le_add_left _ _))
abbrev idle0 (pf : pre0.Contents (Elt F)) : Fin 4 → grid0.Coords → Bool := fun | 0 => fun _ => false | 1 => fun _ => false | 2 => fun _ => false | 3 => fun i => !(k0_cond1 (pf.atD 1 (k0_off1 i)) == 1#1) && !(k0_cond2 (pf.atD 1 (k0_off1 i)) == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S1024x2048 : Shape := ⟨2, ![1024, 2048]⟩
abbrev S8192x2048 : Shape := ⟨2, ![8192, 2048]⟩
abbrev S8192 : Shape := ⟨1, ![8192]⟩
abbrev S4x4096x256 : Shape := ⟨3, ![4, 4096, 256]⟩
abbrev S4x512x1 : Shape := ⟨3, ![4, 512, 1]⟩
abbrev S4x4096x1 : Shape := ⟨3, ![4, 4096, 1]⟩
abbrev S2048 : Shape := ⟨1, ![2048]⟩
abbrev S1024 : Shape := ⟨1, ![1024]⟩
abbrev S2048x8192 : Shape := ⟨2, ![2048, 8192]⟩
abbrev S1024x8192 : Shape := ⟨2, ![1024, 8192]⟩
abbrev S1x8192 : Shape := ⟨2, ![1, 8192]⟩
abbrev S_ : Shape := ⟨0, ![]⟩
abbrev S1024x4096 : Shape := ⟨2, ![1024, 4096]⟩
abbrev S1x4096x256 : Shape := ⟨3, ![1, 4096, 256]⟩
abbrev S4096x256 : Shape := ⟨2, ![4096, 256]⟩
abbrev S1x512x1 : Shape := ⟨3, ![1, 512, 1]⟩
abbrev S512x1 : Shape := ⟨2, ![512, 1]⟩
abbrev S1x4096x1 : Shape := ⟨3, ![1, 4096, 1]⟩
abbrev S4096x1 : Shape := ⟨2, ![4096, 1]⟩
abbrev S8 : Shape := ⟨1, ![8]⟩
abbrev S4096x256x1 : Shape := ⟨3, ![4096, 256, 1]⟩
abbrev S1x1x8 : Shape := ⟨3, ![1, 1, 8]⟩
abbrev S4096x256x8 : Shape := ⟨3, ![4096, 256, 8]⟩
abbrev S4096x2048 : Shape := ⟨2, ![4096, 2048]⟩
abbrev S512 : Shape := ⟨1, ![512]⟩
abbrev S1x8 : Shape := ⟨2, ![1, 8]⟩
abbrev S512x8 : Shape := ⟨2, ![512, 8]⟩
abbrev S4096 : Shape := ⟨1, ![4096]⟩
abbrev S1024x1 : Shape := ⟨2, ![1024, 1]⟩
abbrev S2048x4096 : Shape := ⟨2, ![2048, 4096]⟩

abbrev nBuf : Space → Nat
  | .hbm => 407
  | .vmem => 0
  | .smem => 0
  | _ => 0

abbrev hbmTy0_0 (i : Nat) : BufTy := match i % 128 with
  | 0 => ⟨S1024x2048, .f32⟩
  | 1 => ⟨S8192x2048, .f32⟩
  | 2 => ⟨S8192, .f32⟩
  | 3 => ⟨S4x4096x256, .i32⟩
  | 4 => ⟨S4x4096x256, .i32⟩
  | 5 => ⟨S4x512x1, .i32⟩
  | 6 => ⟨S4x512x1, .i32⟩
  | 7 => ⟨S4x4096x1, .f32⟩
  | 8 => ⟨S4x4096x1, .f32⟩
  | 9 => ⟨S2048, .i32⟩
  | 10 => ⟨S2048, .i32⟩
  | 11 => ⟨S1024, .i32⟩
  | 12 => ⟨S2048x8192, .f32⟩
  | 13 => ⟨S1024x8192, .f32⟩
  | 14 => ⟨S1x8192, .f32⟩
  | 15 => ⟨S1024x8192, .f32⟩
  | 16 => ⟨S1024x8192, .f32⟩
  | 17 => ⟨S_, .f32⟩
  | 18 => ⟨S1024x4096, .f32⟩
  | 19 => ⟨S1x4096x256, .i32⟩
  | 20 => ⟨S4096x256, .i32⟩
  | 21 => ⟨S1x512x1, .i32⟩
  | 22 => ⟨S512x1, .i32⟩
  | 23 => ⟨S1x4096x1, .f32⟩
  | 24 => ⟨S4096x1, .f32⟩
  | 25 => ⟨S8, .i32⟩
  | 26 => ⟨S_, .i32⟩
  | 27 => ⟨S8, .i32⟩
  | 28 => ⟨S8, .i32⟩
  | 29 => ⟨S4096x256x1, .i32⟩
  | 30 => ⟨S1x1x8, .i32⟩
  | 31 => ⟨S4096x256x8, .i32⟩
  | 32 => ⟨S4096x256x8, .i32⟩
  | 33 => ⟨S4096x256x8, .i32⟩
  | 34 => ⟨S_, .i32⟩
  | 35 => ⟨S4096x256x8, .i32⟩
  | 36 => ⟨S4096x256x8, .i32⟩
  | 37 => ⟨S4096x2048, .i32⟩
  | 38 => ⟨S4096x2048, .f32⟩
  | 39 => ⟨S512, .i32⟩
  | 40 => ⟨S512x1, .i32⟩
  | 41 => ⟨S1x8, .i32⟩
  | 42 => ⟨S512x8, .i32⟩
  | 43 => ⟨S512x8, .i32⟩
  | 44 => ⟨S512x8, .i32⟩
  | 45 => ⟨S_, .i32⟩
  | 46 => ⟨S512x8, .i32⟩
  | 47 => ⟨S512x8, .i32⟩
  | 48 => ⟨S4096, .i32⟩
  | 49 => ⟨S4096x1, .i32⟩
  | 50 => ⟨S4096x1, .f32⟩
  | 51 => ⟨S4096x2048, .f32⟩
  | 52 => ⟨S4096x2048, .f32⟩
  | 53 => ⟨S4096x2048, .f32⟩
  | 54 => ⟨S4096x2048, .f32⟩
  | 55 => ⟨S_, .i32⟩
  | 56 => ⟨S1024, .i32⟩
  | 57 => ⟨S1024, .i1⟩
  | 58 => ⟨S1024x1, .i1⟩
  | 59 => ⟨S_, .f32⟩
  | 60 => ⟨S_, .f32⟩
  | 61 => ⟨S1024x2048, .i1⟩
  | 62 => ⟨S1024x2048, .f32⟩
  | 63 => ⟨S1024x2048, .f32⟩
  | 64 => ⟨S2048x4096, .f32⟩
  | 65 => ⟨S1024x4096, .f32⟩
  | 66 => ⟨S1024x4096, .f32⟩
  | 67 => ⟨S1x4096x256, .i32⟩
  | 68 => ⟨S4096x256, .i32⟩
  | 69 => ⟨S1x512x1, .i32⟩
  | 70 => ⟨S512x1, .i32⟩
  | 71 => ⟨S1x4096x1, .f32⟩
  | 72 => ⟨S4096x1, .f32⟩
  | 73 => ⟨S8, .i32⟩
  | 74 => ⟨S_, .i32⟩
  | 75 => ⟨S8, .i32⟩
  | 76 => ⟨S8, .i32⟩
  | 77 => ⟨S4096x256x1, .i32⟩
  | 78 => ⟨S1x1x8, .i32⟩
  | 79 => ⟨S4096x256x8, .i32⟩
  | 80 => ⟨S4096x256x8, .i32⟩
  | 81 => ⟨S4096x256x8, .i32⟩
  | 82 => ⟨S_, .i32⟩
  | 83 => ⟨S4096x256x8, .i32⟩
  | 84 => ⟨S4096x256x8, .i32⟩
  | 85 => ⟨S4096x2048, .i32⟩
  | 86 => ⟨S4096x2048, .f32⟩
  | 87 => ⟨S512, .i32⟩
  | 88 => ⟨S512x1, .i32⟩
  | 89 => ⟨S1x8, .i32⟩
  | 90 => ⟨S512x8, .i32⟩
  | 91 => ⟨S512x8, .i32⟩
  | 92 => ⟨S512x8, .i32⟩
  | 93 => ⟨S_, .i32⟩
  | 94 => ⟨S512x8, .i32⟩
  | 95 => ⟨S512x8, .i32⟩
  | 96 => ⟨S4096, .i32⟩
  | 97 => ⟨S4096x1, .i32⟩
  | 98 => ⟨S4096x1, .f32⟩
  | 99 => ⟨S4096x2048, .f32⟩
  | 100 => ⟨S4096x2048, .f32⟩
  | 101 => ⟨S4096x2048, .f32⟩
  | 102 => ⟨S4096x2048, .f32⟩
  | 103 => ⟨S_, .i32⟩
  | 104 => ⟨S1024, .i32⟩
  | 105 => ⟨S1024, .i1⟩
  | 106 => ⟨S1024x1, .i1⟩
  | 107 => ⟨S_, .f32⟩
  | 108 => ⟨S_, .f32⟩
  | 109 => ⟨S1024x2048, .i1⟩
  | 110 => ⟨S1024x2048, .f32⟩
  | 111 => ⟨S1024x2048, .f32⟩
  | 112 => ⟨S2048x4096, .f32⟩
  | 113 => ⟨S1024x4096, .f32⟩
  | 114 => ⟨S1024x4096, .f32⟩
  | 115 => ⟨S1x4096x256, .i32⟩
  | 116 => ⟨S4096x256, .i32⟩
  | 117 => ⟨S1x512x1, .i32⟩
  | 118 => ⟨S512x1, .i32⟩
  | 119 => ⟨S1x4096x1, .f32⟩
  | 120 => ⟨S4096x1, .f32⟩
  | 121 => ⟨S8, .i32⟩
  | 122 => ⟨S_, .i32⟩
  | 123 => ⟨S8, .i32⟩
  | 124 => ⟨S8, .i32⟩
  | 125 => ⟨S4096x256x1, .i32⟩
  | 126 => ⟨S1x1x8, .i32⟩
  | 127 => ⟨S4096x256x8, .i32⟩
  | _ => ⟨S1024x2048, .f32⟩

abbrev hbmTy0_1 (i : Nat) : BufTy := match i % 128 with
  | 0 => ⟨S4096x256x8, .i32⟩
  | 1 => ⟨S4096x256x8, .i32⟩
  | 2 => ⟨S_, .i32⟩
  | 3 => ⟨S4096x256x8, .i32⟩
  | 4 => ⟨S4096x256x8, .i32⟩
  | 5 => ⟨S4096x2048, .i32⟩
  | 6 => ⟨S4096x2048, .f32⟩
  | 7 => ⟨S512, .i32⟩
  | 8 => ⟨S512x1, .i32⟩
  | 9 => ⟨S1x8, .i32⟩
  | 10 => ⟨S512x8, .i32⟩
  | 11 => ⟨S512x8, .i32⟩
  | 12 => ⟨S512x8, .i32⟩
  | 13 => ⟨S_, .i32⟩
  | 14 => ⟨S512x8, .i32⟩
  | 15 => ⟨S512x8, .i32⟩
  | 16 => ⟨S4096, .i32⟩
  | 17 => ⟨S4096x1, .i32⟩
  | 18 => ⟨S4096x1, .f32⟩
  | 19 => ⟨S4096x2048, .f32⟩
  | 20 => ⟨S4096x2048, .f32⟩
  | 21 => ⟨S4096x2048, .f32⟩
  | 22 => ⟨S4096x2048, .f32⟩
  | 23 => ⟨S_, .i32⟩
  | 24 => ⟨S1024, .i32⟩
  | 25 => ⟨S1024, .i1⟩
  | 26 => ⟨S1024x1, .i1⟩
  | 27 => ⟨S_, .f32⟩
  | 28 => ⟨S_, .f32⟩
  | 29 => ⟨S1024x2048, .i1⟩
  | 30 => ⟨S1024x2048, .f32⟩
  | 31 => ⟨S1024x2048, .f32⟩
  | 32 => ⟨S2048x4096, .f32⟩
  | 33 => ⟨S1024x4096, .f32⟩
  | 34 => ⟨S1024x4096, .f32⟩
  | 35 => ⟨S1x4096x256, .i32⟩
  | 36 => ⟨S4096x256, .i32⟩
  | 37 => ⟨S1x512x1, .i32⟩
  | 38 => ⟨S512x1, .i32⟩
  | 39 => ⟨S1x4096x1, .f32⟩
  | 40 => ⟨S4096x1, .f32⟩
  | 41 => ⟨S8, .i32⟩
  | 42 => ⟨S_, .i32⟩
  | 43 => ⟨S8, .i32⟩
  | 44 => ⟨S8, .i32⟩
  | 45 => ⟨S4096x256x1, .i32⟩
  | 46 => ⟨S1x1x8, .i32⟩
  | 47 => ⟨S4096x256x8, .i32⟩
  | 48 => ⟨S4096x256x8, .i32⟩
  | 49 => ⟨S4096x256x8, .i32⟩
  | 50 => ⟨S_, .i32⟩
  | 51 => ⟨S4096x256x8, .i32⟩
  | 52 => ⟨S4096x256x8, .i32⟩
  | 53 => ⟨S4096x2048, .i32⟩
  | 54 => ⟨S4096x2048, .f32⟩
  | 55 => ⟨S512, .i32⟩
  | 56 => ⟨S512x1, .i32⟩
  | 57 => ⟨S1x8, .i32⟩
  | 58 => ⟨S512x8, .i32⟩
  | 59 => ⟨S512x8, .i32⟩
  | 60 => ⟨S512x8, .i32⟩
  | 61 => ⟨S_, .i32⟩
  | 62 => ⟨S512x8, .i32⟩
  | 63 => ⟨S512x8, .i32⟩
  | 64 => ⟨S4096, .i32⟩
  | 65 => ⟨S4096x1, .i32⟩
  | 66 => ⟨S4096x1, .f32⟩
  | 67 => ⟨S4096x2048, .f32⟩
  | 68 => ⟨S4096x2048, .f32⟩
  | 69 => ⟨S4096x2048, .f32⟩
  | 70 => ⟨S4096x2048, .f32⟩
  | 71 => ⟨S_, .i32⟩
  | 72 => ⟨S1024, .i32⟩
  | 73 => ⟨S1024, .i1⟩
  | 74 => ⟨S1024x1, .i1⟩
  | 75 => ⟨S_, .f32⟩
  | 76 => ⟨S_, .f32⟩
  | 77 => ⟨S1024x2048, .i1⟩
  | 78 => ⟨S1024x2048, .f32⟩
  | 79 => ⟨S1024x2048, .f32⟩
  | 80 => ⟨S2048x4096, .f32⟩
  | 81 => ⟨S1024x4096, .f32⟩
  | 82 => ⟨S1024x4096, .f32⟩
  | 83 => ⟨S_, .f32⟩
  | 84 => ⟨S1024x4096, .f32⟩
  | 85 => ⟨S1x4096x256, .i32⟩
  | 86 => ⟨S4096x256, .i32⟩
  | 87 => ⟨S1x512x1, .i32⟩
  | 88 => ⟨S512x1, .i32⟩
  | 89 => ⟨S1x4096x1, .f32⟩
  | 90 => ⟨S4096x1, .f32⟩
  | 91 => ⟨S8, .i32⟩
  | 92 => ⟨S_, .i32⟩
  | 93 => ⟨S8, .i32⟩
  | 94 => ⟨S8, .i32⟩
  | 95 => ⟨S4096x256x1, .i32⟩
  | 96 => ⟨S1x1x8, .i32⟩
  | 97 => ⟨S4096x256x8, .i32⟩
  | 98 => ⟨S4096x256x8, .i32⟩
  | 99 => ⟨S4096x256x8, .i32⟩
  | 100 => ⟨S_, .i32⟩
  | 101 => ⟨S4096x256x8, .i32⟩
  | 102 => ⟨S4096x256x8, .i32⟩
  | 103 => ⟨S4096x2048, .i32⟩
  | 104 => ⟨S4096x2048, .f32⟩
  | 105 => ⟨S512, .i32⟩
  | 106 => ⟨S512x1, .i32⟩
  | 107 => ⟨S1x8, .i32⟩
  | 108 => ⟨S512x8, .i32⟩
  | 109 => ⟨S512x8, .i32⟩
  | 110 => ⟨S512x8, .i32⟩
  | 111 => ⟨S_, .i32⟩
  | 112 => ⟨S512x8, .i32⟩
  | 113 => ⟨S512x8, .i32⟩
  | 114 => ⟨S4096, .i32⟩
  | 115 => ⟨S4096x1, .i32⟩
  | 116 => ⟨S4096x1, .f32⟩
  | 117 => ⟨S4096x2048, .f32⟩
  | 118 => ⟨S4096x2048, .f32⟩
  | 119 => ⟨S4096x2048, .f32⟩
  | 120 => ⟨S4096x2048, .f32⟩
  | 121 => ⟨S_, .i32⟩
  | 122 => ⟨S1024, .i32⟩
  | 123 => ⟨S1024, .i1⟩
  | 124 => ⟨S1024x1, .i1⟩
  | 125 => ⟨S_, .f32⟩
  | 126 => ⟨S_, .f32⟩
  | 127 => ⟨S1024x2048, .i1⟩
  | _ => ⟨S1024x2048, .f32⟩

abbrev hbmTy0_2 (i : Nat) : BufTy := match i % 128 with
  | 0 => ⟨S1024x2048, .f32⟩
  | 1 => ⟨S1024x2048, .f32⟩
  | 2 => ⟨S2048x4096, .f32⟩
  | 3 => ⟨S1024x4096, .f32⟩
  | 4 => ⟨S1024x4096, .f32⟩
  | 5 => ⟨S1x4096x256, .i32⟩
  | 6 => ⟨S4096x256, .i32⟩
  | 7 => ⟨S1x512x1, .i32⟩
  | 8 => ⟨S512x1, .i32⟩
  | 9 => ⟨S1x4096x1, .f32⟩
  | 10 => ⟨S4096x1, .f32⟩
  | 11 => ⟨S8, .i32⟩
  | 12 => ⟨S_, .i32⟩
  | 13 => ⟨S8, .i32⟩
  | 14 => ⟨S8, .i32⟩
  | 15 => ⟨S4096x256x1, .i32⟩
  | 16 => ⟨S1x1x8, .i32⟩
  | 17 => ⟨S4096x256x8, .i32⟩
  | 18 => ⟨S4096x256x8, .i32⟩
  | 19 => ⟨S4096x256x8, .i32⟩
  | 20 => ⟨S_, .i32⟩
  | 21 => ⟨S4096x256x8, .i32⟩
  | 22 => ⟨S4096x256x8, .i32⟩
  | 23 => ⟨S4096x2048, .i32⟩
  | 24 => ⟨S4096x2048, .f32⟩
  | 25 => ⟨S512, .i32⟩
  | 26 => ⟨S512x1, .i32⟩
  | 27 => ⟨S1x8, .i32⟩
  | 28 => ⟨S512x8, .i32⟩
  | 29 => ⟨S512x8, .i32⟩
  | 30 => ⟨S512x8, .i32⟩
  | 31 => ⟨S_, .i32⟩
  | 32 => ⟨S512x8, .i32⟩
  | 33 => ⟨S512x8, .i32⟩
  | 34 => ⟨S4096, .i32⟩
  | 35 => ⟨S4096x1, .i32⟩
  | 36 => ⟨S4096x1, .f32⟩
  | 37 => ⟨S4096x2048, .f32⟩
  | 38 => ⟨S4096x2048, .f32⟩
  | 39 => ⟨S4096x2048, .f32⟩
  | 40 => ⟨S4096x2048, .f32⟩
  | 41 => ⟨S_, .i32⟩
  | 42 => ⟨S1024, .i32⟩
  | 43 => ⟨S1024, .i1⟩
  | 44 => ⟨S1024x1, .i1⟩
  | 45 => ⟨S_, .f32⟩
  | 46 => ⟨S_, .f32⟩
  | 47 => ⟨S1024x2048, .i1⟩
  | 48 => ⟨S1024x2048, .f32⟩
  | 49 => ⟨S1024x2048, .f32⟩
  | 50 => ⟨S2048x4096, .f32⟩
  | 51 => ⟨S1024x4096, .f32⟩
  | 52 => ⟨S1024x4096, .f32⟩
  | 53 => ⟨S1x4096x256, .i32⟩
  | 54 => ⟨S4096x256, .i32⟩
  | 55 => ⟨S1x512x1, .i32⟩
  | 56 => ⟨S512x1, .i32⟩
  | 57 => ⟨S1x4096x1, .f32⟩
  | 58 => ⟨S4096x1, .f32⟩
  | 59 => ⟨S8, .i32⟩
  | 60 => ⟨S_, .i32⟩
  | 61 => ⟨S8, .i32⟩
  | 62 => ⟨S8, .i32⟩
  | 63 => ⟨S4096x256x1, .i32⟩
  | 64 => ⟨S1x1x8, .i32⟩
  | 65 => ⟨S4096x256x8, .i32⟩
  | 66 => ⟨S4096x256x8, .i32⟩
  | 67 => ⟨S4096x256x8, .i32⟩
  | 68 => ⟨S_, .i32⟩
  | 69 => ⟨S4096x256x8, .i32⟩
  | 70 => ⟨S4096x256x8, .i32⟩
  | 71 => ⟨S4096x2048, .i32⟩
  | 72 => ⟨S4096x2048, .f32⟩
  | 73 => ⟨S512, .i32⟩
  | 74 => ⟨S512x1, .i32⟩
  | 75 => ⟨S1x8, .i32⟩
  | 76 => ⟨S512x8, .i32⟩
  | 77 => ⟨S512x8, .i32⟩
  | 78 => ⟨S512x8, .i32⟩
  | 79 => ⟨S_, .i32⟩
  | 80 => ⟨S512x8, .i32⟩
  | 81 => ⟨S512x8, .i32⟩
  | 82 => ⟨S4096, .i32⟩
  | 83 => ⟨S4096x1, .i32⟩
  | 84 => ⟨S4096x1, .f32⟩
  | 85 => ⟨S4096x2048, .f32⟩
  | 86 => ⟨S4096x2048, .f32⟩
  | 87 => ⟨S4096x2048, .f32⟩
  | 88 => ⟨S4096x2048, .f32⟩
  | 89 => ⟨S_, .i32⟩
  | 90 => ⟨S1024, .i32⟩
  | 91 => ⟨S1024, .i1⟩
  | 92 => ⟨S1024x1, .i1⟩
  | 93 => ⟨S_, .f32⟩
  | 94 => ⟨S_, .f32⟩
  | 95 => ⟨S1024x2048, .i1⟩
  | 96 => ⟨S1024x2048, .f32⟩
  | 97 => ⟨S1024x2048, .f32⟩
  | 98 => ⟨S2048x4096, .f32⟩
  | 99 => ⟨S1024x4096, .f32⟩
  | 100 => ⟨S1024x4096, .f32⟩
  | 101 => ⟨S1x4096x256, .i32⟩
  | 102 => ⟨S4096x256, .i32⟩
  | 103 => ⟨S1x512x1, .i32⟩
  | 104 => ⟨S512x1, .i32⟩
  | 105 => ⟨S1x4096x1, .f32⟩
  | 106 => ⟨S4096x1, .f32⟩
  | 107 => ⟨S8, .i32⟩
  | 108 => ⟨S_, .i32⟩
  | 109 => ⟨S8, .i32⟩
  | 110 => ⟨S8, .i32⟩
  | 111 => ⟨S4096x256x1, .i32⟩
  | 112 => ⟨S1x1x8, .i32⟩
  | 113 => ⟨S4096x256x8, .i32⟩
  | 114 => ⟨S4096x256x8, .i32⟩
  | 115 => ⟨S4096x256x8, .i32⟩
  | 116 => ⟨S_, .i32⟩
  | 117 => ⟨S4096x256x8, .i32⟩
  | 118 => ⟨S4096x256x8, .i32⟩
  | 119 => ⟨S4096x2048, .i32⟩
  | 120 => ⟨S4096x2048, .f32⟩
  | 121 => ⟨S512, .i32⟩
  | 122 => ⟨S512x1, .i32⟩
  | 123 => ⟨S1x8, .i32⟩
  | 124 => ⟨S512x8, .i32⟩
  | 125 => ⟨S512x8, .i32⟩
  | 126 => ⟨S512x8, .i32⟩
  | 127 => ⟨S_, .i32⟩
  | _ => ⟨S1024x2048, .f32⟩

abbrev hbmTy0_3 (i : Nat) : BufTy := match i % 128 with
  | 0 => ⟨S512x8, .i32⟩
  | 1 => ⟨S512x8, .i32⟩
  | 2 => ⟨S4096, .i32⟩
  | 3 => ⟨S4096x1, .i32⟩
  | 4 => ⟨S4096x1, .f32⟩
  | 5 => ⟨S4096x2048, .f32⟩
  | 6 => ⟨S4096x2048, .f32⟩
  | 7 => ⟨S4096x2048, .f32⟩
  | 8 => ⟨S4096x2048, .f32⟩
  | 9 => ⟨S_, .i32⟩
  | 10 => ⟨S1024, .i32⟩
  | 11 => ⟨S1024, .i1⟩
  | 12 => ⟨S1024x1, .i1⟩
  | 13 => ⟨S_, .f32⟩
  | 14 => ⟨S_, .f32⟩
  | 15 => ⟨S1024x2048, .i1⟩
  | 16 => ⟨S1024x2048, .f32⟩
  | 17 => ⟨S1024x2048, .f32⟩
  | 18 => ⟨S2048x4096, .f32⟩
  | 19 => ⟨S1024x4096, .f32⟩
  | 20 => ⟨S1024x4096, .f32⟩
  | 21 => ⟨S1024x8192, .f32⟩
  | 22 => ⟨S1024x8192, .f32⟩
  | _ => ⟨S1024x2048, .f32⟩

abbrev hbmTy (i : Nat) : BufTy := match i / 128 with
  | 0 => hbmTy0_0 i
  | 1 => hbmTy0_1 i
  | 2 => hbmTy0_2 i
  | 3 => hbmTy0_3 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_4 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_6 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_7 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_8 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_9 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_10 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_11 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_c_12 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_13 : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_c_14 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_c_15 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_c_16 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_c_17 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_18 : Ref sig .tc := ⟨.hbm, 203, rfl⟩
abbrev main_call3_v0 : Ref sig .tc := ⟨.hbm, 204, rfl⟩
abbrev main_call3_v1 : Ref sig .tc := ⟨.hbm, 205, rfl⟩
abbrev main_call3_v2 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_19 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_c_20 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_c_21 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_c_22 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_c_23 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_cst_24 : Ref sig .tc := ⟨.hbm, 253, rfl⟩
abbrev main_call4_v0 : Ref sig .tc := ⟨.hbm, 254, rfl⟩
abbrev main_call4_v1 : Ref sig .tc := ⟨.hbm, 255, rfl⟩
abbrev main_call4_v2 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_c_25 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_c_26 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_c_27 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_c_28 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_cst_29 : Ref sig .tc := ⟨.hbm, 301, rfl⟩
abbrev main_call5_v0 : Ref sig .tc := ⟨.hbm, 302, rfl⟩
abbrev main_call5_v1 : Ref sig .tc := ⟨.hbm, 303, rfl⟩
abbrev main_call5_v2 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_c_30 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_c_31 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_c_32 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_c_33 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_cst_34 : Ref sig .tc := ⟨.hbm, 349, rfl⟩
abbrev main_call6_v0 : Ref sig .tc := ⟨.hbm, 350, rfl⟩
abbrev main_call6_v1 : Ref sig .tc := ⟨.hbm, 351, rfl⟩
abbrev main_call6_v2 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_c_35 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_c_36 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_c_37 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_c_38 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_cst_39 : Ref sig .tc := ⟨.hbm, 397, rfl⟩
abbrev main_call7_v0 : Ref sig .tc := ⟨.hbm, 398, rfl⟩
abbrev main_call7_v1 : Ref sig .tc := ⟨.hbm, 399, rfl⟩
abbrev main_call7_v2 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  bcast_S_S1024x4096 : S_.BroadcastsInDim S1024x4096 (![] : Fin 0 → Fin S1024x4096.rank)
  slices_S4x4096x256_S1x4096x256_0_0_0 : S4x4096x256.Slices ![0, 0, 0] S1x4096x256
  shapeCasts_S1x4096x256_S4096x256 : S1x4096x256.ShapeCasts S4096x256
  slices_S4x512x1_S1x512x1_0_0_0 : S4x512x1.Slices ![0, 0, 0] S1x512x1
  shapeCasts_S1x512x1_S512x1 : S1x512x1.ShapeCasts S512x1
  slices_S4x4096x1_S1x4096x1_0_0_0 : S4x4096x1.Slices ![0, 0, 0] S1x4096x1
  shapeCasts_S1x4096x1_S4096x1 : S1x4096x1.ShapeCasts S4096x1
  bcast_S_S8 : S_.BroadcastsInDim S8 (![] : Fin 0 → Fin S8.rank)
  bcast_S4096x256_S4096x256x1_0_1 : S4096x256.BroadcastsInDim S4096x256x1 (![0, 1] : Fin 2 → Fin S4096x256x1.rank)
  bcast_S8_S1x1x8_2 : S8.BroadcastsInDim S1x1x8 (![2] : Fin 1 → Fin S1x1x8.rank)
  bcast_S4096x256x1_S4096x256x8_0_1_2 : S4096x256x1.BroadcastsInDim S4096x256x8 (![0, 1, 2] : Fin 3 → Fin S4096x256x8.rank)
  bcast_S1x1x8_S4096x256x8_0_1_2 : S1x1x8.BroadcastsInDim S4096x256x8 (![0, 1, 2] : Fin 3 → Fin S4096x256x8.rank)
  bcast_S_S4096x256x8 : S_.BroadcastsInDim S4096x256x8 (![] : Fin 0 → Fin S4096x256x8.rank)
  shapeCasts_S4096x256x8_S4096x2048 : S4096x256x8.ShapeCasts S4096x2048
  shapeCasts_S512x1_S512 : S512x1.ShapeCasts S512
  bcast_S512_S512x1_0 : S512.BroadcastsInDim S512x1 (![0] : Fin 1 → Fin S512x1.rank)
  bcast_S8_S1x8_1 : S8.BroadcastsInDim S1x8 (![1] : Fin 1 → Fin S1x8.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  bcast_S_S512x8 : S_.BroadcastsInDim S512x8 (![] : Fin 0 → Fin S512x8.rank)
  shapeCasts_S512x8_S4096 : S512x8.ShapeCasts S4096
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2048_0_1 : S1024x1.BroadcastsInDim S1024x2048 (![0, 1] : Fin 2 → Fin S1024x2048.rank)
  bcast_S_S1024x2048 : S_.BroadcastsInDim S1024x2048 (![] : Fin 0 → Fin S1024x2048.rank)
  transposes_S4096x2048_S2048x4096_1_0 : S4096x2048.Transposes [1, 0] S2048x4096
  slices_S4x4096x256_S1x4096x256_1_0_0 : S4x4096x256.Slices ![1, 0, 0] S1x4096x256
  slices_S4x512x1_S1x512x1_1_0_0 : S4x512x1.Slices ![1, 0, 0] S1x512x1
  slices_S4x4096x1_S1x4096x1_1_0_0 : S4x4096x1.Slices ![1, 0, 0] S1x4096x1
  slices_S4x4096x256_S1x4096x256_2_0_0 : S4x4096x256.Slices ![2, 0, 0] S1x4096x256
  slices_S4x512x1_S1x512x1_2_0_0 : S4x512x1.Slices ![2, 0, 0] S1x512x1
  slices_S4x4096x1_S1x4096x1_2_0_0 : S4x4096x1.Slices ![2, 0, 0] S1x4096x1
  slices_S4x4096x256_S1x4096x256_3_0_0 : S4x4096x256.Slices ![3, 0, 0] S1x4096x256
  slices_S4x512x1_S1x512x1_3_0_0 : S4x512x1.Slices ![3, 0, 0] S1x512x1
  slices_S4x4096x1_S1x4096x1_3_0_0 : S4x4096x1.Slices ![3, 0, 0] S1x4096x1
  concatenates_S1024x4096_S1024x4096_S1024x8192_d1 : Shape.Concatenates [S1024x4096, S1024x4096] S1024x8192 1
  dot_S1024x2048_S2048x8192_S1024x8192_1_0_0_1_n_n_wf : DotDims.WF S1024x2048 S2048x8192 S1024x8192 [1] [0] [0] [1] [] []
  dot_S1024x2048_S2048x4096_S1024x4096_1_0_0_1_n_n_wf : DotDims.WF S1024x2048 S2048x4096 S1024x4096 [1] [0] [0] [1] [] []

variable [Facts₀]

def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S1024x2048_S2048x4096_S1024x4096_1_0_0_1_n_n : DotDims S1024x2048 S2048x4096 S1024x4096 where
  lhsContracting := [1]
  rhsContracting := [0]
  lhsNonContracting := [0]
  rhsNonContracting := [1]
  lhsBatch := []
  rhsBatch := []
  wf := dot_S1024x2048_S2048x4096_S1024x4096_1_0_0_1_n_n_wf

class Facts : Prop extends Facts₀ where

variable [Facts]
-- ==== Proof.K.Base.lean ====
/-
  The contents of every TensorCore buffer when the kernel region is entered: the launch memory after the host
  operations that come before the region, as a valuation and read at a reference.
-/
import proofs.«421023_j28973849379100_3_alg».proof.Proof.Gen.Kernel.Launch
import proofs.«421023_j28973849379100_3_alg».proof.Proof.Gen.Kernel.Skeleton
import Idealize.ShloMosaic.Lib.Pipeline.FrameSuffix
import Idealize.ShloMosaic.Lib.StableHlo.Run

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- The host operations before the region, stretch by stretch, in program order. -/
abbrev preOps : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15, hostOps0_16]

/-- Core `c`'s buffer contents when the region is entered, as a valuation. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

end Cert.Kernel.Hand

end
-- ==== Proof.K.Kit.lean ====
/-
  The launch side of the frame of @main: host operations, the one region with its two prefetched tables, host
  operations again. What is here: the host stretches before and after the region touch only what they may and allocate
  nothing; @main reduces to the region continued by the last stretch; no host operation writes an argument array; the
  tables' contents when the region is entered, and the pipeline at them; each window's block at a grid point; and how
  a run of the region to the library's frame post gives the frame claim's post and the result buffer's contents.
-/
import proofs.«421023_j28973849379100_3_alg».proof.Proof.K.Base
import Idealize.ShloMosaic.Lib.Pipeline.FrameBody
import Idealize.ShloMosaic.Lib.Pipeline.FrameSuffix
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- An operation whose one written buffer is the reference `y`, a member of the list `W`, writes within `W`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw]; exact Finset.singleton_subset_iff.mpr (List.mem_toFinset.mpr (List.mem_map_of_mem hy))

/-- A reference outside a list holding everything the stretches write keeps its contents through all of them. -/
theorem after_flatten_of_writes_sub {W : List (Ref sig .tc)} {r : Ref sig .tc} (opss : List (List (HloOp τ sig (Elt F))))
    (V : Valuation τ sig (Elt F))
    (hW : opss.Forall fun ops => ops.Forall fun op => op.writes ⊆ (W.map (Proc.devRef (τ := τ) .tc)).toFinset) (hr : r ∉ W) :
    StableHlo.after opss.flatten V (Proc.devRef .tc r) = V (Proc.devRef .tc r) :=
  StableHlo.after_of_forall_not_mem _ V fun op hop hb => by
    obtain ⟨ops, hops, hop'⟩ := List.mem_flatten.mp hop
    obtain ⟨y, hy, he⟩ := List.mem_map.mp (List.mem_toFinset.mp
      ((List.forall_iff_forall_mem.mp ((List.forall_iff_forall_mem.mp hW) ops hops)) op hop' hb))
    exact hr (Proc.devRef_injective _ he ▸ hy)

/-- The references the host operations before the region write, in program order: one per operation, all distinct. -/
def preW : List (Ref sig .tc) :=
  [main_c, main_v0, main_v1, main_c_0, main_v2, main_v3, main_v4, main_c_1, main_call0_v0, main_call0_v1,
   main_v5, main_call1_v0, main_call1_v1_0, main_v6, main_c_2, main_v7, main_v8, main_c_3, main_v9, main_v10,
   main_v11, main_v12, main_v13, main_v14, main_c_4, main_v15, main_v16, main_c_5, main_v17, main_v18,
   main_v19, main_v20, main_v21, main_c_6, main_v22, main_c_7, main_call2_v0, main_call2_v1, main_v23, main_c_8,
   main_v24, main_v25, main_c_9, main_v26, main_v27, main_v28, main_v29, main_c_10, main_v30, main_v31,
   main_c_11, main_v32, main_call3_call0_c, main_call3_call0_v0, main_v33, main_v34, main_v35, main_c_12, main_v36, main_v37,
   main_c_13, main_v38, main_v39, main_c_14, main_call4_v0, main_call4_v1, main_call4_v2, main_call4_v3, main_call4_v4, main_call4_v5,
   main_call4_v6, main_call4_v7, main_call4_v8, main_call4_c, main_call4_v9, main_call4_v10, main_call4_v11, main_call4_c_0, main_call4_v12, main_call4_v13,
   main_v40, main_c_15, main_v41, main_v42, main_c_16, main_v43, main_call5_call0_c, main_call5_call0_v0, main_v44, main_v45,
   main_v46, main_v47, main_c_17, main_v48, main_v49, main_c_18, main_v50, main_v51, main_v52, main_v53,
   main_v54, main_v55, main_c_19, main_v56, main_v57, main_c_20, main_v58, main_v59, main_v60, main_v61,
   main_v62, main_v63, main_cst, main_v64, main_c_21, main_v65, main_v66, main_c_22, main_v67, main_v68,
   main_v69, main_v70, main_v71, main_c_23, main_call6_v0, main_call6_v1, main_call6_v2, main_call6_v3, main_call6_v4, main_call6_v5,
   main_call6_v6, main_call6_v7, main_call6_v8, main_call6_c, main_call6_v9, main_call6_v10, main_call6_v11, main_call6_c_0, main_call6_v12, main_call6_v13,
   main_v72, main_call7_call0_c, main_call7_call0_v0, main_v73, main_v74, main_v75, main_v76, main_v77, main_v78, main_v79,
   main_v80, main_v81, main_v82, main_c_24, main_v83, main_c_25, main_c_26, main_call8_v0, main_call8_v1, main_call8_v2,
   main_call8_v3, main_call8_v4, main_v84, main_v85, main_v86, main_v87, main_c_27, main_v88, main_c_28, main_v89,
   main_v90, main_c_29, main_v91, main_v92, main_v93, main_v94, main_v95, main_v96, main_v97, main_c_30,
   main_v98, main_v99, main_v100, main_v101, main_v102, main_v103, main_v104, main_v105, main_c_31, main_v106,
   main_v107, main_v108, main_v109, main_v110, main_v111, main_v112, main_v113, main_v114, main_v115, main_v116,
   main_c_32, main_v117, main_v118, main_v119, main_v120, main_v121, main_v122, main_v123, main_v124, main_v125,
   main_v126, main_v127, main_v128, main_v129, main_v130, main_v131, main_v132, main_v133, main_c_33, main_v134,
   main_v135, main_v136, main_v137, main_v138, main_v139, main_v140, main_v141, main_c_34, main_v142, main_v143,
   main_v144, main_v145, main_v146, main_v147, main_v148, main_v149, main_v150, main_v151, main_v152, main_c_35,
   main_v153, main_v154, main_v155, main_v156, main_v157, main_v158, main_v159, main_v160, main_v161, main_v162,
   main_v163, main_v164, main_v165, main_v166, main_v167, main_v168, main_v169]

/-- The references the host operations after the region write. -/
def tailW : List (Ref sig .tc) :=
  [main_c_36, main_v171, main_v172, main_c_37, main_v173, main_v174, main_v175, main_v176, main_v177]

theorem hostOps0_W : (hostOps0 : List (HloOp τ sig (Elt F))).Forall fun op => op.writes ⊆ (preW.map (Proc.devRef (τ := τ) .tc)).toFinset :=
  ⟨writes_sub_of_mem main_c rfl (by decide), writes_sub_of_mem main_v0 rfl (by decide), writes_sub_of_mem main_v1 rfl (by decide), writes_sub_of_mem main_c_0 rfl (by decide),
   writes_sub_of_mem main_v2 rfl (by decide), writes_sub_of_mem main_v3 rfl (by decide), writes_sub_of_mem main_v4 rfl (by decide), writes_sub_of_mem main_c_1 rfl (by decide)⟩
theorem hostOps0_fresh : (hostOps0 : List (HloOp τ sig (Elt F))).Forall fun op => op.fresh = ∅ :=
  ⟨rfl, rfl, rfl, rfl, rfl, rfl, rfl, rfl⟩
theorem hostOps0_1_W : (hostOps0_1 : List (HloOp τ sig (Elt F))).Forall fun op => op.writes ⊆ (preW.map (Proc.devRef (τ := τ) .tc)).toFinset :=
  ⟨writes_sub_of_mem main_call0_v0 rfl (by decide), writes_sub_of_mem main_call0_v1 rfl (by decide), writes_sub_of_mem main_v5 rfl (by decide)⟩
theorem hostOps0_1_fresh : (hostOps0_1 : List (HloOp τ sig (Elt F))).Forall fun op => op.fresh = ∅ :=
  ⟨rfl, rfl, rfl⟩
theorem hostOps0_2_W : (hostOps0_2 : List (HloOp τ sig (Elt F))).Forall fun op => op.writes ⊆ (preW.map (Proc.devRef (τ := τ) .tc)).toFinset :=
  ⟨writes_sub_of_mem main_call1_v0 rfl (by decide), writes_sub_of_mem main_call1_v1_0 rfl (by decide), writes_sub_of_mem main_v6 rfl (by decide)⟩
theorem hostOps0_2_fresh : (hostOps0_2 : List (HloOp τ sig (Elt F))).Forall fun op => op.fresh = ∅ :=
  ⟨rfl, rfl, rfl⟩
theorem hostOps0_3_W : (hostOps0_3 : List (HloOp τ sig (Elt F))).Forall fun op => op.writes ⊆ (preW.map (Proc.devRef (τ := τ) .tc)).toFinset :=
  ⟨writes_sub_of_mem main_c_2 rfl (by decide), writes_sub_of_mem main_v7 rfl (by decide), writes_sub_of_mem main_v8 rfl (by decide), writes_sub_of_mem main_c_3 rfl (by decide),
   writes_sub_of_mem main_v9 rfl (by decide), writes_sub_of_mem main_v10 rfl (by decide), writes_sub_of_mem main_v11 rfl (by decide), writes_sub_of_mem main_v12 rfl (by decide),
   writes_sub_of_mem main_v13 rfl (by decide), writes_sub_of_mem main_v14 rfl (by decide), writes_sub_of_mem main_c_4 rfl (by decide), writes_sub_of_mem main_v15 rfl (by decide),
   writes_sub_of_mem main_v16 rfl (by decide), writes_sub_of_mem main_c_5 rfl (by decide), writes_sub_of_mem main_v17 rfl (by decide), writes_sub_of_mem main_v18 rfl (by decide),
   writes_sub_of_mem main_v19 rfl (by decide), writes_sub_of_mem main_v20 rfl (by decide), writes_sub_of_mem main_v21 rfl (by decide), writes_sub_of_mem main_c_6 rfl (by decide),
   writes_sub_of_mem main_v22 rfl (by decide), writes_sub_of_mem main_c_7 rfl (by decide)⟩
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem hostOps0_4_W : (hostOps0_4 : List (HloOp τ sig (Elt F))).Forall fun op => op.writes ⊆ (preW.map (Proc.devRef (τ := τ) .tc)).toFinset :=
  ⟨writes_sub_of_mem main_call2_v0 rfl (by decide), writes_sub_of_mem main_call2_v1 rfl (by decide), writes_sub_of_mem main_v23 rfl (by decide)⟩
theorem hostOps0_4_fresh : (hostOps0_4 : List (HloOp τ sig (Elt F))).Forall fun op => op.fresh = ∅ :=
  ⟨rfl, rfl, rfl⟩
theorem hostOps0_5_W : (hostOps0_5 : List (HloOp τ sig (Elt F))).Forall fun op => op.writes ⊆ (preW.map (Proc.devRef (τ := τ) .tc)).toFinset :=
  ⟨writes_sub_of_mem main_c_8 rfl (by decide), writes_sub_of_mem main_v24 rfl (by decide), writes_sub_of_mem main_v25 rfl (by decide), writes_sub_of_mem main_c_9 rfl (by decide),
   writes_sub_of_mem main_v26 rfl (by decide), writes_sub_of_mem main_v27 rfl (by decide), writes_sub_of_mem main_v28 rfl (by decide), writes_sub_of_mem main_v29 rfl (by decide),
   writes_sub_of_mem main_c_10 rfl (by decide), writes_sub_of_mem main_v30 rfl (by decide), writes_sub_of_mem main_v31 rfl (by decide), writes_sub_of_mem main_c_11 rfl (by decide),
   writes_sub_of_mem main_v32 rfl (by decide)⟩
theorem hostOps0_5_fresh : (hostOps0_5 : List (HloOp τ sig (Elt F))).Forall fun op => op.fresh = ∅ :=
  ⟨rfl, rfl, rfl, rfl, rfl, rfl, rfl, rfl, rfl, rfl, rfl, rfl, rfl⟩
theorem hostOps0_6_W : (hostOps0_6 : List (HloOp τ sig (Elt F))).Forall fun op => op.writes ⊆ (preW.map (Proc.devRef (τ := τ) .tc)).toFinset :=
  ⟨writes_sub_of_mem main_call3_call0_c rfl (by decide), writes_sub_of_mem main_call3_call0_v0 rfl (by decide), writes_sub_of_mem main_v33 rfl (by decide)⟩
theorem hostOps0_6_fresh : (hostOps0_6 : List (HloOp τ sig (Elt F))).Forall fun op => op.fresh = ∅ :=
  ⟨rfl, rfl, rfl⟩
theorem hostOps0_7_W : (hostOps0_7 : List (HloOp τ sig (Elt F))).Forall fun op => op.writes ⊆ (preW.map (Proc.devRef (τ := τ) .tc)).toFinset :=
  ⟨writes_sub_of_mem main_v34 rfl (by decide), writes_sub_of_mem main_v35 rfl (by decide), writes_sub_of_mem main_c_12 rfl (by decide), writes_sub_of_mem main_v36 rfl (by decide),
   writes_sub_of_mem main_v37 rfl (by decide), writes_sub_of_mem main_c_13 rfl (by decide), writes_sub_of_mem main_v38 rfl (by decide), writes_sub_of_mem main_v39 rfl (by decide),
   writes_sub_of_mem main_c_14 rfl (by decide)⟩
theorem hostOps0_7_fresh : (hostOps0_7 : List (HloOp τ sig (Elt F))).Forall fun op => op.fresh = ∅ :=
  ⟨rfl, rfl, rfl, rfl, rfl, rfl, rfl, rfl, rfl⟩
theorem hostOps0_8_W : (hostOps0_8 : List (HloOp τ sig (Elt F))).Forall fun op => op.writes ⊆ (preW.map (Proc.devRef (τ := τ) .tc)).toFinset :=
  ⟨writes_sub_of_mem main_call4_v0 rfl (by decide), writes_sub_of_mem main_call4_v1 rfl (by decide), writes_sub_of_mem main_call4_v2 rfl (by decide), writes_sub_of_mem main_call4_v3 rfl (by decide),
   writes_sub_of_mem main_call4_v4 rfl (by decide), writes_sub_of_mem main_call4_v5 rfl (by decide), writes_sub_of_mem main_call4_v6 rfl (by decide), writes_sub_of_mem main_call4_v7 rfl (by decide),
   writes_sub_of_mem main_call4_v8 rfl (by decide), writes_sub_of_mem main_call4_c rfl (by decide), writes_sub_of_mem main_call4_v9 rfl (by decide), writes_sub_of_mem main_call4_v10 rfl (by decide),
   writes_sub_of_mem main_call4_v11 rfl (by decide), writes_sub_of_mem main_call4_c_0 rfl (by decide), writes_sub_of_mem main_call4_v12 rfl (by decide), writes_sub_of_mem main_call4_v13 rfl (by decide),
   writes_sub_of_mem main_v40 rfl (by decide)⟩
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl⟩
theorem hostOps0_9_W : (hostOps0_9 : List (HloOp τ sig (Elt F))).Forall fun op => op.writes ⊆ (preW.map (Proc.devRef (τ := τ) .tc)).toFinset :=
  ⟨writes_sub_of_mem main_c_15 rfl (by decide), writes_sub_of_mem main_v41 rfl (by decide), writes_sub_of_mem main_v42 rfl (by decide), writes_sub_of_mem main_c_16 rfl (by decide),
   writes_sub_of_mem main_v43 rfl (by decide)⟩
theorem hostOps0_9_fresh : (hostOps0_9 : List (HloOp τ sig (Elt F))).Forall fun op => op.fresh = ∅ :=
  ⟨rfl, rfl, rfl, rfl, rfl⟩
theorem hostOps0_10_W : (hostOps0_10 : List (HloOp τ sig (Elt F))).Forall fun op => op.writes ⊆ (preW.map (Proc.devRef (τ := τ) .tc)).toFinset :=
  ⟨writes_sub_of_mem main_call5_call0_c rfl (by decide), writes_sub_of_mem main_call5_call0_v0 rfl (by decide), writes_sub_of_mem main_v44 rfl (by decide)⟩
theorem hostOps0_10_fresh : (hostOps0_10 : List (HloOp τ sig (Elt F))).Forall fun op => op.fresh = ∅ :=
  ⟨rfl, rfl, rfl⟩
theorem hostOps0_11_W : (hostOps0_11 : List (HloOp τ sig (Elt F))).Forall fun op => op.writes ⊆ (preW.map (Proc.devRef (τ := τ) .tc)).toFinset :=
  ⟨writes_sub_of_mem main_v45 rfl (by decide), writes_sub_of_mem main_v46 rfl (by decide), writes_sub_of_mem main_v47 rfl (by decide), writes_sub_of_mem main_c_17 rfl (by decide),
   writes_sub_of_mem main_v48 rfl (by decide), writes_sub_of_mem main_v49 rfl (by decide), writes_sub_of_mem main_c_18 rfl (by decide), writes_sub_of_mem main_v50 rfl (by decide),
   writes_sub_of_mem main_v51 rfl (by decide), writes_sub_of_mem main_v52 rfl (by decide), writes_sub_of_mem main_v53 rfl (by decide), writes_sub_of_mem main_v54 rfl (by decide),
   writes_sub_of_mem main_v55 rfl (by decide), writes_sub_of_mem main_c_19 rfl (by decide), writes_sub_of_mem main_v56 rfl (by decide), writes_sub_of_mem main_v57 rfl (by decide),
   writes_sub_of_mem main_c_20 rfl (by decide), writes_sub_of_mem main_v58 rfl (by decide), writes_sub_of_mem main_v59 rfl (by decide), writes_sub_of_mem main_v60 rfl (by decide),
   writes_sub_of_mem main_v61 rfl (by decide), writes_sub_of_mem main_v62 rfl (by decide), writes_sub_of_mem main_v63 rfl (by decide), writes_sub_of_mem main_cst rfl (by decide),
   writes_sub_of_mem main_v64 rfl (by decide), writes_sub_of_mem main_c_21 rfl (by decide), writes_sub_of_mem main_v65 rfl (by decide), writes_sub_of_mem main_v66 rfl (by decide),
   writes_sub_of_mem main_c_22 rfl (by decide), writes_sub_of_mem main_v67 rfl (by decide), writes_sub_of_mem main_v68 rfl (by decide), writes_sub_of_mem main_v69 rfl (by decide),
   writes_sub_of_mem main_v70 rfl (by decide), writes_sub_of_mem main_v71 rfl (by decide), writes_sub_of_mem main_c_23 rfl (by decide)⟩
theorem hostOps0_11_fresh : (hostOps0_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_12_W : (hostOps0_12 : List (HloOp τ sig (Elt F))).Forall fun op => op.writes ⊆ (preW.map (Proc.devRef (τ := τ) .tc)).toFinset :=
  ⟨writes_sub_of_mem main_call6_v0 rfl (by decide), writes_sub_of_mem main_call6_v1 rfl (by decide), writes_sub_of_mem main_call6_v2 rfl (by decide), writes_sub_of_mem main_call6_v3 rfl (by decide),
   writes_sub_of_mem main_call6_v4 rfl (by decide), writes_sub_of_mem main_call6_v5 rfl (by decide), writes_sub_of_mem main_call6_v6 rfl (by decide), writes_sub_of_mem main_call6_v7 rfl (by decide),
   writes_sub_of_mem main_call6_v8 rfl (by decide), writes_sub_of_mem main_call6_c rfl (by decide), writes_sub_of_mem main_call6_v9 rfl (by decide), writes_sub_of_mem main_call6_v10 rfl (by decide),
   writes_sub_of_mem main_call6_v11 rfl (by decide), writes_sub_of_mem main_call6_c_0 rfl (by decide), writes_sub_of_mem main_call6_v12 rfl (by decide), writes_sub_of_mem main_call6_v13 rfl (by decide),
   writes_sub_of_mem main_v72 rfl (by decide)⟩
theorem hostOps0_12_fresh : (hostOps0_12 : List (HloOp τ sig (Elt F))).Forall fun op => op.fresh = ∅ :=
  ⟨rfl, rfl, rfl, rfl, rfl, rfl, rfl, rfl, rfl, rfl, rfl, rfl, rfl, rfl, rfl, rfl, rfl⟩
theorem hostOps0_13_W : (hostOps0_13 : List (HloOp τ sig (Elt F))).Forall fun op => op.writes ⊆ (preW.map (Proc.devRef (τ := τ) .tc)).toFinset :=
  ⟨writes_sub_of_mem main_call7_call0_c rfl (by decide), writes_sub_of_mem main_call7_call0_v0 rfl (by decide), writes_sub_of_mem main_v73 rfl (by decide)⟩
theorem hostOps0_13_fresh : (hostOps0_13 : List (HloOp τ sig (Elt F))).Forall fun op => op.fresh = ∅ :=
  ⟨rfl, rfl, rfl⟩
theorem hostOps0_14_W : (hostOps0_14 : List (HloOp τ sig (Elt F))).Forall fun op => op.writes ⊆ (preW.map (Proc.devRef (τ := τ) .tc)).toFinset :=
  ⟨writes_sub_of_mem main_v74 rfl (by decide), writes_sub_of_mem main_v75 rfl (by decide), writes_sub_of_mem main_v76 rfl (by decide), writes_sub_of_mem main_v77 rfl (by decide),
   writes_sub_of_mem main_v78 rfl (by decide), writes_sub_of_mem main_v79 rfl (by decide), writes_sub_of_mem main_v80 rfl (by decide), writes_sub_of_mem main_v81 rfl (by decide),
   writes_sub_of_mem main_v82 rfl (by decide), writes_sub_of_mem main_c_24 rfl (by decide), writes_sub_of_mem main_v83 rfl (by decide), writes_sub_of_mem main_c_25 rfl (by decide),
   writes_sub_of_mem main_c_26 rfl (by decide)⟩
theorem hostOps0_14_fresh : (hostOps0_14 : List (HloOp τ sig (Elt F))).Forall fun op => op.fresh = ∅ :=
  ⟨rfl, rfl, rfl, rfl, rfl, rfl, rfl, rfl, rfl, rfl, rfl, rfl, rfl⟩
theorem hostOps0_15_W : (hostOps0_15 : List (HloOp τ sig (Elt F))).Forall fun op => op.writes ⊆ (preW.map (Proc.devRef (τ := τ) .tc)).toFinset :=
  ⟨writes_sub_of_mem main_call8_v0 rfl (by decide), writes_sub_of_mem main_call8_v1 rfl (by decide), writes_sub_of_mem main_call8_v2 rfl (by decide), writes_sub_of_mem main_call8_v3 rfl (by decide),
   writes_sub_of_mem main_call8_v4 rfl (by decide), writes_sub_of_mem main_v84 rfl (by decide)⟩
theorem hostOps0_15_fresh : (hostOps0_15 : List (HloOp τ sig (Elt F))).Forall fun op => op.fresh = ∅ :=
  ⟨rfl, rfl, rfl, rfl, rfl, rfl⟩
theorem hostOps0_16_W : (hostOps0_16 : List (HloOp τ sig (Elt F))).Forall fun op => op.writes ⊆ (preW.map (Proc.devRef (τ := τ) .tc)).toFinset :=
  ⟨writes_sub_of_mem main_v85 rfl (by decide), writes_sub_of_mem main_v86 rfl (by decide), writes_sub_of_mem main_v87 rfl (by decide), writes_sub_of_mem main_c_27 rfl (by decide),
   writes_sub_of_mem main_v88 rfl (by decide), writes_sub_of_mem main_c_28 rfl (by decide), writes_sub_of_mem main_v89 rfl (by decide), writes_sub_of_mem main_v90 rfl (by decide),
   writes_sub_of_mem main_c_29 rfl (by decide), writes_sub_of_mem main_v91 rfl (by decide), writes_sub_of_mem main_v92 rfl (by decide), writes_sub_of_mem main_v93 rfl (by decide),
   writes_sub_of_mem main_v94 rfl (by decide), writes_sub_of_mem main_v95 rfl (by decide), writes_sub_of_mem main_v96 rfl (by decide), writes_sub_of_mem main_v97 rfl (by decide),
   writes_sub_of_mem main_c_30 rfl (by decide), writes_sub_of_mem main_v98 rfl (by decide), writes_sub_of_mem main_v99 rfl (by decide), writes_sub_of_mem main_v100 rfl (by decide),
   writes_sub_of_mem main_v101 rfl (by decide), writes_sub_of_mem main_v102 rfl (by decide), writes_sub_of_mem main_v103 rfl (by decide), writes_sub_of_mem main_v104 rfl (by decide),
   writes_sub_of_mem main_v105 rfl (by decide), writes_sub_of_mem main_c_31 rfl (by decide), writes_sub_of_mem main_v106 rfl (by decide), writes_sub_of_mem main_v107 rfl (by decide),
   writes_sub_of_mem main_v108 rfl (by decide), writes_sub_of_mem main_v109 rfl (by decide), writes_sub_of_mem main_v110 rfl (by decide), writes_sub_of_mem main_v111 rfl (by decide),
   writes_sub_of_mem main_v112 rfl (by decide), writes_sub_of_mem main_v113 rfl (by decide), writes_sub_of_mem main_v114 rfl (by decide), writes_sub_of_mem main_v115 rfl (by decide),
   writes_sub_of_mem main_v116 rfl (by decide), writes_sub_of_mem main_c_32 rfl (by decide), writes_sub_of_mem main_v117 rfl (by decide), writes_sub_of_mem main_v118 rfl (by decide),
   writes_sub_of_mem main_v119 rfl (by decide), writes_sub_of_mem main_v120 rfl (by decide), writes_sub_of_mem main_v121 rfl (by decide), writes_sub_of_mem main_v122 rfl (by decide),
   writes_sub_of_mem main_v123 rfl (by decide), writes_sub_of_mem main_v124 rfl (by decide), writes_sub_of_mem main_v125 rfl (by decide), writes_sub_of_mem main_v126 rfl (by decide),
   writes_sub_of_mem main_v127 rfl (by decide), writes_sub_of_mem main_v128 rfl (by decide), writes_sub_of_mem main_v129 rfl (by decide), writes_sub_of_mem main_v130 rfl (by decide),
   writes_sub_of_mem main_v131 rfl (by decide), writes_sub_of_mem main_v132 rfl (by decide), writes_sub_of_mem main_v133 rfl (by decide), writes_sub_of_mem main_c_33 rfl (by decide),
   writes_sub_of_mem main_v134 rfl (by decide), writes_sub_of_mem main_v135 rfl (by decide), writes_sub_of_mem main_v136 rfl (by decide), writes_sub_of_mem main_v137 rfl (by decide),
   writes_sub_of_mem main_v138 rfl (by decide), writes_sub_of_mem main_v139 rfl (by decide), writes_sub_of_mem main_v140 rfl (by decide), writes_sub_of_mem main_v141 rfl (by decide),
   writes_sub_of_mem main_c_34 rfl (by decide), writes_sub_of_mem main_v142 rfl (by decide), writes_sub_of_mem main_v143 rfl (by decide), writes_sub_of_mem main_v144 rfl (by decide),
   writes_sub_of_mem main_v145 rfl (by decide), writes_sub_of_mem main_v146 rfl (by decide), writes_sub_of_mem main_v147 rfl (by decide), writes_sub_of_mem main_v148 rfl (by decide),
   writes_sub_of_mem main_v149 rfl (by decide), writes_sub_of_mem main_v150 rfl (by decide), writes_sub_of_mem main_v151 rfl (by decide), writes_sub_of_mem main_v152 rfl (by decide),
   writes_sub_of_mem main_c_35 rfl (by decide), writes_sub_of_mem main_v153 rfl (by decide), writes_sub_of_mem main_v154 rfl (by decide), writes_sub_of_mem main_v155 rfl (by decide),
   writes_sub_of_mem main_v156 rfl (by decide), writes_sub_of_mem main_v157 rfl (by decide), writes_sub_of_mem main_v158 rfl (by decide), writes_sub_of_mem main_v159 rfl (by decide),
   writes_sub_of_mem main_v160 rfl (by decide), writes_sub_of_mem main_v161 rfl (by decide), writes_sub_of_mem main_v162 rfl (by decide), writes_sub_of_mem main_v163 rfl (by decide),
   writes_sub_of_mem main_v164 rfl (by decide), writes_sub_of_mem main_v165 rfl (by decide), writes_sub_of_mem main_v166 rfl (by decide), writes_sub_of_mem main_v167 rfl (by decide),
   writes_sub_of_mem main_v168 rfl (by decide), writes_sub_of_mem main_v169 rfl (by decide)⟩
theorem hostOps0_16_fresh : (hostOps0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps1_W : (hostOps1 : List (HloOp τ sig (Elt F))).Forall fun op => op.writes ⊆ (tailW.map (Proc.devRef (τ := τ) .tc)).toFinset :=
  ⟨writes_sub_of_mem main_c_36 rfl (by decide), writes_sub_of_mem main_v171 rfl (by decide), writes_sub_of_mem main_v172 rfl (by decide), writes_sub_of_mem main_c_37 rfl (by decide), writes_sub_of_mem main_v173 rfl (by decide), writes_sub_of_mem main_v174 rfl (by decide), writes_sub_of_mem main_v175 rfl (by decide), writes_sub_of_mem main_v176 rfl (by decide), writes_sub_of_mem main_v177 rfl (by decide)⟩
theorem hostOps1_fresh : (hostOps1 : List (HloOp τ sig (Elt F))).Forall fun op => op.fresh = ∅ :=
  ⟨rfl, rfl, rfl, rfl, rfl, rfl, rfl, rfl, rfl⟩

/-- Every stretch before the region touches TensorCore references only, -/
theorem preOps_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩
/-- allocates nothing, -/
theorem preOps_fresh : (preOps : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩
/-- and writes within `preW`. -/
theorem preOps_W : (preOps : List (List (HloOp τ sig (Elt F)))).Forall fun ops => ops.Forall fun op => op.writes ⊆ (preW.map (Proc.devRef (τ := τ) .tc)).toFinset :=
  ⟨hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W⟩
theorem sfx_W : ([hostOps1] : List (List (HloOp τ sig (Elt F)))).Forall fun ops => ops.Forall fun op => op.writes ⊆ (tailW.map (Proc.devRef (τ := τ) .tc)).toFinset :=
  hostOps1_W

/-! ## @main around the region -/

/-- @main around the region: the seventeen stretches before it, the region, the stretch after it. It reduces to the
    region continued by that last stretch, at the contents the earlier stretches leave. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main preOps [hostOps1] preOps_sub preOps_fresh (fun c => (main_chain c).trans rfl)

/-- The stretch after the region touches the pipeline's arrays and the bypassing buffers only: TensorCore references,
    neither prefetched table among them. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl
  all_goals
    intro k
    fin_cases k <;>
      simp only [StableHlo.nullary_bufs, StableHlo.unary_bufs, StableHlo.binary_bufs, StableHlo.ternary_bufs,
        Finset.mem_insert, Finset.mem_singleton, not_or] <;>
      (repeat' apply And.intro) <;> exact StableHlo.devRef_ne_of_ne (by decide)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the pipeline: each operation writes its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  obtain ⟨y, hy, he⟩ := List.mem_map.mp (List.mem_toFinset.mp ((List.forall_iff_forall_mem.mp hostOps1_W) op hop hw))
  obtain rfl : y = Pipeline.arrRef spec0 w := Proc.devRef_injective _ he
  revert hy
  fin_cases w <;> decide

/-! ## The argument arrays when the region is entered, and at the end -/

theorem V_main_arg0 (c : Dev nD) : V m c main_arg0 = m ((c : Thread nD τ).loc main_arg0) :=
  after_flatten_of_writes_sub preOps _ preOps_W (by decide)
theorem V_main_arg1 (c : Dev nD) : V m c main_arg1 = m ((c : Thread nD τ).loc main_arg1) :=
  after_flatten_of_writes_sub preOps _ preOps_W (by decide)
theorem V_main_arg2 (c : Dev nD) : V m c main_arg2 = m ((c : Thread nD τ).loc main_arg2) :=
  after_flatten_of_writes_sub preOps _ preOps_W (by decide)
theorem V_main_arg3 (c : Dev nD) : V m c main_arg3 = m ((c : Thread nD τ).loc main_arg3) :=
  after_flatten_of_writes_sub preOps _ preOps_W (by decide)
theorem V_main_arg4 (c : Dev nD) : V m c main_arg4 = m ((c : Thread nD τ).loc main_arg4) :=
  after_flatten_of_writes_sub preOps _ preOps_W (by decide)
theorem V_main_arg5 (c : Dev nD) : V m c main_arg5 = m ((c : Thread nD τ).loc main_arg5) :=
  after_flatten_of_writes_sub preOps _ preOps_W (by decide)
theorem V_main_arg6 (c : Dev nD) : V m c main_arg6 = m ((c : Thread nD τ).loc main_arg6) :=
  after_flatten_of_writes_sub preOps _ preOps_W (by decide)
theorem V_main_arg7 (c : Dev nD) : V m c main_arg7 = m ((c : Thread nD τ).loc main_arg7) :=
  after_flatten_of_writes_sub preOps _ preOps_W (by decide)
theorem V_main_arg8 (c : Dev nD) : V m c main_arg8 = m ((c : Thread nD τ).loc main_arg8) :=
  after_flatten_of_writes_sub preOps _ preOps_W (by decide)
theorem V_main_arg9 (c : Dev nD) : V m c main_arg9 = m ((c : Thread nD τ).loc main_arg9) :=
  after_flatten_of_writes_sub preOps _ preOps_W (by decide)
theorem V_main_arg10 (c : Dev nD) : V m c main_arg10 = m ((c : Thread nD τ).loc main_arg10) :=
  after_flatten_of_writes_sub preOps _ preOps_W (by decide)
theorem V_main_arg11 (c : Dev nD) : V m c main_arg11 = m ((c : Thread nD τ).loc main_arg11) :=
  after_flatten_of_writes_sub preOps _ preOps_W (by decide)

/-! ## The prefetched tables, read off the launch memory -/

/-- The tables' contents when the region is entered (there is one device: device 0's). -/
def tbl : pre0.Contents (Elt F) := fun j => V m (0 : Dev nD) (pre0.ref j)
/-- On every device the tables hold those contents. -/
theorem V_pre (c : Dev nD) (j : Fin 2) : V m c (pre0.ref j) = tbl m j := by
  obtain rfl : c = 0 := Subsingleton.elim _ _; rfl
/-- The pipeline's side condition of the tables' contents: the window whose index map reads a table has its block inside
    the array, in whole words, at every grid point. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref. -/
abbrev tbM0_0 : Memref sig .tc .smem S8 .i32 := Memref.whole main_v84
abbrev htbM0_0 : tbM0_0.IsWhole := Memref.isWhole_whole _
abbrev tbM0_1 : Memref sig .tc .smem S8 .i32 := Memref.whole main_v87
abbrev htbM0_1 : tbM0_1.IsWhole := Memref.isWhole_whole _

/-- A table memref's buffer on core `c`: its contents type, and the buffer held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for any proof data
    whose array is the region-entry contents and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post, and the result, from the frame run's -/

theorem W_main_arg0 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [after_flatten_of_writes_sub [hostOps1] _ sfx_W (by decide),
    Pipeline.withArrays_of_ne _ c (V0 m c) _ main_arg0 (by exact (by decide : ∀ w, Pipeline.arrRef spec0 w ≠ main_arg0))]
  exact V_main_arg0 m c
theorem W_main_arg1 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [after_flatten_of_writes_sub [hostOps1] _ sfx_W (by decide),
    Pipeline.withArrays_of_ne _ c (V0 m c) _ main_arg1 (by exact (by decide : ∀ w, Pipeline.arrRef spec0 w ≠ main_arg1))]
  exact V_main_arg1 m c
theorem W_main_arg2 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [after_flatten_of_writes_sub [hostOps1] _ sfx_W (by decide),
    Pipeline.withArrays_of_ne _ c (V0 m c) _ main_arg2 (by exact (by decide : ∀ w, Pipeline.arrRef spec0 w ≠ main_arg2))]
  exact V_main_arg2 m c
theorem W_main_arg3 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [after_flatten_of_writes_sub [hostOps1] _ sfx_W (by decide),
    Pipeline.withArrays_of_ne _ c (V0 m c) _ main_arg3 (by exact (by decide : ∀ w, Pipeline.arrRef spec0 w ≠ main_arg3))]
  exact V_main_arg3 m c
theorem W_main_arg4 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [after_flatten_of_writes_sub [hostOps1] _ sfx_W (by decide),
    Pipeline.withArrays_of_ne _ c (V0 m c) _ main_arg4 (by exact (by decide : ∀ w, Pipeline.arrRef spec0 w ≠ main_arg4))]
  exact V_main_arg4 m c
theorem W_main_arg5 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [after_flatten_of_writes_sub [hostOps1] _ sfx_W (by decide),
    Pipeline.withArrays_of_ne _ c (V0 m c) _ main_arg5 (by exact (by decide : ∀ w, Pipeline.arrRef spec0 w ≠ main_arg5))]
  exact V_main_arg5 m c
theorem W_main_arg6 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [after_flatten_of_writes_sub [hostOps1] _ sfx_W (by decide),
    Pipeline.withArrays_of_ne _ c (V0 m c) _ main_arg6 (by exact (by decide : ∀ w, Pipeline.arrRef spec0 w ≠ main_arg6))]
  exact V_main_arg6 m c
theorem W_main_arg7 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [after_flatten_of_writes_sub [hostOps1] _ sfx_W (by decide),
    Pipeline.withArrays_of_ne _ c (V0 m c) _ main_arg7 (by exact (by decide : ∀ w, Pipeline.arrRef spec0 w ≠ main_arg7))]
  exact V_main_arg7 m c
theorem W_main_arg8 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg8 = m ((c : Thread nD τ).loc main_arg8) := by
  unfold Pipeline.afterTail
  rw [after_flatten_of_writes_sub [hostOps1] _ sfx_W (by decide),
    Pipeline.withArrays_of_ne _ c (V0 m c) _ main_arg8 (by exact (by decide : ∀ w, Pipeline.arrRef spec0 w ≠ main_arg8))]
  exact V_main_arg8 m c
theorem W_main_arg9 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg9 = m ((c : Thread nD τ).loc main_arg9) := by
  unfold Pipeline.afterTail
  rw [after_flatten_of_writes_sub [hostOps1] _ sfx_W (by decide),
    Pipeline.withArrays_of_ne _ c (V0 m c) _ main_arg9 (by exact (by decide : ∀ w, Pipeline.arrRef spec0 w ≠ main_arg9))]
  exact V_main_arg9 m c
theorem W_main_arg10 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg10 = m ((c : Thread nD τ).loc main_arg10) := by
  unfold Pipeline.afterTail
  rw [after_flatten_of_writes_sub [hostOps1] _ sfx_W (by decide),
    Pipeline.withArrays_of_ne _ c (V0 m c) _ main_arg10 (by exact (by decide : ∀ w, Pipeline.arrRef spec0 w ≠ main_arg10))]
  exact V_main_arg10 m c
theorem W_main_arg11 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg11 = m ((c : Thread nD τ).loc main_arg11) := by
  unfold Pipeline.afterTail
  rw [after_flatten_of_writes_sub [hostOps1] _ sfx_W (by decide),
    Pipeline.withArrays_of_ne _ c (V0 m c) _ main_arg11 (by exact (by decide : ∀ w, Pipeline.arrRef spec0 w ≠ main_arg11))]
  exact V_main_arg11 m c

/-- The frame from a frame run: no argument is an array of the pipeline, so each is read by the post's second clause,
    after the last stretch, which writes none of them. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of (win := spec0) main_arg0 (by decide) (by decide))).trans (W_main_arg0 m hO dats c),
      ((h c).2 main_arg1 (Pipeline.mem_restRefs_of (win := spec0) main_arg1 (by decide) (by decide))).trans (W_main_arg1 m hO dats c),
      ((h c).2 main_arg2 (Pipeline.mem_restRefs_of (win := spec0) main_arg2 (by decide) (by decide))).trans (W_main_arg2 m hO dats c),
      ((h c).2 main_arg3 (Pipeline.mem_restRefs_of (win := spec0) main_arg3 (by decide) (by decide))).trans (W_main_arg3 m hO dats c),
      ((h c).2 main_arg4 (Pipeline.mem_restRefs_of (win := spec0) main_arg4 (by decide) (by decide))).trans (W_main_arg4 m hO dats c),
      ((h c).2 main_arg5 (Pipeline.mem_restRefs_of (win := spec0) main_arg5 (by decide) (by decide))).trans (W_main_arg5 m hO dats c),
      ((h c).2 main_arg6 (Pipeline.mem_restRefs_of (win := spec0) main_arg6 (by decide) (by decide))).trans (W_main_arg6 m hO dats c),
      ((h c).2 main_arg7 (Pipeline.mem_restRefs_of (win := spec0) main_arg7 (by decide) (by decide))).trans (W_main_arg7 m hO dats c),
      ((h c).2 main_arg8 (Pipeline.mem_restRefs_of (win := spec0) main_arg8 (by decide) (by decide))).trans (W_main_arg8 m hO dats c),
      ((h c).2 main_arg9 (Pipeline.mem_restRefs_of (win := spec0) main_arg9 (by decide) (by decide))).trans (W_main_arg9 m hO dats c),
      ((h c).2 main_arg10 (Pipeline.mem_restRefs_of (win := spec0) main_arg10 (by decide) (by decide))).trans (W_main_arg10 m hO dats c),
      ((h c).2 main_arg11 (Pipeline.mem_restRefs_of (win := spec0) main_arg11 (by decide) (by decide))).trans (W_main_arg11 m hO dats c)⟩) h

/-- The result buffer after the last stretch: rows of the output array, as the region leaves it, gathered at the
    row indices the earlier stretches computed (a negative index wrapped once). -/
theorem W_main_v177 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_v177
      = Host.gather gather_S2048x8192_S1024x1_S1024x8192_1_0_n_n_0_1_18192 ((dats 0 c).arrAt 3 (cfgM m hO).N)
          (broadcastInDim S1024x1 ![0] bcast_S1024_S1024x1_0
            (select (cmpi .slt (V m c main_v95) (broadcastInDim S1024 ![] bcast_S_S1024 (constantI S_ 32 0#32)))
              (addi (V m c main_v95) (broadcastInDim S1024 ![] bcast_S_S1024 (constantI S_ 32 2048#32))) (V m c main_v95))) := by
  have e3 : Pipeline.withArrays (Pipeline.pin pcfgs (fun _ => adm m hO) 0).spec c (V0 m c)
      (fun w => (dats 0 c).arrAt w (Pipeline.pin pcfgs (fun _ => adm m hO) 0).N) (Proc.devRef .tc main_v170)
        = (dats 0 c).arrAt 3 (cfgM m hO).N :=
    Pipeline.withArrays_arr (Pipeline.pin pcfgs (fun _ => adm m hO) 0).spec (by exact (launch0 (F := F)).win.arr_inj) c (V0 m c)
      (fun w => (dats 0 c).arrAt w (Pipeline.pin pcfgs (fun _ => adm m hO) 0).N) 3
  have e95 : Pipeline.withArrays (Pipeline.pin pcfgs (fun _ => adm m hO) 0).spec c (V0 m c)
      (fun w => (dats 0 c).arrAt w (Pipeline.pin pcfgs (fun _ => adm m hO) 0).N) (Proc.devRef .tc main_v95)
        = V m c main_v95 :=
    Pipeline.withArrays_of_ne (Pipeline.pin pcfgs (fun _ => adm m hO) 0).spec c (V0 m c)
      (fun w => (dats 0 c).arrAt w (Pipeline.pin pcfgs (fun _ => adm m hO) 0).N) main_v95 (by exact (by decide : ∀ w, Pipeline.arrRef spec0 w ≠ main_v95))
  unfold Pipeline.afterTail
  show StableHlo.after hostOps1 _ (Proc.devRef .tc main_v177) = _
  after_results
  rw [e3, e95]
  rfl

/-- The value form: the result buffer and the arguments at the end of a frame run. -/
theorem result_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_v177) = Pipeline.afterTail pcfgs (fun _ => adm m hO) dats 0 (V0 m) [hostOps1] c main_v177
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).2 main_v177 (Pipeline.mem_restRefs_of (win := spec0) main_v177 (by decide) (by decide)),
      ((h c).2 main_arg0 (Pipeline.mem_restRefs_of (win := spec0) main_arg0 (by decide) (by decide))).trans (W_main_arg0 m hO dats c),
      ((h c).2 main_arg1 (Pipeline.mem_restRefs_of (win := spec0) main_arg1 (by decide) (by decide))).trans (W_main_arg1 m hO dats c),
      ((h c).2 main_arg2 (Pipeline.mem_restRefs_of (win := spec0) main_arg2 (by decide) (by decide))).trans (W_main_arg2 m hO dats c),
      ((h c).2 main_arg3 (Pipeline.mem_restRefs_of (win := spec0) main_arg3 (by decide) (by decide))).trans (W_main_arg3 m hO dats c),
      ((h c).2 main_arg4 (Pipeline.mem_restRefs_of (win := spec0) main_arg4 (by decide) (by decide))).trans (W_main_arg4 m hO dats c),
      ((h c).2 main_arg5 (Pipeline.mem_restRefs_of (win := spec0) main_arg5 (by decide) (by decide))).trans (W_main_arg5 m hO dats c),
      ((h c).2 main_arg6 (Pipeline.mem_restRefs_of (win := spec0) main_arg6 (by decide) (by decide))).trans (W_main_arg6 m hO dats c),
      ((h c).2 main_arg7 (Pipeline.mem_restRefs_of (win := spec0) main_arg7 (by decide) (by decide))).trans (W_main_arg7 m hO dats c),
      ((h c).2 main_arg8 (Pipeline.mem_restRefs_of (win := spec0) main_arg8 (by decide) (by decide))).trans (W_main_arg8 m hO dats c),
      ((h c).2 main_arg9 (Pipeline.mem_restRefs_of (win := spec0) main_arg9 (by decide) (by decide))).trans (W_main_arg9 m hO dats c),
      ((h c).2 main_arg10 (Pipeline.mem_restRefs_of (win := spec0) main_arg10 (by decide) (by decide))).trans (W_main_arg10 m hO dats c),
      ((h c).2 main_arg11 (Pipeline.mem_restRefs_of (win := spec0) main_arg11 (by decide) (by decide))).trans (W_main_arg11 m hO dats c)⟩) h

end Cert.Kernel.Hand

end
-- ==== Proof.K.Run.lean ====
/-
  The kernel body on any whole staging memrefs, in its two control cases. The body loads one word of the validity
  table, at the point's row-tile coordinate. Where the word is nonzero it multiplies the row block by the weight block,
  adds the bias row to every row of the product and stores the result over the whole output block; where the word is
  zero it stores zeros over the whole output block. Each case is a triple whose witness is the list of stores the
  output's buffer ends with: one store of the whole block.
-/
import proofs.«421023_j28973849379100_3_alg».proof.Proof.K.Kit
import Idealize.ShloMosaic.Lib.Pipeline.FrameBody
import Idealize.ShloMosaic.Lib.Ring
import Idealize.ShloMosaic.Lib.Tactic
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions the body computes from the loaded word -/

/-- The first condition compares the word with zero, widens the bit and compares it with zero again: it holds exactly
    where the word is nonzero. -/
theorem cond1_iff (v : BitVec 32) : k0_cond1 v = 1#1 ↔ v ≠ 0#32 := by
  by_cases h : v = 0#32
  · subst h; exact ⟨fun h => absurd h (by decide), fun h => absurd rfl h⟩
  · have e : (v != 0#32) = true := by simp [bne_iff_ne, h]
    simp only [k0_cond1, Scalar.cmpi, IntOp.cmpi, Scalar.extui, e]
    exact ⟨fun _ => h, fun _ => by decide⟩

/-- The second condition flips the first comparison's bit before widening: it holds exactly where the word is zero. -/
theorem cond2_iff (v : BitVec 32) : k0_cond2 v = 1#1 ↔ v = 0#32 := by
  by_cases h : v = 0#32
  · subst h; exact ⟨fun _ => rfl, fun _ => by decide⟩
  · have e : (v != 0#32) = true := by simp [bne_iff_ne, h]
    simp only [k0_cond2, Scalar.cmpi, IntOp.cmpi, Scalar.extui, Scalar.xori, IntOp.xori, e]
    exact ⟨fun h' => absurd h' (by decide), fun h' => absurd h' h⟩

/-! ## The word the body loads -/

/-- The word of the second table that the body loads at point `i`, as the body reads it from the table's held contents. -/
abbrev wordAt (c : Dev nD) (i : grid0.Coords) (xt1 : TbBuf0 (F := F) c tbM0_1) : BitVec 32 :=
  tbM0_1.view.readAt (Elt F) (Rect.unit (s := S8) (k0_off1 i) S1.size (k0_off1_inb i)).toLoadRect xt1 (Shape.Idx.first (numel1_S1.symm ▸ Nat.one_pos))

/-- The loaded word is the table's entry at the point's row-tile coordinate. -/
theorem wordAt_ix (c : Dev nD) (i : grid0.Coords) (xt1 : TbBuf0 (F := F) c tbM0_1) :
    wordAt c i xt1 = xt1 (ValueIdx.ix1 (n := 8) (i 1)) := by
  refine congrArg xt1 ?_
  funext a; apply Fin.ext
  match a with
  | ⟨0, _⟩ =>
    show (k0_off1 i) 0 + 1 * 0 = (i 1).val
    rw [k0_off1_eq]; show (i 1).val + 1 * 0 = (i 1).val; omega

/-! ## The body's triple in each case -/

set_option maxHeartbeats 1000000 in
/-- The nonzero case: on whole staging memrefs, the inputs' at their contents, the output's at anything, and the two
    tables held at their contents, the body runs to the continuation holding the inputs as they were and the output's
    buffer with the listed stores written. -/
noncomputable def runValid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : k0_cond1 (wordAt c i xt1) = 1#1) (hc2 : ¬ k0_cond2 (wordAt c i xt1) = 1#1) :
    { L : List (View.Piece (Elt F) S256x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tbPt0 c tbM0_0 xt0 ∗ tbPt0 c tbM0_1 xt1) -∗ K ⟨⟩))
          ⊢ wp frame (wpE (defs₀ (F := F)) Variants.none c none) E (cc0__delta_kernel i tbM0_0 (Memref.isWhole_whole _) tbM0_1 (Memref.isWhole_whole _) arg4 harg4 arg5 harg5 arg6 harg6 arg7 harg7) K } := by
  refine ⟨?_, fun E K => ?run⟩
  case run =>
    simp only [cc0__delta_kernel_eq_skeleton]; unfold cc0__delta_kernel_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0
    obtain rfl := harg5.eq_unread hf1
    obtain rfl := harg6.eq_unread hf2
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

set_option maxHeartbeats 1000000 in
/-- The zero case, stated the same way. -/
noncomputable def runInvalid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : ¬ k0_cond1 (wordAt c i xt1) = 1#1) (hc2 : k0_cond2 (wordAt c i xt1) = 1#1) :
    { L : List (View.Piece (Elt F) S256x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tbPt0 c tbM0_0 xt0 ∗ tbPt0 c tbM0_1 xt1) -∗ K ⟨⟩))
          ⊢ wp frame (wpE (defs₀ (F := F)) Variants.none c none) E (cc0__delta_kernel i tbM0_0 (Memref.isWhole_whole _) tbM0_1 (Memref.isWhole_whole _) arg4 harg4 arg5 harg5 arg6 harg6 arg7 harg7) K } := by
  refine ⟨?_, fun E K => ?run⟩
  case run =>
    simp only [cc0__delta_kernel_eq_skeleton]; unfold cc0__delta_kernel_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0
    obtain rfl := harg5.eq_unread hf1
    obtain rfl := harg6.eq_unread hf2
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

end Cert.Kernel.Hand

end
-- ==== Proof.K.Tables.lean ====
/-
  The side condition on the prefetched tables: the weight window's index map reads the slot table, and its block must lie
  inside the array of weight tiles at every grid point. The slot table is clipped to `[0, 4]` by the program itself, so
  whatever the routing computes, the block's first coordinate `(i₀ / 4) * 5 + slot` is at most 9 of 10.
-/
import proofs.«421023_j28973849379100_3_alg».proof.Proof.K.Base

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-! ### Words clipped to the slots -/

/-- A word clipped below at 0 and above at 4, read signed, lies in `[0, 4]`. -/
theorem clip_word (y : BitVec 32) :
    0 ≤ (IntOp.minsi 4#32 (IntOp.maxsi 0#32 y)).toInt ∧ (IntOp.minsi 4#32 (IntOp.maxsi 0#32 y)).toInt ≤ 4 := by
  have h4 : (4#32 : BitVec 32).toInt = 4 := by decide
  have h0 : (0#32 : BitVec 32).toInt = 0 := by decide
  unfold IntOp.minsi IntOp.maxsi
  simp only [BitVec.slt, decide_eq_true_eq, h4, h0]
  split_ifs <;> omega

/-- A word that read signed lies in `[0, 4]` is one of the five words 0 … 4. -/
theorem word_cases (w : BitVec 32) (h : 0 ≤ w.toInt ∧ w.toInt ≤ 4) :
    w = 0#32 ∨ w = 1#32 ∨ w = 2#32 ∨ w = 3#32 ∨ w = 4#32 := by
  have h32 := w.isLt
  have ht := BitVec.toInt_eq_toNat_cond w
  rcases (show w.toNat = 0 ∨ w.toNat = 1 ∨ w.toNat = 2 ∨ w.toNat = 3 ∨ w.toNat = 4 by
    split at ht <;> omega) with h | h | h | h | h
  · exact .inl (BitVec.eq_of_toNat_eq h)
  · exact .inr (.inl (BitVec.eq_of_toNat_eq h))
  · exact .inr (.inr (.inl (BitVec.eq_of_toNat_eq h)))
  · exact .inr (.inr (.inr (.inl (BitVec.eq_of_toNat_eq h))))
  · exact .inr (.inr (.inr (.inr (BitVec.eq_of_toNat_eq h))))

/-! ### The weight window's blocks, over any table of slots

The weight window's block at grid point `(i₀, i₁)` of the `[10, 4096, 2048]` array of weight tiles is
`((i₀ / 4) * 5 + table[i₁], i₀ % 4, 0)`, in blocks of `[1, 1024, 2048]`: with `i₀ < 8` and the table word in `[0, 4]` the
first coordinate is at most `5 + 4 = 9`, the second at most 3. -/

set_option maxHeartbeats 400000 in
/-- With every word of the slot table in `[0, 4]`, every block of the weight window lies inside the array. -/
theorem blk_of_word (pf : pre0.Contents (Elt F))
    (hpf : ∀ x : S8.Idx, 0 ≤ (pf 0 x : BitVec 32).toInt ∧ (pf 0 x : BitVec 32).toInt ≤ 4) (i : grid0.Coords) :
    ∀ a, (cc0_transform_1 Facts₀.k0_off1_inb Facts₀.numel1_S1 pf i a + 1) * S1x1024x2048.size a ≤ S10x4096x2048.size a := by
  obtain ⟨w, hw, e⟩ : ∃ w : BitVec 32, (0 ≤ w.toInt ∧ w.toInt ≤ 4) ∧
      pf.at 0 (Rect.unit (s := S8) ![(Scalar.indexCast (BitVec.ofNat 32 (i 1).val)).toNat] S1.size (Facts₀.k0_off1_inb i))
        Facts₀.numel1_S1 = w := ⟨_, hpf _, rfl⟩
  unfold cc0_transform_1
  simp only [e]
  clear e hpf
  revert i
  rcases word_cases w hw with rfl | rfl | rfl | rfl | rfl <;> decide +kernel

/-- The side condition on the tables, from the bound on the slot table's words: every block inside the array, and a block
    of `[1, 1024, 2048]` 16-bit elements has an even number of rows, so it is made of whole words. -/
theorem ok0_of_words (pf : pre0.Contents (Elt F))
    (hpf : ∀ x : S8.Idx, 0 ≤ (pf 0 x : BitVec 32).toInt ∧ (pf 0 x : BitVec 32).toInt ≤ 4) : ok0 pf :=
  fun i => ⟨blk_of_word pf hpf i, .inr (Affine.block_words_dvd (of_decide_eq_true rfl) (by decide))⟩

/-! ### The slot table the program computes

The slot table is the last value of the clipping call: `min 4 (max 0 ·)` of the count of running tile totals at most the
tile's number. Only the clipping matters here. -/

/-- The host stretches before the one that ends with the clipping call's two bounds. -/
abbrev preHead : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13]

theorem preOps_split : List.flatten (preOps (F := F))
    = List.flatten (preHead (F := F)) ++ (hostOps0_14 ++ (hostOps0_15 ++ hostOps0_16)) := by
  simp only [preOps, preHead, List.flatten_cons, List.flatten_nil, List.append_nil, List.append_assoc]

set_option maxHeartbeats 4000000 in
/-- The slot table after the last two stretches, over any contents before them: the clipping of the buffer it clips,
    between the two bounds' buffers. -/
theorem v84_read (W : Valuation τ sig (Elt F)) :
    StableHlo.after hostOps0_16 (StableHlo.after hostOps0_15 W) (Proc.devRef .tc main_v84)
      = minsi (broadcastInDim S8 ![] bcast_S_S8 (W (Proc.devRef .tc main_c_26)))
          (maxsi (broadcastInDim S8 ![] bcast_S_S8 (W (Proc.devRef .tc main_c_25))) (W (Proc.devRef .tc main_v83))) := by
  simp only [hostOps0_15, hostOps0_16]
  after_results
  rfl

/-- The lower bound is the constant 0, -/
theorem c25_read (W : Valuation τ sig (Elt F)) :
    StableHlo.after hostOps0_14 W (Proc.devRef .tc main_c_25) = constantI S_ 32 0#32 := by
  simp only [hostOps0_14]
  after_results

/-- the upper bound the constant 4. -/
theorem c26_read (W : Valuation τ sig (Elt F)) :
    StableHlo.after hostOps0_14 W (Proc.devRef .tc main_c_26) = constantI S_ 32 4#32 := by
  simp only [hostOps0_14]
  after_results

/-- Every word of the slot table is some word clipped to `[0, 4]`. -/
theorem v84_clip (c : Dev nD) : ∃ Y : S8.Idx → BitVec 32, ∀ x : S8.Idx,
    (V m c main_v84 : S8.Idx → BitVec 32) x = IntOp.minsi 4#32 (IntOp.maxsi 0#32 (Y x)) := by
  refine ⟨StableHlo.after hostOps0_14 (StableHlo.after (List.flatten preHead) (fun b => m (c, b))) (Proc.devRef .tc main_v83),
    fun x => ?_⟩
  have e : (V m c main_v84 : S8.Idx → BitVec 32)
      = minsi (broadcastInDim S8 ![] bcast_S_S8 (constantI S_ 32 4#32))
          (maxsi (broadcastInDim S8 ![] bcast_S_S8 (constantI S_ 32 0#32))
            (StableHlo.after hostOps0_14 (StableHlo.after (List.flatten preHead) (fun b => m (c, b)))
              (Proc.devRef .tc main_v83))) := by
    dsimp only [V, V0]
    rw [preOps_split, StableHlo.after_append, StableHlo.after_append, StableHlo.after_append, v84_read, c25_read, c26_read]
  rw [e]
  rfl

/-- The side condition on the tables holds of the tables the program computes. -/
theorem ok0_tbl : ok0 (F := F) (fun j => V m (0 : Dev nD) (pre0.ref j)) := by
  apply ok0_of_words
  intro x
  obtain ⟨Y, e⟩ := v84_clip m (0 : Dev nD)
  have e' : (V m (0 : Dev nD) (pre0.ref 0) : S8.Idx → BitVec 32) x = IntOp.minsi 4#32 (IntOp.maxsi 0#32 (Y x)) := e x
  rw [e']
  exact clip_word _

end Cert.Kernel.Hand

end
-- ==== Proof.K.Body.lean ====
/-
  The body side of the kernel's frame. At every grid point the output's staging buffer ends wholly overwritten by one
  store: where the validity table's word at the point's row tile is nonzero, by the product of the row block and the
  weight block plus the bias row; where it is zero, by zeros. With the three input windows left at their blocks this is
  the proof data of the one pipeline; the body obligation holds at every point by cases on the word (one of the two
  conditions the body computes from it always holds, and every point writes the output's block back, so no point
  leaves the output's buffer unstated); and the program runs, the host operations before and after the region
  included, to the library's frame postcondition.
-/
import proofs.«421023_j28973849379100_3_alg».proof.Proof.K.Run
import proofs.«421023_j28973849379100_3_alg».proof.Proof.K.Tables
import Idealize.ShloMosaic.Lib.Pipeline.FrameSuffix
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the output window, and the body as the pipeline calls it -/

/-- The output window moves to a new block at every step of the grid, so every point writes its block back. -/
theorem flush0_3 (a : (pcfg0 (F := F)).Adm) : ∀ t : Fin (cfg0 a).N, ((cfg0 a).win 3).flush t = true :=
  (by decide +kernel : ∀ t : Fin grid0.N, Pipeline.Window.flushOf grid0 true cc0_transform_3 t = true)

/-- The kernel body at point `t`, on the staging buffers the pipeline is on there. -/
abbrev bodyAt0 (a : (pcfg0 (F := F)).Adm) (t : Fin (cfg0 a).N) : Prog (TpuEff nD τ sig (Elt F) Λ₀ .tc) PUnit :=
  cc0__delta_kernel (grid0.coords t) (Memref.whole main_v84) (Memref.isWhole_whole _) (Memref.whole main_v87) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

/-- Each window's current staging memref at point `t`, and its wholeness. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x1024 .f32 := spec0_3.stage ((cfgM m hO).slots t 3)
abbrev hs0_3 (hO : Ok m) (t : Fin (cfgM m hO).N) : (ms0_3 m hO t).IsWhole := hstage0_3 (((cfgM m hO).slots t 3).cast nbuf0_3)

/-! ## What each case leaves in the output's staging buffer -/

theorem zero2 : (![0, 0] : Fin 2 → Nat) = fun _ => 0 := by funext a; fin_cases a <;> rfl
theorem zero3 : (![0, 0, 0] : Fin 3 → Nat) = fun _ => 0 := by funext a; fin_cases a <;> rfl

/-- In the case of a nonzero word the one store of the run covers the whole block, -/
theorem coverValid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : k0_cond1 (wordAt c i xt1) = 1#1) (hc2 : ¬ k0_cond2 (wordAt c i xt1) = 1#1) (y : S256x1024.Idx) :
    ∃ pc ∈ (runValid c i arg4 harg4 arg5 harg5 arg6 harg6 arg7 harg7 x0 x1 x2 xt0 xt1 hc1 hc2).1, y ∈ pc.1.set :=
  View.cover_of_wholeMem (runValid c i arg4 harg4 arg5 harg5 arg6 harg6 arg7 harg7 x0 x1 x2 xt0 xt1 hc1 hc2).1 (by sl_whole_mem) y

/-- so the buffer ends, read through any view and over any earlier contents, at the product of the two blocks plus the bias row. -/
theorem readValid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : k0_cond1 (wordAt c i xt1) = 1#1) (hc2 : ¬ k0_cond2 (wordAt c i xt1) = 1#1)
    {sig' : RefSig} {κ' : Kind} {sp' : Space} (v : View sig' κ' sp' S256x1024 .f32) (f : v.ty.Contents (Elt F)) :
    v.read (Elt F) (v.writes (Elt F) f (runValid c i arg4 harg4 arg5 harg5 arg6 harg6 arg7 harg7 x0 x1 x2 xt0 xt1 hc1 hc2).1) = k0_pay1 x0 x1 x2 := by
  rw [View.read_writes_eq_canon _ _ _ (coverValid c i arg4 harg4 arg5 harg5 arg6 harg6 arg7 harg7 x0 x1 x2 xt0 xt1 hc1 hc2)]
  unfold runValid
  dsimp only
  sl_unfold_words
  rw [View.canon_unit_zero zero2]
  simp only [View.readAt_eq_ld, harg4.read_unread, harg5.read_unread, harg6.read_unread,
    View.ld_unit_zero (S := S256x2048) zero2, View.ld_unit_zero (S := S1x1024x2048) zero3, View.ld_unit_zero (S := S1x1024) zero2]

theorem coverInvalid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : ¬ k0_cond1 (wordAt c i xt1) = 1#1) (hc2 : k0_cond2 (wordAt c i xt1) = 1#1) (y : S256x1024.Idx) :
    ∃ pc ∈ (runInvalid c i arg4 harg4 arg5 harg5 arg6 harg6 arg7 harg7 x0 x1 x2 xt0 xt1 hc1 hc2).1, y ∈ pc.1.set :=
  View.cover_of_wholeMem (runInvalid c i arg4 harg4 arg5 harg5 arg6 harg6 arg7 harg7 x0 x1 x2 xt0 xt1 hc1 hc2).1 (by sl_whole_mem) y

theorem readInvalid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : ¬ k0_cond1 (wordAt c i xt1) = 1#1) (hc2 : k0_cond2 (wordAt c i xt1) = 1#1)
    {sig' : RefSig} {κ' : Kind} {sp' : Space} (v : View sig' κ' sp' S256x1024 .f32) (f : v.ty.Contents (Elt F)) :
    v.read (Elt F) (v.writes (Elt F) f (runInvalid c i arg4 harg4 arg5 harg5 arg6 harg6 arg7 harg7 x0 x1 x2 xt0 xt1 hc1 hc2).1) = k0_pay2 := by
  rw [View.read_writes_eq_canon _ _ _ (coverInvalid c i arg4 harg4 arg5 harg5 arg6 harg6 arg7 harg7 x0 x1 x2 xt0 xt1 hc1 hc2)]
  unfold runInvalid
  dsimp only
  sl_unfold_words
  rw [View.canon_unit_zero zero2]

/-! ## What the output's staging buffer holds after each point -/

/-- The word of the validity table that the body loads at point `t`. -/
abbrev wordOf (hO : Ok m) (c : Dev nD) (t : Fin (cfgM m hO).N) : BitVec 32 := wordAt c (grid0.coords t) (tbl m 1)

/-- After the body at point `t` the output's staging buffer holds, where the table's word is nonzero, the product of the
    row block and the weight block plus the bias row, and zeros where it is zero. -/
def outsAt (hO : Ok m) (c : Dev nD) (t : Fin (cfgM m hO).N) : Vec F S256x1024 .f32 :=
  if wordOf m hO c t = 0#32 then k0_pay2 else k0_pay1 (iblk m hO c 0 t) (iblk m hO c 1 t) (iblk m hO c 2 t)

theorem wordOf_ix (hO : Ok m) (c : Dev nD) (t : Fin (cfgM m hO).N) :
    wordOf m hO c t = tbl m 1 (ValueIdx.ix1 (n := 8) ((grid0.coords t) 1)) := wordAt_ix c (grid0.coords t) (tbl m 1)

theorem outsAt_valid (hO : Ok m) (c : Dev nD) (t : Fin (cfgM m hO).N) (h : wordOf m hO c t ≠ 0#32) :
    outsAt m hO c t = k0_pay1 (iblk m hO c 0 t) (iblk m hO c 1 t) (iblk m hO c 2 t) := by
  unfold outsAt; rw [if_neg h]

theorem outsAt_invalid (hO : Ok m) (c : Dev nD) (t : Fin (cfgM m hO).N) (h : wordOf m hO c t = 0#32) :
    outsAt m hO c t = k0_pay2 := by
  unfold outsAt; rw [if_pos h]

/-! ## The pipeline's proof data -/

/-- The proof data of the one pipeline on core `c`: the arrays as the region finds them; after the body at point `t` each
    input's buffer at its block and the output's at `outsAt`; the invariant the scoped rest and the tables' halves; nothing
    owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outsAt m hO c t
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outsAt m hO c t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- At a point that writes the window's block back, the body obligation asks for the stated contents whether or not the
    point is declared idle for the window. -/
theorem leavesExact_of_flush {cfg : Pipeline.Cfg sig Λ₀} {c : Dev nD} (dat : Dat τ (Elt F) Unit ℕ (UR sig nD τ) ℕ cfg c)
    (w : Fin cfg.W) (t : Fin cfg.N) (hf : (cfg.win w).flush t = true) :
    (dat.leavesExact w t : sProp 𝕄) = owns (c : Thread nD τ) ((cfg.win w).stage (cfg.slots t w)) fullShare (dat.after w t) := by
  unfold Dat.leavesExact; rw [hf]; cases cfg.idle w (cfg.grid.coords t) <;> rfl

/-! ## The body obligation, at a generic point -/

/-- What the body is called with at point `t`: the invariant, what the core owes, and each window's current staging
    buffer at what it then holds. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- What the body returns: the same invariant and dues, the inputs' buffers at their blocks, and the output's buffer at
    what the obligation asks of it at this point. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (dats m hO 0 c).leavesExact 3 t)

/-- The body at any point: the inputs' buffers hold their blocks, the tables' halves pass through unread, and by cases on
    the loaded word the run of that case applies; its one store covers the output's block. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [leavesExact_of_flush (dats m hO 0 c) 3 t (flush0_3 (adm m hO) t)]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  by_cases h : wordOf m hO c t = 0#32
  · rw [outsAt_invalid m hO c t h]
    iintro ⟨⟨HΦ, ⟨HT0, HT1⟩⟩, Ho, ⟨%d0, H0⟩, ⟨%d1, H1⟩, ⟨%d2, H2⟩, ⟨%d3, H3⟩⟩
    iapply ((runInvalid c (grid0.coords t) _ (hs0_0 m hO t) _ (hs0_1 m hO t) _ (hs0_2 m hO t) _ (hs0_3 m hO t) (iblk m hO c 0 t) (iblk m hO c 1 t) (iblk m hO c 2 t) (tbl m 0) (tbl m 1)
      (fun h1 => (cond1_iff _).mp h1 h) ((cond2_iff _).mpr h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact readInvalid c _ _ _ _ _ _ _ _ _ _ _ _ _ _ _ _ _ _
  · rw [outsAt_valid m hO c t h]
    iintro ⟨⟨HΦ, ⟨HT0, HT1⟩⟩, Ho, ⟨%d0, H0⟩, ⟨%d1, H1⟩, ⟨%d2, H2⟩, ⟨%d3, H3⟩⟩
    iapply ((runValid c (grid0.coords t) _ (hs0_0 m hO t) _ (hs0_1 m hO t) _ (hs0_2 m hO t) _ (hs0_3 m hO t) (iblk m hO c 0 t) (iblk m hO c 1 t) (iblk m hO c 2 t) (tbl m 0) (tbl m 1)
      ((cond1_iff _).mpr h) (fun h2 => h ((cond2_iff _).mp h2))).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact readValid c _ _ _ _ _ _ _ _ _ _ _ _ _ _ _ _ _ _

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

/-! ## The run -/

set_option backward.isDefEq.respectTransparency.types false in
/-- At the compiled mesh, from any memory with zero counters: every weakly fair execution of the program on the TensorCores
    terminates, and every final state has every array of the pipeline at what the library computes from the proof data and
    every other unscoped buffer as the host operations after the region leave it. -/
theorem run_main (hO : Ok m) : θ_run defs (onTc (τ := τ) (main (F := F))) (s₀ m ρ)
    (Pipeline.FramePost (Pipeline.pin pcfgs fun _ => adm m hO) (dats m hO) 0 (Pipeline.afterTail pcfgs (fun _ => adm m hO) (dats m hO) 0 (V0 m) [hostOps1])) :=
  Pipeline.θ_run_frameP_around pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-! ## The frame -/

/-- The tables the program computes keep every table-indexed weight block inside the weight array. -/
theorem ok : Ok m := ok0_tbl m

/-- The program runs to the end from any memory with zero counters, and its twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (ok m) (dats m (ok m)) (A_eq m (ok m)) (run_main m ρ (ok m))

end Cert.Kernel.Hand

end
-- ==== Proof.KI.Base.lean ====
/-
  The contents of every TensorCore buffer when the kernel region is entered: the launch memory after the host
  operations that come before the region, as a valuation and read at a reference.
-/
import proofs.«421023_j28973849379100_3_alg».proof.Proof.Gen.KernelIdeal.Launch
import proofs.«421023_j28973849379100_3_alg».proof.Proof.Gen.KernelIdeal.Skeleton
import Idealize.ShloMosaic.Lib.Pipeline.FrameSuffix
import Idealize.ShloMosaic.Lib.StableHlo.Run

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The host operations before the region, stretch by stretch, in program order. -/
abbrev preOps : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15, hostOps0_16]

/-- Core `c`'s buffer contents when the region is entered, as a valuation. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.KI.Kit.lean ====
/-
  The launch side of the frame of @main: host operations, the one region with its two prefetched tables, host
  operations again. What is here: the host stretches before and after the region touch only what they may and allocate
  nothing; @main reduces to the region continued by the last stretch; no host operation writes an argument array; the
  tables' contents when the region is entered, and the pipeline at them; each window's block at a grid point; and how
  a run of the region to the library's frame post gives the frame claim's post and the result buffer's contents.
-/
import proofs.«421023_j28973849379100_3_alg».proof.Proof.KI.Base
import Idealize.ShloMosaic.Lib.Pipeline.FrameBody
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- An operation whose one written buffer is the reference `y`, a member of the list `W`, writes within `W`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw]; exact Finset.singleton_subset_iff.mpr (List.mem_toFinset.mpr (List.mem_map_of_mem hy))

/-- A reference outside a list holding everything the stretches write keeps its contents through all of them. -/
theorem after_flatten_of_writes_sub {W : List (Ref sig .tc)} {r : Ref sig .tc} (opss : List (List (HloOp τ sig (Elt F))))
    (V : Valuation τ sig (Elt F))
    (hW : opss.Forall fun ops => ops.Forall fun op => op.writes ⊆ (W.map (Proc.devRef (τ := τ) .tc)).toFinset) (hr : r ∉ W) :
    StableHlo.after opss.flatten V (Proc.devRef .tc r) = V (Proc.devRef .tc r) :=
  StableHlo.after_of_forall_not_mem _ V fun op hop hb => by
    obtain ⟨ops, hops, hop'⟩ := List.mem_flatten.mp hop
    obtain ⟨y, hy, he⟩ := List.mem_map.mp (List.mem_toFinset.mp
      ((List.forall_iff_forall_mem.mp ((List.forall_iff_forall_mem.mp hW) ops hops)) op hop' hb))
    exact hr (Proc.devRef_injective _ he ▸ hy)

/-- The references the host operations before the region write, in program order: one per operation, all distinct. -/
def preW : List (Ref sig .tc) :=
  [main_c, main_v0, main_v1, main_c_0, main_v2, main_v3, main_v4, main_c_1, main_call0_v0, main_call0_v1,
   main_v5, main_call1_v0, main_call1_v1_0, main_v6, main_c_2, main_v7, main_v8, main_c_3, main_v9, main_v10,
   main_v11, main_v12, main_v13, main_v14, main_c_4, main_v15, main_v16, main_c_5, main_v17, main_v18,
   main_v19, main_v20, main_v21, main_c_6, main_v22, main_c_7, main_call2_v0, main_call2_v1, main_v23, main_c_8,
   main_v24, main_v25, main_c_9, main_v26, main_v27, main_v28, main_v29, main_c_10, main_v30, main_v31,
   main_c_11, main_v32, main_call3_call0_c, main_call3_call0_v0, main_v33, main_v34, main_v35, main_c_12, main_v36, main_v37,
   main_c_13, main_v38, main_v39, main_c_14, main_call4_v0, main_call4_v1, main_call4_v2, main_call4_v3, main_call4_v4, main_call4_v5,
   main_call4_v6, main_call4_v7, main_call4_v8, main_call4_c, main_call4_v9, main_call4_v10, main_call4_v11, main_call4_c_0, main_call4_v12, main_call4_v13,
   main_v40, main_c_15, main_v41, main_v42, main_c_16, main_v43, main_call5_call0_c, main_call5_call0_v0, main_v44, main_v45,
   main_v46, main_v47, main_c_17, main_v48, main_v49, main_c_18, main_v50, main_v51, main_v52, main_v53,
   main_v54, main_v55, main_c_19, main_v56, main_v57, main_c_20, main_v58, main_v59, main_v60, main_v61,
   main_v62, main_v63, main_cst, main_v64, main_c_21, main_v65, main_v66, main_c_22, main_v67, main_v68,
   main_v69, main_v70, main_v71, main_c_23, main_call6_v0, main_call6_v1, main_call6_v2, main_call6_v3, main_call6_v4, main_call6_v5,
   main_call6_v6, main_call6_v7, main_call6_v8, main_call6_c, main_call6_v9, main_call6_v10, main_call6_v11, main_call6_c_0, main_call6_v12, main_call6_v13,
   main_v72, main_call7_call0_c, main_call7_call0_v0, main_v73, main_v74, main_v75, main_v76, main_v77, main_v78, main_v79,
   main_v80, main_v81, main_v82, main_c_24, main_v83, main_c_25, main_c_26, main_call8_v0, main_call8_v1, main_call8_v2,
   main_call8_v3, main_call8_v4, main_v84, main_v85, main_v86, main_v87, main_c_27, main_v88, main_c_28, main_v89,
   main_v90, main_c_29, main_v91, main_v92, main_v93, main_v94, main_v95, main_v96, main_v97, main_c_30,
   main_v98, main_v99, main_v100, main_v101, main_v102, main_v103, main_v104, main_v105, main_c_31, main_v106,
   main_v107, main_v108, main_v109, main_v110, main_v111, main_v112, main_v113, main_v114, main_v115, main_v116,
   main_c_32, main_v117, main_v118, main_v119, main_v120, main_v121, main_v122, main_v123, main_v124, main_v125,
   main_v126, main_v127, main_v128, main_v129, main_v130, main_v131, main_v132, main_v133, main_c_33, main_v134,
   main_v135, main_v136, main_v137, main_v138, main_v139, main_v140, main_v141, main_c_34, main_v142, main_v143,
   main_v144, main_v145, main_v146, main_v147, main_v148, main_v149, main_v150, main_v151, main_v152, main_c_35,
   main_v153, main_v154, main_v155, main_v156, main_v157, main_v158, main_v159, main_v160, main_v161, main_v162,
   main_v163, main_v164, main_v165, main_v166, main_v167, main_v168, main_v169]

/-- The references the host operations after the region write. -/
def tailW : List (Ref sig .tc) :=
  [main_c_36, main_v171, main_v172, main_c_37, main_v173, main_v174, main_v175, main_v176, main_v177]

theorem hostOps0_W : (hostOps0 : List (HloOp τ sig (Elt F))).Forall fun op => op.writes ⊆ (preW.map (Proc.devRef (τ := τ) .tc)).toFinset :=
  ⟨writes_sub_of_mem main_c rfl (by decide), writes_sub_of_mem main_v0 rfl (by decide), writes_sub_of_mem main_v1 rfl (by decide), writes_sub_of_mem main_c_0 rfl (by decide),
   writes_sub_of_mem main_v2 rfl (by decide), writes_sub_of_mem main_v3 rfl (by decide), writes_sub_of_mem main_v4 rfl (by decide), writes_sub_of_mem main_c_1 rfl (by decide)⟩
theorem hostOps0_fresh : (hostOps0 : List (HloOp τ sig (Elt F))).Forall fun op => op.fresh = ∅ :=
  ⟨rfl, rfl, rfl, rfl, rfl, rfl, rfl, rfl⟩
theorem hostOps0_1_W : (hostOps0_1 : List (HloOp τ sig (Elt F))).Forall fun op => op.writes ⊆ (preW.map (Proc.devRef (τ := τ) .tc)).toFinset :=
  ⟨writes_sub_of_mem main_call0_v0 rfl (by decide), writes_sub_of_mem main_call0_v1 rfl (by decide), writes_sub_of_mem main_v5 rfl (by decide)⟩
theorem hostOps0_1_fresh : (hostOps0_1 : List (HloOp τ sig (Elt F))).Forall fun op => op.fresh = ∅ :=
  ⟨rfl, rfl, rfl⟩
theorem hostOps0_2_W : (hostOps0_2 : List (HloOp τ sig (Elt F))).Forall fun op => op.writes ⊆ (preW.map (Proc.devRef (τ := τ) .tc)).toFinset :=
  ⟨writes_sub_of_mem main_call1_v0 rfl (by decide), writes_sub_of_mem main_call1_v1_0 rfl (by decide), writes_sub_of_mem main_v6 rfl (by decide)⟩
theorem hostOps0_2_fresh : (hostOps0_2 : List (HloOp τ sig (Elt F))).Forall fun op => op.fresh = ∅ :=
  ⟨rfl, rfl, rfl⟩
theorem hostOps0_3_W : (hostOps0_3 : List (HloOp τ sig (Elt F))).Forall fun op => op.writes ⊆ (preW.map (Proc.devRef (τ := τ) .tc)).toFinset :=
  ⟨writes_sub_of_mem main_c_2 rfl (by decide), writes_sub_of_mem main_v7 rfl (by decide), writes_sub_of_mem main_v8 rfl (by decide), writes_sub_of_mem main_c_3 rfl (by decide),
   writes_sub_of_mem main_v9 rfl (by decide), writes_sub_of_mem main_v10 rfl (by decide), writes_sub_of_mem main_v11 rfl (by decide), writes_sub_of_mem main_v12 rfl (by decide),
   writes_sub_of_mem main_v13 rfl (by decide), writes_sub_of_mem main_v14 rfl (by decide), writes_sub_of_mem main_c_4 rfl (by decide), writes_sub_of_mem main_v15 rfl (by decide),
   writes_sub_of_mem main_v16 rfl (by decide), writes_sub_of_mem main_c_5 rfl (by decide), writes_sub_of_mem main_v17 rfl (by decide), writes_sub_of_mem main_v18 rfl (by decide),
   writes_sub_of_mem main_v19 rfl (by decide), writes_sub_of_mem main_v20 rfl (by decide), writes_sub_of_mem main_v21 rfl (by decide), writes_sub_of_mem main_c_6 rfl (by decide),
   writes_sub_of_mem main_v22 rfl (by decide), writes_sub_of_mem main_c_7 rfl (by decide)⟩
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem hostOps0_4_W : (hostOps0_4 : List (HloOp τ sig (Elt F))).Forall fun op => op.writes ⊆ (preW.map (Proc.devRef (τ := τ) .tc)).toFinset :=
  ⟨writes_sub_of_mem main_call2_v0 rfl (by decide), writes_sub_of_mem main_call2_v1 rfl (by decide), writes_sub_of_mem main_v23 rfl (by decide)⟩
theorem hostOps0_4_fresh : (hostOps0_4 : List (HloOp τ sig (Elt F))).Forall fun op => op.fresh = ∅ :=
  ⟨rfl, rfl, rfl⟩
theorem hostOps0_5_W : (hostOps0_5 : List (HloOp τ sig (Elt F))).Forall fun op => op.writes ⊆ (preW.map (Proc.devRef (τ := τ) .tc)).toFinset :=
  ⟨writes_sub_of_mem main_c_8 rfl (by decide), writes_sub_of_mem main_v24 rfl (by decide), writes_sub_of_mem main_v25 rfl (by decide), writes_sub_of_mem main_c_9 rfl (by decide),
   writes_sub_of_mem main_v26 rfl (by decide), writes_sub_of_mem main_v27 rfl (by decide), writes_sub_of_mem main_v28 rfl (by decide), writes_sub_of_mem main_v29 rfl (by decide),
   writes_sub_of_mem main_c_10 rfl (by decide), writes_sub_of_mem main_v30 rfl (by decide), writes_sub_of_mem main_v31 rfl (by decide), writes_sub_of_mem main_c_11 rfl (by decide),
   writes_sub_of_mem main_v32 rfl (by decide)⟩
theorem hostOps0_5_fresh : (hostOps0_5 : List (HloOp τ sig (Elt F))).Forall fun op => op.fresh = ∅ :=
  ⟨rfl, rfl, rfl, rfl, rfl, rfl, rfl, rfl, rfl, rfl, rfl, rfl, rfl⟩
theorem hostOps0_6_W : (hostOps0_6 : List (HloOp τ sig (Elt F))).Forall fun op => op.writes ⊆ (preW.map (Proc.devRef (τ := τ) .tc)).toFinset :=
  ⟨writes_sub_of_mem main_call3_call0_c rfl (by decide), writes_sub_of_mem main_call3_call0_v0 rfl (by decide), writes_sub_of_mem main_v33 rfl (by decide)⟩
theorem hostOps0_6_fresh : (hostOps0_6 : List (HloOp τ sig (Elt F))).Forall fun op => op.fresh = ∅ :=
  ⟨rfl, rfl, rfl⟩
theorem hostOps0_7_W : (hostOps0_7 : List (HloOp τ sig (Elt F))).Forall fun op => op.writes ⊆ (preW.map (Proc.devRef (τ := τ) .tc)).toFinset :=
  ⟨writes_sub_of_mem main_v34 rfl (by decide), writes_sub_of_mem main_v35 rfl (by decide), writes_sub_of_mem main_c_12 rfl (by decide), writes_sub_of_mem main_v36 rfl (by decide),
   writes_sub_of_mem main_v37 rfl (by decide), writes_sub_of_mem main_c_13 rfl (by decide), writes_sub_of_mem main_v38 rfl (by decide), writes_sub_of_mem main_v39 rfl (by decide),
   writes_sub_of_mem main_c_14 rfl (by decide)⟩
theorem hostOps0_7_fresh : (hostOps0_7 : List (HloOp τ sig (Elt F))).Forall fun op => op.fresh = ∅ :=
  ⟨rfl, rfl, rfl, rfl, rfl, rfl, rfl, rfl, rfl⟩
theorem hostOps0_8_W : (hostOps0_8 : List (HloOp τ sig (Elt F))).Forall fun op => op.writes ⊆ (preW.map (Proc.devRef (τ := τ) .tc)).toFinset :=
  ⟨writes_sub_of_mem main_call4_v0 rfl (by decide), writes_sub_of_mem main_call4_v1 rfl (by decide), writes_sub_of_mem main_call4_v2 rfl (by decide), writes_sub_of_mem main_call4_v3 rfl (by decide),
   writes_sub_of_mem main_call4_v4 rfl (by decide), writes_sub_of_mem main_call4_v5 rfl (by decide), writes_sub_of_mem main_call4_v6 rfl (by decide), writes_sub_of_mem main_call4_v7 rfl (by decide),
   writes_sub_of_mem main_call4_v8 rfl (by decide), writes_sub_of_mem main_call4_c rfl (by decide), writes_sub_of_mem main_call4_v9 rfl (by decide), writes_sub_of_mem main_call4_v10 rfl (by decide),
   writes_sub_of_mem main_call4_v11 rfl (by decide), writes_sub_of_mem main_call4_c_0 rfl (by decide), writes_sub_of_mem main_call4_v12 rfl (by decide), writes_sub_of_mem main_call4_v13 rfl (by decide),
   writes_sub_of_mem main_v40 rfl (by decide)⟩
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl⟩
theorem hostOps0_9_W : (hostOps0_9 : List (HloOp τ sig (Elt F))).Forall fun op => op.writes ⊆ (preW.map (Proc.devRef (τ := τ) .tc)).toFinset :=
  ⟨writes_sub_of_mem main_c_15 rfl (by decide), writes_sub_of_mem main_v41 rfl (by decide), writes_sub_of_mem main_v42 rfl (by decide), writes_sub_of_mem main_c_16 rfl (by decide),
   writes_sub_of_mem main_v43 rfl (by decide)⟩
theorem hostOps0_9_fresh : (hostOps0_9 : List (HloOp τ sig (Elt F))).Forall fun op => op.fresh = ∅ :=
  ⟨rfl, rfl, rfl, rfl, rfl⟩
theorem hostOps0_10_W : (hostOps0_10 : List (HloOp τ sig (Elt F))).Forall fun op => op.writes ⊆ (preW.map (Proc.devRef (τ := τ) .tc)).toFinset :=
  ⟨writes_sub_of_mem main_call5_call0_c rfl (by decide), writes_sub_of_mem main_call5_call0_v0 rfl (by decide), writes_sub_of_mem main_v44 rfl (by decide)⟩
theorem hostOps0_10_fresh : (hostOps0_10 : List (HloOp τ sig (Elt F))).Forall fun op => op.fresh = ∅ :=
  ⟨rfl, rfl, rfl⟩
theorem hostOps0_11_W : (hostOps0_11 : List (HloOp τ sig (Elt F))).Forall fun op => op.writes ⊆ (preW.map (Proc.devRef (τ := τ) .tc)).toFinset :=
  ⟨writes_sub_of_mem main_v45 rfl (by decide), writes_sub_of_mem main_v46 rfl (by decide), writes_sub_of_mem main_v47 rfl (by decide), writes_sub_of_mem main_c_17 rfl (by decide),
   writes_sub_of_mem main_v48 rfl (by decide), writes_sub_of_mem main_v49 rfl (by decide), writes_sub_of_mem main_c_18 rfl (by decide), writes_sub_of_mem main_v50 rfl (by decide),
   writes_sub_of_mem main_v51 rfl (by decide), writes_sub_of_mem main_v52 rfl (by decide), writes_sub_of_mem main_v53 rfl (by decide), writes_sub_of_mem main_v54 rfl (by decide),
   writes_sub_of_mem main_v55 rfl (by decide), writes_sub_of_mem main_c_19 rfl (by decide), writes_sub_of_mem main_v56 rfl (by decide), writes_sub_of_mem main_v57 rfl (by decide),
   writes_sub_of_mem main_c_20 rfl (by decide), writes_sub_of_mem main_v58 rfl (by decide), writes_sub_of_mem main_v59 rfl (by decide), writes_sub_of_mem main_v60 rfl (by decide),
   writes_sub_of_mem main_v61 rfl (by decide), writes_sub_of_mem main_v62 rfl (by decide), writes_sub_of_mem main_v63 rfl (by decide), writes_sub_of_mem main_cst rfl (by decide),
   writes_sub_of_mem main_v64 rfl (by decide), writes_sub_of_mem main_c_21 rfl (by decide), writes_sub_of_mem main_v65 rfl (by decide), writes_sub_of_mem main_v66 rfl (by decide),
   writes_sub_of_mem main_c_22 rfl (by decide), writes_sub_of_mem main_v67 rfl (by decide), writes_sub_of_mem main_v68 rfl (by decide), writes_sub_of_mem main_v69 rfl (by decide),
   writes_sub_of_mem main_v70 rfl (by decide), writes_sub_of_mem main_v71 rfl (by decide), writes_sub_of_mem main_c_23 rfl (by decide)⟩
theorem hostOps0_11_fresh : (hostOps0_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_12_W : (hostOps0_12 : List (HloOp τ sig (Elt F))).Forall fun op => op.writes ⊆ (preW.map (Proc.devRef (τ := τ) .tc)).toFinset :=
  ⟨writes_sub_of_mem main_call6_v0 rfl (by decide), writes_sub_of_mem main_call6_v1 rfl (by decide), writes_sub_of_mem main_call6_v2 rfl (by decide), writes_sub_of_mem main_call6_v3 rfl (by decide),
   writes_sub_of_mem main_call6_v4 rfl (by decide), writes_sub_of_mem main_call6_v5 rfl (by decide), writes_sub_of_mem main_call6_v6 rfl (by decide), writes_sub_of_mem main_call6_v7 rfl (by decide),
   writes_sub_of_mem main_call6_v8 rfl (by decide), writes_sub_of_mem main_call6_c rfl (by decide), writes_sub_of_mem main_call6_v9 rfl (by decide), writes_sub_of_mem main_call6_v10 rfl (by decide),
   writes_sub_of_mem main_call6_v11 rfl (by decide), writes_sub_of_mem main_call6_c_0 rfl (by decide), writes_sub_of_mem main_call6_v12 rfl (by decide), writes_sub_of_mem main_call6_v13 rfl (by decide),
   writes_sub_of_mem main_v72 rfl (by decide)⟩
theorem hostOps0_12_fresh : (hostOps0_12 : List (HloOp τ sig (Elt F))).Forall fun op => op.fresh = ∅ :=
  ⟨rfl, rfl, rfl, rfl, rfl, rfl, rfl, rfl, rfl, rfl, rfl, rfl, rfl, rfl, rfl, rfl, rfl⟩
theorem hostOps0_13_W : (hostOps0_13 : List (HloOp τ sig (Elt F))).Forall fun op => op.writes ⊆ (preW.map (Proc.devRef (τ := τ) .tc)).toFinset :=
  ⟨writes_sub_of_mem main_call7_call0_c rfl (by decide), writes_sub_of_mem main_call7_call0_v0 rfl (by decide), writes_sub_of_mem main_v73 rfl (by decide)⟩
theorem hostOps0_13_fresh : (hostOps0_13 : List (HloOp τ sig (Elt F))).Forall fun op => op.fresh = ∅ :=
  ⟨rfl, rfl, rfl⟩
theorem hostOps0_14_W : (hostOps0_14 : List (HloOp τ sig (Elt F))).Forall fun op => op.writes ⊆ (preW.map (Proc.devRef (τ := τ) .tc)).toFinset :=
  ⟨writes_sub_of_mem main_v74 rfl (by decide), writes_sub_of_mem main_v75 rfl (by decide), writes_sub_of_mem main_v76 rfl (by decide), writes_sub_of_mem main_v77 rfl (by decide),
   writes_sub_of_mem main_v78 rfl (by decide), writes_sub_of_mem main_v79 rfl (by decide), writes_sub_of_mem main_v80 rfl (by decide), writes_sub_of_mem main_v81 rfl (by decide),
   writes_sub_of_mem main_v82 rfl (by decide), writes_sub_of_mem main_c_24 rfl (by decide), writes_sub_of_mem main_v83 rfl (by decide), writes_sub_of_mem main_c_25 rfl (by decide),
   writes_sub_of_mem main_c_26 rfl (by decide)⟩
theorem hostOps0_14_fresh : (hostOps0_14 : List (HloOp τ sig (Elt F))).Forall fun op => op.fresh = ∅ :=
  ⟨rfl, rfl, rfl, rfl, rfl, rfl, rfl, rfl, rfl, rfl, rfl, rfl, rfl⟩
theorem hostOps0_15_W : (hostOps0_15 : List (HloOp τ sig (Elt F))).Forall fun op => op.writes ⊆ (preW.map (Proc.devRef (τ := τ) .tc)).toFinset :=
  ⟨writes_sub_of_mem main_call8_v0 rfl (by decide), writes_sub_of_mem main_call8_v1 rfl (by decide), writes_sub_of_mem main_call8_v2 rfl (by decide), writes_sub_of_mem main_call8_v3 rfl (by decide),
   writes_sub_of_mem main_call8_v4 rfl (by decide), writes_sub_of_mem main_v84 rfl (by decide)⟩
theorem hostOps0_15_fresh : (hostOps0_15 : List (HloOp τ sig (Elt F))).Forall fun op => op.fresh = ∅ :=
  ⟨rfl, rfl, rfl, rfl, rfl, rfl⟩
theorem hostOps0_16_W : (hostOps0_16 : List (HloOp τ sig (Elt F))).Forall fun op => op.writes ⊆ (preW.map (Proc.devRef (τ := τ) .tc)).toFinset :=
  ⟨writes_sub_of_mem main_v85 rfl (by decide), writes_sub_of_mem main_v86 rfl (by decide), writes_sub_of_mem main_v87 rfl (by decide), writes_sub_of_mem main_c_27 rfl (by decide),
   writes_sub_of_mem main_v88 rfl (by decide), writes_sub_of_mem main_c_28 rfl (by decide), writes_sub_of_mem main_v89 rfl (by decide), writes_sub_of_mem main_v90 rfl (by decide),
   writes_sub_of_mem main_c_29 rfl (by decide), writes_sub_of_mem main_v91 rfl (by decide), writes_sub_of_mem main_v92 rfl (by decide), writes_sub_of_mem main_v93 rfl (by decide),
   writes_sub_of_mem main_v94 rfl (by decide), writes_sub_of_mem main_v95 rfl (by decide), writes_sub_of_mem main_v96 rfl (by decide), writes_sub_of_mem main_v97 rfl (by decide),
   writes_sub_of_mem main_c_30 rfl (by decide), writes_sub_of_mem main_v98 rfl (by decide), writes_sub_of_mem main_v99 rfl (by decide), writes_sub_of_mem main_v100 rfl (by decide),
   writes_sub_of_mem main_v101 rfl (by decide), writes_sub_of_mem main_v102 rfl (by decide), writes_sub_of_mem main_v103 rfl (by decide), writes_sub_of_mem main_v104 rfl (by decide),
   writes_sub_of_mem main_v105 rfl (by decide), writes_sub_of_mem main_c_31 rfl (by decide), writes_sub_of_mem main_v106 rfl (by decide), writes_sub_of_mem main_v107 rfl (by decide),
   writes_sub_of_mem main_v108 rfl (by decide), writes_sub_of_mem main_v109 rfl (by decide), writes_sub_of_mem main_v110 rfl (by decide), writes_sub_of_mem main_v111 rfl (by decide),
   writes_sub_of_mem main_v112 rfl (by decide), writes_sub_of_mem main_v113 rfl (by decide), writes_sub_of_mem main_v114 rfl (by decide), writes_sub_of_mem main_v115 rfl (by decide),
   writes_sub_of_mem main_v116 rfl (by decide), writes_sub_of_mem main_c_32 rfl (by decide), writes_sub_of_mem main_v117 rfl (by decide), writes_sub_of_mem main_v118 rfl (by decide),
   writes_sub_of_mem main_v119 rfl (by decide), writes_sub_of_mem main_v120 rfl (by decide), writes_sub_of_mem main_v121 rfl (by decide), writes_sub_of_mem main_v122 rfl (by decide),
   writes_sub_of_mem main_v123 rfl (by decide), writes_sub_of_mem main_v124 rfl (by decide), writes_sub_of_mem main_v125 rfl (by decide), writes_sub_of_mem main_v126 rfl (by decide),
   writes_sub_of_mem main_v127 rfl (by decide), writes_sub_of_mem main_v128 rfl (by decide), writes_sub_of_mem main_v129 rfl (by decide), writes_sub_of_mem main_v130 rfl (by decide),
   writes_sub_of_mem main_v131 rfl (by decide), writes_sub_of_mem main_v132 rfl (by decide), writes_sub_of_mem main_v133 rfl (by decide), writes_sub_of_mem main_c_33 rfl (by decide),
   writes_sub_of_mem main_v134 rfl (by decide), writes_sub_of_mem main_v135 rfl (by decide), writes_sub_of_mem main_v136 rfl (by decide), writes_sub_of_mem main_v137 rfl (by decide),
   writes_sub_of_mem main_v138 rfl (by decide), writes_sub_of_mem main_v139 rfl (by decide), writes_sub_of_mem main_v140 rfl (by decide), writes_sub_of_mem main_v141 rfl (by decide),
   writes_sub_of_mem main_c_34 rfl (by decide), writes_sub_of_mem main_v142 rfl (by decide), writes_sub_of_mem main_v143 rfl (by decide), writes_sub_of_mem main_v144 rfl (by decide),
   writes_sub_of_mem main_v145 rfl (by decide), writes_sub_of_mem main_v146 rfl (by decide), writes_sub_of_mem main_v147 rfl (by decide), writes_sub_of_mem main_v148 rfl (by decide),
   writes_sub_of_mem main_v149 rfl (by decide), writes_sub_of_mem main_v150 rfl (by decide), writes_sub_of_mem main_v151 rfl (by decide), writes_sub_of_mem main_v152 rfl (by decide),
   writes_sub_of_mem main_c_35 rfl (by decide), writes_sub_of_mem main_v153 rfl (by decide), writes_sub_of_mem main_v154 rfl (by decide), writes_sub_of_mem main_v155 rfl (by decide),
   writes_sub_of_mem main_v156 rfl (by decide), writes_sub_of_mem main_v157 rfl (by decide), writes_sub_of_mem main_v158 rfl (by decide), writes_sub_of_mem main_v159 rfl (by decide),
   writes_sub_of_mem main_v160 rfl (by decide), writes_sub_of_mem main_v161 rfl (by decide), writes_sub_of_mem main_v162 rfl (by decide), writes_sub_of_mem main_v163 rfl (by decide),
   writes_sub_of_mem main_v164 rfl (by decide), writes_sub_of_mem main_v165 rfl (by decide), writes_sub_of_mem main_v166 rfl (by decide), writes_sub_of_mem main_v167 rfl (by decide),
   writes_sub_of_mem main_v168 rfl (by decide), writes_sub_of_mem main_v169 rfl (by decide)⟩
theorem hostOps0_16_fresh : (hostOps0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps1_W : (hostOps1 : List (HloOp τ sig (Elt F))).Forall fun op => op.writes ⊆ (tailW.map (Proc.devRef (τ := τ) .tc)).toFinset :=
  ⟨writes_sub_of_mem main_c_36 rfl (by decide), writes_sub_of_mem main_v171 rfl (by decide), writes_sub_of_mem main_v172 rfl (by decide), writes_sub_of_mem main_c_37 rfl (by decide), writes_sub_of_mem main_v173 rfl (by decide), writes_sub_of_mem main_v174 rfl (by decide), writes_sub_of_mem main_v175 rfl (by decide), writes_sub_of_mem main_v176 rfl (by decide), writes_sub_of_mem main_v177 rfl (by decide)⟩
theorem hostOps1_fresh : (hostOps1 : List (HloOp τ sig (Elt F))).Forall fun op => op.fresh = ∅ :=
  ⟨rfl, rfl, rfl, rfl, rfl, rfl, rfl, rfl, rfl⟩

/-- Every stretch before the region touches TensorCore references only, -/
theorem preOps_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩
/-- allocates nothing, -/
theorem preOps_fresh : (preOps : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩
/-- and writes within `preW`. -/
theorem preOps_W : (preOps : List (List (HloOp τ sig (Elt F)))).Forall fun ops => ops.Forall fun op => op.writes ⊆ (preW.map (Proc.devRef (τ := τ) .tc)).toFinset :=
  ⟨hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W⟩
theorem sfx_W : ([hostOps1] : List (List (HloOp τ sig (Elt F)))).Forall fun ops => ops.Forall fun op => op.writes ⊆ (tailW.map (Proc.devRef (τ := τ) .tc)).toFinset :=
  hostOps1_W

/-! ## @main around the region -/

/-- @main around the region: the seventeen stretches before it, the region, the stretch after it. It reduces to the
    region continued by that last stretch, at the contents the earlier stretches leave. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main preOps [hostOps1] preOps_sub preOps_fresh (fun c => (main_chain c).trans rfl)

/-- The stretch after the region touches the pipeline's arrays and the bypassing buffers only: TensorCore references,
    neither prefetched table among them. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl
  all_goals
    intro k
    fin_cases k <;>
      simp only [StableHlo.nullary_bufs, StableHlo.unary_bufs, StableHlo.binary_bufs, StableHlo.ternary_bufs,
        Finset.mem_insert, Finset.mem_singleton, not_or] <;>
      (repeat' apply And.intro) <;> exact StableHlo.devRef_ne_of_ne (by decide)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the pipeline: each operation writes its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  obtain ⟨y, hy, he⟩ := List.mem_map.mp (List.mem_toFinset.mp ((List.forall_iff_forall_mem.mp hostOps1_W) op hop hw))
  obtain rfl : y = Pipeline.arrRef spec0 w := Proc.devRef_injective _ he
  revert hy
  fin_cases w <;> decide

/-! ## The argument arrays when the region is entered, and at the end -/

theorem V_main_arg0 (c : Dev nD) : V m c main_arg0 = m ((c : Thread nD τ).loc main_arg0) :=
  after_flatten_of_writes_sub preOps _ preOps_W (by decide)
theorem V_main_arg1 (c : Dev nD) : V m c main_arg1 = m ((c : Thread nD τ).loc main_arg1) :=
  after_flatten_of_writes_sub preOps _ preOps_W (by decide)
theorem V_main_arg2 (c : Dev nD) : V m c main_arg2 = m ((c : Thread nD τ).loc main_arg2) :=
  after_flatten_of_writes_sub preOps _ preOps_W (by decide)
theorem V_main_arg3 (c : Dev nD) : V m c main_arg3 = m ((c : Thread nD τ).loc main_arg3) :=
  after_flatten_of_writes_sub preOps _ preOps_W (by decide)
theorem V_main_arg4 (c : Dev nD) : V m c main_arg4 = m ((c : Thread nD τ).loc main_arg4) :=
  after_flatten_of_writes_sub preOps _ preOps_W (by decide)
theorem V_main_arg5 (c : Dev nD) : V m c main_arg5 = m ((c : Thread nD τ).loc main_arg5) :=
  after_flatten_of_writes_sub preOps _ preOps_W (by decide)
theorem V_main_arg6 (c : Dev nD) : V m c main_arg6 = m ((c : Thread nD τ).loc main_arg6) :=
  after_flatten_of_writes_sub preOps _ preOps_W (by decide)
theorem V_main_arg7 (c : Dev nD) : V m c main_arg7 = m ((c : Thread nD τ).loc main_arg7) :=
  after_flatten_of_writes_sub preOps _ preOps_W (by decide)
theorem V_main_arg8 (c : Dev nD) : V m c main_arg8 = m ((c : Thread nD τ).loc main_arg8) :=
  after_flatten_of_writes_sub preOps _ preOps_W (by decide)
theorem V_main_arg9 (c : Dev nD) : V m c main_arg9 = m ((c : Thread nD τ).loc main_arg9) :=
  after_flatten_of_writes_sub preOps _ preOps_W (by decide)
theorem V_main_arg10 (c : Dev nD) : V m c main_arg10 = m ((c : Thread nD τ).loc main_arg10) :=
  after_flatten_of_writes_sub preOps _ preOps_W (by decide)
theorem V_main_arg11 (c : Dev nD) : V m c main_arg11 = m ((c : Thread nD τ).loc main_arg11) :=
  after_flatten_of_writes_sub preOps _ preOps_W (by decide)

/-! ## The prefetched tables, read off the launch memory -/

/-- The tables' contents when the region is entered (there is one device: device 0's). -/
def tbl : pre0.Contents (Elt F) := fun j => V m (0 : Dev nD) (pre0.ref j)
/-- On every device the tables hold those contents. -/
theorem V_pre (c : Dev nD) (j : Fin 2) : V m c (pre0.ref j) = tbl m j := by
  obtain rfl : c = 0 := Subsingleton.elim _ _; rfl
/-- The pipeline's side condition of the tables' contents: the window whose index map reads a table has its block inside
    the array, in whole words, at every grid point. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref. -/
abbrev tbM0_0 : Memref sig .tc .smem S8 .i32 := Memref.whole main_v84
abbrev htbM0_0 : tbM0_0.IsWhole := Memref.isWhole_whole _
abbrev tbM0_1 : Memref sig .tc .smem S8 .i32 := Memref.whole main_v87
abbrev htbM0_1 : tbM0_1.IsWhole := Memref.isWhole_whole _

/-- A table memref's buffer on core `c`: its contents type, and the buffer held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for any proof data
    whose array is the region-entry contents and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post, and the result, from the frame run's -/

theorem W_main_arg0 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [after_flatten_of_writes_sub [hostOps1] _ sfx_W (by decide),
    Pipeline.withArrays_of_ne _ c (V0 m c) _ main_arg0 (by exact (by decide : ∀ w, Pipeline.arrRef spec0 w ≠ main_arg0))]
  exact V_main_arg0 m c
theorem W_main_arg1 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [after_flatten_of_writes_sub [hostOps1] _ sfx_W (by decide),
    Pipeline.withArrays_of_ne _ c (V0 m c) _ main_arg1 (by exact (by decide : ∀ w, Pipeline.arrRef spec0 w ≠ main_arg1))]
  exact V_main_arg1 m c
theorem W_main_arg2 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [after_flatten_of_writes_sub [hostOps1] _ sfx_W (by decide),
    Pipeline.withArrays_of_ne _ c (V0 m c) _ main_arg2 (by exact (by decide : ∀ w, Pipeline.arrRef spec0 w ≠ main_arg2))]
  exact V_main_arg2 m c
theorem W_main_arg3 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [after_flatten_of_writes_sub [hostOps1] _ sfx_W (by decide),
    Pipeline.withArrays_of_ne _ c (V0 m c) _ main_arg3 (by exact (by decide : ∀ w, Pipeline.arrRef spec0 w ≠ main_arg3))]
  exact V_main_arg3 m c
theorem W_main_arg4 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [after_flatten_of_writes_sub [hostOps1] _ sfx_W (by decide),
    Pipeline.withArrays_of_ne _ c (V0 m c) _ main_arg4 (by exact (by decide : ∀ w, Pipeline.arrRef spec0 w ≠ main_arg4))]
  exact V_main_arg4 m c
theorem W_main_arg5 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [after_flatten_of_writes_sub [hostOps1] _ sfx_W (by decide),
    Pipeline.withArrays_of_ne _ c (V0 m c) _ main_arg5 (by exact (by decide : ∀ w, Pipeline.arrRef spec0 w ≠ main_arg5))]
  exact V_main_arg5 m c
theorem W_main_arg6 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [after_flatten_of_writes_sub [hostOps1] _ sfx_W (by decide),
    Pipeline.withArrays_of_ne _ c (V0 m c) _ main_arg6 (by exact (by decide : ∀ w, Pipeline.arrRef spec0 w ≠ main_arg6))]
  exact V_main_arg6 m c
theorem W_main_arg7 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [after_flatten_of_writes_sub [hostOps1] _ sfx_W (by decide),
    Pipeline.withArrays_of_ne _ c (V0 m c) _ main_arg7 (by exact (by decide : ∀ w, Pipeline.arrRef spec0 w ≠ main_arg7))]
  exact V_main_arg7 m c
theorem W_main_arg8 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg8 = m ((c : Thread nD τ).loc main_arg8) := by
  unfold Pipeline.afterTail
  rw [after_flatten_of_writes_sub [hostOps1] _ sfx_W (by decide),
    Pipeline.withArrays_of_ne _ c (V0 m c) _ main_arg8 (by exact (by decide : ∀ w, Pipeline.arrRef spec0 w ≠ main_arg8))]
  exact V_main_arg8 m c
theorem W_main_arg9 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg9 = m ((c : Thread nD τ).loc main_arg9) := by
  unfold Pipeline.afterTail
  rw [after_flatten_of_writes_sub [hostOps1] _ sfx_W (by decide),
    Pipeline.withArrays_of_ne _ c (V0 m c) _ main_arg9 (by exact (by decide : ∀ w, Pipeline.arrRef spec0 w ≠ main_arg9))]
  exact V_main_arg9 m c
theorem W_main_arg10 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg10 = m ((c : Thread nD τ).loc main_arg10) := by
  unfold Pipeline.afterTail
  rw [after_flatten_of_writes_sub [hostOps1] _ sfx_W (by decide),
    Pipeline.withArrays_of_ne _ c (V0 m c) _ main_arg10 (by exact (by decide : ∀ w, Pipeline.arrRef spec0 w ≠ main_arg10))]
  exact V_main_arg10 m c
theorem W_main_arg11 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg11 = m ((c : Thread nD τ).loc main_arg11) := by
  unfold Pipeline.afterTail
  rw [after_flatten_of_writes_sub [hostOps1] _ sfx_W (by decide),
    Pipeline.withArrays_of_ne _ c (V0 m c) _ main_arg11 (by exact (by decide : ∀ w, Pipeline.arrRef spec0 w ≠ main_arg11))]
  exact V_main_arg11 m c

/-- The frame from a frame run: no argument is an array of the pipeline, so each is read by the post's second clause,
    after the last stretch, which writes none of them. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of (win := spec0) main_arg0 (by decide) (by decide))).trans (W_main_arg0 m hO dats c),
      ((h c).2 main_arg1 (Pipeline.mem_restRefs_of (win := spec0) main_arg1 (by decide) (by decide))).trans (W_main_arg1 m hO dats c),
      ((h c).2 main_arg2 (Pipeline.mem_restRefs_of (win := spec0) main_arg2 (by decide) (by decide))).trans (W_main_arg2 m hO dats c),
      ((h c).2 main_arg3 (Pipeline.mem_restRefs_of (win := spec0) main_arg3 (by decide) (by decide))).trans (W_main_arg3 m hO dats c),
      ((h c).2 main_arg4 (Pipeline.mem_restRefs_of (win := spec0) main_arg4 (by decide) (by decide))).trans (W_main_arg4 m hO dats c),
      ((h c).2 main_arg5 (Pipeline.mem_restRefs_of (win := spec0) main_arg5 (by decide) (by decide))).trans (W_main_arg5 m hO dats c),
      ((h c).2 main_arg6 (Pipeline.mem_restRefs_of (win := spec0) main_arg6 (by decide) (by decide))).trans (W_main_arg6 m hO dats c),
      ((h c).2 main_arg7 (Pipeline.mem_restRefs_of (win := spec0) main_arg7 (by decide) (by decide))).trans (W_main_arg7 m hO dats c),
      ((h c).2 main_arg8 (Pipeline.mem_restRefs_of (win := spec0) main_arg8 (by decide) (by decide))).trans (W_main_arg8 m hO dats c),
      ((h c).2 main_arg9 (Pipeline.mem_restRefs_of (win := spec0) main_arg9 (by decide) (by decide))).trans (W_main_arg9 m hO dats c),
      ((h c).2 main_arg10 (Pipeline.mem_restRefs_of (win := spec0) main_arg10 (by decide) (by decide))).trans (W_main_arg10 m hO dats c),
      ((h c).2 main_arg11 (Pipeline.mem_restRefs_of (win := spec0) main_arg11 (by decide) (by decide))).trans (W_main_arg11 m hO dats c)⟩) h

/-- The result buffer after the last stretch: rows of the output array, as the region leaves it, gathered at the
    row indices the earlier stretches computed (a negative index wrapped once). -/
theorem W_main_v177 (hO : Ok m) (dats : (p : Fin 1) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_v177
      = Host.gather gather_S2048x8192_S1024x1_S1024x8192_1_0_n_n_0_1_18192 ((dats 0 c).arrAt 3 (cfgM m hO).N)
          (broadcastInDim S1024x1 ![0] bcast_S1024_S1024x1_0
            (select (cmpi .slt (V m c main_v95) (broadcastInDim S1024 ![] bcast_S_S1024 (constantI S_ 32 0#32)))
              (addi (V m c main_v95) (broadcastInDim S1024 ![] bcast_S_S1024 (constantI S_ 32 2048#32))) (V m c main_v95))) := by
  have e3 : Pipeline.withArrays (Pipeline.pin pcfgs (fun _ => adm m hO) 0).spec c (V0 m c)
      (fun w => (dats 0 c).arrAt w (Pipeline.pin pcfgs (fun _ => adm m hO) 0).N) (Proc.devRef .tc main_v170)
        = (dats 0 c).arrAt 3 (cfgM m hO).N :=
    Pipeline.withArrays_arr (Pipeline.pin pcfgs (fun _ => adm m hO) 0).spec (by exact (launch0 (F := F)).win.arr_inj) c (V0 m c)
      (fun w => (dats 0 c).arrAt w (Pipeline.pin pcfgs (fun _ => adm m hO) 0).N) 3
  have e95 : Pipeline.withArrays (Pipeline.pin pcfgs (fun _ => adm m hO) 0).spec c (V0 m c)
      (fun w => (dats 0 c).arrAt w (Pipeline.pin pcfgs (fun _ => adm m hO) 0).N) (Proc.devRef .tc main_v95)
        = V m c main_v95 :=
    Pipeline.withArrays_of_ne (Pipeline.pin pcfgs (fun _ => adm m hO) 0).spec c (V0 m c)
      (fun w => (dats 0 c).arrAt w (Pipeline.pin pcfgs (fun _ => adm m hO) 0).N) main_v95 (by exact (by decide : ∀ w, Pipeline.arrRef spec0 w ≠ main_v95))
  unfold Pipeline.afterTail
  show StableHlo.after hostOps1 _ (Proc.devRef .tc main_v177) = _
  after_results
  rw [e3, e95]
  rfl

/-- The value form: the result buffer and the arguments at the end of a frame run. -/
theorem result_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_v177) = Pipeline.afterTail pcfgs (fun _ => adm m hO) dats 0 (V0 m) [hostOps1] c main_v177
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).2 main_v177 (Pipeline.mem_restRefs_of (win := spec0) main_v177 (by decide) (by decide)),
      ((h c).2 main_arg0 (Pipeline.mem_restRefs_of (win := spec0) main_arg0 (by decide) (by decide))).trans (W_main_arg0 m hO dats c),
      ((h c).2 main_arg1 (Pipeline.mem_restRefs_of (win := spec0) main_arg1 (by decide) (by decide))).trans (W_main_arg1 m hO dats c),
      ((h c).2 main_arg2 (Pipeline.mem_restRefs_of (win := spec0) main_arg2 (by decide) (by decide))).trans (W_main_arg2 m hO dats c),
      ((h c).2 main_arg3 (Pipeline.mem_restRefs_of (win := spec0) main_arg3 (by decide) (by decide))).trans (W_main_arg3 m hO dats c),
      ((h c).2 main_arg4 (Pipeline.mem_restRefs_of (win := spec0) main_arg4 (by decide) (by decide))).trans (W_main_arg4 m hO dats c),
      ((h c).2 main_arg5 (Pipeline.mem_restRefs_of (win := spec0) main_arg5 (by decide) (by decide))).trans (W_main_arg5 m hO dats c),
      ((h c).2 main_arg6 (Pipeline.mem_restRefs_of (win := spec0) main_arg6 (by decide) (by decide))).trans (W_main_arg6 m hO dats c),
      ((h c).2 main_arg7 (Pipeline.mem_restRefs_of (win := spec0) main_arg7 (by decide) (by decide))).trans (W_main_arg7 m hO dats c),
      ((h c).2 main_arg8 (Pipeline.mem_restRefs_of (win := spec0) main_arg8 (by decide) (by decide))).trans (W_main_arg8 m hO dats c),
      ((h c).2 main_arg9 (Pipeline.mem_restRefs_of (win := spec0) main_arg9 (by decide) (by decide))).trans (W_main_arg9 m hO dats c),
      ((h c).2 main_arg10 (Pipeline.mem_restRefs_of (win := spec0) main_arg10 (by decide) (by decide))).trans (W_main_arg10 m hO dats c),
      ((h c).2 main_arg11 (Pipeline.mem_restRefs_of (win := spec0) main_arg11 (by decide) (by decide))).trans (W_main_arg11 m hO dats c)⟩) h

end Cert.KernelIdeal.Hand

end
-- ==== Proof.KI.Run.lean ====
/-
  The kernel body on any whole staging memrefs, in its two control cases. The body loads one word of the validity
  table, at the point's row-tile coordinate. Where the word is nonzero it multiplies the row block by the weight block,
  adds the bias row to every row of the product and stores the result over the whole output block; where the word is
  zero it stores zeros over the whole output block. Each case is a triple whose witness is the list of stores the
  output's buffer ends with: one store of the whole block.
-/
import proofs.«421023_j28973849379100_3_alg».proof.Proof.KI.Kit
import Idealize.ShloMosaic.Lib.Pipeline.FrameBody
import Idealize.ShloMosaic.Lib.Ring
import Idealize.ShloMosaic.Lib.Tactic
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions the body computes from the loaded word -/

/-- The first condition compares the word with zero, widens the bit and compares it with zero again: it holds exactly
    where the word is nonzero. -/
theorem cond1_iff (v : BitVec 32) : k0_cond1 v = 1#1 ↔ v ≠ 0#32 := by
  by_cases h : v = 0#32
  · subst h; exact ⟨fun h => absurd h (by decide), fun h => absurd rfl h⟩
  · have e : (v != 0#32) = true := by simp [bne_iff_ne, h]
    simp only [k0_cond1, Scalar.cmpi, IntOp.cmpi, Scalar.extui, e]
    exact ⟨fun _ => h, fun _ => by decide⟩

/-- The second condition flips the first comparison's bit before widening: it holds exactly where the word is zero. -/
theorem cond2_iff (v : BitVec 32) : k0_cond2 v = 1#1 ↔ v = 0#32 := by
  by_cases h : v = 0#32
  · subst h; exact ⟨fun _ => rfl, fun _ => by decide⟩
  · have e : (v != 0#32) = true := by simp [bne_iff_ne, h]
    simp only [k0_cond2, Scalar.cmpi, IntOp.cmpi, Scalar.extui, Scalar.xori, IntOp.xori, e]
    exact ⟨fun h' => absurd h' (by decide), fun h' => absurd h' h⟩

/-! ## The word the body loads -/

/-- The word of the second table that the body loads at point `i`, as the body reads it from the table's held contents. -/
abbrev wordAt (c : Dev nD) (i : grid0.Coords) (xt1 : TbBuf0 (F := F) c tbM0_1) : BitVec 32 :=
  tbM0_1.view.readAt (Elt F) (Rect.unit (s := S8) (k0_off1 i) S1.size (k0_off1_inb i)).toLoadRect xt1 (Shape.Idx.first (numel1_S1.symm ▸ Nat.one_pos))

/-- The loaded word is the table's entry at the point's row-tile coordinate. -/
theorem wordAt_ix (c : Dev nD) (i : grid0.Coords) (xt1 : TbBuf0 (F := F) c tbM0_1) :
    wordAt c i xt1 = xt1 (ValueIdx.ix1 (n := 8) (i 1)) := by
  refine congrArg xt1 ?_
  funext a; apply Fin.ext
  match a with
  | ⟨0, _⟩ =>
    show (k0_off1 i) 0 + 1 * 0 = (i 1).val
    rw [k0_off1_eq]; show (i 1).val + 1 * 0 = (i 1).val; omega

/-! ## The body's triple in each case -/

set_option maxHeartbeats 1000000 in
/-- The nonzero case: on whole staging memrefs, the inputs' at their contents, the output's at anything, and the two
    tables held at their contents, the body runs to the continuation holding the inputs as they were and the output's
    buffer with the listed stores written. -/
noncomputable def runValid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : k0_cond1 (wordAt c i xt1) = 1#1) (hc2 : ¬ k0_cond2 (wordAt c i xt1) = 1#1) :
    { L : List (View.Piece (Elt F) S256x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tbPt0 c tbM0_0 xt0 ∗ tbPt0 c tbM0_1 xt1) -∗ K ⟨⟩))
          ⊢ wp frame (wpE (defs₀ (F := F)) Variants.none c none) E (cc0__delta_kernel i tbM0_0 (Memref.isWhole_whole _) tbM0_1 (Memref.isWhole_whole _) arg4 harg4 arg5 harg5 arg6 harg6 arg7 harg7) K } := by
  refine ⟨?_, fun E K => ?run⟩
  case run =>
    simp only [cc0__delta_kernel_eq_skeleton]; unfold cc0__delta_kernel_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0
    obtain rfl := harg5.eq_unread hf1
    obtain rfl := harg6.eq_unread hf2
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

set_option maxHeartbeats 1000000 in
/-- The zero case, stated the same way. -/
noncomputable def runInvalid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : ¬ k0_cond1 (wordAt c i xt1) = 1#1) (hc2 : k0_cond2 (wordAt c i xt1) = 1#1) :
    { L : List (View.Piece (Elt F) S256x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tbPt0 c tbM0_0 xt0 ∗ tbPt0 c tbM0_1 xt1) -∗ K ⟨⟩))
          ⊢ wp frame (wpE (defs₀ (F := F)) Variants.none c none) E (cc0__delta_kernel i tbM0_0 (Memref.isWhole_whole _) tbM0_1 (Memref.isWhole_whole _) arg4 harg4 arg5 harg5 arg6 harg6 arg7 harg7) K } := by
  refine ⟨?_, fun E K => ?run⟩
  case run =>
    simp only [cc0__delta_kernel_eq_skeleton]; unfold cc0__delta_kernel_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0
    obtain rfl := harg5.eq_unread hf1
    obtain rfl := harg6.eq_unread hf2
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

end Cert.KernelIdeal.Hand

end
-- ==== Proof.KI.Tables.lean ====
/-
  The side condition on the prefetched tables: the weight window's index map reads the slot table, and its block must lie
  inside the array of weight tiles at every grid point. The slot table is clipped to `[0, 4]` by the program itself, so
  whatever the routing computes, the block's first coordinate `(i₀ / 4) * 5 + slot` is at most 9 of 10.
-/
import proofs.«421023_j28973849379100_3_alg».proof.Proof.KI.Base

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-! ### Words clipped to the slots -/

/-- A word clipped below at 0 and above at 4, read signed, lies in `[0, 4]`. -/
theorem clip_word (y : BitVec 32) :
    0 ≤ (IntOp.minsi 4#32 (IntOp.maxsi 0#32 y)).toInt ∧ (IntOp.minsi 4#32 (IntOp.maxsi 0#32 y)).toInt ≤ 4 := by
  have h4 : (4#32 : BitVec 32).toInt = 4 := by decide
  have h0 : (0#32 : BitVec 32).toInt = 0 := by decide
  unfold IntOp.minsi IntOp.maxsi
  simp only [BitVec.slt, decide_eq_true_eq, h4, h0]
  split_ifs <;> omega

/-- A word that read signed lies in `[0, 4]` is one of the five words 0 … 4. -/
theorem word_cases (w : BitVec 32) (h : 0 ≤ w.toInt ∧ w.toInt ≤ 4) :
    w = 0#32 ∨ w = 1#32 ∨ w = 2#32 ∨ w = 3#32 ∨ w = 4#32 := by
  have h32 := w.isLt
  have ht := BitVec.toInt_eq_toNat_cond w
  rcases (show w.toNat = 0 ∨ w.toNat = 1 ∨ w.toNat = 2 ∨ w.toNat = 3 ∨ w.toNat = 4 by
    split at ht <;> omega) with h | h | h | h | h
  · exact .inl (BitVec.eq_of_toNat_eq h)
  · exact .inr (.inl (BitVec.eq_of_toNat_eq h))
  · exact .inr (.inr (.inl (BitVec.eq_of_toNat_eq h)))
  · exact .inr (.inr (.inr (.inl (BitVec.eq_of_toNat_eq h))))
  · exact .inr (.inr (.inr (.inr (BitVec.eq_of_toNat_eq h))))

/-! ### The weight window's blocks, over any table of slots

The weight window's block at grid point `(i₀, i₁)` of the `[10, 4096, 2048]` array of weight tiles is
`((i₀ / 4) * 5 + table[i₁], i₀ % 4, 0)`, in blocks of `[1, 1024, 2048]`: with `i₀ < 8` and the table word in `[0, 4]` the
first coordinate is at most `5 + 4 = 9`, the second at most 3. -/

set_option maxHeartbeats 400000 in
/-- With every word of the slot table in `[0, 4]`, every block of the weight window lies inside the array. -/
theorem blk_of_word (pf : pre0.Contents (Elt F))
    (hpf : ∀ x : S8.Idx, 0 ≤ (pf 0 x : BitVec 32).toInt ∧ (pf 0 x : BitVec 32).toInt ≤ 4) (i : grid0.Coords) :
    ∀ a, (cc0_transform_1 Facts₀.k0_off1_inb Facts₀.numel1_S1 pf i a + 1) * S1x1024x2048.size a ≤ S10x4096x2048.size a := by
  obtain ⟨w, hw, e⟩ : ∃ w : BitVec 32, (0 ≤ w.toInt ∧ w.toInt ≤ 4) ∧
      pf.at 0 (Rect.unit (s := S8) ![(Scalar.indexCast (BitVec.ofNat 32 (i 1).val)).toNat] S1.size (Facts₀.k0_off1_inb i))
        Facts₀.numel1_S1 = w := ⟨_, hpf _, rfl⟩
  unfold cc0_transform_1
  simp only [e]
  clear e hpf
  revert i
  rcases word_cases w hw with rfl | rfl | rfl | rfl | rfl <;> decide +kernel

/-- The side condition on the tables, from the bound on the slot table's words: every block inside the array, and a block
    of `[1, 1024, 2048]` 16-bit elements has an even number of rows, so it is made of whole words. -/
theorem ok0_of_words (pf : pre0.Contents (Elt F))
    (hpf : ∀ x : S8.Idx, 0 ≤ (pf 0 x : BitVec 32).toInt ∧ (pf 0 x : BitVec 32).toInt ≤ 4) : ok0 pf :=
  fun i => ⟨blk_of_word pf hpf i, .inr (Affine.block_words_dvd (of_decide_eq_true rfl) (by decide))⟩

/-! ### The slot table the program computes

The slot table is the last value of the clipping call: `min 4 (max 0 ·)` of the count of running tile totals at most the
tile's number. Only the clipping matters here. -/

/-- The host stretches before the one that ends with the clipping call's two bounds. -/
abbrev preHead : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13]

theorem preOps_split : List.flatten (preOps (F := F))
    = List.flatten (preHead (F := F)) ++ (hostOps0_14 ++ (hostOps0_15 ++ hostOps0_16)) := by
  simp only [preOps, preHead, List.flatten_cons, List.flatten_nil, List.append_nil, List.append_assoc]

set_option maxHeartbeats 4000000 in
/-- The slot table after the last two stretches, over any contents before them: the clipping of the buffer it clips,
    between the two bounds' buffers. -/
theorem v84_read (W : Valuation τ sig (Elt F)) :
    StableHlo.after hostOps0_16 (StableHlo.after hostOps0_15 W) (Proc.devRef .tc main_v84)
      = minsi (broadcastInDim S8 ![] bcast_S_S8 (W (Proc.devRef .tc main_c_26)))
          (maxsi (broadcastInDim S8 ![] bcast_S_S8 (W (Proc.devRef .tc main_c_25))) (W (Proc.devRef .tc main_v83))) := by
  simp only [hostOps0_15, hostOps0_16]
  after_results
  rfl

/-- The lower bound is the constant 0, -/
theorem c25_read (W : Valuation τ sig (Elt F)) :
    StableHlo.after hostOps0_14 W (Proc.devRef .tc main_c_25) = constantI S_ 32 0#32 := by
  simp only [hostOps0_14]
  after_results

/-- the upper bound the constant 4. -/
theorem c26_read (W : Valuation τ sig (Elt F)) :
    StableHlo.after hostOps0_14 W (Proc.devRef .tc main_c_26) = constantI S_ 32 4#32 := by
  simp only [hostOps0_14]
  after_results

/-- Every word of the slot table is some word clipped to `[0, 4]`. -/
theorem v84_clip (c : Dev nD) : ∃ Y : S8.Idx → BitVec 32, ∀ x : S8.Idx,
    (V m c main_v84 : S8.Idx → BitVec 32) x = IntOp.minsi 4#32 (IntOp.maxsi 0#32 (Y x)) := by
  refine ⟨StableHlo.after hostOps0_14 (StableHlo.after (List.flatten preHead) (fun b => m (c, b))) (Proc.devRef .tc main_v83),
    fun x => ?_⟩
  have e : (V m c main_v84 : S8.Idx → BitVec 32)
      = minsi (broadcastInDim S8 ![] bcast_S_S8 (constantI S_ 32 4#32))
          (maxsi (broadcastInDim S8 ![] bcast_S_S8 (constantI S_ 32 0#32))
            (StableHlo.after hostOps0_14 (StableHlo.after (List.flatten preHead) (fun b => m (c, b)))
              (Proc.devRef .tc main_v83))) := by
    dsimp only [V, V0]
    rw [preOps_split, StableHlo.after_append, StableHlo.after_append, StableHlo.after_append, v84_read, c25_read, c26_read]
  rw [e]
  rfl

/-- The side condition on the tables holds of the tables the program computes. -/
theorem ok0_tbl : ok0 (F := F) (fun j => V m (0 : Dev nD) (pre0.ref j)) := by
  apply ok0_of_words
  intro x
  obtain ⟨Y, e⟩ := v84_clip m (0 : Dev nD)
  have e' : (V m (0 : Dev nD) (pre0.ref 0) : S8.Idx → BitVec 32) x = IntOp.minsi 4#32 (IntOp.maxsi 0#32 (Y x)) := e x
  rw [e']
  exact clip_word _

end Cert.KernelIdeal.Hand

end
-- ==== Proof.KI.Body.lean ====
/-
  The body side of the kernel's frame. At every grid point the output's staging buffer ends wholly overwritten by one
  store: where the validity table's word at the point's row tile is nonzero, by the product of the row block and the
  weight block plus the bias row; where it is zero, by zeros. With the three input windows left at their blocks this is
  the proof data of the one pipeline; the body obligation holds at every point by cases on the word (one of the two
  conditions the body computes from it always holds, and every point writes the output's block back, so no point
  leaves the output's buffer unstated); and the program runs, the host operations before and after the region
  included, to the library's frame postcondition.
-/
import proofs.«421023_j28973849379100_3_alg».proof.Proof.KI.Run
import proofs.«421023_j28973849379100_3_alg».proof.Proof.KI.Tables
import Idealize.ShloMosaic.Lib.Pipeline.FrameSuffix
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the output window, and the body as the pipeline calls it -/

/-- The output window moves to a new block at every step of the grid, so every point writes its block back. -/
theorem flush0_3 (a : (pcfg0 (F := F)).Adm) : ∀ t : Fin (cfg0 a).N, ((cfg0 a).win 3).flush t = true :=
  (by decide +kernel : ∀ t : Fin grid0.N, Pipeline.Window.flushOf grid0 true cc0_transform_3 t = true)

/-- The kernel body at point `t`, on the staging buffers the pipeline is on there. -/
abbrev bodyAt0 (a : (pcfg0 (F := F)).Adm) (t : Fin (cfg0 a).N) : Prog (TpuEff nD τ sig (Elt F) Λ₀ .tc) PUnit :=
  cc0__delta_kernel (grid0.coords t) (Memref.whole main_v84) (Memref.isWhole_whole _) (Memref.whole main_v87) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

/-- Each window's current staging memref at point `t`, and its wholeness. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x1024 .f32 := spec0_3.stage ((cfgM m hO).slots t 3)
abbrev hs0_3 (hO : Ok m) (t : Fin (cfgM m hO).N) : (ms0_3 m hO t).IsWhole := hstage0_3 (((cfgM m hO).slots t 3).cast nbuf0_3)

/-! ## What each case leaves in the output's staging buffer -/

theorem zero2 : (![0, 0] : Fin 2 → Nat) = fun _ => 0 := by funext a; fin_cases a <;> rfl
theorem zero3 : (![0, 0, 0] : Fin 3 → Nat) = fun _ => 0 := by funext a; fin_cases a <;> rfl

/-- In the case of a nonzero word the one store of the run covers the whole block, -/
theorem coverValid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : k0_cond1 (wordAt c i xt1) = 1#1) (hc2 : ¬ k0_cond2 (wordAt c i xt1) = 1#1) (y : S256x1024.Idx) :
    ∃ pc ∈ (runValid c i arg4 harg4 arg5 harg5 arg6 harg6 arg7 harg7 x0 x1 x2 xt0 xt1 hc1 hc2).1, y ∈ pc.1.set :=
  View.cover_of_wholeMem (runValid c i arg4 harg4 arg5 harg5 arg6 harg6 arg7 harg7 x0 x1 x2 xt0 xt1 hc1 hc2).1 (by sl_whole_mem) y

/-- so the buffer ends, read through any view and over any earlier contents, at the product of the two blocks plus the bias row. -/
theorem readValid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : k0_cond1 (wordAt c i xt1) = 1#1) (hc2 : ¬ k0_cond2 (wordAt c i xt1) = 1#1)
    {sig' : RefSig} {κ' : Kind} {sp' : Space} (v : View sig' κ' sp' S256x1024 .f32) (f : v.ty.Contents (Elt F)) :
    v.read (Elt F) (v.writes (Elt F) f (runValid c i arg4 harg4 arg5 harg5 arg6 harg6 arg7 harg7 x0 x1 x2 xt0 xt1 hc1 hc2).1) = k0_pay1 x0 x1 x2 := by
  rw [View.read_writes_eq_canon _ _ _ (coverValid c i arg4 harg4 arg5 harg5 arg6 harg6 arg7 harg7 x0 x1 x2 xt0 xt1 hc1 hc2)]
  unfold runValid
  dsimp only
  sl_unfold_words
  rw [View.canon_unit_zero zero2]
  simp only [View.readAt_eq_ld, harg4.read_unread, harg5.read_unread, harg6.read_unread,
    View.ld_unit_zero (S := S256x2048) zero2, View.ld_unit_zero (S := S1x1024x2048) zero3, View.ld_unit_zero (S := S1x1024) zero2]

theorem coverInvalid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : ¬ k0_cond1 (wordAt c i xt1) = 1#1) (hc2 : k0_cond2 (wordAt c i xt1) = 1#1) (y : S256x1024.Idx) :
    ∃ pc ∈ (runInvalid c i arg4 harg4 arg5 harg5 arg6 harg6 arg7 harg7 x0 x1 x2 xt0 xt1 hc1 hc2).1, y ∈ pc.1.set :=
  View.cover_of_wholeMem (runInvalid c i arg4 harg4 arg5 harg5 arg6 harg6 arg7 harg7 x0 x1 x2 xt0 xt1 hc1 hc2).1 (by sl_whole_mem) y

theorem readInvalid (c : Dev nD) (i : grid0.Coords)
    (arg4 : Memref sig .tc .vmem S256x2048 .bf16) (harg4 : arg4.IsWhole)
    (arg5 : Memref sig .tc .vmem S1x1024x2048 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x2048 .bf16) (x1 : Vec F S1x1024x2048 .bf16) (x2 : Vec F S1x1024 .f32)
    (xt0 : TbBuf0 (F := F) c tbM0_0) (xt1 : TbBuf0 (F := F) c tbM0_1)
    (hc1 : ¬ k0_cond1 (wordAt c i xt1) = 1#1) (hc2 : k0_cond2 (wordAt c i xt1) = 1#1)
    {sig' : RefSig} {κ' : Kind} {sp' : Space} (v : View sig' κ' sp' S256x1024 .f32) (f : v.ty.Contents (Elt F)) :
    v.read (Elt F) (v.writes (Elt F) f (runInvalid c i arg4 harg4 arg5 harg5 arg6 harg6 arg7 harg7 x0 x1 x2 xt0 xt1 hc1 hc2).1) = k0_pay2 := by
  rw [View.read_writes_eq_canon _ _ _ (coverInvalid c i arg4 harg4 arg5 harg5 arg6 harg6 arg7 harg7 x0 x1 x2 xt0 xt1 hc1 hc2)]
  unfold runInvalid
  dsimp only
  sl_unfold_words
  rw [View.canon_unit_zero zero2]

/-! ## What the output's staging buffer holds after each point -/

/-- The word of the validity table that the body loads at point `t`. -/
abbrev wordOf (hO : Ok m) (c : Dev nD) (t : Fin (cfgM m hO).N) : BitVec 32 := wordAt c (grid0.coords t) (tbl m 1)

/-- After the body at point `t` the output's staging buffer holds, where the table's word is nonzero, the product of the
    row block and the weight block plus the bias row, and zeros where it is zero. -/
def outsAt (hO : Ok m) (c : Dev nD) (t : Fin (cfgM m hO).N) : Vec F S256x1024 .f32 :=
  if wordOf m hO c t = 0#32 then k0_pay2 else k0_pay1 (iblk m hO c 0 t) (iblk m hO c 1 t) (iblk m hO c 2 t)

theorem wordOf_ix (hO : Ok m) (c : Dev nD) (t : Fin (cfgM m hO).N) :
    wordOf m hO c t = tbl m 1 (ValueIdx.ix1 (n := 8) ((grid0.coords t) 1)) := wordAt_ix c (grid0.coords t) (tbl m 1)

theorem outsAt_valid (hO : Ok m) (c : Dev nD) (t : Fin (cfgM m hO).N) (h : wordOf m hO c t ≠ 0#32) :
    outsAt m hO c t = k0_pay1 (iblk m hO c 0 t) (iblk m hO c 1 t) (iblk m hO c 2 t) := by
  unfold outsAt; rw [if_neg h]

theorem outsAt_invalid (hO : Ok m) (c : Dev nD) (t : Fin (cfgM m hO).N) (h : wordOf m hO c t = 0#32) :
    outsAt m hO c t = k0_pay2 := by
  unfold outsAt; rw [if_pos h]

/-! ## The pipeline's proof data -/

/-- The proof data of the one pipeline on core `c`: the arrays as the region finds them; after the body at point `t` each
    input's buffer at its block and the output's at `outsAt`; the invariant the scoped rest and the tables' halves; nothing
    owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outsAt m hO c t
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outsAt m hO c t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- At a point that writes the window's block back, the body obligation asks for the stated contents whether or not the
    point is declared idle for the window. -/
theorem leavesExact_of_flush {cfg : Pipeline.Cfg sig Λ₀} {c : Dev nD} (dat : Dat τ (Elt F) Unit ℕ (UR sig nD τ) ℕ cfg c)
    (w : Fin cfg.W) (t : Fin cfg.N) (hf : (cfg.win w).flush t = true) :
    (dat.leavesExact w t : sProp 𝕄) = owns (c : Thread nD τ) ((cfg.win w).stage (cfg.slots t w)) fullShare (dat.after w t) := by
  unfold Dat.leavesExact; rw [hf]; cases cfg.idle w (cfg.grid.coords t) <;> rfl

/-! ## The body obligation, at a generic point -/

/-- What the body is called with at point `t`: the invariant, what the core owes, and each window's current staging
    buffer at what it then holds. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- What the body returns: the same invariant and dues, the inputs' buffers at their blocks, and the output's buffer at
    what the obligation asks of it at this point. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (dats m hO 0 c).leavesExact 3 t)

/-- The body at any point: the inputs' buffers hold their blocks, the tables' halves pass through unread, and by cases on
    the loaded word the run of that case applies; its one store covers the output's block. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [leavesExact_of_flush (dats m hO 0 c) 3 t (flush0_3 (adm m hO) t)]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  by_cases h : wordOf m hO c t = 0#32
  · rw [outsAt_invalid m hO c t h]
    iintro ⟨⟨HΦ, ⟨HT0, HT1⟩⟩, Ho, ⟨%d0, H0⟩, ⟨%d1, H1⟩, ⟨%d2, H2⟩, ⟨%d3, H3⟩⟩
    iapply ((runInvalid c (grid0.coords t) _ (hs0_0 m hO t) _ (hs0_1 m hO t) _ (hs0_2 m hO t) _ (hs0_3 m hO t) (iblk m hO c 0 t) (iblk m hO c 1 t) (iblk m hO c 2 t) (tbl m 0) (tbl m 1)
      (fun h1 => (cond1_iff _).mp h1 h) ((cond2_iff _).mpr h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact readInvalid c _ _ _ _ _ _ _ _ _ _ _ _ _ _ _ _ _ _
  · rw [outsAt_valid m hO c t h]
    iintro ⟨⟨HΦ, ⟨HT0, HT1⟩⟩, Ho, ⟨%d0, H0⟩, ⟨%d1, H1⟩, ⟨%d2, H2⟩, ⟨%d3, H3⟩⟩
    iapply ((runValid c (grid0.coords t) _ (hs0_0 m hO t) _ (hs0_1 m hO t) _ (hs0_2 m hO t) _ (hs0_3 m hO t) (iblk m hO c 0 t) (iblk m hO c 1 t) (iblk m hO c 2 t) (tbl m 0) (tbl m 1)
      ((cond1_iff _).mpr h) (fun h2 => h ((cond2_iff _).mp h2))).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact readValid c _ _ _ _ _ _ _ _ _ _ _ _ _ _ _ _ _ _

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

/-! ## The run -/

set_option backward.isDefEq.respectTransparency.types false in
/-- At the compiled mesh, from any memory with zero counters: every weakly fair execution of the program on the TensorCores
    terminates, and every final state has every array of the pipeline at what the library computes from the proof data and
    every other unscoped buffer as the host operations after the region leave it. -/
theorem run_main (hO : Ok m) : θ_run defs (onTc (τ := τ) (main (F := F))) (s₀ m ρ)
    (Pipeline.FramePost (Pipeline.pin pcfgs fun _ => adm m hO) (dats m hO) 0 (Pipeline.afterTail pcfgs (fun _ => adm m hO) (dats m hO) 0 (V0 m) [hostOps1])) :=
  Pipeline.θ_run_frameP_around pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-! ## The frame -/

/-- The tables the program computes keep every table-indexed weight block inside the weight array. -/
theorem ok : Ok m := ok0_tbl m

/-- The program runs to the end from any memory with zero counters, and its twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (ok m) (dats m (ok m)) (A_eq m (ok m)) (run_main m ρ (ok m))

end Cert.KernelIdeal.Hand

end
-- ==== Proof.KI.Payload.lean ====
/-
  The two values the body stores into its output block, read at one entry (p, q) of the 256 x 1024 block,
  over the extended reals.  On a valid row tile the entry is the inner product of row p of the token block
  with row q of the selected weight tile (both of length 2048), plus the bias entry of column q.  On an
  invalid row tile the entry is zero.
-/
import proofs.«421023_j28973849379100_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.HandValue

open Idealize.ShloMosaic Idealize.SL.Sem Idealize.ShloMosaic.ValueIdx
open Cert.KernelIdeal Cert.KernelIdeal.Gen

/-! ## The operand indices of the product: rows of the left block against ROWS of the weight tile -/

/-- The left operand's row is the output's row. -/
theorem lhs_row (i : S256x1024.Idx) (k : dot_S256x2048_S1024x2048_S256x1024_1_1_0_0_n_n.contr.Idx) :
    (dot_S256x2048_S1024x2048_S256x1024_1_1_0_0_n_n.lhsIdx i k 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
/-- The left operand's column is the summation position. -/
theorem lhs_col (i : S256x1024.Idx) (k : dot_S256x2048_S1024x2048_S256x1024_1_1_0_0_n_n.contr.Idx) :
    (dot_S256x2048_S1024x2048_S256x1024_1_1_0_0_n_n.lhsIdx i k 1).val = (k ⟨0, by decide⟩).val :=
  dot_S256x2048_S1024x2048_S256x1024_1_1_0_0_n_n.lhsIdx_val_of_single rfl i k
/-- The right operand's row is the output's COLUMN: the weight tile enters transposed. -/
theorem rhs_row (i : S256x1024.Idx) (k : dot_S256x2048_S1024x2048_S256x1024_1_1_0_0_n_n.contr.Idx) :
    (dot_S256x2048_S1024x2048_S256x1024_1_1_0_0_n_n.rhsIdx i k 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
/-- The right operand's column is the summation position. -/
theorem rhs_col (i : S256x1024.Idx) (k : dot_S256x2048_S1024x2048_S256x1024_1_1_0_0_n_n.contr.Idx) :
    (dot_S256x2048_S1024x2048_S256x1024_1_1_0_0_n_n.rhsIdx i k 1).val = (k ⟨0, by decide⟩).val :=
  dot_S256x2048_S1024x2048_S256x1024_1_1_0_0_n_n.rhsIdx_val_of_single rfl i k

/-- The product into a zero accumulator at (p, q): the sum over d of left (p, d) times right (q, d). -/
theorem matmul_entry (l : FVec Ideal S256x2048 .bf16) (r : FVec Ideal S1024x2048 .bf16) (p : Fin 256) (q : Fin 1024) :
    matmul dot_S256x2048_S1024x2048_S256x1024_1_1_0_0_n_n none l r (constant (F := Ideal) S256x1024 .f32 0x00000000#32) (ix2 p q)
      = ∑ d : Fin 2048, l (ix2 p d) * r (ix2 q d) := by
  refine (Ideal.matmul_constant_zero_apply dot_S256x2048_S1024x2048_S256x1024_1_1_0_0_n_n none l r (ix2 p q)).trans ?_
  rw [← Equiv.sum_comp (contrEquiv1 dot_S256x2048_S1024x2048_S256x1024_1_1_0_0_n_n 2048 rfl rfl).symm]
  refine Finset.sum_congr rfl fun d _ => ?_
  have hk := contrEquiv1_symm_val dot_S256x2048_S1024x2048_S256x1024_1_1_0_0_n_n 2048 rfl rfl d
  have el : dot_S256x2048_S1024x2048_S256x1024_1_1_0_0_n_n.lhsIdx (ix2 p q) ((contrEquiv1 dot_S256x2048_S1024x2048_S256x1024_1_1_0_0_n_n 2048 rfl rfl).symm d) = ix2 p d := funext fun a => Fin.ext (by
    match a with
    | ⟨0, _⟩ => exact lhs_row _ _
    | ⟨1, _⟩ => exact (lhs_col _ _).trans hk)
  have er : dot_S256x2048_S1024x2048_S256x1024_1_1_0_0_n_n.rhsIdx (ix2 p q) ((contrEquiv1 dot_S256x2048_S1024x2048_S256x1024_1_1_0_0_n_n 2048 rfl rfl).symm d) = ix2 q d := funext fun a => Fin.ext (by
    match a with
    | ⟨0, _⟩ => exact rhs_row _ _
    | ⟨1, _⟩ => exact (rhs_col _ _).trans hk)
  rw [el, er]

/-- Dropping the weight tile's leading unit axis: entry (q, d) of the matrix is entry (0, q, d) of the tile. -/
theorem weight_entry (w10 : Vec Ideal S1x1024x2048 .bf16) (q : Fin 1024) (d : Fin 2048) :
    shapeCast S1024x2048 w10 shapeCasts_S1x1024x2048_S1024x2048 (ix2 q d) = w10 (ix3 (0 : Fin 1) q d) := by
  refine shapeCast_apply w10 shapeCasts_S1x1024x2048_S1024x2048 (ix2 q d) (ix3 (0 : Fin 1) q d) ?_
  rw [Shape.rowMajor_val_three, Shape.rowMajor_val_two]
  show ((0 : Nat) * 1024 + q.val) * 2048 + d.val = q.val * 2048 + d.val
  omega

/-- The bias row repeated down the block: entry (p, q) is the bias entry (0, q). -/
theorem bias_entry (b : FVec Ideal S1x1024 .f32) (p : Fin 256) (q : Fin 1024) :
    broadcastTo S256x1024 b broadcasts_S1x1024_S256x1024 (ix2 p q) = b (ix2 (0 : Fin 1) q) := by
  refine broadcastTo_apply b broadcasts_S1x1024_S256x1024 (ix2 p q) (ix2 (0 : Fin 1) q) fun a => ?_
  match a with
  | ⟨0, _⟩ => show (0 : Nat) = if (1 : Nat) = 1 then 0 else _; rw [if_pos rfl]
  | ⟨1, _⟩ => show q.val = if (1024 : Nat) = 1 then 0 else q.val; rw [if_neg (by decide)]

/-- A valid tile's stored value at (p, q): row p of the tokens against row q of the weight tile, plus the bias. -/
theorem pay1_apply (x8 : Vec Ideal S256x2048 .bf16) (w10 : Vec Ideal S1x1024x2048 .bf16) (b13 : Vec Ideal S1x1024 .f32)
    (p : Fin 256) (q : Fin 1024) :
    Gen.k0_pay1 x8 w10 b13 (ix2 p q)
      = (∑ d : Fin 2048, x8 (ix2 p d) * w10 (ix3 (0 : Fin 1) q d)) + b13 (ix2 (0 : Fin 1) q) := by
  unfold Gen.k0_pay1
  refine (addf_apply _ _ _).trans ?_
  refine congrArg₂ (· + ·) ?_ ?_
  · refine (matmul_entry _ _ p q).trans ?_
    refine Finset.sum_congr rfl fun d _ => ?_
    rw [shapeCast_self, weight_entry]
  · rw [shapeCast_self]
    exact bias_entry b13 p q

/-- An invalid tile's stored value is zero everywhere. -/
theorem pay2_apply (p : Fin 256) (q : Fin 1024) : Gen.k0_pay2 (F := Ideal) (ix2 p q) = 0 := by
  unfold Gen.k0_pay2
  show Ideal.ofBits .f32 0x00000000#32 = 0
  exact Ideal.ofBits_zero_f32

end Cert.KernelIdeal.HandValue

end
-- ==== Proof.KI.Blocks.lean ====
/-
  Where the pipeline's blocks sit.  The grid has 8 column tiles (of 1024 output columns) by 8 row tiles (of 256
  padded rows), and runs column tile first.  This module places each window's block at a grid point inside its
  array, coordinate by coordinate, with the two tables' words kept as variables, and shows that the output's
  blocks cover the padded output.
-/
import proofs.«421023_j28973849379100_3_alg».proof.Proof.Gen.KernelIdeal.Launch
import proofs.«421023_j28973849379100_3_alg».proof.Proof.Gen.KernelIdeal.Skeleton
import Idealize.ShloMosaic.Lib.Pipeline.Value
import Idealize.ShloMosaic.Lib.Pipeline.Kit
import Idealize.ShloMosaic.Lib.ValueIdx

noncomputable section

namespace Cert.KernelIdeal.HandValue

open Idealize.ShloMosaic Idealize.ShloMosaic.TcCoe Idealize.SL Idealize.SL.Sem Idealize.ShloMosaic.ValueIdx
open Cert.KernelIdeal Cert.KernelIdeal.Gen
open Idealize.ShloMosaic.Pipeline (Dat Cfg Window)

variable {F : FTy → Type} [FloatOps F]

/-! ## The grid and the four windows' block indices

The 64 grid points run column tile first: point t has column tile t / 8 and row tile t % 8.  The token window
takes block (row tile, 0) of the padded tokens, the bias window block (0, column tile), the output window block
(row tile, column tile); the weight window takes block (slab, column tile mod 4, 0) of the stacked weights,
where the slab is 5 * (column tile / 4) plus the row tile's adapter word. -/

/-- The point's coordinates and the three table-free index maps, decided once over the grid. -/
theorem point_facts : ∀ t : Fin grid0.N,
    cc0_transform_0 (grid0.coords t) 0 = t.val % 8 ∧ cc0_transform_0 (grid0.coords t) 1 = 0
    ∧ cc0_transform_2 (grid0.coords t) 0 = 0 ∧ cc0_transform_2 (grid0.coords t) 1 = t.val / 8
    ∧ cc0_transform_3 (grid0.coords t) 0 = t.val % 8 ∧ cc0_transform_3 (grid0.coords t) 1 = t.val / 8
    ∧ (grid0.coords t 0).val = t.val / 8 ∧ (grid0.coords t 1).val = t.val % 8 := by decide +kernel

/-- The output block index changes at every point, so every point writes its block back. -/
theorem out_flush (a : (pcfg0 (F := F)).Adm) : ∀ t : Fin (cfg0 a).N, ((cfg0 a).win 3).flush t = true :=
  (by decide +kernel : ∀ t : Fin grid0.N, Pipeline.Window.flushOf grid0 true cc0_transform_3 t = true)

/-- A table's word for a row tile. -/
abbrev tileWord (f : S8.Idx → BitVec 32) (y : Fin 8) : BitVec 32 := f (ix1 y)

theorem cast_small : ∀ y : Fin 8, (Scalar.indexCast (BitVec.ofNat 32 y.val)).toNat = y.val := by decide

/-- The weight window's index map loads the adapter table at the row tile. -/
theorem adapter_word_at (pf : pre0.Contents (Elt F)) (i : grid0.Coords) :
    pf.at 0 (Rect.unit (s := S8) ![(Scalar.indexCast (BitVec.ofNat 32 (i 1).val)).toNat] S1.size (k0_off1_inb i)) numel1_S1
      = tileWord (pf 0) (i 1) := by
  show pf 0 _ = pf 0 _
  refine congrArg (pf 0) ?_
  funext b
  apply Fin.ext
  match b with
  | ⟨0, _⟩ =>
    show (Scalar.indexCast (BitVec.ofNat 32 (i 1).val)).toNat + 1 * 0 = (i 1).val
    have := cast_small (i 1)
    omega

/-- The weight window's block index, with the adapter word a variable: the floor division and the remainder by 4
    are computed on a column tile below 8, where they are the natural-number ones. -/
theorem weight_index (pf : pre0.Contents (Elt F)) (i : grid0.Coords) :
    cc0_transform_1 k0_off1_inb numel1_S1 pf i 0 = (BitVec.ofNat 32 ((i 0).val / 4 * 5) + tileWord (pf 0) (i 1)).toNat
    ∧ cc0_transform_1 k0_off1_inb numel1_S1 pf i 1 = (i 0).val % 4
    ∧ cc0_transform_1 k0_off1_inb numel1_S1 pf i 2 = 0 := by
  unfold cc0_transform_1
  dsimp only
  rw [adapter_word_at pf i]
  generalize tileWord (pf 0) (i 1) = W
  obtain ⟨x, hx⟩ : ∃ x : Fin 8, i 0 = x := ⟨i 0, rfl⟩
  rw [hx]
  fin_cases x <;> exact ⟨rfl, rfl, rfl⟩

/-- With the adapter word at most 4 the slab number does not wrap. -/
theorem slab_toNat (x : Nat) (hx : x < 8) (W : BitVec 32) (hW : W.toNat ≤ 4) :
    (BitVec.ofNat 32 (x / 4 * 5) + W).toNat = x / 4 * 5 + W.toNat := by
  rw [BitVec.toNat_add, BitVec.toNat_ofNat]
  omega

/-! ## Where each window's block sits in its array -/

/-- Entry y of the token block at point t is entry (256 * row tile + y₀, y₁) of the padded tokens. -/
theorem emb_tokens (a : (pcfg0 (F := F)).Adm) (t : Fin (cfg0 a).N) (y : S256x2048.Idx)
    (hr : t.val % 8 * 256 + (y 0).val < 2048) :
    (((cfg0 a).win 0).blk t).view.emb y = (ix2 (⟨t.val % 8 * 256 + (y 0).val, hr⟩ : Fin 2048) (y 1) : S2048x2048.Idx) := by
  obtain ⟨e0, e1, -⟩ := point_facts t
  have i0 : ((cfg0 a).win 0).index t (0 : Fin 2) = t.val % 8 := e0
  have i1 : ((cfg0 a).win 0).index t (1 : Fin 2) = 0 := e1
  funext b; apply Fin.ext
  match b with
  | ⟨0, _⟩ => show ((cfg0 a).win 0).index t (0 : Fin 2) * 256 + 1 * (y 0).val = t.val % 8 * 256 + (y 0).val
              rw [i0]; omega
  | ⟨1, _⟩ => show ((cfg0 a).win 0).index t (1 : Fin 2) * 2048 + 1 * (y 1).val = (y 1).val
              rw [i1]; omega

/-- Entry y of the weight block at point t is entry (slab, 1024 * (column tile mod 4) + y₁, y₂) of the stacked weights. -/
theorem emb_weights (a : (pcfg0 (F := F)).Adm) (t : Fin (cfg0 a).N) (y : S1x1024x2048.Idx)
    (hW : (tileWord (a.1 0) (grid0.coords t 1)).toNat ≤ 4)
    (hs : t.val / 8 / 4 * 5 + (tileWord (a.1 0) (grid0.coords t 1)).toNat < 10)
    (hc : t.val / 8 % 4 * 1024 + (y 1).val < 4096) :
    (((cfg0 a).win 1).blk t).view.emb y
      = (ix3 (⟨t.val / 8 / 4 * 5 + (tileWord (a.1 0) (grid0.coords t 1)).toNat, hs⟩ : Fin 10)
          (⟨t.val / 8 % 4 * 1024 + (y 1).val, hc⟩ : Fin 4096) (y 2) : S10x4096x2048.Idx) := by
  obtain ⟨-, -, -, -, -, -, c0, c1⟩ := point_facts t
  obtain ⟨w0, w1, w2⟩ := weight_index a.1 (grid0.coords t)
  have ht : t.val < 64 := t.isLt
  have i0 : ((cfg0 a).win 1).index t (0 : Fin 3) = t.val / 8 / 4 * 5 + (tileWord (a.1 0) (grid0.coords t 1)).toNat := by
    refine w0.trans ?_
    rw [c0]
    exact slab_toNat _ (by omega) _ hW
  have i1 : ((cfg0 a).win 1).index t (1 : Fin 3) = t.val / 8 % 4 := by refine w1.trans ?_; rw [c0]
  have i2 : ((cfg0 a).win 1).index t (2 : Fin 3) = 0 := w2
  have y0 : (y 0).val = 0 := by have h : (y 0).val < 1 := (y 0).isLt; omega
  funext b; apply Fin.ext
  match b with
  | ⟨0, _⟩ => show ((cfg0 a).win 1).index t (0 : Fin 3) * 1 + 1 * (y 0).val = t.val / 8 / 4 * 5 + (tileWord (a.1 0) (grid0.coords t 1)).toNat
              rw [i0, y0]; omega
  | ⟨1, _⟩ => show ((cfg0 a).win 1).index t (1 : Fin 3) * 1024 + 1 * (y 1).val = t.val / 8 % 4 * 1024 + (y 1).val
              rw [i1]; omega
  | ⟨2, _⟩ => show ((cfg0 a).win 1).index t (2 : Fin 3) * 2048 + 1 * (y 2).val = (y 2).val
              rw [i2]; omega

/-- Entry y of the bias block at point t is entry (0, 1024 * column tile + y₁) of the bias row. -/
theorem emb_bias (a : (pcfg0 (F := F)).Adm) (t : Fin (cfg0 a).N) (y : S1x1024.Idx)
    (hc : t.val / 8 * 1024 + (y 1).val < 8192) :
    (((cfg0 a).win 2).blk t).view.emb y = (ix2 (0 : Fin 1) (⟨t.val / 8 * 1024 + (y 1).val, hc⟩ : Fin 8192) : S1x8192.Idx) := by
  obtain ⟨-, -, e0, e1, -⟩ := point_facts t
  have i0 : ((cfg0 a).win 2).index t (0 : Fin 2) = 0 := e0
  have i1 : ((cfg0 a).win 2).index t (1 : Fin 2) = t.val / 8 := e1
  have y0 : (y 0).val = 0 := by have h : (y 0).val < 1 := (y 0).isLt; omega
  funext b; apply Fin.ext
  match b with
  | ⟨0, _⟩ => show ((cfg0 a).win 2).index t (0 : Fin 2) * 1 + 1 * (y 0).val = 0
              rw [i0, y0]
  | ⟨1, _⟩ => show ((cfg0 a).win 2).index t (1 : Fin 2) * 1024 + 1 * (y 1).val = t.val / 8 * 1024 + (y 1).val
              rw [i1]; omega

/-- Entry y of the output block at point t is entry (256 * row tile + y₀, 1024 * column tile + y₁) of the output. -/
theorem emb_out (a : (pcfg0 (F := F)).Adm) (t : Fin (cfg0 a).N) (y : S256x1024.Idx)
    (hr : t.val % 8 * 256 + (y 0).val < 2048) (hc : t.val / 8 * 1024 + (y 1).val < 8192) :
    (((cfg0 a).win 3).blk t).view.emb y
      = (ix2 (⟨t.val % 8 * 256 + (y 0).val, hr⟩ : Fin 2048) (⟨t.val / 8 * 1024 + (y 1).val, hc⟩ : Fin 8192) : S2048x8192.Idx) := by
  obtain ⟨-, -, -, -, e0, e1, -⟩ := point_facts t
  have i0 : ((cfg0 a).win 3).index t (0 : Fin 2) = t.val % 8 := e0
  have i1 : ((cfg0 a).win 3).index t (1 : Fin 2) = t.val / 8 := e1
  funext b; apply Fin.ext
  match b with
  | ⟨0, _⟩ => show ((cfg0 a).win 3).index t (0 : Fin 2) * 256 + 1 * (y 0).val = t.val % 8 * 256 + (y 0).val
              rw [i0]; omega
  | ⟨1, _⟩ => show ((cfg0 a).win 3).index t (1 : Fin 2) * 1024 + 1 * (y 1).val = t.val / 8 * 1024 + (y 1).val
              rw [i1]; omega

/-- Every entry (r, col) of the output lies in the block of the point with row tile r / 256 and column tile col / 1024,
    at place (r mod 256, col mod 1024) of it. -/
theorem out_cover (a : (pcfg0 (F := F)).Adm) (i : S2048x8192.Idx) :
    ∃ t : Fin (cfg0 a).N, ((cfg0 a).win 3).flush t = true ∧ i ∈ (((cfg0 a).win 3).blk t).view.set := by
  have h0 : (i 0).val < 2048 := (i 0).isLt
  have h1 : (i 1).val < 8192 := (i 1).isLt
  have hN : (i 1).val / 1024 * 8 + (i 0).val / 256 < 64 := by omega
  obtain ⟨T, hT⟩ : ∃ T : Fin (cfg0 a).N, T.val = (i 1).val / 1024 * 8 + (i 0).val / 256 := ⟨⟨_, hN⟩, rfl⟩
  refine ⟨T, out_flush a T, ?_⟩
  have hp : (i 0).val % 256 < 256 := Nat.mod_lt _ (by decide)
  have hq : (i 1).val % 1024 < 1024 := Nat.mod_lt _ (by decide)
  have e : (((cfg0 a).win 3).blk T).view.emb (ix2 (⟨(i 0).val % 256, hp⟩ : Fin 256) (⟨(i 1).val % 1024, hq⟩ : Fin 1024)) = i := by
    rw [emb_out a T (ix2 (⟨(i 0).val % 256, hp⟩ : Fin 256) (⟨(i 1).val % 1024, hq⟩ : Fin 1024))
      (by show T.val % 8 * 256 + (i 0).val % 256 < 2048; omega)
      (by show T.val / 8 * 1024 + (i 1).val % 1024 < 8192; omega)]
    funext b; apply Fin.ext
    match b with
    | ⟨0, _⟩ => show T.val % 8 * 256 + (i 0).val % 256 = (i 0).val; omega
    | ⟨1, _⟩ => show T.val / 8 * 1024 + (i 1).val % 1024 = (i 1).val; omega
  have hm := View.emb_mem_set (((cfg0 a).win 3).blk T).view (ix2 (⟨(i 0).val % 256, hp⟩ : Fin 256) (⟨(i 1).val % 1024, hq⟩ : Fin 1024))
  rw [e] at hm
  exact hm

end Cert.KernelIdeal.HandValue

end
-- ==== Proof.KI.Array.lean ====
/-
  The padded output array after the pipeline's last point, as one function of the arrays the region finds: the
  padded tokens X, the stacked weights Wt, the bias row B, and the two tables (adapter word and validity word per
  row tile).  Entry (r, col), when row tile r / 256 is valid, is
      sum over d of X (r, d) * Wt (5 * (col / 4096) + adapter word, col mod 4096, d)  +  B (0, col),
  and zero otherwise.  Every point writes back its block of this function (the blocks it reads are the matching
  rows of X, rows of the selected weight slab and the bias columns), and the blocks cover the array.
-/
import proofs.«421023_j28973849379100_3_alg».proof.Proof.KI.Payload
import proofs.«421023_j28973849379100_3_alg».proof.Proof.KI.Blocks

noncomputable section

namespace Cert.KernelIdeal.HandValue

open Idealize.ShloMosaic Idealize.ShloMosaic.TcCoe Idealize.SL Idealize.SL.Sem Idealize.ShloMosaic.ValueIdx
open Cert.KernelIdeal Cert.KernelIdeal.Gen
open Idealize.ShloMosaic.Pipeline (Dat Cfg Window)

/-! ## The padded output as one function of the arrays the region finds

Entry (r, col) of the padded output: when the row tile r / 256 is marked valid, the inner product of padded token
row r with row col mod 4096 of the weight slab 5 * (col / 4096) + (the row tile's adapter word), plus the bias at
col; otherwise zero. -/

/-- The row tile of a padded row. -/
def rowTile (r : Fin 2048) : Fin 8 := ⟨r.val / 256, by have := r.isLt; omega⟩

/-- The output entry at padded row r and column col, given the row tile's two table words. -/
def outWith (X : S2048x2048.Idx → EReal) (Wt : S10x4096x2048.Idx → EReal) (B : S1x8192.Idx → EReal)
    (wa wv : BitVec 32) (hwa : wa.toNat ≤ 4) (r : Fin 2048) (col : Fin 8192) : EReal :=
  if wv ≠ 0 then
    (∑ d : Fin 2048, X (ix2 r d) * Wt (ix3 (⟨col.val / 4096 * 5 + wa.toNat,
        by have := col.isLt; omega⟩ : Fin 10) (⟨col.val % 4096, Nat.mod_lt _ (by decide)⟩ : Fin 4096) d))
      + B (ix2 (0 : Fin 1) col)
  else 0

/-- The output entry at padded row r and column col. -/
def outAt (X : S2048x2048.Idx → EReal) (Wt : S10x4096x2048.Idx → EReal) (B : S1x8192.Idx → EReal)
    (ta tv : S8.Idx → BitVec 32) (hta : ∀ k : Fin 8, (tileWord ta k).toNat ≤ 4) (r : Fin 2048) (col : Fin 8192) : EReal :=
  outWith X Wt B (tileWord ta (rowTile r)) (tileWord tv (rowTile r)) (hta (rowTile r)) r col

/-- The row tile may be named by any equal index. -/
theorem outAt_tile (X : S2048x2048.Idx → EReal) (Wt : S10x4096x2048.Idx → EReal) (B : S1x8192.Idx → EReal)
    (ta tv : S8.Idx → BitVec 32) (hta : ∀ k : Fin 8, (tileWord ta k).toNat ≤ 4) (r : Fin 2048) (col : Fin 8192)
    (k : Fin 8) (hk : rowTile r = k) :
    outAt X Wt B ta tv hta r col = outWith X Wt B (tileWord ta k) (tileWord tv k) (hta k) r col := by
  subst hk; rfl

/-- The whole padded output. -/
def outPadded (X : S2048x2048.Idx → EReal) (Wt : S10x4096x2048.Idx → EReal) (B : S1x8192.Idx → EReal)
    (ta tv : S8.Idx → BitVec 32) (hta : ∀ k : Fin 8, (tileWord ta k).toNat ≤ 4) : S2048x8192.Idx → EReal :=
  fun i => outAt X Wt B ta tv hta (i 0) (i 1)

theorem ix3_congr {n0 n1 n2 : Nat} {a a' : Fin n0} {b b' : Fin n1} (c : Fin n2) (ha : a = a') (hb : b = b') :
    (ix3 a b c) = (ix3 a' b' c) := by subst ha; subst hb; rfl

section Array

variable (a : (pcfg0 (F := Ideal)).Adm) (c : Dev nD)
  (dat : Dat τ (Elt Ideal) Unit ℕ (UR sig nD τ) ℕ (cfg0 a) c)
  (X : S2048x2048.Idx → EReal) (Wt : S10x4096x2048.Idx → EReal) (B : S1x8192.Idx → EReal)
  (hta : ∀ k : Fin 8, (tileWord (a.1 0) k).toNat ≤ 4)

/-- What point t writes back is its block of the padded output, whichever way the row tile is marked. -/
theorem flushed_out (t : Fin (cfg0 a).N)
    (hv : tileWord (a.1 1) (grid0.coords t 1) ≠ 0 → dat.after 3 t
      = k0_pay1 ((((cfg0 a).win 0).blk t).view.read (Elt Ideal) X) ((((cfg0 a).win 1).blk t).view.read (Elt Ideal) Wt)
          ((((cfg0 a).win 2).blk t).view.read (Elt Ideal) B))
    (hi : tileWord (a.1 1) (grid0.coords t 1) = 0 → dat.after 3 t = k0_pay2 (F := Ideal)) :
    dat.flushed 3 t = (((cfg0 a).win 3).blk t).view.read (Elt Ideal) (outPadded X Wt B (a.1 0) (a.1 1) hta) := by
  show ((cfg0 a).win 3).cut (grid0.coords t) (dat.after 3 t) = _
  funext (j : S256x1024.Idx)
  obtain ⟨p, q, rfl⟩ : ∃ (p : Fin 256) (q : Fin 1024), j = ix2 p q := ⟨j 0, j 1, eq_ix2 j⟩
  have ht : t.val < 64 := t.isLt
  have hp : p.val < 256 := p.isLt
  have hq : q.val < 1024 := q.isLt
  obtain ⟨-, -, -, -, -, -, c0, c1⟩ := point_facts t
  show dat.after 3 t (ix2 p q) = outPadded X Wt B (a.1 0) (a.1 1) hta ((((cfg0 a).win 3).blk t).view.emb (ix2 p q))
  rw [emb_out a t (ix2 p q) (by show t.val % 8 * 256 + p.val < 2048; omega) (by show t.val / 8 * 1024 + q.val < 8192; omega)]
  show dat.after 3 t (ix2 p q) = outAt X Wt B (a.1 0) (a.1 1) hta ⟨t.val % 8 * 256 + p.val, _⟩ ⟨t.val / 8 * 1024 + q.val, _⟩
  have hrt : rowTile ⟨t.val % 8 * 256 + p.val, by omega⟩ = grid0.coords t 1 :=
    Fin.ext (by show (t.val % 8 * 256 + p.val) / 256 = (grid0.coords t 1).val; rw [c1]; omega)
  rw [outAt_tile X Wt B (a.1 0) (a.1 1) hta _ _ _ hrt]
  unfold outWith
  by_cases hw : tileWord (a.1 1) (grid0.coords t 1) = 0
  · rw [hi hw, if_neg (not_not.mpr hw)]
    exact pay2_apply p q
  · rw [hv hw, if_pos hw]
    refine (pay1_apply ((((cfg0 a).win 0).blk t).view.read (Elt Ideal) X) ((((cfg0 a).win 1).blk t).view.read (Elt Ideal) Wt)
      ((((cfg0 a).win 2).blk t).view.read (Elt Ideal) B) p q).trans ?_
    refine congrArg₂ (· + ·) (Finset.sum_congr rfl fun d _ => ?_) ?_
    · refine congrArg₂ (· * ·) ?_ ?_
      · show X ((((cfg0 a).win 0).blk t).view.emb (ix2 p d)) = _
        rw [emb_tokens a t (ix2 p d) (by show t.val % 8 * 256 + p.val < 2048; omega)]
      · show Wt ((((cfg0 a).win 1).blk t).view.emb (ix3 (0 : Fin 1) q d)) = _
        rw [emb_weights a t (ix3 (0 : Fin 1) q d) (hta _)
          (by have := hta (grid0.coords t 1); omega) (by show t.val / 8 % 4 * 1024 + q.val < 4096; omega)]
        refine congrArg Wt (ix3_congr d (Fin.ext ?_) (Fin.ext ?_))
        · show t.val / 8 / 4 * 5 + (tileWord (a.1 0) (grid0.coords t 1)).toNat
            = (t.val / 8 * 1024 + q.val) / 4096 * 5 + (tileWord (a.1 0) (grid0.coords t 1)).toNat
          omega
        · show t.val / 8 % 4 * 1024 + q.val = (t.val / 8 * 1024 + q.val) % 4096
          omega
    · show B ((((cfg0 a).win 2).blk t).view.emb (ix2 (0 : Fin 1) q)) = _
      rw [emb_bias a t (ix2 (0 : Fin 1) q) (by show t.val / 8 * 1024 + q.val < 8192; omega)]

/-- The padded output array after the last point. -/
theorem arr_out
    (hv : ∀ t : Fin (cfg0 a).N, tileWord (a.1 1) (grid0.coords t 1) ≠ 0 → dat.after 3 t
      = k0_pay1 ((((cfg0 a).win 0).blk t).view.read (Elt Ideal) X) ((((cfg0 a).win 1).blk t).view.read (Elt Ideal) Wt)
          ((((cfg0 a).win 2).blk t).view.read (Elt Ideal) B))
    (hi : ∀ t : Fin (cfg0 a).N, tileWord (a.1 1) (grid0.coords t 1) = 0 → dat.after 3 t = k0_pay2 (F := Ideal)) :
    dat.arrAt 3 (cfg0 a).N = outPadded X Wt B (a.1 0) (a.1 1) hta :=
  dat.arrAt_eq_of_cover 3 (outPadded X Wt B (a.1 0) (a.1 1) hta)
    (fun t _ => flushed_out a c dat X Wt B hta t (hv t) (hi t)) (out_cover a)

/-- The same with the tables' contents named apart from the admissible contents that carry them. -/
theorem arr_out_at (pf : pre0.Contents (Elt Ideal)) (hpf : a.1 = pf)
    (htp : ∀ k : Fin 8, (tileWord (pf 0) k).toNat ≤ 4)
    (hv : ∀ t : Fin (cfg0 a).N, tileWord (pf 1) (grid0.coords t 1) ≠ 0 → dat.after 3 t
      = k0_pay1 ((((cfg0 a).win 0).blk t).view.read (Elt Ideal) X) ((((cfg0 a).win 1).blk t).view.read (Elt Ideal) Wt)
          ((((cfg0 a).win 2).blk t).view.read (Elt Ideal) B))
    (hi : ∀ t : Fin (cfg0 a).N, tileWord (pf 1) (grid0.coords t 1) = 0 → dat.after 3 t = k0_pay2 (F := Ideal)) :
    dat.arrAt 3 (cfg0 a).N = outPadded X Wt B (pf 0) (pf 1) htp := by
  subst hpf
  exact arr_out a c dat X Wt B htp hv hi

end Array

end Cert.KernelIdeal.HandValue

end
-- ==== Proof.KI.Value.lean ====
/-
  The padded output after the run, read off the pipeline's proof data: with the tables' contents and the three input
  arrays as the region finds them, the output array after the last grid point is the function of Array.lean.  On a
  valid row tile, entry (r, col) is the inner product of padded token row r with row col mod 4096 of the weight slab
  5 * (col / 4096) + (the row tile's adapter word), plus the bias at col; on an invalid row tile it is zero.
-/
import proofs.«421023_j28973849379100_3_alg».proof.Proof.KI.Array
import proofs.«421023_j28973849379100_3_alg».proof.Proof.KI.Kit
import proofs.«421023_j28973849379100_3_alg».proof.Proof.KI.Body

noncomputable section

namespace Cert.KernelIdeal.HandValue

open Idealize.ShloMosaic Idealize.ShloMosaic.TcCoe Idealize.SL Idealize.SL.Sem Idealize.ShloMosaic.ValueIdx
open Cert.KernelIdeal Cert.KernelIdeal.Gen Cert.KernelIdeal.Hand
open Idealize.ShloMosaic.Pipeline (Dat Cfg Window)

variable (m : (ℓ : Loc nD τ sig) → Buf (Elt Ideal) ℓ)

/-- The arrays the region finds, at their literal types: the padded tokens, the stacked weights, the bias row. -/
abbrev Xarr (c : Dev nD) : S2048x2048.Idx → EReal := V m c main_v71
abbrev Warr (c : Dev nD) : S10x4096x2048.Idx → EReal := V m c main_v168
abbrev Barr (c : Dev nD) : S1x8192.Idx → EReal := V m c main_v169
/-- The two tables: the adapter word and the validity word of each row tile. -/
abbrev taTbl : S8.Idx → BitVec 32 := tbl m 0
abbrev tvTbl : S8.Idx → BitVec 32 := tbl m 1
/-- The padded output array after the last point. -/
abbrev outArr (hO : Ok m) (c : Dev nD) : S2048x8192.Idx → EReal := (dats m hO 0 c).arrAt 3 (cfgM m hO).N

/-- The padded output array after the run: the function `outPadded` of the padded tokens, the stacked weights, the
    bias row and the two tables, all as the region finds them. -/
theorem outPadded_eq (hO : Ok m) (c : Dev nD) (hta : ∀ k : Fin 8, (taTbl m (ix1 k)).toNat ≤ 4) :
    outArr m hO c = outPadded (Xarr m c) (Warr m c) (Barr m c) (taTbl m) (tvTbl m) hta :=
  arr_out_at (adm m hO) c (dats m hO 0 c) (Xarr m c) (Warr m c) (Barr m c) (tbl m) rfl hta
    (fun t h => (after0_3 m hO c t).trans (outsAt_valid m hO c t (fun h0 => h ((wordOf_ix m hO c t).symm.trans h0))))
    (fun t h => (after0_3 m hO c t).trans (outsAt_invalid m hO c t ((wordOf_ix m hO c t).trans h)))

/-- The same at an entry: on a valid row tile the inner product of padded token row r with row col mod 4096 of the
    weight slab 5 * (col / 4096) + adapter word, plus the bias at col; zero on an invalid one. -/
theorem outPadded_apply (hO : Ok m) (c : Dev nD) (hta : ∀ k : Fin 8, (taTbl m (ix1 k)).toNat ≤ 4)
    (r : Fin 2048) (col : Fin 8192) :
    outArr m hO c (ix2 r col)
      = if tvTbl m (ix1 (⟨r.val / 256, by have := r.isLt; omega⟩ : Fin 8)) ≠ 0 then
          (∑ d : Fin 2048, Xarr m c (ix2 r d)
            * Warr m c (ix3 (⟨col.val / 4096 * 5 + (taTbl m (ix1 (⟨r.val / 256, by have := r.isLt; omega⟩ : Fin 8))).toNat,
                by have := col.isLt; have := hta ⟨r.val / 256, by have := r.isLt; omega⟩; omega⟩ : Fin 10)
              (⟨col.val % 4096, Nat.mod_lt _ (by decide)⟩ : Fin 4096) d))
            + Barr m c (ix2 (0 : Fin 1) col)
        else 0 := by
  rw [outPadded_eq m hO c hta]
  rfl

end Cert.KernelIdeal.HandValue

end
-- ==== Proof.Spec.lean ====
/-
  The mathematics both programs compute, stated once over plain functions of coordinates.

  A token row `j` carries an adapter id `ind j`; ids outside `0 … 3` select no adapter. The output has two column
  slices of 4096; slice `s` has its own packed 4-bit weights, packed zero points and scales. A packed word holds eight
  nibbles: nibble `k` is the word shifted right (arithmetically) by `4k`, masked to four bits. The weight delta of
  adapter `a` at (output row `n`, input column `d`) is `scale · (nibble − zero)` as real numbers.
  * the fused form: one product of the token row with the base row plus the selected adapter's delta row, plus the bias;
  * the summed form: the base product plus the bias, plus the four masked products (a row whose id is not `a` is
    replaced by zeros in the `a`-th product), added left to right starting from zero.
-/
import Idealize.ShloMosaic.PureOps.Ideal
import Idealize.ShloMosaic.Lib.ValueIdx

noncomputable section

open scoped BigOperators

namespace Cert.Spec

open Idealize.ShloMosaic Idealize.ShloMosaic.ValueIdx

/-- Nibble `k` of a packed word: shifted right arithmetically by `4k` (the shift amount computed as the words do,
    `k` times four), masked to its low four bits. -/
def nib (w : BitVec 32) (k : Fin 8) : BitVec 32 :=
  IntOp.andi (IntOp.shrsi .host w (IntOp.muli (BitVec.ofNat 32 k.val) 4#32)) 15#32

/-- A word read as a signed integer, as an extended real. -/
def toR (w : BitVec 32) : EReal := ((w.toInt : ℝ) : EReal)

/-- One slice's quantised data: packed weights `[4, 4096, 256]`, packed zero points `[4, 512, 1]`, scales `[4, 4096, 1]`. -/
structure Slice where
  qw : (⟨3, ![4, 4096, 256]⟩ : Shape).Idx → BitVec 32
  qz : (⟨3, ![4, 512, 1]⟩ : Shape).Idx → BitVec 32
  sc : (⟨3, ![4, 4096, 1]⟩ : Shape).Idx → EReal

/-- The weight delta of adapter `a` at output row `n`, input column `d`: scale times (weight nibble minus zero nibble). -/
def delta (S : Slice) (a : Fin 4) (n : Fin 4096) (d : Fin 2048) : EReal :=
  S.sc (ix3 a n (0 : Fin 1))
    * (toR (nib (S.qw (ix3 a n (⟨d.val / 8, by omega⟩ : Fin 256))) ⟨d.val % 8, by omega⟩)
        - toR (nib (S.qz (ix3 a (⟨n.val / 8, by omega⟩ : Fin 512) (0 : Fin 1))) ⟨n.val % 8, by omega⟩))

/-- The adapter an id selects: itself when it is one of `0 … 3` read signed, else the fifth, empty slot. -/
def adapter (v : BitVec 32) : Fin 5 :=
  if h : 0 ≤ v.toInt ∧ v.toInt < 4 then ⟨v.toInt.toNat, by omega⟩ else 4

/-- The slice a column of the `[1024, 8192]` output lies in (the first 4096 columns: `S0`, the rest: `S1`). -/
def sliceOf (S0 S1 : Slice) (col : Fin 8192) : Slice := if col.val < 4096 then S0 else S1

/-- The effective weight at (adapter slot `a`, output column `col`, input column `d`): the base weight plus the
    slot's delta; the fifth slot has no delta. -/
def wEff (bw : (⟨2, ![8192, 2048]⟩ : Shape).Idx → EReal) (S0 S1 : Slice) (a : Fin 5) (col : Fin 8192) (d : Fin 2048) : EReal :=
  if h : a.val < 4 then bw (ix2 col d) + delta (sliceOf S0 S1 col) ⟨a.val, h⟩ ⟨col.val % 4096, by omega⟩ d
  else bw (ix2 col d)

/-- THE FUSED FORM: the token row times the effective weight row of the token's adapter slot, plus the bias. -/
def fused (x : (⟨2, ![1024, 2048]⟩ : Shape).Idx → EReal) (bw : (⟨2, ![8192, 2048]⟩ : Shape).Idx → EReal)
    (bb : (⟨1, ![8192]⟩ : Shape).Idx → EReal) (S0 S1 : Slice) (ind : (⟨1, ![1024]⟩ : Shape).Idx → BitVec 32)
    (j : Fin 1024) (col : Fin 8192) : EReal :=
  (∑ d : Fin 2048, x (ix2 j d) * wEff bw S0 S1 (adapter (ind (ix1 j))) col d) + bb (ix1 col)

/-- A token row kept when its id is exactly the word `a`, else zeros. -/
def masked (x : (⟨2, ![1024, 2048]⟩ : Shape).Idx → EReal) (ind : (⟨1, ![1024]⟩ : Shape).Idx → BitVec 32) (a : Fin 4)
    (j : Fin 1024) (d : Fin 2048) : EReal :=
  if ind (ix1 j) = BitVec.ofNat 32 a.val then x (ix2 j d) else 0

/-- The `a`-th masked product at (token `j`, column `col`). -/
def maskedDot (x : (⟨2, ![1024, 2048]⟩ : Shape).Idx → EReal) (S0 S1 : Slice) (ind : (⟨1, ![1024]⟩ : Shape).Idx → BitVec 32)
    (a : Fin 4) (j : Fin 1024) (col : Fin 8192) : EReal :=
  ∑ d : Fin 2048, masked x ind a j d * delta (sliceOf S0 S1 col) a ⟨col.val % 4096, by omega⟩ d

/-- THE SUMMED FORM: base product plus bias, plus the four masked products added left to right from zero. -/
def summed (x : (⟨2, ![1024, 2048]⟩ : Shape).Idx → EReal) (bw : (⟨2, ![8192, 2048]⟩ : Shape).Idx → EReal)
    (bb : (⟨1, ![8192]⟩ : Shape).Idx → EReal) (S0 S1 : Slice) (ind : (⟨1, ![1024]⟩ : Shape).Idx → BitVec 32)
    (j : Fin 1024) (col : Fin 8192) : EReal :=
  ((∑ d : Fin 2048, x (ix2 j d) * bw (ix2 col d)) + bb (ix1 col))
    + ((((0 + maskedDot x S0 S1 ind 0 j col) + maskedDot x S0 S1 ind 1 j col) + maskedDot x S0 S1 ind 2 j col)
        + maskedDot x S0 S1 ind 3 j col)

/-- The inputs the law between the two forms needs to be real numbers. -/
structure Finite (x : (⟨2, ![1024, 2048]⟩ : Shape).Idx → EReal) (bw : (⟨2, ![8192, 2048]⟩ : Shape).Idx → EReal)
    (bb : (⟨1, ![8192]⟩ : Shape).Idx → EReal) (S0 S1 : Slice) : Prop where
  x : ∀ i, ∃ r : ℝ, x i = (r : EReal)
  bw : ∀ i, ∃ r : ℝ, bw i = (r : EReal)
  bb : ∀ i, ∃ r : ℝ, bb i = (r : EReal)
  sc0 : ∀ i, ∃ r : ℝ, S0.sc i = (r : EReal)
  sc1 : ∀ i, ∃ r : ℝ, S1.sc i = (r : EReal)

end Cert.Spec

end
-- ==== Proof.KI.WeightsMath.lean ====
/-
  The region's weight operand as a function of the program's inputs.

  Each of the two column slices contributes five slots of a `[4096, 2048]` weight: for the four adapters, the base
  weight's half plus the adapter's delta (scale times (weight nibble minus zero-point nibble), the nibbles cut out of
  packed words by an arithmetic shift and a four-bit mask); for the fifth, the base half alone. The ten slots are
  stacked slice after slice. Read at (slice `s`, slot `a`, output row `n`, input column `d`) this is the effective
  weight of slot `a` at output column `s · 4096 + n`.
-/
import proofs.«421023_j28973849379100_3_alg».proof.Proof.KI.Base
import proofs.«421023_j28973849379100_3_alg».proof.Proof.Spec
import Idealize.ShloMosaic.Lib.Pipeline.Value
import Idealize.ShloMosaic.Lib.ValueIdx

noncomputable section

namespace Cert.KernelIdeal.HandWeights

open Cert.KernelIdeal Cert.KernelIdeal.Gen Cert.KernelIdeal.Hand Cert.Spec
open Idealize.ShloMosaic Idealize.ShloMosaic.ValueIdx

/-! ## The stacked weights as one function of the inputs

The operations that build the region's weight operand, composed in program order, as functions of the packed words,
the packed zero points, the scales and the base weight; then each read at an index. -/

variable {α : Type}

/-- Whole-array contents at the three element types met here. -/
abbrev I32 (s : Shape) : Type := (⟨s, .i32⟩ : BufTy).Contents (Elt Ideal)
abbrev F32 (s : Shape) : Type := (⟨s, .f32⟩ : BufTy).Contents (Elt Ideal)
abbrev B16 (s : Shape) : Type := (⟨s, .bf16⟩ : BufTy).Contents (Elt Ideal)

/-- The eight shift amounts: position `k` holds `k` times four. -/
def shifts : I32 S8 :=
  muli (iotaInDim S8 32 0) (broadcastInDim S8 ![] bcast_S_S8 (constantI S_ 32 4#32))

/-- The weight nibbles, `[4, 4096, 2048]`: every packed word against the eight shift amounts, masked, flattened. -/
def qNib (qw : I32 S4x4096x256) : I32 S4x4096x2048 :=
  shapeCast S4x4096x2048
    (andi
      (Host.shrsi
        (broadcastInDim S4x4096x256x8 ![0, 1, 2, 3] bcast_S4x4096x256x1_S4x4096x256x8_0_1_2_3
          (broadcastInDim S4x4096x256x1 ![0, 1, 2] bcast_S4x4096x256_S4x4096x256x1_0_1_2 qw))
        (broadcastInDim S4x4096x256x8 ![0, 1, 2, 3] bcast_S1x1x1x8_S4x4096x256x8_0_1_2_3
          (broadcastInDim S1x1x1x8 ![1, 2, 3] bcast_S1x1x8_S1x1x1x8_1_2_3
            (broadcastInDim S1x1x8 ![2] bcast_S8_S1x1x8_2 shifts))))
      (broadcastInDim S4x4096x256x8 ![] bcast_S_S4x4096x256x8 (constantI S_ 32 15#32)))
    shapeCasts_S4x4096x256x8_S4x4096x2048

/-- The zero-point nibbles, `[4, 4096]`. -/
def zNib (qz : I32 S4x512x1) : I32 S4x4096 :=
  shapeCast S4x4096
    (andi
      (Host.shrsi
        (broadcastInDim S4x512x8 ![0, 1, 2] bcast_S4x512x1_S4x512x8_0_1_2
          (broadcastInDim S4x512x1 ![0, 1] bcast_S4x512_S4x512x1_0_1
            (shapeCast S4x512 qz shapeCasts_S4x512x1_S4x512)))
        (broadcastInDim S4x512x8 ![0, 1, 2] bcast_S1x1x8_S4x512x8_0_1_2
          (broadcastInDim S1x1x8 ![1, 2] bcast_S1x8_S1x1x8_1_2
            (broadcastInDim S1x8 ![1] bcast_S8_S1x8_1 shifts))))
      (broadcastInDim S4x512x8 ![] bcast_S_S4x512x8 (constantI S_ 32 15#32)))
    shapeCasts_S4x512x8_S4x4096

/-- The weight deltas of one slice, `[4, 4096, 2048]`: scale times (weight nibble minus zero nibble). -/
def wDelta (qw : I32 S4x4096x256) (qz : I32 S4x512x1) (sc : F32 S4x4096x1) : F32 S4x4096x2048 :=
  mulf (F := Ideal) (broadcastInDim S4x4096x2048 ![0, 1, 2] bcast_S4x4096x1_S4x4096x2048_0_1_2 sc)
    (subf (F := Ideal) (sitofp (F := Ideal) .f32 (qNib qw))
      (broadcastInDim S4x4096x2048 ![0, 1, 2] bcast_S4x4096x1_S4x4096x2048_0_1_2
        (sitofp (F := Ideal) .f32 (broadcastInDim S4x4096x1 ![0, 1] bcast_S4x4096_S4x4096x1_0_1 (zNib qz)))))

/-- One slice's five weight slots, `[5, 4096, 2048]`: the base half plus each delta, then the base half alone. -/
def wFull (bh : F32 S4096x2048) (qw : I32 S4x4096x256) (qz : I32 S4x512x1) (sc : F32 S4x4096x1) :
    B16 S5x4096x2048 :=
  truncf (F := Ideal) .bf16
    (concatenate S5x4096x2048 0
      [⟨S4x4096x2048,
          addf (F := Ideal)
            (broadcastInDim S4x4096x2048 ![0, 1, 2] bcast_S1x4096x2048_S4x4096x2048_0_1_2
              (broadcastInDim S1x4096x2048 ![1, 2] bcast_S4096x2048_S1x4096x2048_1_2 bh))
            (wDelta qw qz sc)⟩,
       ⟨S1x4096x2048, broadcastInDim S1x4096x2048 ![1, 2] bcast_S4096x2048_S1x4096x2048_1_2 bh⟩]
      concatenates_S4x4096x2048_S1x4096x2048_S5x4096x2048_d0)
    bitsLt_bf16_f32

/-- The two slices' slots stacked, `[10, 4096, 2048]`. -/
def wStack (bw : F32 S8192x2048) (qw0 qw1 : I32 S4x4096x256) (qz0 qz1 : I32 S4x512x1)
    (sc0 sc1 : F32 S4x4096x1) : B16 S10x4096x2048 :=
  concatenate S10x4096x2048 0
    [⟨S5x4096x2048, wFull (extractStridedSlice S4096x2048 ![0, 0] bw slices_S8192x2048_S4096x2048_0_0) qw0 qz0 sc0⟩,
     ⟨S5x4096x2048, wFull (extractStridedSlice S4096x2048 ![4096, 0] bw slices_S8192x2048_S4096x2048_4096_0) qw1 qz1 sc1⟩]
    concatenates_S5x4096x2048_S5x4096x2048_S10x4096x2048_d0

/-! ### Read at an index -/

theorem shifts_apply (k : Fin 8) : shifts (ix1 k) = IntOp.muli (BitVec.ofNat 32 k.val) 4#32 := rfl

theorem andi_at {s : Shape} {w : Nat} (x y : IVec s w) (i : s.Idx) : andi x y i = IntOp.andi (x i) (y i) := rfl
theorem hostShrsi_at {s : Shape} {w : Nat} (x y : IVec s w) (i : s.Idx) :
    Host.shrsi x y i = IntOp.shrsi .host (x i) (y i) := rfl

/-- A packed word repeated along a new last axis of eight. -/
theorem wordsRep_apply (qw : I32 S4x4096x256) (a : Fin 4) (n : Fin 4096) (q : Fin 256) (k : Fin 8) :
    broadcastInDim S4x4096x256x8 ![0, 1, 2, 3] bcast_S4x4096x256x1_S4x4096x256x8_0_1_2_3
        (broadcastInDim S4x4096x256x1 ![0, 1, 2] bcast_S4x4096x256_S4x4096x256x1_0_1_2 qw) (ix4 a n q k)
      = qw (ix3 a n q) := by
  rw [broadcastInDim_apply _ bcast_S4x4096x256x1_S4x4096x256x8_0_1_2_3 _ (ix4 a n q k) (ix4 a n q (0 : Fin 1))
      (fun b => match b with | ⟨0, _⟩ => rfl | ⟨1, _⟩ => rfl | ⟨2, _⟩ => rfl | ⟨3, _⟩ => rfl),
    broadcastInDim_apply _ bcast_S4x4096x256_S4x4096x256x1_0_1_2 _ (ix4 a n q (0 : Fin 1)) (ix3 a n q)
      (fun b => match b with | ⟨0, _⟩ => rfl | ⟨1, _⟩ => rfl | ⟨2, _⟩ => rfl)]

/-- The shift amounts repeated over every packed word. -/
theorem shiftsRep4_apply (x : I32 S8) (a : Fin 4) (n : Fin 4096) (q : Fin 256) (k : Fin 8) :
    broadcastInDim S4x4096x256x8 ![0, 1, 2, 3] bcast_S1x1x1x8_S4x4096x256x8_0_1_2_3
        (broadcastInDim S1x1x1x8 ![1, 2, 3] bcast_S1x1x8_S1x1x1x8_1_2_3
          (broadcastInDim S1x1x8 ![2] bcast_S8_S1x1x8_2 x)) (ix4 a n q k)
      = x (ix1 k) := by
  rw [broadcastInDim_apply _ bcast_S1x1x1x8_S4x4096x256x8_0_1_2_3 _ (ix4 a n q k) (ix4 (0 : Fin 1) (0 : Fin 1) (0 : Fin 1) k)
      (fun b => match b with | ⟨0, _⟩ => rfl | ⟨1, _⟩ => rfl | ⟨2, _⟩ => rfl | ⟨3, _⟩ => rfl),
    broadcastInDim_apply _ bcast_S1x1x8_S1x1x1x8_1_2_3 _ (ix4 (0 : Fin 1) (0 : Fin 1) (0 : Fin 1) k) (ix3 (0 : Fin 1) (0 : Fin 1) k)
      (fun b => match b with | ⟨0, _⟩ => rfl | ⟨1, _⟩ => rfl | ⟨2, _⟩ => rfl),
    broadcastInDim_apply _ bcast_S8_S1x1x8_2 _ (ix3 (0 : Fin 1) (0 : Fin 1) k) (ix1 k)
      (fun b => match b with | ⟨0, _⟩ => rfl)]

theorem qNib_apply (qw : I32 S4x4096x256) (a : Fin 4) (n : Fin 4096) (d : Fin 2048) :
    qNib qw (ix3 a n d) = nib (qw (ix3 a n (⟨d.val / 8, by omega⟩ : Fin 256))) ⟨d.val % 8, by omega⟩ := by
  unfold qNib
  rw [shapeCast_apply _ shapeCasts_S4x4096x256x8_S4x4096x2048 (ix3 a n d)
      (ix4 a n (⟨d.val / 8, by omega⟩ : Fin 256) (⟨d.val % 8, by omega⟩ : Fin 8)) (by
        rewrite [Shape.rowMajor_val_four, Shape.rowMajor_val_three]
        show ((a.val * 4096 + n.val) * 256 + d.val / 8) * 8 + d.val % 8 = (a.val * 4096 + n.val) * 2048 + d.val
        omega),
    andi_at, hostShrsi_at, wordsRep_apply, shiftsRep4_apply, shifts_apply]
  rfl

/-- A packed zero point repeated along a new last axis of eight. -/
theorem zerosRep_apply (qz : I32 S4x512x1) (a : Fin 4) (g : Fin 512) (k : Fin 8) :
    broadcastInDim S4x512x8 ![0, 1, 2] bcast_S4x512x1_S4x512x8_0_1_2
        (broadcastInDim S4x512x1 ![0, 1] bcast_S4x512_S4x512x1_0_1
          (shapeCast S4x512 qz shapeCasts_S4x512x1_S4x512)) (ix3 a g k)
      = qz (ix3 a g (0 : Fin 1)) := by
  rw [broadcastInDim_apply _ bcast_S4x512x1_S4x512x8_0_1_2 _ (ix3 a g k) (ix3 a g (0 : Fin 1))
      (fun b => match b with | ⟨0, _⟩ => rfl | ⟨1, _⟩ => rfl | ⟨2, _⟩ => rfl),
    broadcastInDim_apply _ bcast_S4x512_S4x512x1_0_1 _ (ix3 a g (0 : Fin 1)) (ix2 a g)
      (fun b => match b with | ⟨0, _⟩ => rfl | ⟨1, _⟩ => rfl),
    shapeCast_apply _ shapeCasts_S4x512x1_S4x512 (ix2 a g) (ix3 a g (0 : Fin 1)) (by
      rewrite [Shape.rowMajor_val_three, Shape.rowMajor_val_two]
      show (a.val * 512 + g.val) * 1 + 0 = a.val * 512 + g.val
      omega)]

/-- The shift amounts repeated over every packed zero point. -/
theorem shiftsRep3_apply (x : I32 S8) (a : Fin 4) (g : Fin 512) (k : Fin 8) :
    broadcastInDim S4x512x8 ![0, 1, 2] bcast_S1x1x8_S4x512x8_0_1_2
        (broadcastInDim S1x1x8 ![1, 2] bcast_S1x8_S1x1x8_1_2
          (broadcastInDim S1x8 ![1] bcast_S8_S1x8_1 x)) (ix3 a g k)
      = x (ix1 k) := by
  rw [broadcastInDim_apply _ bcast_S1x1x8_S4x512x8_0_1_2 _ (ix3 a g k) (ix3 (0 : Fin 1) (0 : Fin 1) k)
      (fun b => match b with | ⟨0, _⟩ => rfl | ⟨1, _⟩ => rfl | ⟨2, _⟩ => rfl),
    broadcastInDim_apply _ bcast_S1x8_S1x1x8_1_2 _ (ix3 (0 : Fin 1) (0 : Fin 1) k) (ix2 (0 : Fin 1) k)
      (fun b => match b with | ⟨0, _⟩ => rfl | ⟨1, _⟩ => rfl),
    broadcastInDim_apply _ bcast_S8_S1x8_1 _ (ix2 (0 : Fin 1) k) (ix1 k)
      (fun b => match b with | ⟨0, _⟩ => rfl)]

theorem zNib_apply (qz : I32 S4x512x1) (a : Fin 4) (n : Fin 4096) :
    zNib qz (ix2 a n) = nib (qz (ix3 a (⟨n.val / 8, by omega⟩ : Fin 512) (0 : Fin 1))) ⟨n.val % 8, by omega⟩ := by
  unfold zNib
  rw [shapeCast_apply _ shapeCasts_S4x512x8_S4x4096 (ix2 a n)
      (ix3 a (⟨n.val / 8, by omega⟩ : Fin 512) (⟨n.val % 8, by omega⟩ : Fin 8)) (by
        rewrite [Shape.rowMajor_val_three, Shape.rowMajor_val_two]
        show (a.val * 512 + n.val / 8) * 8 + n.val % 8 = a.val * 4096 + n.val
        omega),
    andi_at, hostShrsi_at, zerosRep_apply, shiftsRep3_apply, shifts_apply]
  rfl

/-- A `[4, 4096, 1]` column repeated along the input columns. -/
theorem colRep_apply (x : (⟨3, ![4, 4096, 1]⟩ : Shape).Idx → α) (a : Fin 4) (n : Fin 4096) (d : Fin 2048) :
    broadcastInDim S4x4096x2048 ![0, 1, 2] bcast_S4x4096x1_S4x4096x2048_0_1_2 x (ix3 a n d) = x (ix3 a n (0 : Fin 1)) :=
  broadcastInDim_apply _ bcast_S4x4096x1_S4x4096x2048_0_1_2 x (ix3 a n d) (ix3 a n (0 : Fin 1))
    (fun b => match b with | ⟨0, _⟩ => rfl | ⟨1, _⟩ => rfl | ⟨2, _⟩ => rfl)

theorem wDelta_apply (qw : I32 S4x4096x256) (qz : I32 S4x512x1) (sc : F32 S4x4096x1)
    (a : Fin 4) (n : Fin 4096) (d : Fin 2048) :
    wDelta qw qz sc (ix3 a n d) = delta ⟨qw, qz, sc⟩ a n d := by
  unfold wDelta delta
  rw [mulf_apply, subf_apply, colRep_apply, colRep_apply, sitofp_apply, sitofp_apply, qNib_apply,
    broadcastInDim_apply _ bcast_S4x4096_S4x4096x1_0_1 _ (ix3 a n (0 : Fin 1)) (ix2 a n)
      (fun b => match b with | ⟨0, _⟩ => rfl | ⟨1, _⟩ => rfl),
    zNib_apply]
  rfl

/-- The base half laid under one slot. -/
theorem baseRep1_apply (bh : F32 S4096x2048) (n : Fin 4096) (d : Fin 2048) :
    broadcastInDim S1x4096x2048 ![1, 2] bcast_S4096x2048_S1x4096x2048_1_2 bh (ix3 (0 : Fin 1) n d) = bh (ix2 n d) :=
  broadcastInDim_apply _ bcast_S4096x2048_S1x4096x2048_1_2 bh (ix3 (0 : Fin 1) n d) (ix2 n d)
    (fun b => match b with | ⟨0, _⟩ => rfl | ⟨1, _⟩ => rfl)

/-- The base half laid under four slots. -/
theorem baseRep4_apply (bh : F32 S4096x2048) (a : Fin 4) (n : Fin 4096) (d : Fin 2048) :
    broadcastInDim S4x4096x2048 ![0, 1, 2] bcast_S1x4096x2048_S4x4096x2048_0_1_2
        (broadcastInDim S1x4096x2048 ![1, 2] bcast_S4096x2048_S1x4096x2048_1_2 bh) (ix3 a n d) = bh (ix2 n d) := by
  rw [broadcastInDim_apply _ bcast_S1x4096x2048_S4x4096x2048_0_1_2 _ (ix3 a n d) (ix3 (0 : Fin 1) n d)
      (fun b => match b with | ⟨0, _⟩ => rfl | ⟨1, _⟩ => rfl | ⟨2, _⟩ => rfl),
    baseRep1_apply]

theorem wFull_apply (bh : F32 S4096x2048) (qw : I32 S4x4096x256) (qz : I32 S4x512x1)
    (sc : F32 S4x4096x1) (a : Fin 5) (n : Fin 4096) (d : Fin 2048) :
    wFull bh qw qz sc (ix3 a n d)
      = if h : a.val < 4 then bh (ix2 n d) + delta ⟨qw, qz, sc⟩ ⟨a.val, h⟩ n d else bh (ix2 n d) := by
  unfold wFull
  rw [truncf_apply]
  by_cases h : a.val < 4
  · rw [dif_pos h,
      concatenate_pair_apply_left (0 : Fin S5x4096x2048.rank) _ _ concatenates_S4x4096x2048_S1x4096x2048_S5x4096x2048_d0
        (ix3 a n d) rfl (ix3 (⟨a.val, h⟩ : Fin 4) n d)
        (fun b => match b with | ⟨0, _⟩ => rfl | ⟨1, _⟩ => rfl | ⟨2, _⟩ => rfl),
      addf_apply, baseRep4_apply, wDelta_apply]
  · rw [dif_neg h,
      concatenate_pair_apply_right (0 : Fin S5x4096x2048.rank) _ _ concatenates_S4x4096x2048_S1x4096x2048_S5x4096x2048_d0
        (ix3 a n d) rfl rfl (ix3 (0 : Fin 1) n d)
        (fun b hb => match b, hb with
          | ⟨0, _⟩, hb => absurd rfl hb
          | ⟨1, _⟩, _ => rfl
          | ⟨2, _⟩, _ => rfl)
        (by show 0 + 4 = a.val; have := a.isLt; omega),
      baseRep1_apply]

theorem wStack_apply (bw : F32 S8192x2048) (qw0 qw1 : I32 S4x4096x256) (qz0 qz1 : I32 S4x512x1)
    (sc0 sc1 : F32 S4x4096x1) (s : Fin 2) (a : Fin 5) (n : Fin 4096) (d : Fin 2048) :
    wStack bw qw0 qw1 qz0 qz1 sc0 sc1 (ix3 (⟨s.val * 5 + a.val, by omega⟩ : Fin 10) n d)
      = wEff bw ⟨qw0, qz0, sc0⟩ ⟨qw1, qz1, sc1⟩ a (⟨s.val * 4096 + n.val, by omega⟩ : Fin 8192) d := by
  unfold wStack wEff sliceOf
  obtain ⟨sv, hs⟩ := s
  have hs' : sv = 0 ∨ sv = 1 := by omega
  rcases hs' with rfl | rfl
  · have hn : (⟨(0 * 4096 + n.val) % 4096, by omega⟩ : Fin 4096) = n := Fin.ext (by show (0 * 4096 + n.val) % 4096 = n.val; omega)
    rw [concatenate_pair_apply_left (0 : Fin S10x4096x2048.rank) _ _ concatenates_S5x4096x2048_S5x4096x2048_S10x4096x2048_d0
        _ rfl (ix3 a n d)
        (fun b => match b with
          | ⟨0, _⟩ => by show a.val = 0 * 5 + a.val; omega
          | ⟨1, _⟩ => rfl
          | ⟨2, _⟩ => rfl),
      wFull_apply,
      extractStridedSlice_apply ![0, 0] bw slices_S8192x2048_S4096x2048_0_0 (ix2 n d)
        (ix2 (⟨0 * 4096 + n.val, by omega⟩ : Fin 8192) d)
        (fun b => match b with
          | ⟨0, _⟩ => by show 0 * 4096 + n.val = 0 + n.val; omega
          | ⟨1, _⟩ => by show d.val = 0 + d.val; omega)]
    simp only [show (0 * 4096 + n.val < 4096) from by omega, if_true, hn]
  · have hn : (⟨(1 * 4096 + n.val) % 4096, by omega⟩ : Fin 4096) = n := Fin.ext (by show (1 * 4096 + n.val) % 4096 = n.val; omega)
    rw [concatenate_pair_apply_right (0 : Fin S10x4096x2048.rank) _ _ concatenates_S5x4096x2048_S5x4096x2048_S10x4096x2048_d0
        _ rfl rfl (ix3 a n d)
        (fun b hb => match b, hb with
          | ⟨0, _⟩, hb => absurd rfl hb
          | ⟨1, _⟩, _ => rfl
          | ⟨2, _⟩, _ => rfl)
        (by show a.val + 5 = 1 * 5 + a.val; omega),
      wFull_apply,
      extractStridedSlice_apply ![4096, 0] bw slices_S8192x2048_S4096x2048_4096_0 (ix2 n d)
        (ix2 (⟨1 * 4096 + n.val, by omega⟩ : Fin 8192) d)
        (fun b => match b with
          | ⟨0, _⟩ => by show 1 * 4096 + n.val = 4096 + n.val; omega
          | ⟨1, _⟩ => by show d.val = 0 + d.val; omega)]
    simp only [show ¬ (1 * 4096 + n.val < 4096) from by omega, if_false, hn]

end Cert.KernelIdeal.HandWeights

end
-- ==== Proof.KI.Weights.lean ====
/-
  What the region finds in its weight operand and in its bias operand.

  The weight operand is written by the last stretch of host operations before the region: per slice, the nibbles are cut
  out of the packed words, turned into real numbers, scaled, added to the base weight's half, a fifth base-only slot is
  appended, and the two slices are stacked. Composed in program order this is `wStack` of the inputs; read at
  (slice, slot, output row, input column) it is the specification's effective weight. The bias operand is the bias
  input laid out as one row.
-/
import proofs.«421023_j28973849379100_3_alg».proof.Proof.KI.WeightsMath
import Idealize.ShloMosaic.Lib.StableHlo.Run

noncomputable section

namespace Cert.KernelIdeal.HandWeights

open Cert.KernelIdeal Cert.KernelIdeal.Gen Cert.KernelIdeal.Hand Cert.Spec
open Idealize.ShloMosaic Idealize.ShloMosaic.ValueIdx Idealize.ShloMosaic.TcCoe Idealize.ShloMosaic.StableHlo
open Idealize.SL Idealize.SL.Sem

variable (m : (ℓ : Loc nD τ sig) → Buf (Elt Ideal) ℓ) (c : Dev nD)

/-- Two-piece concatenations of equal pieces are equal. -/
theorem cat2_congr {α : Type} {t s₁ s₂ : Shape} (a : Fin t.rank) (h : Shape.Concatenates [s₁, s₂] t a)
    {x₁ x₁' : s₁.Idx → α} {x₂ x₂' : s₂.Idx → α} (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

set_option maxHeartbeats 40000000 in
/-- The weight operand when the region is entered: the stacked slots of the inputs. -/
theorem weights_read :
    (V m c main_v168 : S10x4096x2048.Idx → EReal)
      = wStack (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8)) := by
  dsimp only [V, V0, preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  unfold wStack
  refine cat2_congr _ _ ?_ ?_
  · after_results_simp
    unfold wFull
    refine congrArg (fun x => truncf (F := Ideal) .bf16 x bitsLt_bf16_f32) ?_
    refine cat2_congr _ _ ?_ ?_
    · after_results_simp
      rfl
    · after_results_simp
  · after_results_simp
    unfold wFull
    refine congrArg (fun x => truncf (F := Ideal) .bf16 x bitsLt_bf16_f32) ?_
    refine cat2_congr _ _ ?_ ?_
    · after_results_simp
      rfl
    · after_results_simp

/-- The weight operand at (slice `s`, slot `a`, output row `n`, input column `d`): the effective weight of slot `a` at
    output column `s · 4096 + n`. -/
theorem weights_apply (s : Fin 2) (a : Fin 5) (n : Fin 4096) (d : Fin 2048) :
    (V m c main_v168 : S10x4096x2048.Idx → EReal) (ix3 (⟨s.val * 5 + a.val, by omega⟩ : Fin 10) n d)
      = Spec.wEff (m ((c : Thread nD τ).loc main_arg1))
          ⟨m ((c : Thread nD τ).loc main_arg3), m ((c : Thread nD τ).loc main_arg5), m ((c : Thread nD τ).loc main_arg7)⟩
          ⟨m ((c : Thread nD τ).loc main_arg4), m ((c : Thread nD τ).loc main_arg6), m ((c : Thread nD τ).loc main_arg8)⟩
          a (⟨s.val * 4096 + n.val, by omega⟩ : Fin 8192) d := by
  rw [weights_read]
  exact wStack_apply _ _ _ _ _ _ _ s a n d

set_option maxHeartbeats 4000000 in
/-- The bias operand when the region is entered: the bias input as one row. -/
theorem bias_read :
    (V m c main_v169 : S1x8192.Idx → EReal)
      = fun i => shapeCast S1x8192 (m ((c : Thread nD τ).loc main_arg2) : S8192.Idx → EReal) shapeCasts_S8192_S1x8192 i := by
  dsimp only [V, V0, preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  rfl

/-- The bias operand at column `col`: the bias input there. -/
theorem bias_apply (col : Fin 8192) :
    (V m c main_v169 : S1x8192.Idx → EReal) (ix2 (0 : Fin 1) col) = m ((c : Thread nD τ).loc main_arg2) (ix1 col) := by
  rw [bias_read]
  exact shapeCast_apply _ shapeCasts_S8192_S1x8192 (ix2 (0 : Fin 1) col) (ix1 col) (by
    rewrite [Shape.rowMajor_val_one, Shape.rowMajor_val_two]
    show col.val = 0 * 8192 + col.val
    omega)

end Cert.KernelIdeal.HandWeights

end
-- ==== Proof.LibIndex.lean ====
/-
  StableHLO scatter and gather dimension numbers read at an index.

  A scatter's update index lands at the operand index "start + window coordinate", the start read signed off the
  index array and not clamped; a gather's result index reads the operand at "clamped start + offset coordinate".
  For the dimension numbers of the four indexed updates and reads  x[i] += v,  x[i, :] += v,  x[r, k] += 1  and
  y = x[i, :]  these lemmas say where an update lands and what an element of the result is, coordinate by
  coordinate.
-/
import Idealize.ShloMosaic.PureOps.Ideal
import Idealize.ShloMosaic.PureOps.Ideal.Laws
import Idealize.ShloMosaic.Lib.ValueIdx

noncomputable section

open scoped BigOperators

namespace Cert.LibIndex

open Idealize.ShloMosaic Idealize.ShloMosaic.ValueIdx

/-- An update lands on the operand index t exactly when, on every axis, start plus window coordinate is t's
    coordinate: being inside the operand is then automatic, and nothing is dropped. -/
theorem resultIdx?_eq_some_iff {s si u : Shape} (d : ScatterDims s si u) {w : ℕ} (j : u.Idx) (idx : IVec si w) (t : s.Idx) :
    d.resultIdx? j idx = some t ↔ ∀ a, d.start j idx a + (d.window j a : ℤ) = ((t a).val : ℤ) := by
  unfold ScatterDims.resultIdx?
  split
  next h =>
    constructor
    · intro heq a
      have ht := congrArg (fun f : s.Idx => (f a).val) (Option.some.inj heq)
      simp only at ht
      have := (h a).1
      omega
    · intro heq
      refine congrArg some (funext fun a => Fin.ext ?_)
      have := heq a
      simp only
      omega
  next h =>
    constructor
    · intro heq; exact absurd heq (by simp)
    · intro heq
      exact absurd (fun a => by have := heq a; have := (t a).isLt; constructor <;> omega) h

/-- The operand's kept axes are the ones that are not inserted window axes. -/
theorem mem_sKept {s si u : Shape} (d : ScatterDims s si u) (a : Fin s.rank) : a ∈ d.sKept ↔ a ∉ d.insertedWindowDims := by
  simp [ScatterDims.sKept, Shape.kept, List.mem_filter, List.mem_finRange]

/-- On an inserted window axis an update has no window coordinate. -/
theorem window_of_inserted {s si u : Shape} (d : ScatterDims s si u) (j : u.Idx) (a : Fin s.rank)
    (ha : a ∈ d.insertedWindowDims) : d.window j a = 0 := by
  unfold ScatterDims.window
  rw [dif_neg (fun h => (mem_sKept d a).mp h ha)]

/-- scalar updates scattered along the one axis of a vector: update e lands on i iff its index word, read signed, is i -/
theorem resultIdx_vec {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w) (e : Fin E) (i : Fin M) :
    d.resultIdx? (ix1 e) idx = some (ix1 i) ↔ (idx (ix2 e (0 : Fin 1))).toInt = (i.val : ℤ) := by
  obtain ⟨uwd, iwd, sd, ivd, wf⟩ := d
  dsimp only at h1 h2 h3 h4
  subst h1 h2 h3 h4
  rw [resultIdx?_eq_some_iff]
  -- the one operand axis: inserted, so no window coordinate; the start is the index word
  have hs : ScatterDims.start (⟨[], [0], [0], 1, wf⟩ : ScatterDims ⟨1, ![M]⟩ ⟨2, ![E, 1]⟩ ⟨1, ![E]⟩) (ix1 e) idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw : ScatterDims.window (⟨[], [0], [0], 1, wf⟩ : ScatterDims ⟨1, ![M]⟩ ⟨2, ![E, 1]⟩ ⟨1, ![E]⟩) (ix1 e) 0 = 0 :=
    window_of_inserted _ _ _ (List.mem_singleton.mpr rfl)
  constructor
  · intro h
    have := h 0
    rw [hs, hw, Nat.cast_zero, add_zero] at this
    exact this
  · intro h a
    match a with
    | ⟨0, _⟩ =>
      show ScatterDims.start _ (ix1 e) idx 0 + ((ScatterDims.window _ (ix1 e) 0 : ℕ) : ℤ) = (i.val : ℤ)
      rw [hs, hw, h, Nat.cast_zero, add_zero]

/-- rows scattered into a matrix -/
theorem resultIdx_rows {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c' : Fin C) (i : Fin M) (c : Fin C) :
    d.resultIdx? (ix2 e c') idx = some (ix2 i c) ↔ (idx (ix2 e (0 : Fin 1))).toInt = (i.val : ℤ) ∧ c' = c := by
  obtain ⟨uwd, iwd, sd, ivd, wf⟩ := d
  dsimp only at h1 h2 h3 h4
  subst h1 h2 h3 h4
  rw [resultIdx?_eq_some_iff]
  -- the row axis: inserted, so no window coordinate; the start is the index word
  have hs0 : ScatterDims.start (⟨[1], [0], [0], 1, wf⟩ : ScatterDims ⟨2, ![M, C]⟩ ⟨2, ![E, 1]⟩ ⟨2, ![E, C]⟩) (ix2 e c') idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[1], [0], [0], 1, wf⟩ : ScatterDims ⟨2, ![M, C]⟩ ⟨2, ![E, 1]⟩ ⟨2, ![E, C]⟩) (ix2 e c') 0 = 0 :=
    window_of_inserted _ _ _ (List.mem_singleton.mpr rfl)
  -- the column axis: the scatter index does not name it, so the start is 0; the window coordinate is the update's column
  have hs1 : ScatterDims.start (⟨[1], [0], [0], 1, wf⟩ : ScatterDims ⟨2, ![M, C]⟩ ⟨2, ![E, 1]⟩ ⟨2, ![E, C]⟩) (ix2 e c') idx 1 = 0 := by
    unfold ScatterDims.start
    rw [dif_neg (show (1 : Fin 2) ∉ ([0] : List (Fin 2)) by decide)]
  have hw1 : ScatterDims.window (⟨[1], [0], [0], 1, wf⟩ : ScatterDims ⟨2, ![M, C]⟩ ⟨2, ![E, 1]⟩ ⟨2, ![E, C]⟩) (ix2 e c') 1 = c'.val := by
    unfold ScatterDims.window
    rw [dif_pos ((mem_sKept _ _).mpr (show (1 : Fin 2) ∉ ([0] : List (Fin 2)) by decide))]
    rfl
  constructor
  · intro h
    have e0 := h 0
    have e1 := h 1
    rw [hs0, hw0, Nat.cast_zero, add_zero] at e0
    rw [hs1, hw1, zero_add] at e1
    exact ⟨e0, Fin.ext (Nat.cast_injective (R := ℤ) e1)⟩
  · rintro ⟨h, rfl⟩ a
    match a with
    | ⟨0, _⟩ =>
      show ScatterDims.start _ (ix2 e c') idx 0 + ((ScatterDims.window _ (ix2 e c') 0 : ℕ) : ℤ) = (i.val : ℤ)
      rw [hs0, hw0, h, Nat.cast_zero, add_zero]
    | ⟨1, _⟩ =>
      show ScatterDims.start _ (ix2 e c') idx 1 + ((ScatterDims.window _ (ix2 e c') 1 : ℕ) : ℤ) = (c'.val : ℤ)
      rw [hs1, hw1, zero_add]

/-- scalar updates scattered at (row, column) pairs of a square matrix -/
theorem resultIdx_points {M E w : ℕ} (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ w) (e : Fin E) (r k : Fin M) :
    d.resultIdx? (ix1 e) idx = some (ix2 r k)
      ↔ (idx (ix2 e (0 : Fin 2))).toInt = (r.val : ℤ) ∧ (idx (ix2 e (1 : Fin 2))).toInt = (k.val : ℤ) := by
  obtain ⟨uwd, iwd, sd, ivd, wf⟩ := d
  dsimp only at h1 h2 h3 h4
  subst h1 h2 h3 h4
  rw [resultIdx?_eq_some_iff]
  -- both operand axes are inserted (no window coordinate); axis a starts at component a of the update's index pair
  have hs0 : ScatterDims.start (⟨[], [0, 1], [0, 1], 1, wf⟩ : ScatterDims ⟨2, ![M, M]⟩ ⟨2, ![E, 2]⟩ ⟨1, ![E]⟩) (ix1 e) idx 0
      = (idx (ix2 e (0 : Fin 2))).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : ScatterDims.start (⟨[], [0, 1], [0, 1], 1, wf⟩ : ScatterDims ⟨2, ![M, M]⟩ ⟨2, ![E, 2]⟩ ⟨1, ![E]⟩) (ix1 e) idx 1
      = (idx (ix2 e (1 : Fin 2))).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hw0 : ScatterDims.window (⟨[], [0, 1], [0, 1], 1, wf⟩ : ScatterDims ⟨2, ![M, M]⟩ ⟨2, ![E, 2]⟩ ⟨1, ![E]⟩) (ix1 e) 0 = 0 :=
    window_of_inserted _ _ _ (show (0 : Fin 2) ∈ ([0, 1] : List (Fin 2)) by decide)
  have hw1 : ScatterDims.window (⟨[], [0, 1], [0, 1], 1, wf⟩ : ScatterDims ⟨2, ![M, M]⟩ ⟨2, ![E, 2]⟩ ⟨1, ![E]⟩) (ix1 e) 1 = 0 :=
    window_of_inserted _ _ _ (show (1 : Fin 2) ∈ ([0, 1] : List (Fin 2)) by decide)
  constructor
  · intro h
    have e0 := h 0
    have e1 := h 1
    rw [hs0, hw0, Nat.cast_zero, add_zero] at e0
    rw [hs1, hw1, Nat.cast_zero, add_zero] at e1
    exact ⟨e0, e1⟩
  · rintro ⟨h0, h1⟩ a
    match a with
    | ⟨0, _⟩ =>
      show ScatterDims.start _ (ix1 e) idx 0 + ((ScatterDims.window _ (ix1 e) 0 : ℕ) : ℤ) = (r.val : ℤ)
      rw [hs0, hw0, h0, Nat.cast_zero, add_zero]
    | ⟨1, _⟩ =>
      show ScatterDims.start _ (ix1 e) idx 1 + ((ScatterDims.window _ (ix1 e) 1 : ℕ) : ℤ) = (k.val : ℤ)
      rw [hs1, hw1, h1, Nat.cast_zero, add_zero]

/-- the float accumulating scatter of scalars into a vector, at Ideal, at an index -/
theorem scatterAdd_vec_apply {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![E, 1]⟩ w) (upd : (⟨1, ![E]⟩ : Shape).Idx → EReal) (i : Fin M) :
    Ideal.hostScatterAdd d x idx upd (ix1 i)
      = x (ix1 i) + ∑ e ∈ Finset.univ.filter (fun e : Fin E => (idx (ix2 e (0 : Fin 1))).toInt = (i.val : ℤ)), upd (ix1 e) := by
  unfold Ideal.hostScatterAdd
  refine congrArg (x (ix1 i) + ·) ?_
  -- the update indices that land on i correspond to their one coordinate
  refine Finset.sum_nbij' (fun j => (j 0 : Fin E)) (fun e => ix1 e) ?_ ?_ ?_ ?_ ?_
  · intro j hj
    obtain ⟨a, rfl⟩ : ∃ a : Fin E, j = ix1 a := ⟨j 0, eq_ix1 j⟩
    show a ∈ _
    exact Finset.mem_filter.mpr ⟨Finset.mem_univ _, (resultIdx_vec d h1 h2 h3 h4 idx a i).mp (Finset.mem_filter.mp hj).2⟩
  · intro e he
    exact Finset.mem_filter.mpr ⟨Finset.mem_univ _, (resultIdx_vec d h1 h2 h3 h4 idx e i).mpr (Finset.mem_filter.mp he).2⟩
  · intro j _
    obtain ⟨a, rfl⟩ : ∃ a : Fin E, j = ix1 a := ⟨j 0, eq_ix1 j⟩
    rfl
  · intro e _; rfl
  · intro j _
    obtain ⟨a, rfl⟩ : ∃ a : Fin E, j = ix1 a := ⟨j 0, eq_ix1 j⟩
    rfl

/-- the float accumulating scatter of rows into a matrix, at Ideal, at an index -/
theorem scatterAdd_rows_apply {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![M, C]⟩ : Shape).Idx → EReal) (idx : IVec ⟨2, ![E, 1]⟩ w) (upd : (⟨2, ![E, C]⟩ : Shape).Idx → EReal)
    (i : Fin M) (c : Fin C) :
    Ideal.hostScatterAdd d x idx upd (ix2 i c)
      = x (ix2 i c) + ∑ e ∈ Finset.univ.filter (fun e : Fin E => (idx (ix2 e (0 : Fin 1))).toInt = (i.val : ℤ)), upd (ix2 e c) := by
  unfold Ideal.hostScatterAdd
  refine congrArg (x (ix2 i c) + ·) ?_
  -- an update element lands on (i, c) iff its row's index word is i and its column is c: the elements that do
  -- correspond to their rows, the column being fixed
  refine Finset.sum_nbij' (fun j => (j 0 : Fin E)) (fun e => ix2 e c) ?_ ?_ ?_ ?_ ?_
  · intro j hj
    obtain ⟨a, b, rfl⟩ : ∃ (a : Fin E) (b : Fin C), j = ix2 a b := ⟨j 0, j 1, eq_ix2 j⟩
    show a ∈ _
    exact Finset.mem_filter.mpr
      ⟨Finset.mem_univ _, ((resultIdx_rows d h1 h2 h3 h4 idx a b i c).mp (Finset.mem_filter.mp hj).2).1⟩
  · intro e he
    exact Finset.mem_filter.mpr
      ⟨Finset.mem_univ _, (resultIdx_rows d h1 h2 h3 h4 idx e c i c).mpr ⟨(Finset.mem_filter.mp he).2, rfl⟩⟩
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl
  · intro e _; rfl
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl

/-- a row gather reads the operand at the row its index word names (when that word is in range) -/
theorem gather_rows_apply {α : Type} {M C E w : ℕ} (d : GatherDims ⟨2, ![M, C]⟩ ⟨2, ![E, 1]⟩ ⟨2, ![E, C]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, C])
    (x : (⟨2, ![M, C]⟩ : Shape).Idx → α) (idx : IVec ⟨2, ![E, 1]⟩ w) (e : Fin E) (c : Fin C) (i : Fin M)
    (hi : (idx (ix2 e (0 : Fin 1))).toInt = (i.val : ℤ)) :
    Host.gather d x idx (ix2 e c) = x (ix2 i c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    -- the row axis: collapsed, so no offset; the start is the index word, clamped into [0, M - 1]
    show GatherDims.start _ (ix2 e c) idx 0 + GatherDims.batchCoord _ (ix2 e c) 0 + GatherDims.offCoord _ (ix2 e c) 0 = i.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![M, C]⟩ ⟨2, ![E, 1]⟩ ⟨2, ![E, C]⟩)
        (ix2 e c) ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi, hi, Int.toNat_natCast]
    show min i.val (M - 1) = i.val
    exact min_eq_left (by have := i.isLt; omega)
  | ⟨1, _⟩ =>
    -- the column axis: not in the start index map, so the start is 0; the offset coordinate is the result's column
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The accumulating fold over a list of update positions, every update being 1: at each operand index, the start
    value plus one for every position of the list whose update lands there. -/
theorem foldl_addi_one {s si u : Shape} (d : ScatterDims s si u) {w v : ℕ} (idx : IVec si w) (upd : u.Idx → BitVec v)
    (hupd : ∀ j, upd j = 1) (L : List (Fin u.numel)) (r0 : s.Idx → BitVec v) (t : s.Idx) :
    L.foldl (fun r n =>
        match d.resultIdx? (u.rowMajor.symm n) idx with
        | some i => fun i' => if i' = i then IntOp.addi (r i) (upd (u.rowMajor.symm n)) else r i'
        | none => r) r0 t
      = r0 t + BitVec.ofNat v (L.countP (fun n => d.resultIdx? (u.rowMajor.symm n) idx = some t)) := by
  induction L generalizing r0 with
  | nil => simp
  | cons n L ih =>
    rw [List.foldl_cons, ih, List.countP_cons]
    cases hres : d.resultIdx? (u.rowMajor.symm n) idx with
    | none => simp
    | some i =>
      by_cases hi : t = i
      · subst hi
        simp [IntOp.addi, hupd, BitVec.ofNat_add]
        ac_rfl
      · have hi' : ¬ (i = t) := fun h => hi h.symm
        simp [hi, hi']

/-- the integer scatter of ones at (row, column) pairs into a zero matrix counts the pairs -/
theorem scatter_points_count {M E : ℕ} (hE : E < 2 ^ 31) (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ 32) (r k : Fin M) :
    (Host.scatter d IntOp.addi (fun _ => (0 : BitVec 32)) idx (fun _ => (1 : BitVec 32)) (ix2 r k)).toInt
      = ((Finset.univ.filter (fun e : Fin E =>
          (idx (ix2 e (0 : Fin 2))).toInt = (r.val : ℤ) ∧ (idx (ix2 e (1 : Fin 2))).toInt = (k.val : ℤ))).card : ℤ) := by
  unfold Host.scatter
  refine (congrArg BitVec.toInt (foldl_addi_one d idx (fun _ => (1 : BitVec 32)) (fun _ => rfl) _ (fun _ => (0 : BitVec 32)) (ix2 r k))).trans ?_
  have h0 : ∀ y : BitVec 32, (0 : BitVec 32) + y = y := fun y => BitVec.zero_add y
  rw [h0]
  -- the positions whose update lands on (r, k), counted along the list of all positions, are as many as the
  -- updates whose index pair is (r, k): a position corresponds to its update's one coordinate
  have hcount : (List.finRange (⟨1, ![E]⟩ : Shape).numel).countP
        (fun n => d.resultIdx? ((⟨1, ![E]⟩ : Shape).rowMajor.symm n) idx = some (ix2 r k))
      = (Finset.univ.filter (fun e : Fin E =>
          (idx (ix2 e (0 : Fin 2))).toInt = (r.val : ℤ) ∧ (idx (ix2 e (1 : Fin 2))).toInt = (k.val : ℤ))).card := by
    rw [← List.Nodup.card_eq_countP (List.nodup_finRange _), List.toFinset_finRange]
    refine Finset.card_nbij' (fun n => (((⟨1, ![E]⟩ : Shape).rowMajor.symm n) 0 : Fin E))
      (fun e => (⟨1, ![E]⟩ : Shape).rowMajor (ix1 e)) ?_ ?_ ?_ ?_
    · intro n hn
      obtain ⟨a, ha⟩ : ∃ a : Fin E, (⟨1, ![E]⟩ : Shape).rowMajor.symm n = ix1 a := ⟨_, eq_ix1 _⟩
      have hn' := (Finset.mem_filter.mp hn).2
      rw [ha] at hn'
      show (((⟨1, ![E]⟩ : Shape).rowMajor.symm n) 0 : Fin E) ∈ _
      rw [ha]
      exact Finset.mem_filter.mpr ⟨Finset.mem_univ _, (resultIdx_points d h1 h2 h3 h4 idx a r k).mp hn'⟩
    · intro e he
      refine Finset.mem_filter.mpr ⟨Finset.mem_univ _, ?_⟩
      show d.resultIdx? ((⟨1, ![E]⟩ : Shape).rowMajor.symm ((⟨1, ![E]⟩ : Shape).rowMajor (ix1 e))) idx = _
      rw [Equiv.symm_apply_apply]
      exact (resultIdx_points d h1 h2 h3 h4 idx e r k).mpr (Finset.mem_filter.mp he).2
    · intro n _
      obtain ⟨a, ha⟩ : ∃ a : Fin E, (⟨1, ![E]⟩ : Shape).rowMajor.symm n = ix1 a := ⟨_, eq_ix1 _⟩
      show (⟨1, ![E]⟩ : Shape).rowMajor (ix1 (((⟨1, ![E]⟩ : Shape).rowMajor.symm n) 0 : Fin E)) = n
      rw [ha]
      show (⟨1, ![E]⟩ : Shape).rowMajor (ix1 a) = n
      rw [← ha, Equiv.apply_symm_apply]
    · intro e _
      show (((⟨1, ![E]⟩ : Shape).rowMajor.symm ((⟨1, ![E]⟩ : Shape).rowMajor (ix1 e))) 0 : Fin E) = e
      rw [Equiv.symm_apply_apply]
      rfl
  rw [hcount]
  -- at most E < 2 ^ 31 of them, so the 32-bit word of the count, read signed, is the count
  have hle : (Finset.univ.filter (fun e : Fin E =>
      (idx (ix2 e (0 : Fin 2))).toInt = (r.val : ℤ) ∧ (idx (ix2 e (1 : Fin 2))).toInt = (k.val : ℤ))).card ≤ E :=
    (Finset.card_filter_le _ _).trans (by simp)
  generalize (Finset.univ.filter (fun e : Fin E =>
      (idx (ix2 e (0 : Fin 2))).toInt = (r.val : ℤ) ∧ (idx (ix2 e (1 : Fin 2))).toInt = (k.val : ℤ))).card = c at hle ⊢
  have hc : (BitVec.ofNat 32 c).toNat = c := by
    rw [BitVec.toNat_ofNat]; exact Nat.mod_eq_of_lt (by omega)
  rw [BitVec.toInt_eq_toNat_of_lt (by rw [hc]; omega), hc]

end Cert.LibIndex

end
-- ==== Proof.KI.Result.lean ====
/-
  The kernel's result at an index. The result buffer is a row gather of the region's output array: token `j` reads the
  padded row `r` its position word names (a row number below 2048 is not negative as a word, so the wrap of negative
  indices leaves it alone). That row lies in a valid tile whose table word is the token's slot, so the region wrote
  there the product of the routed row, which is the token's own row, with the effective weight of that slot at the
  column, plus the bias: the fused form of the specification.
-/
import proofs.«421023_j28973849379100_3_alg».proof.Proof.KI.Base
import proofs.«421023_j28973849379100_3_alg».proof.Proof.Spec
import proofs.«421023_j28973849379100_3_alg».proof.Proof.LibIndex
import proofs.«421023_j28973849379100_3_alg».proof.Proof.KI.Array

noncomputable section

open scoped BigOperators

namespace Cert.KernelIdeal.HandResult

open Idealize.ShloMosaic Idealize.ShloMosaic.ValueIdx Idealize.ShloMosaic.TcCoe
open Idealize.SL Idealize.SL.Sem
open Cert.KernelIdeal Cert.KernelIdeal.Gen Cert.KernelIdeal.Hand Cert.Spec

/-- A row number below 2048, as a word, is not negative: the wrap of negative indices leaves it alone, and read
    signed it is the row number. -/
theorem wrap_row (v : BitVec 32) (r : Fin 2048) (h : v = BitVec.ofNat 32 r.val) :
    Scalar.select (IntOp.cmpi .slt v 0#32) (IntOp.addi v 2048#32) v = v ∧ v.toInt = (r.val : ℤ) := by
  have hr := r.isLt
  have hti : v.toInt = (r.val : ℤ) := by
    subst h
    have hm : r.val % 2 ^ 32 = r.val := Nat.mod_eq_of_lt (by omega)
    rw [BitVec.toInt_eq_toNat_cond, BitVec.toNat_ofNat, hm]
    split <;> omega
  refine ⟨?_, hti⟩
  unfold Scalar.select
  rw [if_neg]
  intro hc
  have hlt := IntOp.cmpi_slt.1 hc
  have h0 : (0#32 : BitVec 32).toInt = 0 := by decide
  omega

/-- A vector of 1024 words laid out as a column reads, at row `j`, the vector's word at `j`. -/
theorem column_apply {α : Type} (bc : S1024.BroadcastsInDim S1024x1 (![0] : Fin 1 → Fin S1024x1.rank))
    (W : S1024.Idx → α) (j : Fin 1024) :
    broadcastInDim S1024x1 ![0] bc W (ix2 j (0 : Fin 1)) = W (ix1 j) := by
  unfold broadcastInDim
  refine congrArg W (funext fun a => Fin.ext ?_)
  match a with
  | ⟨0, _⟩ => rfl

/-- The gather of the output array's rows, at token `j` whose position word names row `r`, reads row `r`. -/
theorem gathered_row [Facts₀] (OP : S2048x8192.Idx → EReal) (v95 : S1024.Idx → BitVec 32)
    (j : Fin 1024) (col : Fin 8192) (r : Fin 2048) (h95 : v95 (ix1 j) = BitVec.ofNat 32 r.val) :
    Host.gather gather_S2048x8192_S1024x1_S1024x8192_1_0_n_n_0_1_18192 OP
        (broadcastInDim S1024x1 ![0] Facts₀.bcast_S1024_S1024x1_0
          (select (cmpi .slt v95 (broadcastInDim S1024 ![] Facts₀.bcast_S_S1024 (constantI S_ 32 0#32)))
            (addi v95 (broadcastInDim S1024 ![] Facts₀.bcast_S_S1024 (constantI S_ 32 2048#32))) v95))
        (ix2 j col)
      = OP (ix2 r col) := by
  refine Cert.LibIndex.gather_rows_apply _ rfl rfl rfl rfl rfl rfl rfl OP _ j col r ?_
  rw [column_apply]
  show (Scalar.select (IntOp.cmpi .slt (v95 (ix1 j)) 0#32) (IntOp.addi (v95 (ix1 j)) 2048#32) (v95 (ix1 j))).toInt = _
  rw [(wrap_row _ r h95).1]
  exact (wrap_row _ r h95).2

/-- THE RESULT AT AN INDEX, over plain arrays: the gathered output is the fused form, given what the region wrote
    (`hOP`), where the routing put each token (`route`), and what the weight and bias buffers hold. -/
theorem result_core [Facts₀]
    (OP : S2048x8192.Idx → EReal) (v95 : S1024.Idx → BitVec 32) (v87 v84 : S8.Idx → BitVec 32)
    (v71 : S2048x2048.Idx → EReal) (v168 : S10x4096x2048.Idx → EReal) (v169 : S1x8192.Idx → EReal)
    (x : (⟨2, ![1024, 2048]⟩ : Shape).Idx → EReal) (bw : (⟨2, ![8192, 2048]⟩ : Shape).Idx → EReal)
    (bb : (⟨1, ![8192]⟩ : Shape).Idx → EReal) (S0 S1 : Slice) (ind : (⟨1, ![1024]⟩ : Shape).Idx → BitVec 32)
    (hOP : ∀ (r : Fin 2048) (col : Fin 8192) (q : Fin 10),
      q.val = col.val / 4096 * 5 + (v84 (ix1 (⟨r.val / 256, by omega⟩ : Fin 8))).toNat →
      OP (ix2 r col)
        = if v87 (ix1 (⟨r.val / 256, by omega⟩ : Fin 8)) ≠ 0#32 then
            (∑ d : Fin 2048, v71 (ix2 r d) * v168 (ix3 q (⟨col.val % 4096, by omega⟩ : Fin 4096) d))
              + v169 (ix2 (0 : Fin 1) col)
          else 0)
    (route : ∀ j : Fin 1024, ∃ r : Fin 2048, v95 (ix1 j) = BitVec.ofNat 32 r.val
      ∧ (∀ d : Fin 2048, v71 (ix2 r d) = x (ix2 j d))
      ∧ v87 (ix1 (⟨r.val / 256, by omega⟩ : Fin 8)) ≠ 0#32
      ∧ v84 (ix1 (⟨r.val / 256, by omega⟩ : Fin 8)) = BitVec.ofNat 32 (adapter (ind (ix1 j))).val)
    (weights_apply : ∀ (s : Fin 2) (a : Fin 5) (n : Fin 4096) (d : Fin 2048),
      v168 (ix3 (⟨s.val * 5 + a.val, by omega⟩ : Fin 10) n d)
        = wEff bw S0 S1 a (⟨s.val * 4096 + n.val, by omega⟩ : Fin 8192) d)
    (bias_apply : ∀ col : Fin 8192, v169 (ix2 (0 : Fin 1) col) = bb (ix1 col))
    (j : Fin 1024) (col : Fin 8192) :
    Host.gather gather_S2048x8192_S1024x1_S1024x8192_1_0_n_n_0_1_18192 OP
        (broadcastInDim S1024x1 ![0] Facts₀.bcast_S1024_S1024x1_0
          (select (cmpi .slt v95 (broadcastInDim S1024 ![] Facts₀.bcast_S_S1024 (constantI S_ 32 0#32)))
            (addi v95 (broadcastInDim S1024 ![] Facts₀.bcast_S_S1024 (constantI S_ 32 2048#32))) v95))
        (ix2 j col)
      = fused x bw bb S0 S1 ind j col := by
  obtain ⟨r, h95, hrow, hvalid, htab⟩ := route j
  have hlt := (adapter (ind (ix1 j))).isLt
  have hcol := col.isLt
  rw [gathered_row OP v95 j col r h95]
  have hk : (v84 (ix1 (⟨r.val / 256, by omega⟩ : Fin 8))).toNat = (adapter (ind (ix1 j))).val := by
    rw [htab, BitVec.toNat_ofNat]
    exact Nat.mod_eq_of_lt (by omega)
  rw [hOP r col ⟨col.val / 4096 * 5 + (adapter (ind (ix1 j))).val, by omega⟩ (by rw [hk]), if_pos hvalid]
  unfold fused
  refine congrArg₂ (· + ·) (Finset.sum_congr rfl fun d _ => ?_) (bias_apply col)
  rw [hrow d]
  refine congrArg (x (ix2 j d) * ·) ?_
  have hw := weights_apply (⟨col.val / 4096, by omega⟩ : Fin 2) (adapter (ind (ix1 j)))
    (⟨col.val % 4096, by omega⟩ : Fin 4096) d
  refine hw.trans (congrArg (fun cc => wEff bw S0 S1 (adapter (ind (ix1 j))) cc d) (Fin.ext ?_))
  show col.val / 4096 * 4096 + col.val % 4096 = col.val
  omega

/-- The same with the region's output given as the padded output array of its three operands and two tables: what
    the region wrote is then read off that array's definition. -/
theorem result_padded [Facts₀]
    (v95 : S1024.Idx → BitVec 32) (v87 v84 : S8.Idx → BitVec 32)
    (v71 : S2048x2048.Idx → EReal) (v168 : S10x4096x2048.Idx → EReal) (v169 : S1x8192.Idx → EReal)
    (x : (⟨2, ![1024, 2048]⟩ : Shape).Idx → EReal) (bw : (⟨2, ![8192, 2048]⟩ : Shape).Idx → EReal)
    (bb : (⟨1, ![8192]⟩ : Shape).Idx → EReal) (S0 S1 : Slice) (ind : (⟨1, ![1024]⟩ : Shape).Idx → BitVec 32)
    (hta : ∀ k : Fin 8, (HandValue.tileWord v84 k).toNat ≤ 4)
    (route : ∀ j : Fin 1024, ∃ r : Fin 2048, v95 (ix1 j) = BitVec.ofNat 32 r.val
      ∧ (∀ d : Fin 2048, v71 (ix2 r d) = x (ix2 j d))
      ∧ v87 (ix1 (⟨r.val / 256, by omega⟩ : Fin 8)) ≠ 0#32
      ∧ v84 (ix1 (⟨r.val / 256, by omega⟩ : Fin 8)) = BitVec.ofNat 32 (adapter (ind (ix1 j))).val)
    (weights_apply : ∀ (s : Fin 2) (a : Fin 5) (n : Fin 4096) (d : Fin 2048),
      v168 (ix3 (⟨s.val * 5 + a.val, by omega⟩ : Fin 10) n d)
        = wEff bw S0 S1 a (⟨s.val * 4096 + n.val, by omega⟩ : Fin 8192) d)
    (bias_apply : ∀ col : Fin 8192, v169 (ix2 (0 : Fin 1) col) = bb (ix1 col))
    (j : Fin 1024) (col : Fin 8192) :
    Host.gather gather_S2048x8192_S1024x1_S1024x8192_1_0_n_n_0_1_18192 (HandValue.outPadded v71 v168 v169 v84 v87 hta)
        (broadcastInDim S1024x1 ![0] Facts₀.bcast_S1024_S1024x1_0
          (select (cmpi .slt v95 (broadcastInDim S1024 ![] Facts₀.bcast_S_S1024 (constantI S_ 32 0#32)))
            (addi v95 (broadcastInDim S1024 ![] Facts₀.bcast_S_S1024 (constantI S_ 32 2048#32))) v95))
        (ix2 j col)
      = fused x bw bb S0 S1 ind j col := by
  refine result_core (HandValue.outPadded v71 v168 v169 v84 v87 hta) v95 v87 v84 v71 v168 v169 x bw bb S0 S1 ind
    (fun r col q hq => ?_) route weights_apply bias_apply j col
  have h4 : (v84 (ix1 (⟨r.val / 256, by omega⟩ : Fin 8))).toNat ≤ 4 := hta ⟨r.val / 256, by omega⟩
  have hc := col.isLt
  have hb : col.val / 4096 * 5 + (v84 (ix1 (⟨r.val / 256, by omega⟩ : Fin 8))).toNat < 10 := by
    clear hq
    omega
  have hq' : q = (⟨col.val / 4096 * 5 + (v84 (ix1 (⟨r.val / 256, by omega⟩ : Fin 8))).toNat, hb⟩ : Fin 10) :=
    Fin.ext hq
  rw [hq']
  rfl

section AtTheRun

set_option maxRecDepth 8192

variable (m : (ℓ : Loc nD τ sig) → Buf (Elt Ideal) ℓ) (c : Dev nD)

/-- The position words (token to padded row) on entry to the region. -/
abbrev posV : S1024.Idx → BitVec 32 := V m c main_v95
/-- The table of tile validity on entry to the region. -/
abbrev validV : S8.Idx → BitVec 32 := V m c main_v87
/-- The table of tile slots on entry to the region. -/
abbrev slotV : S8.Idx → BitVec 32 := V m c main_v84
/-- The padded, routed token rows on entry to the region. -/
abbrev rowsV : S2048x2048.Idx → EReal := V m c main_v71
/-- The stacked effective weights on entry to the region. -/
abbrev weightsV : S10x4096x2048.Idx → EReal := V m c main_v168
/-- The bias row on entry to the region. -/
abbrev biasV : S1x8192.Idx → EReal := V m c main_v169
/-- The launch arguments, typed: token rows, base weight, bias, ids. -/
abbrev argX : (⟨2, ![1024, 2048]⟩ : Shape).Idx → EReal := m ((c : Thread nD τ).loc main_arg0)
abbrev argBw : (⟨2, ![8192, 2048]⟩ : Shape).Idx → EReal := m ((c : Thread nD τ).loc main_arg1)
abbrev argBb : (⟨1, ![8192]⟩ : Shape).Idx → EReal := m ((c : Thread nD τ).loc main_arg2)
abbrev argInd : (⟨1, ![1024]⟩ : Shape).Idx → BitVec 32 := m ((c : Thread nD τ).loc main_arg11)
/-- The two slices' quantised data among the launch arguments. -/
abbrev argS0 : Slice :=
  ⟨m ((c : Thread nD τ).loc main_arg3), m ((c : Thread nD τ).loc main_arg5), m ((c : Thread nD τ).loc main_arg7)⟩
abbrev argS1 : Slice :=
  ⟨m ((c : Thread nD τ).loc main_arg4), m ((c : Thread nD τ).loc main_arg6), m ((c : Thread nD τ).loc main_arg8)⟩

/-- THE RESULT AT AN INDEX, at the run: with the buffers' contents on entry to the region in place of the plain
    arrays, the gathered output at (token `j`, column `col`) is the fused form of the launch arguments. -/
theorem result_apply (OP : S2048x8192.Idx → EReal)
    (hOP : ∀ (r : Fin 2048) (col : Fin 8192) (q : Fin 10),
      q.val = col.val / 4096 * 5 + (slotV m c (ix1 (⟨r.val / 256, by omega⟩ : Fin 8))).toNat →
      OP (ix2 r col)
        = if validV m c (ix1 (⟨r.val / 256, by omega⟩ : Fin 8)) ≠ 0#32 then
            (∑ d : Fin 2048, rowsV m c (ix2 r d) * weightsV m c (ix3 q (⟨col.val % 4096, by omega⟩ : Fin 4096) d))
              + biasV m c (ix2 (0 : Fin 1) col)
          else 0)
    (route : ∀ j : Fin 1024, ∃ r : Fin 2048, posV m c (ix1 j) = BitVec.ofNat 32 r.val
      ∧ (∀ d : Fin 2048, rowsV m c (ix2 r d) = argX m c (ix2 j d))
      ∧ validV m c (ix1 (⟨r.val / 256, by omega⟩ : Fin 8)) ≠ 0#32
      ∧ slotV m c (ix1 (⟨r.val / 256, by omega⟩ : Fin 8)) = BitVec.ofNat 32 (adapter (argInd m c (ix1 j))).val)
    (weights_apply : ∀ (s : Fin 2) (a : Fin 5) (n : Fin 4096) (d : Fin 2048),
      weightsV m c (ix3 (⟨s.val * 5 + a.val, by omega⟩ : Fin 10) n d)
        = wEff (argBw m c) (argS0 m c) (argS1 m c) a (⟨s.val * 4096 + n.val, by omega⟩ : Fin 8192) d)
    (bias_apply : ∀ col : Fin 8192, biasV m c (ix2 (0 : Fin 1) col) = argBb m c (ix1 col))
    (j : Fin 1024) (col : Fin 8192) :
    Host.gather gather_S2048x8192_S1024x1_S1024x8192_1_0_n_n_0_1_18192 OP
        (broadcastInDim S1024x1 ![0] Facts₀.bcast_S1024_S1024x1_0
          (select (cmpi .slt (V m c main_v95) (broadcastInDim S1024 ![] Facts₀.bcast_S_S1024 (constantI S_ 32 0#32)))
            (addi (V m c main_v95) (broadcastInDim S1024 ![] Facts₀.bcast_S_S1024 (constantI S_ 32 2048#32)))
            (V m c main_v95)))
        (ix2 j col)
      = fused (argX m c) (argBw m c) (argBb m c) (argS0 m c) (argS1 m c) (argInd m c) j col :=
  result_core OP (posV m c) (validV m c) (slotV m c) (rowsV m c) (weightsV m c) (biasV m c)
    (argX m c) (argBw m c) (argBb m c) (argS0 m c) (argS1 m c) (argInd m c)
    hOP route weights_apply bias_apply j col

end AtTheRun

end Cert.KernelIdeal.HandResult

end
-- ==== Proof.KI.Final.lean ====
/-
  The kernel's value. After the run the result buffer is the row gather of the region's padded output array; that
  array is the padded output of the routed token rows, the stacked effective weights and the bias row under the two
  tile tables; and the gather of it at (token, column) is the fused form of the specification at the launch
  arguments. The twelve argument arrays end as launched.
-/
import proofs.«421023_j28973849379100_3_alg».proof.Proof.KI.Kit
import proofs.«421023_j28973849379100_3_alg».proof.Proof.KI.Body
import proofs.«421023_j28973849379100_3_alg».proof.Proof.KI.Value
import proofs.«421023_j28973849379100_3_alg».proof.Proof.KI.Weights
import proofs.«421023_j28973849379100_3_alg».proof.Proof.KI.Result

noncomputable section

open scoped BigOperators

namespace Cert.KernelIdeal.HandResult

open Idealize.ShloMosaic Idealize.ShloMosaic.ValueIdx Idealize.ShloMosaic.TcCoe
open Idealize.SL Idealize.SL.Sem
open Cert.KernelIdeal Cert.KernelIdeal.Gen Cert.KernelIdeal.Hand Cert.Spec

set_option maxRecDepth 8192

variable (m : (ℓ : Loc nD τ sig) → Buf (Elt Ideal) ℓ)

/-- THE KERNEL'S VALUE: the result buffer holds, at (token, column), the fused form of the launch arguments. -/
def kernelOut (c : Dev nD) : Buf (Elt Ideal) ((c.tc : Thread nD τ).loc main_v177) :=
  fun i => fused (argX m c) (argBw m c) (argBb m c) (argS0 m c) (argS1 m c) (argInd m c) (i 0) (i 1)

/-- The gather of the padded output array is the kernel's value, once the two tables the region read are the tables
    the routing wrote. -/
theorem gathered_eq_value (c : Dev nD) (ta tv : S8.Idx → BitVec 32) (e84 : slotV m c = ta) (e87 : validV m c = tv)
    (hta : ∀ k : Fin 8, (HandValue.tileWord ta k).toNat ≤ 4)
    (route : ∀ j : Fin 1024, ∃ r : Fin 2048, posV m c (ix1 j) = BitVec.ofNat 32 r.val
      ∧ (∀ d : Fin 2048, rowsV m c (ix2 r d) = argX m c (ix2 j d))
      ∧ validV m c (ix1 (⟨r.val / 256, by omega⟩ : Fin 8)) ≠ 0#32
      ∧ slotV m c (ix1 (⟨r.val / 256, by omega⟩ : Fin 8)) = BitVec.ofNat 32 (adapter (argInd m c (ix1 j))).val)
    (weights_apply : ∀ (s : Fin 2) (a : Fin 5) (n : Fin 4096) (d : Fin 2048),
      weightsV m c (ix3 (⟨s.val * 5 + a.val, by omega⟩ : Fin 10) n d)
        = wEff (argBw m c) (argS0 m c) (argS1 m c) a (⟨s.val * 4096 + n.val, by omega⟩ : Fin 8192) d)
    (bias_apply : ∀ col : Fin 8192, biasV m c (ix2 (0 : Fin 1) col) = argBb m c (ix1 col)) :
    Host.gather gather_S2048x8192_S1024x1_S1024x8192_1_0_n_n_0_1_18192
        (HandValue.outPadded (rowsV m c) (weightsV m c) (biasV m c) ta tv hta)
        (broadcastInDim S1024x1 ![0] Facts₀.bcast_S1024_S1024x1_0
          (select (cmpi .slt (V m c main_v95) (broadcastInDim S1024 ![] Facts₀.bcast_S_S1024 (constantI S_ 32 0#32)))
            (addi (V m c main_v95) (broadcastInDim S1024 ![] Facts₀.bcast_S_S1024 (constantI S_ 32 2048#32)))
            (V m c main_v95)))
      = kernelOut m c := by
  subst e84 e87
  funext i
  obtain ⟨j, col, rfl⟩ : ∃ (j : Fin 1024) (col : Fin 8192), i = ix2 j col := ⟨i 0, i 1, eq_ix2 i⟩
  exact result_padded (posV m c) (validV m c) (slotV m c) (rowsV m c) (weightsV m c) (biasV m c)
    (argX m c) (argBw m c) (argBb m c) (argS0 m c) (argS1 m c) (argInd m c) hta route weights_apply bias_apply j col

variable (ρ : Dev nD → PrngReg)

/-- The result buffer after the host operations that follow the region is the kernel's value, given where the
    routing put each token and that every tile's slot word is at most four. -/
theorem value_eq (c : Dev nD)
    (route : ∀ j : Fin 1024, ∃ r : Fin 2048, posV m c (ix1 j) = BitVec.ofNat 32 r.val
      ∧ (∀ d : Fin 2048, rowsV m c (ix2 r d) = argX m c (ix2 j d))
      ∧ validV m c (ix1 (⟨r.val / 256, by omega⟩ : Fin 8)) ≠ 0#32
      ∧ slotV m c (ix1 (⟨r.val / 256, by omega⟩ : Fin 8)) = BitVec.ofNat 32 (adapter (argInd m c (ix1 j))).val)
    (ta_le : ∀ t : Fin 8, (slotV m c (ix1 t)).toNat ≤ 4) :
    Pipeline.afterTail pcfgs (fun _ => adm m (ok m)) (dats m (ok m)) 0 (V0 m) [hostOps1] c main_v177
      = kernelOut m c := by
  have e84 : slotV m c = HandValue.taTbl m := V_pre m c 0
  have e87 : validV m c = HandValue.tvTbl m := V_pre m c 1
  have hta : ∀ k : Fin 8, (HandValue.taTbl m (ix1 k)).toNat ≤ 4 := fun k => by
    rw [← e84]
    exact ta_le k
  refine (W_main_v177 m (ok m) (dats m (ok m)) c).trans ?_
  show Host.gather _ (HandValue.outArr m (ok m) c) _ = _
  rw [HandValue.outPadded_eq m (ok m) c hta]
  exact gathered_eq_value m c _ _ e84 e87 hta route (HandWeights.weights_apply m c) (HandWeights.bias_apply m c)

/-- THE KERNEL RUN WITH ITS VALUE: from any memory with zero counters the program terminates; on every core the result
    buffer ends at the kernel's value and the twelve argument arrays end as launched. -/
theorem kernel_value_of
    (route : ∀ (c : Dev nD) (j : Fin 1024), ∃ r : Fin 2048, posV m c (ix1 j) = BitVec.ofNat 32 r.val
      ∧ (∀ d : Fin 2048, rowsV m c (ix2 r d) = argX m c (ix2 j d))
      ∧ validV m c (ix1 (⟨r.val / 256, by omega⟩ : Fin 8)) ≠ 0#32
      ∧ slotV m c (ix1 (⟨r.val / 256, by omega⟩ : Fin 8)) = BitVec.ofNat 32 (adapter (argInd m c (ix1 j))).val)
    (ta_le : ∀ (c : Dev nD) (t : Fin 8), (slotV m c (ix1 t)).toNat ≤ 4) :
    θ_run defs (onTc (τ := τ) (main (F := Ideal))) ⟨m, fun _ => 0, ρ⟩ (fun r => ∀ c : Dev nD,
      r.2.mem ((c.tc : Thread nD τ).loc main_v177) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (value_eq m c (route c) (ta_le c)), (h c).2⟩)
    (result_of m ρ (ok m) (dats m (ok m)) (A_eq m (ok m)) (run_main m ρ (ok m)))

end Cert.KernelIdeal.HandResult

end
-- ==== Proof.Route.Defs.lean ====
/-
  The routing arithmetic, over natural numbers.

  Each of 1024 tokens has a slot `key j : Fin 5`. Tokens are listed in slot order by a permutation `σ` (position `p`
  of the sorted list holds token `σ p`). Slot `a` has `cnt a` tokens; its group starts at sorted position
  `roff a` (the tokens of smaller slots come first). Each group is padded to a multiple of 256 rows, `pc a`, and
  the padded groups are laid end to end, group `a` starting at row `poff a`. Sorted position `p` goes to row
  `ppos p`: the start of its group's padded block plus its rank inside the group. Rows come in tiles of 256;
  `cum a` counts the tiles of groups `0 … a`; tile `t` belongs to the slot numbered by how many `cum` values are
  at most `t` (capped at 4), and is in use when it is below the total `cum 4`.
-/
import Mathlib.Data.Fintype.Card
import Mathlib.Algebra.BigOperators.Fin
import Mathlib.Data.Fintype.BigOperators

open scoped BigOperators

namespace Cert.Route

/-- How many tokens carry slot `a`. -/
def cnt (key : Fin 1024 → Fin 5) (a : Fin 5) : ℕ := (Finset.univ.filter fun j => key j = a).card

/-- Where slot `a`'s group starts in the sorted order: the number of tokens with a smaller slot (`a` a natural, so
    that `roff 5` is the total). -/
def roff (key : Fin 1024 → Fin 5) (a : ℕ) : ℕ := ∑ b ∈ Finset.univ.filter (fun b : Fin 5 => b.val < a), cnt key b

/-- Slot `a`'s group padded to a multiple of 256. -/
def pc (key : Fin 1024 → Fin 5) (a : Fin 5) : ℕ := ((cnt key a + 255) / 256) * 256

/-- Where slot `a`'s padded block starts. -/
def poff (key : Fin 1024 → Fin 5) (a : ℕ) : ℕ := ∑ b ∈ Finset.univ.filter (fun b : Fin 5 => b.val < a), pc key b

/-- The padded row of sorted position `p`. -/
def ppos (key : Fin 1024 → Fin 5) (σ : Fin 1024 → Fin 1024) (p : Fin 1024) : ℕ :=
  poff key (key (σ p)).val + (p.val - roff key (key (σ p)).val)

/-- The number of 256-row tiles of the groups `0 … a`. -/
def cum (key : Fin 1024 → Fin 5) (a : Fin 5) : ℕ := ∑ b ∈ Finset.univ.filter (fun b : Fin 5 => b.val ≤ a.val), pc key b / 256

/-- The slot of tile `t`: how many of the five running tile counts are at most `t`, capped at 4. -/
def tileAd (key : Fin 1024 → Fin 5) (t : Fin 8) : ℕ := min 4 (Finset.univ.filter fun b : Fin 5 => cum key b ≤ t.val).card

/-- Whether tile `t` is in use. -/
def tileOk (key : Fin 1024 → Fin 5) (t : Fin 8) : Prop := t.val < cum key 4

instance (key : Fin 1024 → Fin 5) (t : Fin 8) : Decidable (tileOk key t) := by unfold tileOk; infer_instance

/-- The sorted order: `σ` is a permutation of the tokens and the slots along it never decrease. -/
structure Sorted (key : Fin 1024 → Fin 5) (σ : Fin 1024 → Fin 1024) : Prop where
  bij : Function.Bijective σ
  mono : ∀ p q : Fin 1024, p ≤ q → key (σ p) ≤ key (σ q)

end Cert.Route
-- ==== Proof.Route.Key.lean ====
/-
  The slot of a token, read off the word of ids: the id itself when it is one of 0 … 3 read signed, else slot 4.
-/
import proofs.«421023_j28973849379100_3_alg».proof.Proof.Spec
import proofs.«421023_j28973849379100_3_alg».proof.Proof.Route.Defs

namespace Cert.Route

open Idealize.ShloMosaic Idealize.ShloMosaic.ValueIdx

/-- Token `j`'s slot. -/
noncomputable def keyOf (ind : (⟨1, ![1024]⟩ : Shape).Idx → BitVec 32) (j : Fin 1024) : Fin 5 := Cert.Spec.adapter (ind (ix1 j))

end Cert.Route
-- ==== Proof.Route.Math.lean ====
/-
  The arithmetic of the routing, over natural numbers.

  Along a sorted order the slots never decrease, so the sorted positions whose slot is below `a` form an initial
  segment of the positions; the sorted order is a bijection, so that segment has as many elements as there are
  tokens with a slot below `a`, which is `roff a`. Hence the positions of slot `a` are exactly the interval
  `[roff a, roff a + cnt a)`. On that interval `ppos` is the translation onto `[poff a, poff a + cnt a)`, which
  lies inside the padded block `[poff a, poff (a + 1))`. The padded blocks are disjoint, increasing in `a`, made
  of whole tiles, and end at `poff 5 ≤ 2048`: injectivity of `ppos` and the tile facts follow.
-/
import proofs.«421023_j28973849379100_3_alg».proof.Proof.Route.Defs
import Mathlib.Data.Fintype.Fin
import Mathlib.Algebra.Order.BigOperators.Group.Finset
import Mathlib.Order.Interval.Finset.Fin

open scoped BigOperators

namespace Cert.Route

variable {key : Fin 1024 → Fin 5} {σ : Fin 1024 → Fin 1024}

/-! ### Sums over the slots below a bound -/

/-- The sum over the slots below `a + 1` is the sum over the slots below `a`, plus the term of `a`. -/
private theorem sum_lt_succ (f : Fin 5 → ℕ) (a : Fin 5) :
    ∑ b ∈ Finset.univ.filter (fun b : Fin 5 => b.val < a.val + 1), f b
      = ∑ b ∈ Finset.univ.filter (fun b : Fin 5 => b.val < a.val), f b + f a := by
  have h : Finset.univ.filter (fun b : Fin 5 => b.val < a.val + 1)
      = insert a (Finset.univ.filter (fun b : Fin 5 => b.val < a.val)) := by
    ext b
    simp only [Finset.mem_filter, Finset.mem_univ, true_and, Finset.mem_insert, Fin.ext_iff]
    omega
  rw [h, Finset.sum_insert (by simp), add_comm]

/-- The sum over the slots below a bound grows with the bound. -/
private theorem sum_lt_mono (f : Fin 5 → ℕ) {a b : ℕ} (h : a ≤ b) :
    ∑ i ∈ Finset.univ.filter (fun i : Fin 5 => i.val < a), f i
      ≤ ∑ i ∈ Finset.univ.filter (fun i : Fin 5 => i.val < b), f i := by
  apply Finset.sum_le_sum_of_subset
  intro i hi
  simp only [Finset.mem_filter, Finset.mem_univ, true_and] at hi ⊢
  omega

/-- Every slot is below 5. -/
private theorem filter_lt_five : Finset.univ.filter (fun b : Fin 5 => b.val < 5) = Finset.univ :=
  Finset.filter_true_of_mem (fun b _ => b.isLt)

/-! ### Counts and offsets -/

theorem cnt_le (key : Fin 1024 → Fin 5) (a : Fin 5) : cnt key a ≤ 1024 := by
  have h := Finset.card_le_univ (Finset.univ.filter fun j => key j = a)
  rw [Fintype.card_fin] at h
  exact h

/-- Every token has exactly one slot. -/
theorem cnt_sum (key : Fin 1024 → Fin 5) : ∑ a : Fin 5, cnt key a = 1024 := by
  have h := Finset.card_eq_sum_card_fiberwise (f := key) (s := Finset.univ) (t := Finset.univ)
    (fun _ _ => Finset.mem_coe.2 (Finset.mem_univ _))
  rw [Finset.card_univ, Fintype.card_fin] at h
  exact h.symm

theorem roff_zero (key : Fin 1024 → Fin 5) : roff key 0 = 0 := by simp [roff]

theorem poff_zero (key : Fin 1024 → Fin 5) : poff key 0 = 0 := by simp [poff]

theorem roff_succ (key : Fin 1024 → Fin 5) (a : Fin 5) : roff key (a.val + 1) = roff key a.val + cnt key a :=
  sum_lt_succ _ a

theorem poff_succ (key : Fin 1024 → Fin 5) (a : Fin 5) : poff key (a.val + 1) = poff key a.val + pc key a :=
  sum_lt_succ _ a

theorem roff_mono (key : Fin 1024 → Fin 5) {a b : ℕ} (h : a ≤ b) : roff key a ≤ roff key b := sum_lt_mono _ h

theorem poff_mono (key : Fin 1024 → Fin 5) {a b : ℕ} (h : a ≤ b) : poff key a ≤ poff key b := sum_lt_mono _ h

theorem roff_five (key : Fin 1024 → Fin 5) : roff key 5 = 1024 := by
  rw [← cnt_sum key, roff, filter_lt_five]

/-- A group fits in its padded block. -/
theorem cnt_le_pc (key : Fin 1024 → Fin 5) (a : Fin 5) : cnt key a ≤ pc key a := by
  unfold pc; omega

/-- A padded block is made of whole tiles. -/
theorem pc_div_mul (key : Fin 1024 → Fin 5) (a : Fin 5) : pc key a / 256 * 256 = pc key a := by
  unfold pc; omega

/-- The padded blocks fit in 2048 rows: each is a multiple of 256 and exceeds its group by at most 255, so the total is a
    multiple of 256 that is at most `1024 + 5 * 255 = 2299`. -/
theorem poff_total (key : Fin 1024 → Fin 5) : poff key 5 ≤ 2048 := by
  have hs := cnt_sum key
  rw [poff, filter_lt_five]
  rw [Fin.sum_univ_five] at hs ⊢
  unfold pc
  omega

/-! ### The positions of a slot in the sorted order -/

/-- A set of positions closed under going down is an initial segment: it holds exactly the positions below its size. -/
private theorem mem_iff_lt_card {n : ℕ} (S : Finset (Fin n)) (hS : ∀ p q : Fin n, q ≤ p → p ∈ S → q ∈ S)
    (p : Fin n) : p ∈ S ↔ p.val < S.card := by
  constructor
  · intro hp
    have h : Finset.Iic p ⊆ S := fun q hq => hS p q (Finset.mem_Iic.1 hq) hp
    have h' := Finset.card_le_card h
    rw [Fin.card_Iic] at h'
    omega
  · intro hlt
    by_contra hp
    have h : S ⊆ Finset.Iio p := by
      intro q hq
      rw [Finset.mem_Iio]
      by_contra hle
      exact hp (hS q p (not_lt.1 hle) hq)
    have h' := Finset.card_le_card h
    rw [Fin.card_Iio] at h'
    omega

/-- The sorted positions whose slot is below `a` are as many as the tokens whose slot is below `a`. -/
private theorem card_below (hs : Sorted key σ) (a : ℕ) :
    (Finset.univ.filter fun p : Fin 1024 => (key (σ p)).val < a).card = roff key a := by
  have h1 : (Finset.univ.filter fun p : Fin 1024 => (key (σ p)).val < a).card
      = (Finset.univ.filter fun j : Fin 1024 => (key j).val < a).card := by
    apply Finset.card_bij (fun p _ => σ p)
    · intro p hp
      simpa using hp
    · intro p _ q _ h
      exact hs.bij.1 h
    · intro j hj
      obtain ⟨p, rfl⟩ := hs.bij.2 j
      exact ⟨p, by simpa using hj, rfl⟩
  have h2 := Finset.card_eq_sum_card_fiberwise (f := key)
    (s := Finset.univ.filter fun j : Fin 1024 => (key j).val < a)
    (t := Finset.univ.filter fun b : Fin 5 => b.val < a) (by intro j hj; simpa using hj)
  rw [h1, h2, roff]
  apply Finset.sum_congr rfl
  intro b hb
  rw [cnt, Finset.filter_filter]
  congr 1
  ext j
  simp only [Finset.mem_filter, Finset.mem_univ, true_and] at hb ⊢
  constructor
  · rintro ⟨_, h⟩
    exact h
  · intro h
    exact ⟨by rw [h]; exact hb, h⟩

/-- The sorted positions whose slot is below `a` are closed under going down. -/
private theorem below_down (hs : Sorted key σ) (a : ℕ) (p q : Fin 1024) (hqp : q ≤ p)
    (hp : p ∈ Finset.univ.filter fun p : Fin 1024 => (key (σ p)).val < a) :
    q ∈ Finset.univ.filter fun p : Fin 1024 => (key (σ p)).val < a := by
  simp only [Finset.mem_filter, Finset.mem_univ, true_and] at hp ⊢
  have h := Fin.le_def.1 (hs.mono q p hqp)
  omega

/-- A sorted position holds a token of slot `a` only inside `[roff a, roff a + cnt a)`. -/
theorem roff_le_of_sorted (hs : Sorted key σ) (p : Fin 1024) :
    roff key (key (σ p)).val ≤ p.val ∧ p.val < roff key (key (σ p)).val + cnt key (key (σ p)) := by
  have h1 := mem_iff_lt_card _ (below_down hs (key (σ p)).val) p
  have h2 := mem_iff_lt_card _ (below_down hs ((key (σ p)).val + 1)) p
  rw [card_below hs] at h1 h2
  rw [roff_succ] at h2
  simp only [Finset.mem_filter, Finset.mem_univ, true_and] at h1 h2
  constructor
  · by_contra h
    have := h1.2 (by omega)
    omega
  · exact h2.1 (by omega)

/-! ### The padded rows -/

/-- A sorted position of slot `a` goes into the padded block of `a`. -/
theorem ppos_bounds (hs : Sorted key σ) (p : Fin 1024) :
    poff key (key (σ p)).val ≤ ppos key σ p ∧ ppos key σ p < poff key ((key (σ p)).val + 1) := by
  obtain ⟨h1, h2⟩ := roff_le_of_sorted hs p
  have h3 := cnt_le_pc key (key (σ p))
  rw [poff_succ]
  unfold ppos
  omega

theorem ppos_lt (hs : Sorted key σ) (p : Fin 1024) : ppos key σ p < 2048 := by
  have h := (ppos_bounds hs p).2
  have h2 : poff key ((key (σ p)).val + 1) ≤ poff key 5 :=
    poff_mono key (by have := (key (σ p)).isLt; omega)
  have h3 := poff_total key
  omega

/-- Two sorted positions with the same padded row have the same slot: the blocks of different slots are disjoint. -/
private theorem key_eq_of_ppos_eq (hs : Sorted key σ) {p q : Fin 1024} (h : ppos key σ p = ppos key σ q) :
    key (σ p) = key (σ q) := by
  by_contra hne
  rcases lt_or_gt_of_ne hne with hlt | hgt
  · have h1 := (ppos_bounds hs p).2
    have h2 := (ppos_bounds hs q).1
    have h3 : poff key ((key (σ p)).val + 1) ≤ poff key (key (σ q)).val :=
      poff_mono key (Nat.succ_le_of_lt (Fin.lt_def.1 hlt))
    omega
  · have h1 := (ppos_bounds hs q).2
    have h2 := (ppos_bounds hs p).1
    have h3 : poff key ((key (σ q)).val + 1) ≤ poff key (key (σ p)).val :=
      poff_mono key (Nat.succ_le_of_lt (Fin.lt_def.1 hgt))
    omega

theorem ppos_inj (hs : Sorted key σ) : Function.Injective (ppos key σ) := by
  intro p q h
  have hk := key_eq_of_ppos_eq hs h
  have hp := (roff_le_of_sorted hs p).1
  have hq := (roff_le_of_sorted hs q).1
  unfold ppos at h
  rw [hk] at h hp
  apply Fin.ext
  omega

/-! ### Tiles -/

/-- The tiles of the groups `0 … a` end where the padded block of `a` ends. -/
theorem cum_eq (key : Fin 1024 → Fin 5) (a : Fin 5) : cum key a * 256 = poff key (a.val + 1) := by
  have h : Finset.univ.filter (fun b : Fin 5 => b.val ≤ a.val)
      = Finset.univ.filter (fun b : Fin 5 => b.val < a.val + 1) := by
    ext b
    simp only [Finset.mem_filter, Finset.mem_univ, true_and]
    omega
  rw [cum, poff, Finset.sum_mul, h]
  exact Finset.sum_congr rfl (fun b _ => pc_div_mul key b)

theorem cum_four (key : Fin 1024 → Fin 5) : cum key 4 * 256 = poff key 5 := cum_eq key 4

/-- The running tile counts at most the tile of a sorted position are those of the smaller slots. -/
private theorem cum_le_iff (hs : Sorted key σ) (p : Fin 1024) (b : Fin 5) :
    cum key b ≤ ppos key σ p / 256 ↔ b.val < (key (σ p)).val := by
  rw [Nat.le_div_iff_mul_le (by omega), cum_eq]
  obtain ⟨h1, h2⟩ := ppos_bounds hs p
  constructor
  · intro h
    by_contra hn
    have h3 : poff key ((key (σ p)).val + 1) ≤ poff key (b.val + 1) := poff_mono key (by omega)
    omega
  · intro h
    have h3 : poff key (b.val + 1) ≤ poff key (key (σ p)).val := poff_mono key (by omega)
    omega

theorem tileAd_ppos (hs : Sorted key σ) (p : Fin 1024) :
    tileAd key ⟨ppos key σ p / 256, by have := ppos_lt hs p; omega⟩ = (key (σ p)).val := by
  simp only [tileAd, cum_le_iff hs p, Fin.card_filter_val_lt]
  have := (key (σ p)).isLt
  omega

theorem tileOk_ppos (hs : Sorted key σ) (p : Fin 1024) :
    tileOk key ⟨ppos key σ p / 256, by have := ppos_lt hs p; omega⟩ := by
  show ppos key σ p / 256 < cum key 4
  rw [Nat.div_lt_iff_lt_mul (by omega), cum_four]
  have h2 := (ppos_bounds hs p).2
  have h3 : poff key ((key (σ p)).val + 1) ≤ poff key 5 :=
    poff_mono key (by have := (key (σ p)).isLt; omega)
  omega

theorem tileAd_le (key : Fin 1024 → Fin 5) (t : Fin 8) : tileAd key t ≤ 4 := Nat.min_le_left _ _

/-! ### Bounds -/

theorem roff_le (key : Fin 1024 → Fin 5) (a : ℕ) : roff key a ≤ 1024 := by
  rw [← cnt_sum key, roff]
  exact Finset.sum_le_sum_of_subset (Finset.filter_subset _ _)

theorem poff_le_five (key : Fin 1024 → Fin 5) (a : ℕ) : poff key a ≤ poff key 5 := by
  rw [poff, poff, filter_lt_five]
  exact Finset.sum_le_sum_of_subset (Finset.filter_subset _ _)

theorem poff_le (key : Fin 1024 → Fin 5) (a : ℕ) : poff key a ≤ 2048 :=
  le_trans (poff_le_five key a) (poff_total key)

theorem pc_le (key : Fin 1024 → Fin 5) (a : Fin 5) : pc key a ≤ 1024 := by
  have h := cnt_le key a
  unfold pc
  omega

theorem cum_le (key : Fin 1024 → Fin 5) (a : Fin 5) : cum key a ≤ 8 := by
  have h := cum_eq key a
  have h2 := poff_le key (a.val + 1)
  omega

theorem cum_mono (key : Fin 1024 → Fin 5) {a b : Fin 5} (h : a ≤ b) : cum key a ≤ cum key b := by
  have ha := cum_eq key a
  have hb := cum_eq key b
  have h' := Fin.le_def.1 h
  have h2 := poff_mono key (show a.val + 1 ≤ b.val + 1 by omega)
  omega

theorem cum_zero (key : Fin 1024 → Fin 5) : cum key 0 = pc key 0 / 256 := by
  have h : Finset.univ.filter (fun b : Fin 5 => b.val ≤ (0 : Fin 5).val) = {0} := by
    ext b
    simp only [Finset.mem_filter, Finset.mem_univ, true_and, Finset.mem_singleton, Fin.ext_iff, Fin.val_zero]
    omega
  rw [cum, h, Finset.sum_singleton]

theorem cum_succ (key : Fin 1024 → Fin 5) (a : Fin 5) (h : a.val + 1 < 5) :
    cum key ⟨a.val + 1, h⟩ = cum key a + pc key ⟨a.val + 1, h⟩ / 256 := by
  have e : ∀ c : Fin 5, cum key c
      = ∑ b ∈ Finset.univ.filter (fun b : Fin 5 => b.val < c.val + 1), pc key b / 256 := by
    intro c
    rw [cum]
    apply Finset.sum_congr _ (fun _ _ => rfl)
    ext b
    simp only [Finset.mem_filter, Finset.mem_univ, true_and]
    omega
  rw [e, e a]
  exact sum_lt_succ (fun b => pc key b / 256) ⟨a.val + 1, h⟩

end Cert.Route
-- ==== Proof.LibScatterSet.lean ====
/-
  An overwriting scatter read at an index that exactly one update lands on.

  A scatter folds its updates, one after the other, into the operand: an update whose index lands inside the
  operand replaces the element there by the combiner's value of the old element and the update. When the combiner
  returns the update and, among all the updates, exactly one lands on the index t, the result at t is that update,
  whatever came before it and whatever comes after. Stated for the fold over any list of update positions, then for
  scalars scattered along a vector and for rows scattered into a matrix.
-/
import proofs.«421023_j28973849379100_3_alg».proof.Proof.LibIndex

noncomputable section

namespace Cert.LibScatterSet

open Idealize.ShloMosaic Idealize.ShloMosaic.ValueIdx

/-- One step of the fold at an index the update lands on: the combiner's value. -/
theorem step_hit {α : Type} {s si u : Shape} (d : ScatterDims s si u) (f : α → α → α) {w : ℕ} (idx : IVec si w)
    (upd : u.Idx → α) (t : s.Idx) (j : u.Idx) (r : s.Idx → α) (h : d.resultIdx? j idx = some t) :
    (match d.resultIdx? j idx with
      | some i => fun i' => if i' = i then f (r i) (upd j) else r i'
      | none => r) t = f (r t) (upd j) := by
  rw [h]
  exact if_pos rfl

/-- One step of the fold at an index the update does not land on: nothing changes there. -/
theorem step_miss {α : Type} {s si u : Shape} (d : ScatterDims s si u) (f : α → α → α) {w : ℕ} (idx : IVec si w)
    (upd : u.Idx → α) (t : s.Idx) (j : u.Idx) (r : s.Idx → α) (h : d.resultIdx? j idx ≠ some t) :
    (match d.resultIdx? j idx with
      | some i => fun i' => if i' = i then f (r i) (upd j) else r i'
      | none => r) t = r t := by
  cases hres : d.resultIdx? j idx with
  | none => rfl
  | some i =>
    have hti : t ≠ i := fun e => h (hres.trans (congrArg some e.symm))
    exact if_neg hti

/-- The fold over a list of update positions none of which lands on t leaves t as it was. -/
theorem foldl_no_hit {α : Type} {s si u : Shape} (d : ScatterDims s si u) (f : α → α → α) {w : ℕ} (idx : IVec si w)
    (upd : u.Idx → α) (t : s.Idx) (L : List (Fin u.numel)) (r0 : s.Idx → α)
    (hno : ∀ n ∈ L, d.resultIdx? (u.rowMajor.symm n) idx ≠ some t) :
    L.foldl (fun r n =>
        match d.resultIdx? (u.rowMajor.symm n) idx with
        | some i => fun i' => if i' = i then f (r i) (upd (u.rowMajor.symm n)) else r i'
        | none => r) r0 t = r0 t := by
  induction L generalizing r0 with
  | nil => rfl
  | cons n L ih =>
    rw [List.foldl_cons, ih _ (fun n' hn' => hno n' (List.mem_cons_of_mem _ hn'))]
    exact step_miss d f idx upd t _ r0 (hno n List.mem_cons_self)

/-- The overwriting fold over a list of update positions that holds the one update landing on t: the result at t is
    that update. Whatever the earlier steps left at t, its step replaces it, and no later step touches t. -/
theorem foldl_unique_hit {α : Type} {s si u : Shape} (d : ScatterDims s si u) (f : α → α → α) (hf : ∀ a b, f a b = b)
    {w : ℕ} (idx : IVec si w) (upd : u.Idx → α) (t : s.Idx) (j0 : u.Idx)
    (hhit : d.resultIdx? j0 idx = some t) (huniq : ∀ j, d.resultIdx? j idx = some t → j = j0)
    (L : List (Fin u.numel)) (hmem : u.rowMajor j0 ∈ L) (r0 : s.Idx → α) :
    L.foldl (fun r n =>
        match d.resultIdx? (u.rowMajor.symm n) idx with
        | some i => fun i' => if i' = i then f (r i) (upd (u.rowMajor.symm n)) else r i'
        | none => r) r0 t = upd j0 := by
  induction L generalizing r0 with
  | nil => exact absurd hmem List.not_mem_nil
  | cons n L ih =>
    rw [List.foldl_cons]
    by_cases hL : u.rowMajor j0 ∈ L
    · exact ih hL _
    · have hn : n = u.rowMajor j0 := by
        rcases List.mem_cons.mp hmem with h | h
        · exact h.symm
        · exact absurd h hL
      have hsym : u.rowMajor.symm n = j0 := by rw [hn, Equiv.symm_apply_apply]
      rw [foldl_no_hit d f idx upd t L _ (fun n' hn' hres => hL (by
        rw [← huniq _ hres, Equiv.apply_symm_apply]; exact hn'))]
      rw [hsym]
      exact (step_hit d f idx upd t j0 r0 hhit).trans (hf _ _)

/-- scalars written along a vector: when update e's index word, read signed, is i, and no other update's is, the
    result at i is update e -/
theorem scatterSet_vec_apply {α : Type} {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![M]⟩ : Shape).Idx → α) (idx : IVec ⟨2, ![E, 1]⟩ w) (upd : (⟨1, ![E]⟩ : Shape).Idx → α) (e : Fin E) (i : Fin M)
    (hi : (idx (ix2 e (0 : Fin 1))).toInt = (i.val : ℤ))
    (huniq : ∀ e' : Fin E, (idx (ix2 e' (0 : Fin 1))).toInt = (i.val : ℤ) → e' = e) :
    Host.scatter d (fun _ b => b) x idx upd (ix1 i) = upd (ix1 e) := by
  unfold Host.scatter
  refine foldl_unique_hit d (fun _ b => b) (fun _ _ => rfl) idx upd (ix1 i) (ix1 e)
    ((Cert.LibIndex.resultIdx_vec d h1 h2 h3 h4 idx e i).mpr hi) ?_ _ (List.mem_finRange _) x
  intro j hj
  obtain ⟨a, rfl⟩ : ∃ a : Fin E, j = ix1 a := ⟨j 0, eq_ix1 j⟩
  rw [huniq a ((Cert.LibIndex.resultIdx_vec d h1 h2 h3 h4 idx a i).mp hj)]

/-- rows written into a matrix: when update row e's index word, read signed, is i, and no other row's is, row i of
    the result is update row e -/
theorem scatterSet_rows_apply {α : Type} {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![M, C]⟩ : Shape).Idx → α) (idx : IVec ⟨2, ![E, 1]⟩ w) (upd : (⟨2, ![E, C]⟩ : Shape).Idx → α)
    (e : Fin E) (i : Fin M) (k : Fin C)
    (hi : (idx (ix2 e (0 : Fin 1))).toInt = (i.val : ℤ))
    (huniq : ∀ e' : Fin E, (idx (ix2 e' (0 : Fin 1))).toInt = (i.val : ℤ) → e' = e) :
    Host.scatter d (fun _ b => b) x idx upd (ix2 i k) = upd (ix2 e k) := by
  unfold Host.scatter
  refine foldl_unique_hit d (fun _ b => b) (fun _ _ => rfl) idx upd (ix2 i k) (ix2 e k)
    ((Cert.LibIndex.resultIdx_rows d h1 h2 h3 h4 idx e k i k).mpr ⟨hi, rfl⟩) ?_ _ (List.mem_finRange _) x
  intro j hj
  obtain ⟨a, b, rfl⟩ : ∃ (a : Fin E) (b : Fin C), j = ix2 a b := ⟨j 0, j 1, eq_ix2 j⟩
  obtain ⟨ha, rfl⟩ := (Cert.LibIndex.resultIdx_rows d h1 h2 h3 h4 idx a b i k).mp hj
  rw [huniq a ha]

end Cert.LibScatterSet

end
-- ==== Proof.KI.RoutePosCore.lean ====
/-
  Where the sorted rows go, and back.

  Sorted position p holds token σ p, of slot key (σ p). Its padded row is ppos p: the start of the slot's padded block
  plus the rank of p inside its group. The program computes it from two table reads (the group's start and the padded
  block's start, both at the slot), a subtraction from the position and a sum; every word stays below 2048, so no
  sum or difference wraps. The sorted rows are then written into a buffer of zeros at their padded rows, and the padded
  rows are written into a vector at their tokens: the padded rows are pairwise distinct and the sorted order is a
  permutation, so each written place receives exactly one value. The results are stated over ANY sorted order and
  any readings of the buffers this stretch starts from, given as hypotheses.
-/
import proofs.«421023_j28973849379100_3_alg».proof.Proof.KI.Base
import proofs.«421023_j28973849379100_3_alg».proof.Proof.Spec
import proofs.«421023_j28973849379100_3_alg».proof.Proof.Route.Key
import proofs.«421023_j28973849379100_3_alg».proof.Proof.Route.Math
import proofs.«421023_j28973849379100_3_alg».proof.Proof.LibIndex
import proofs.«421023_j28973849379100_3_alg».proof.Proof.LibScatterSet
import Idealize.ShloMosaic.Lib.ValueIdx
import Idealize.ShloMosaic.PureOps.Ideal
import Idealize.ShloMosaic.Lib.StableHlo.Predicate

noncomputable section

namespace Cert.KernelIdeal.HandRoute.Pos

open Cert.KernelIdeal Cert.KernelIdeal.Gen Cert.KernelIdeal.Hand Cert.Route Idealize.ShloMosaic Idealize.ShloMosaic.ValueIdx

variable (m : (ℓ : Loc nD τ sig) → Buf (Elt Ideal) ℓ) (c : Dev nD)

/-- A vector of 1024 words with n added to the negative ones. -/
abbrev wrapBy (n : BitVec 32) (X : IVec S1024 32) : IVec S1024 32 :=
  select (cmpi .slt X (broadcastInDim S1024 ![] bcast_S_S1024 (constantI S_ 32 0#32)))
    (addi X (broadcastInDim S1024 ![] bcast_S_S1024 (constantI S_ 32 n))) X

/-- A vector of 1024 words as a column. -/
abbrev asCol (X : IVec S1024 32) : IVec S1024x1 32 := broadcastInDim S1024x1 ![0] bcast_S1024_S1024x1_0 X

/-! ## Each buffer of the stretch in terms of the buffers it reads -/

set_option maxHeartbeats 4000000 in
/-- The padded position: the padded offset of the slot plus the rank inside the group. -/
theorem v63_eq : (V m c main_v63 : S1024.Idx → BitVec 32)
    = addi (V m c main_v62 : S1024.Idx → BitVec 32) (V m c main_v55 : S1024.Idx → BitVec 32) := by
  dsimp only [V, V0, preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp <;> (try simp only [StableHlo.TRef.ofBuf, StableHlo.TRef.toBuf, cast_eq]) <;> rfl

set_option maxHeartbeats 4000000 in
/-- The rank inside the group: the sorted position minus the group's start. -/
theorem v55_eq : (V m c main_v55 : S1024.Idx → BitVec 32)
    = subi (iotaInDim S1024 32 0) (V m c main_v54 : S1024.Idx → BitVec 32) := by
  dsimp only [V, V0, preOps]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp <;> (try simp only [StableHlo.TRef.ofBuf, StableHlo.TRef.toBuf, cast_eq]) <;> rfl

set_option maxHeartbeats 4000000 in
/-- The group's start: the table of starts read at the slot of the sorted position. -/
theorem v54_eq : (V m c main_v54 : S1024.Idx → BitVec 32)
    = Host.gather gather_S5_S1024x1_S1024_n_0_n_n_0_1_1 (V m c main_v35 : S5.Idx → BitVec 32)
        (asCol (wrapBy 5#32 (V m c main_v13 : S1024.Idx → BitVec 32))) := by
  dsimp only [V, V0, preOps, asCol, wrapBy]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp <;> (try simp only [StableHlo.TRef.ofBuf, StableHlo.TRef.toBuf, cast_eq]) <;> rfl

set_option maxHeartbeats 4000000 in
/-- The padded block's start: the table of padded starts read at the slot of the sorted position. -/
theorem v62_eq : (V m c main_v62 : S1024.Idx → BitVec 32)
    = Host.gather gather_S5_S1024x1_S1024_n_0_n_n_0_1_1 (V m c main_v46 : S5.Idx → BitVec 32)
        (asCol (wrapBy 5#32 (V m c main_v13 : S1024.Idx → BitVec 32))) := by
  dsimp only [V, V0, preOps, asCol, wrapBy]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp <;> (try simp only [StableHlo.TRef.ofBuf, StableHlo.TRef.toBuf, cast_eq]) <;> rfl

set_option maxHeartbeats 4000000 in
/-- The padded rows: the sorted rows written at their padded positions into a buffer of zeros. -/
theorem v71_eq : (V m c main_v71 : S2048x2048.Idx → EReal)
    = Host.scatter scatter_S2048x2048_S1024x1_S1024x2048_1_0_0_1 (fun _ b => b) (V m c main_v64 : S2048x2048.Idx → EReal)
        (asCol (wrapBy 2048#32 (V m c main_v63 : S1024.Idx → BitVec 32))) (V m c main_v21 : S1024x2048.Idx → EReal) := by
  dsimp only [V, V0, preOps, asCol, wrapBy]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp <;> (try simp only [StableHlo.TRef.ofBuf, StableHlo.TRef.toBuf, cast_eq]) <;> rfl

set_option maxHeartbeats 4000000 in
/-- The inverse map: the padded positions written at the tokens the sorted positions hold. -/
theorem v95_eq : (V m c main_v95 : S1024.Idx → BitVec 32)
    = Host.scatter scatter_S1024_S1024x1_S1024_n_0_0_1 (fun _ b => b) (V m c main_v88 : S1024.Idx → BitVec 32)
        (asCol (wrapBy 1024#32 (V m c main_v6 : S1024.Idx → BitVec 32))) (V m c main_v63 : S1024.Idx → BitVec 32) := by
  dsimp only [V, V0, preOps, asCol, wrapBy]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp <;> (try simp only [StableHlo.TRef.ofBuf, StableHlo.TRef.toBuf, cast_eq]) <;> rfl

/-! ## Words, columns and table reads at one position -/

/-- The sum of the words of two naturals is the word of the sum. -/
theorem addi_ofNat (a b : ℕ) : IntOp.addi (BitVec.ofNat 32 a) (BitVec.ofNat 32 b) = BitVec.ofNat 32 (a + b) := by
  unfold IntOp.addi
  rw [BitVec.ofNat_add]

/-- The difference of the words of two naturals, the smaller taken from the larger, is the word of the difference. -/
theorem subi_ofNat (a b : ℕ) (hb : b ≤ a) (ha : a < 2 ^ 32) :
    IntOp.subi (BitVec.ofNat 32 a) (BitVec.ofNat 32 b) = BitVec.ofNat 32 (a - b) := by
  unfold IntOp.subi
  apply BitVec.eq_of_toNat_eq
  simp only [BitVec.toNat_sub, BitVec.toNat_ofNat]
  omega

/-- Adding n to the negative words leaves the word of a natural below 2 ^ 31 as it is. -/
theorem wrapBy_apply (n : BitVec 32) (X : IVec S1024 32) (p : Fin 1024) (k : ℕ) (hk : k < 2 ^ 31)
    (hX : X (ix1 p) = BitVec.ofNat 32 k) : wrapBy n X (ix1 p) = BitVec.ofNat 32 k := by
  show Scalar.select (IntOp.cmpi .slt (X (ix1 p)) 0#32) (IntOp.addi (X (ix1 p)) n) (X (ix1 p)) = _
  rw [hX]
  unfold Scalar.select
  rw [if_neg]
  intro h
  have h' := (StableHlo.Predicate.slt_iff_toNat (a := BitVec.ofNat 32 k) (b := 0#32)
    (by rw [BitVec.toNat_ofNat]; omega) (by decide)).mp h
  simp at h'

/-- Row p of the column of a vector is the vector at p. -/
theorem asCol_apply (X : IVec S1024 32) (p : Fin 1024) : asCol X (ix2 p (0 : Fin 1)) = X (ix1 p) := by
  have e1 : (ix2 p (0 : Fin 1) : (⟨2, ![1024, 1]⟩ : Shape).Idx) = StableHlo.Predicate.ixP p := by
    funext a; match a with | ⟨0, _⟩ => rfl | ⟨1, _⟩ => rfl
  have e2 : (Shape.Idx.ofFin p : (⟨1, ![1024]⟩ : Shape).Idx) = ix1 p := by
    funext a; match a with | ⟨0, _⟩ => rfl
  show broadcastInDim (⟨2, ![1024, 1]⟩ : Shape) ![0] bcast_S1024_S1024x1_0 X (ix2 p (0 : Fin 1)) = X (ix1 p)
  rw [e1, StableHlo.Predicate.bcast_col1, e2]

/-- A table of five words read at a column of positions: where the position word is the word of a slot, the read is
    the table's entry of that slot. -/
theorem gather5_apply (T : IVec S5 32) (idx : IVec S1024x1 32) (p : Fin 1024) (a : Fin 5)
    (hidx : idx (ix2 p (0 : Fin 1)) = BitVec.ofNat 32 a.val) :
    Host.gather gather_S5_S1024x1_S1024_n_0_n_n_0_1_1 T idx (ix1 p) = T (ix1 a) := by
  have h := StableHlo.Predicate.gather_take gather_S5_S1024x1_S1024_n_0_n_n_0_1_1 rfl rfl rfl rfl T idx p (by decide)
  have e1 : (Shape.Idx.ofFin p : (⟨1, ![1024]⟩ : Shape).Idx) = ix1 p := by
    funext b; match b with | ⟨0, _⟩ => rfl
  have e2 : (StableHlo.Predicate.ixP p : (⟨2, ![1024, 1]⟩ : Shape).Idx) = ix2 p (0 : Fin 1) := by
    funext b; match b with | ⟨0, _⟩ => rfl | ⟨1, _⟩ => rfl
  rw [e1] at h
  refine h.trans (congrArg T ?_)
  funext b
  match b with
  | ⟨0, _⟩ =>
    refine Fin.ext ?_
    show min (idx (StableHlo.Predicate.ixP p)).toInt.toNat (5 - 1) = a.val
    rw [e2, hidx, StableHlo.Predicate.toInt_ofNat_small _ (by have := a.isLt; omega), Int.toNat_natCast]
    have := a.isLt
    omega

/-! ## The padded positions, the two writes and the group's result -/

section Core

variable (key : Fin 1024 → Fin 5) (σ : Fin 1024 → Fin 1024) (x : S1024x2048.Idx → EReal)
variable (hs : Cert.Route.Sorted key σ)
  (hv6 : ∀ p : Fin 1024, (V m c main_v6 : S1024.Idx → BitVec 32) (ix1 p) = BitVec.ofNat 32 (σ p).val)
  (hv13 : ∀ p : Fin 1024, (V m c main_v13 : S1024.Idx → BitVec 32) (ix1 p) = BitVec.ofNat 32 (key (σ p)).val)
  (hv21 : ∀ (p : Fin 1024) (d : Fin 2048), (V m c main_v21 : S1024x2048.Idx → EReal) (ix2 p d) = x (ix2 (σ p) d))
  (hv35 : ∀ a : Fin 5, (V m c main_v35 : S5.Idx → BitVec 32) (ix1 a) = BitVec.ofNat 32 (roff key a.val))
  (hv46 : ∀ a : Fin 5, (V m c main_v46 : S5.Idx → BitVec 32) (ix1 a) = BitVec.ofNat 32 (poff key a.val))
  (hv84 : ∀ t : Fin 8, (V m c main_v84 : S8.Idx → BitVec 32) (ix1 t) = BitVec.ofNat 32 (tileAd key t))
  (hv87 : ∀ t : Fin 8, (V m c main_v87 : S8.Idx → BitVec 32) (ix1 t) = if tileOk key t then 1#32 else 0#32)

include hs hv13 hv35 hv46 in
/-- Sorted position p goes to the padded row ppos p: the padded start of its slot's block plus its rank inside the
    group, the rank being the position minus the group's start, which the sorted order puts at or before p. -/
theorem v63_of (p : Fin 1024) :
    (V m c main_v63 : S1024.Idx → BitVec 32) (ix1 p) = BitVec.ofNat 32 (ppos key σ p) := by
  have hslot : asCol (wrapBy 5#32 (V m c main_v13 : S1024.Idx → BitVec 32)) (ix2 p (0 : Fin 1))
      = BitVec.ofNat 32 (key (σ p)).val := by
    rw [asCol_apply]
    exact wrapBy_apply _ _ p _ (by have := (key (σ p)).isLt; omega) (hv13 p)
  have h54 : (V m c main_v54 : S1024.Idx → BitVec 32) (ix1 p) = BitVec.ofNat 32 (roff key (key (σ p)).val) := by
    rw [v54_eq, gather5_apply _ _ p (key (σ p)) hslot, hv35]
  have h62 : (V m c main_v62 : S1024.Idx → BitVec 32) (ix1 p) = BitVec.ofNat 32 (poff key (key (σ p)).val) := by
    rw [v62_eq, gather5_apply _ _ p (key (σ p)) hslot, hv46]
  have h55 : (V m c main_v55 : S1024.Idx → BitVec 32) (ix1 p)
      = BitVec.ofNat 32 (p.val - roff key (key (σ p)).val) := by
    rw [v55_eq]
    show IntOp.subi (BitVec.ofNat 32 p.val) ((V m c main_v54 : S1024.Idx → BitVec 32) (ix1 p)) = _
    rw [h54]
    exact subi_ofNat _ _ (roff_le_of_sorted hs p).1 (by have := p.isLt; omega)
  rw [v63_eq]
  show IntOp.addi ((V m c main_v62 : S1024.Idx → BitVec 32) (ix1 p)) ((V m c main_v55 : S1024.Idx → BitVec 32) (ix1 p)) = _
  rw [h62, h55]
  exact addi_ofNat _ _

include hs hv13 hv21 hv35 hv46 in
/-- Padded row ppos p holds the row of the token at sorted position p: the padded positions are pairwise distinct, so
    of the 1024 rows written exactly one lands there. -/
theorem v71_of (p : Fin 1024) (d : Fin 2048) :
    (V m c main_v71 : S2048x2048.Idx → EReal) (ix2 (⟨ppos key σ p, ppos_lt hs p⟩ : Fin 2048) d) = x (ix2 (σ p) d) := by
  have hidx : ∀ q : Fin 1024, asCol (wrapBy 2048#32 (V m c main_v63 : S1024.Idx → BitVec 32)) (ix2 q (0 : Fin 1))
      = BitVec.ofNat 32 (ppos key σ q) := fun q => by
    rw [asCol_apply]
    exact wrapBy_apply _ _ q _ (by have := ppos_lt hs q; omega) (v63_of m c key σ hs hv13 hv35 hv46 q)
  rw [v71_eq]
  refine (Cert.LibScatterSet.scatterSet_rows_apply scatter_S2048x2048_S1024x1_S1024x2048_1_0_0_1 rfl rfl rfl rfl _ _ _
    p (⟨ppos key σ p, ppos_lt hs p⟩ : Fin 2048) d ?_ ?_).trans (hv21 p d)
  · rw [hidx, StableHlo.Predicate.toInt_ofNat_small _ (by have := ppos_lt hs p; omega)]
  · intro q hq
    rw [hidx, StableHlo.Predicate.toInt_ofNat_small _ (by have := ppos_lt hs q; omega)] at hq
    exact ppos_inj hs (Nat.cast_injective (R := ℤ) hq)

include hs hv6 hv13 hv35 hv46 in
/-- The inverse map at the token of sorted position p is ppos p: the sorted order is a permutation, so of the 1024
    words written exactly one lands on that token. -/
theorem v95_of (p : Fin 1024) :
    (V m c main_v95 : S1024.Idx → BitVec 32) (ix1 (σ p)) = BitVec.ofNat 32 (ppos key σ p) := by
  have hidx : ∀ q : Fin 1024, asCol (wrapBy 1024#32 (V m c main_v6 : S1024.Idx → BitVec 32)) (ix2 q (0 : Fin 1))
      = BitVec.ofNat 32 (σ q).val := fun q => by
    rw [asCol_apply]
    exact wrapBy_apply _ _ q _ (by have := (σ q).isLt; omega) (hv6 q)
  rw [v95_eq]
  refine (Cert.LibScatterSet.scatterSet_vec_apply scatter_S1024_S1024x1_S1024_n_0_0_1 rfl rfl rfl rfl _ _ _
    p (σ p) ?_ ?_).trans (v63_of m c key σ hs hv13 hv35 hv46 p)
  · rw [hidx, StableHlo.Predicate.toInt_ofNat_small _ (by have := (σ p).isLt; omega)]
  · intro q hq
    rw [hidx, StableHlo.Predicate.toInt_ofNat_small _ (by have := (σ q).isLt; omega)] at hq
    exact hs.bij.injective (Fin.ext (Nat.cast_injective (R := ℤ) hq))

include hs hv6 hv13 hv21 hv35 hv46 hv84 hv87 in
/-- THE ROUTING: every token j has a padded row r that the inverse map names, that holds j's row, whose tile is in
    use, and whose tile's slot is j's slot. -/
theorem route_of (j : Fin 1024) : ∃ r : Fin 2048,
    (V m c main_v95 : S1024.Idx → BitVec 32) (ix1 j) = BitVec.ofNat 32 r.val
    ∧ (∀ d : Fin 2048, (V m c main_v71 : S2048x2048.Idx → EReal) (ix2 r d) = x (ix2 j d))
    ∧ (V m c main_v87 : S8.Idx → BitVec 32) (ix1 (⟨r.val / 256, by omega⟩ : Fin 8)) ≠ 0#32
    ∧ (V m c main_v84 : S8.Idx → BitVec 32) (ix1 (⟨r.val / 256, by omega⟩ : Fin 8)) = BitVec.ofNat 32 (key j).val := by
  obtain ⟨p, rfl⟩ := hs.bij.surjective j
  refine ⟨⟨ppos key σ p, ppos_lt hs p⟩, v95_of m c key σ hs hv6 hv13 hv35 hv46 p,
    fun d => v71_of m c key σ x hs hv13 hv21 hv35 hv46 p d, ?_, ?_⟩
  · rw [hv87]
    show (if tileOk key ⟨ppos key σ p / 256, _⟩ then 1#32 else 0#32) ≠ 0#32
    rw [if_pos (tileOk_ppos hs p)]
    decide
  · rw [hv84]
    show BitVec.ofNat 32 (tileAd key ⟨ppos key σ p / 256, _⟩) = _
    rw [tileAd_ppos hs p]

include hv84 in
/-- Every tile's slot word is at most 4. -/
theorem ta_le_of (t : Fin 8) : ((V m c main_v84 : S8.Idx → BitVec 32) (ix1 t)).toNat ≤ 4 := by
  rw [hv84, BitVec.toNat_ofNat, Nat.mod_eq_of_lt (by have := tileAd_le key t; omega)]
  exact tileAd_le key t

end Core

end Cert.KernelIdeal.HandRoute.Pos

end
-- ==== Proof.KI.RouteSortRead.lean ====
/-
  The routing buffers of the first half of the host code, each read as the operation that produced it applied to
  the buffers it reads: the slot words, the sorted order, the wrapped index words, the two gathers along the sorted
  order, and the count of tokens per slot.
-/
import proofs.«421023_j28973849379100_3_alg».proof.Proof.KI.Base
import Idealize.ShloMosaic.PureOps.Ideal

noncomputable section

namespace Cert.KernelIdeal.HandRoute

open Cert.KernelIdeal Cert.KernelIdeal.Gen Cert.KernelIdeal.Hand Idealize.ShloMosaic
open Idealize.ShloMosaic.TcCoe Idealize.SL Idealize.SL.Sem

variable (m : (ℓ : Loc nD τ sig) → Buf (Elt Ideal) ℓ) (c : Dev nD)

/-- A scalar word laid along 1024 positions. -/
abbrev fill1024 (b : BitVec 32) : S1024.Idx → BitVec 32 := broadcastInDim S1024 ![] bcast_S_S1024 (constantI S_ 32 b)
/-- A vector of 1024 words as a column of start indices. -/
abbrev col1024 (v : S1024.Idx → BitVec 32) : S1024x1.Idx → BitVec 32 := broadcastInDim S1024x1 ![0] bcast_S1024_S1024x1_0 v
/-- A word below zero stepped up by `n`, any other word kept. -/
abbrev wrapBy (n : BitVec 32) (v : S1024.Idx → BitVec 32) : S1024.Idx → BitVec 32 :=
  select (cmpi .slt v (fill1024 0#32)) (addi v (fill1024 n)) v

set_option maxHeartbeats 8000000 in
/-- The nine buffers, each as its operation over the buffers it reads. -/
theorem reads :
    ((V m c main_v5 : S1024.Idx → BitVec 32)
      = select (andi (cmpi .sge (m ((c : Thread nD τ).loc main_arg11)) (fill1024 0#32))
          (cmpi .slt (m ((c : Thread nD τ).loc main_arg11)) (fill1024 4#32)))
          (m ((c : Thread nD τ).loc main_arg11)) (broadcastInDim S1024 ![] bcast_S_S1024 (id (constantI S_ 32 4#32))))
    ∧ ((V m c main_v6 : S1024.Idx → BitVec 32)
      = (Host.sort2 S1024 0 comparator_i32_i32_d0 (V m c main_v5) (iotaInDim S1024 32 0)).2)
    ∧ ((V m c main_v11 : S1024.Idx → BitVec 32) = wrapBy 1024#32 (V m c main_v6))
    ∧ ((V m c main_v13 : S1024.Idx → BitVec 32)
      = Host.gather gather_S1024_S1024x1_S1024_n_0_n_n_0_1_1 (V m c main_v5) (col1024 (V m c main_v11)))
    ∧ ((V m c main_v19 : S1024.Idx → BitVec 32) = wrapBy 1024#32 (V m c main_v6))
    ∧ ((V m c main_v21 : S1024x2048.Idx → EReal)
      = Host.gather gather_S1024x2048_S1024x1_S1024x2048_1_0_n_n_0_1_12048
          (truncf .bf16 (m ((c : Thread nD τ).loc main_arg0) : FVec Ideal S1024x2048 .f32) bitsLt_bf16_f32 : FVec Ideal S1024x2048 .bf16) (col1024 (V m c main_v19)))
    ∧ ((V m c main_v23 : S1024.Idx → BitVec 32)
      = maxsi (broadcastInDim S1024 ![] bcast_S_S1024 (id (constantI S_ 32 0#32))) (V m c main_v5))
    ∧ ((V m c main_v28 : S1024.Idx → BitVec 32) = wrapBy 5#32 (V m c main_v23))
    ∧ ((V m c main_v31 : S5.Idx → BitVec 32)
      = Host.scatter scatter_S5_S1024x1_S1024_n_0_0_1 IntOp.addi (broadcastInDim S5 ![] bcast_S_S5 (constantI S_ 32 0#32))
          (col1024 (V m c main_v28)) (fill1024 1#32)) := by
  dsimp only [V, V0, preOps]
  simp only [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15, hostOps0_16,
   List.flatten_cons, List.flatten_nil, List.append_nil, List.cons_append, List.nil_append]
  after_results_simp
  refine ⟨?_, ?_, ?_, ?_, ?_, ?_, ?_, ?_, ?_⟩ <;> first | rfl | trivial

end Cert.KernelIdeal.HandRoute

end
-- ==== Proof.KI.RouteSort.lean ====
/-
  The first half of the routing: each token's slot word, the order that lists the tokens by slot, the slots and the
  token rows along that order, and the number of tokens of each slot.

  The slot word of a token is its id when the id is one of 0 … 3 read signed, else 4. The sort lists the positions
  0 … 1023 by slot word, equal words in their original order: its index output is a permutation of the positions along
  which the slots never decrease. The index words are small and non-negative, so the step that lifts negative index
  words leaves them, and a gather at them reads the entry they name. The scatter of ones at the slot words counts, at
  entry `a`, the tokens of slot `a`.
-/
import proofs.«421023_j28973849379100_3_alg».proof.Proof.KI.RouteSortRead
import proofs.«421023_j28973849379100_3_alg».proof.Proof.Spec
import proofs.«421023_j28973849379100_3_alg».proof.Proof.Route.Key
import proofs.«421023_j28973849379100_3_alg».proof.Proof.LibIndex
import Idealize.ShloMosaic.Lib.SortFacts
import Idealize.ShloMosaic.Lib.StableHlo.Predicate

noncomputable section

namespace Cert.RouteSortLemmas

open Idealize.ShloMosaic Idealize.ShloMosaic.ValueIdx Idealize.ShloMosaic.StableHlo.Predicate

/-! ## Words and indices -/

/-- The rank-1 index at a coordinate, in its two spellings. -/
theorem ix1_eq_ofFin {n : ℕ} (p : Fin n) : (ix1 p : (⟨1, ![n]⟩ : Shape).Idx) = Shape.Idx.ofFin p :=
  Shape.Idx.eq_ofFin (ix1 p)

/-- Row `p` of a one-column table, in its two spellings. -/
theorem ix2_zero_eq_ixP {n : ℕ} (p : Fin n) : (ix2 p (0 : Fin 1) : (⟨2, ![n, 1]⟩ : Shape).Idx) = ixP p := by
  funext d
  match d with
  | ⟨0, _⟩ => rfl
  | ⟨1, _⟩ => rfl

/-- A vector kept as a column reads, at row `p`, the vector at `p`. -/
theorem col_apply {α : Type} {n : ℕ} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  rw [ix2_zero_eq_ixP, ix1_eq_ofFin]
  exact bcast_col1 h₁ v p

/-- Signed "less than" between two small words is "less than" between their values. -/
theorem slt_small (a b : ℕ) (ha : a < 2 ^ 31) (hb : b < 2 ^ 31) :
    IntOp.cmpi .slt (BitVec.ofNat 32 a) (BitVec.ofNat 32 b) = 1#1 ↔ a < b :=
  slt_ofNat_iff a b ha hb

/-- A small word is not below zero, so the step that lifts negative words leaves it. -/
theorem wrap_small (k : ℕ) (hk : k < 2 ^ 31) (N : BitVec 32) :
    Scalar.select (IntOp.cmpi .slt (BitVec.ofNat 32 k) 0#32) (IntOp.addi (BitVec.ofNat 32 k) N) (BitVec.ofNat 32 k)
      = BitVec.ofNat 32 k := by
  have h : IntOp.cmpi .slt (BitVec.ofNat 32 k) 0#32 = 0#1 := by
    apply eq_zero_of_ne_one
    intro h1
    have := (slt_small k 0 hk (by norm_num)).mp h1
    omega
  rw [h, select_zero]

/-- The larger of zero and a small word is the word. -/
theorem maxsi_zero_small (k : ℕ) (hk : k < 2 ^ 31) : IntOp.maxsi 0#32 (BitVec.ofNat 32 k) = BitVec.ofNat 32 k := by
  unfold IntOp.maxsi
  have h : (BitVec.ofNat 32 k).slt 0#32 = false := by
    have h0 : (0#32 : BitVec 32).toInt = 0 := by decide
    rw [BitVec.slt, toInt_ofNat_small k hk, h0]
    exact decide_eq_false (by omega)
  rw [h]
  rfl

theorem andi_ofBool (a b : Bool) : IntOp.andi (BitVec.ofBool a) (BitVec.ofBool b) = BitVec.ofBool (a && b) := by
  cases a <;> cases b <;> rfl

/-- The in-range test of an id word: at least zero and below four, read signed. -/
theorem slot_cond (v : BitVec 32) :
    IntOp.andi (IntOp.cmpi .sge v 0#32) (IntOp.cmpi .slt v 4#32) = BitVec.ofBool (decide (0 ≤ v.toInt ∧ v.toInt < 4)) := by
  have h0 : (0#32 : BitVec 32).toInt = 0 := by decide
  have h4 : (4#32 : BitVec 32).toInt = 4 := by decide
  show IntOp.andi (BitVec.ofBool ((0#32 : BitVec 32).sle v)) (BitVec.ofBool (v.slt 4#32)) = _
  rw [andi_ofBool, BitVec.sle, BitVec.slt, h0, h4, Bool.decide_and]

/-- The slot word: the id itself when it is in range, else four; as the word of the slot. -/
theorem slot_word (v : BitVec 32) :
    Scalar.select (IntOp.andi (IntOp.cmpi .sge v 0#32) (IntOp.cmpi .slt v 4#32)) v 4#32
      = BitVec.ofNat 32 (Cert.Spec.adapter v).val := by
  rw [slot_cond]
  unfold Cert.Spec.adapter
  by_cases h : 0 ≤ v.toInt ∧ v.toInt < 4
  · rw [dif_pos h, decide_eq_true h]
    show Scalar.select 1#1 v 4#32 = BitVec.ofNat 32 v.toInt.toNat
    rw [select_one]
    apply BitVec.eq_of_toInt_eq
    rw [toInt_ofNat_small _ (by omega)]
    omega
  · rw [dif_neg h, decide_eq_false h]
    show Scalar.select 0#1 v 4#32 = 4#32
    rw [select_zero]

/-! ## The sort -/

/-- The second output of a two-operand sort of vectors: the second operand read through the sorting permutation. -/
theorem sort2_snd_rank1 {n : ℕ} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- An argsort of small words by signed "less than": its index output lists a permutation of the positions along
    which the values never decrease. -/
theorem argsort_spec {n : ℕ} (cmp : BitVec 32 × BitVec 32 → BitVec 32 × BitVec 32 → BitVec 1)
    (hcmp : ∀ l r, cmp l r = IntOp.cmpi .slt l.1 r.1)
    (x : (⟨1, ![n]⟩ : Shape).Idx → BitVec 32) (key : Fin n → ℕ) (hkey : ∀ k, key k < 2 ^ 31)
    (hx : ∀ k, x (ix1 k) = BitVec.ofNat 32 (key k)) :
    ∃ σ : Fin n → Fin n, Function.Bijective σ ∧ (∀ p q : Fin n, p ≤ q → key (σ p) ≤ key (σ q))
      ∧ ∀ p : Fin n, (Host.sort2 ⟨1, ![n]⟩ 0 cmp x (iotaInDim ⟨1, ![n]⟩ 32 0)).2 (ix1 p) = BitVec.ofNat 32 (σ p).val := by
  -- the relation the sort compares positions by is "smaller value"
  have hB : (fun k k' : Fin n => cmp (x (Shape.Idx.ofFin k), iotaInDim ⟨1, ![n]⟩ 32 0 (Shape.Idx.ofFin k))
        (x (Shape.Idx.ofFin k'), iotaInDim ⟨1, ![n]⟩ 32 0 (Shape.Idx.ofFin k')) == 1#1)
      = fun k k' : Fin n => decide (key k < key k') := by
    funext k k'
    rw [hcmp, ← ix1_eq_ofFin, ← ix1_eq_ofFin, hx, hx, Bool.eq_iff_iff, beq_iff_eq, decide_eq_true_eq]
    exact slt_small _ _ (hkey k) (hkey k')
  refine ⟨sortedFrom (fun k k' : Fin n => decide (key k < key k')),
    ⟨sortedFrom_injective _, sortedFrom_surjective _⟩, ?_, ?_⟩
  · intro p q hpq
    rcases eq_or_lt_of_le hpq with rfl | hlt
    · exact le_refl _
    · have h := sortedFrom_noInversion (fun k k' : Fin n => decide (key k < key k')) (fun k k' : Fin n => decide (key k < key k'))
        (fun a b hab => by
          simp only [decide_eq_true_eq] at hab
          exact decide_eq_false (by omega))
        (fun _ _ hab => hab)
        (fun a b c hab hbc => by
          simp only [decide_eq_false_iff_not] at hab hbc
          exact decide_eq_false (by omega))
        p q hlt
      simp only [decide_eq_false_iff_not] at h
      omega
  · intro p
    rw [sort2_snd_rank1, hB]
    exact iota_apply _

/-! ## The gather of words at a column of positions -/

theorem gather_vec_apply {α : Type} {N n w : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (i : Fin N)
    (hi : (idx (ix2 p (0 : Fin 1))).toInt = (i.val : ℤ)) :
    Host.gather d x idx (ix1 p) = x (ix1 i) := by
  have hN : 0 < N := by have := i.isLt; omega
  rw [ix1_eq_ofFin, gather_take d hcoll hob hsim hivd x idx p hN]
  refine congrArg x ?_
  rw [ix1_eq_ofFin]
  refine congrArg Shape.Idx.ofFin (Fin.ext ?_)
  show min (idx (ixP p)).toInt.toNat (N - 1) = i.val
  rw [← ix2_zero_eq_ixP, hi, Int.toNat_natCast]
  exact min_eq_left (by have := i.isLt; omega)

/-! ## The count of index words -/

/-- The integer scatter of ones along a vector of zeros counts, at each entry, the index words that name it. -/
theorem scatter_vec_count {M E : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (x0 : (⟨1, ![M]⟩ : Shape).Idx → BitVec 32) (hx0 : ∀ t, x0 t = 0#32)
    (idx : IVec ⟨2, ![E, 1]⟩ 32) (upd : (⟨1, ![E]⟩ : Shape).Idx → BitVec 32) (hupd : ∀ j, upd j = 1) (i : Fin M) :
    Host.scatter d IntOp.addi x0 idx upd (ix1 i)
      = BitVec.ofNat 32 (Finset.univ.filter (fun e : Fin E => (idx (ix2 e (0 : Fin 1))).toInt = (i.val : ℤ))).card := by
  unfold Host.scatter
  refine (Cert.LibIndex.foldl_addi_one d idx upd hupd _ x0 (ix1 i)).trans ?_
  rw [hx0, BitVec.zero_add]
  refine congrArg (BitVec.ofNat 32) ?_
  rw [← List.Nodup.card_eq_countP (List.nodup_finRange _), List.toFinset_finRange]
  refine Finset.card_nbij' (fun n => (((⟨1, ![E]⟩ : Shape).rowMajor.symm n) 0 : Fin E))
    (fun e => (⟨1, ![E]⟩ : Shape).rowMajor (ix1 e)) ?_ ?_ ?_ ?_
  · intro n hn
    obtain ⟨a, ha⟩ : ∃ a : Fin E, (⟨1, ![E]⟩ : Shape).rowMajor.symm n = ix1 a := ⟨_, eq_ix1 _⟩
    have hn' := (Finset.mem_filter.mp hn).2
    rw [ha] at hn'
    show (((⟨1, ![E]⟩ : Shape).rowMajor.symm n) 0 : Fin E) ∈ _
    rw [ha]
    exact Finset.mem_filter.mpr ⟨Finset.mem_univ _, (Cert.LibIndex.resultIdx_vec d h1 h2 h3 h4 idx a i).mp hn'⟩
  · intro e he
    refine Finset.mem_filter.mpr ⟨Finset.mem_univ _, ?_⟩
    show d.resultIdx? ((⟨1, ![E]⟩ : Shape).rowMajor.symm ((⟨1, ![E]⟩ : Shape).rowMajor (ix1 e))) idx = _
    rw [Equiv.symm_apply_apply]
    exact (Cert.LibIndex.resultIdx_vec d h1 h2 h3 h4 idx e i).mpr (Finset.mem_filter.mp he).2
  · intro n _
    obtain ⟨a, ha⟩ : ∃ a : Fin E, (⟨1, ![E]⟩ : Shape).rowMajor.symm n = ix1 a := ⟨_, eq_ix1 _⟩
    show (⟨1, ![E]⟩ : Shape).rowMajor (ix1 (((⟨1, ![E]⟩ : Shape).rowMajor.symm n) 0 : Fin E)) = n
    rw [ha]
    show (⟨1, ![E]⟩ : Shape).rowMajor (ix1 a) = n
    rw [← ha, Equiv.apply_symm_apply]
  · intro e _
    show (((⟨1, ![E]⟩ : Shape).rowMajor.symm ((⟨1, ![E]⟩ : Shape).rowMajor (ix1 e))) 0 : Fin E) = e
    rw [Equiv.symm_apply_apply]
    rfl

end Cert.RouteSortLemmas

end

noncomputable section

namespace Cert.KernelIdeal.HandRoute

open Cert.KernelIdeal Cert.KernelIdeal.Gen Cert.KernelIdeal.Hand Cert.Route Idealize.ShloMosaic Idealize.ShloMosaic.ValueIdx
open Idealize.ShloMosaic.TcCoe Idealize.SL Idealize.SL.Sem Idealize.ShloMosaic.StableHlo.Predicate Cert.RouteSortLemmas

/-! ## The same steps over a whole vector, at one position -/

/-- The slot words, at a position. -/
theorem slot_apply (ind : S1024.Idx → BitVec 32) (j : Fin 1024) :
    select (andi (cmpi .sge ind (fill1024 0#32)) (cmpi .slt ind (fill1024 4#32))) ind
        (broadcastInDim S1024 ![] bcast_S_S1024 (id (constantI S_ 32 4#32))) (ix1 j)
      = BitVec.ofNat 32 (Cert.Spec.adapter (ind (ix1 j))).val :=
  slot_word (ind (ix1 j))

/-- The lifting of negative words, at a position holding a small word. -/
theorem wrapBy_apply (n : BitVec 32) (v : S1024.Idx → BitVec 32) (p : Fin 1024) (k : ℕ) (hk : k < 2 ^ 31)
    (hv : v (ix1 p) = BitVec.ofNat 32 k) : wrapBy n v (ix1 p) = BitVec.ofNat 32 k := by
  show Scalar.select (IntOp.cmpi .slt (v (ix1 p)) 0#32) (IntOp.addi (v (ix1 p)) n) (v (ix1 p)) = _
  rw [hv]
  exact wrap_small k hk n

/-- The larger of zero and the word, at a position holding a small word. -/
theorem clip0_apply (v : S1024.Idx → BitVec 32) (p : Fin 1024) (k : ℕ) (hk : k < 2 ^ 31)
    (hv : v (ix1 p) = BitVec.ofNat 32 k) :
    maxsi (broadcastInDim S1024 ![] bcast_S_S1024 (id (constantI S_ 32 0#32))) v (ix1 p) = BitVec.ofNat 32 k := by
  show IntOp.maxsi 0#32 (v (ix1 p)) = _
  rw [hv]
  exact maxsi_zero_small k hk

/-- A vector of 1024 words kept as a column reads, at row `p`, the vector at `p`. -/
theorem col1024_apply (v : S1024.Idx → BitVec 32) (p : Fin 1024) : col1024 v (ix2 p (0 : Fin 1)) = v (ix1 p) :=
  col_apply _ v p

/-! ## The buffers -/

variable (m : (ℓ : Loc nD τ sig) → Buf (Elt Ideal) ℓ) (c : Dev nD)

set_option quotPrecheck false in
local notation "KEY" => Cert.Route.keyOf (m ((c : Thread nD τ).loc main_arg11))

/-- The slot words: token `j`'s word is its slot. -/
theorem v5_apply (j : Fin 1024) : V m c main_v5 (ix1 j) = BitVec.ofNat 32 (KEY j).val := by
  rw [(reads m c).1]
  exact slot_apply _ j

/-- The token at sorted position `p`: the word the sort's index output holds there. -/
def sortPos (p : Fin 1024) : Fin 1024 :=
  ⟨((V m c main_v6 : S1024.Idx → BitVec 32) (ix1 p)).toNat % 1024, Nat.mod_lt _ (by norm_num)⟩

theorem sortPos_val (p : Fin 1024) :
    (sortPos m c p).val = ((V m c main_v6 : S1024.Idx → BitVec 32) (ix1 p)).toNat % 1024 := rfl

/-- The sorted order is a permutation of the tokens along which the slots never decrease, and the index output
    holds it. -/
theorem sortPos_spec :
    Function.Bijective (sortPos m c) ∧ (∀ p q : Fin 1024, p ≤ q → KEY (sortPos m c p) ≤ KEY (sortPos m c q))
      ∧ ∀ p : Fin 1024, V m c main_v6 (ix1 p) = BitVec.ofNat 32 (sortPos m c p).val := by
  obtain ⟨σ, hbij, hmono, hval⟩ := argsort_spec (n := 1024) comparator_i32_i32_d0 (fun _ _ => rfl)
    (V m c main_v5) (fun k => (KEY k).val) (fun k => by have := (KEY k).isLt; omega) (v5_apply m c)
  have hw : ∀ p : Fin 1024, V m c main_v6 (ix1 p) = BitVec.ofNat 32 (σ p).val := by
    intro p
    rw [(reads m c).2.1]
    exact hval p
  have hσ : sortPos m c = σ := by
    funext p
    apply Fin.ext
    have h1 := (σ p).isLt
    rw [sortPos_val, hw, BitVec.toNat_ofNat, Nat.mod_eq_of_lt (lt_trans h1 (by norm_num)), Nat.mod_eq_of_lt h1]
  rw [hσ]
  exact ⟨hbij, fun p q hpq => Fin.le_def.mpr (hmono p q hpq), hw⟩

attribute [irreducible] sortPos

theorem v6_apply (p : Fin 1024) : V m c main_v6 (ix1 p) = BitVec.ofNat 32 (sortPos m c p).val :=
  (sortPos_spec m c).2.2 p

theorem sorted : Cert.Route.Sorted KEY (sortPos m c) := ⟨(sortPos_spec m c).1, (sortPos_spec m c).2.1⟩

theorem v11_apply (p : Fin 1024) : V m c main_v11 (ix1 p) = BitVec.ofNat 32 (sortPos m c p).val := by
  rw [(reads m c).2.2.1]
  exact wrapBy_apply _ _ p _ (by have := (sortPos m c p).isLt; omega) (v6_apply m c p)

theorem v19_apply (p : Fin 1024) : V m c main_v19 (ix1 p) = BitVec.ofNat 32 (sortPos m c p).val := by
  rw [(reads m c).2.2.2.2.1]
  exact wrapBy_apply _ _ p _ (by have := (sortPos m c p).isLt; omega) (v6_apply m c p)

/-- The slots along the sorted order. -/
theorem v13_apply (p : Fin 1024) : V m c main_v13 (ix1 p) = BitVec.ofNat 32 (KEY (sortPos m c p)).val := by
  rw [(reads m c).2.2.2.1,
    gather_vec_apply gather_S1024_S1024x1_S1024_n_0_n_n_0_1_1 rfl rfl rfl rfl (V m c main_v5) (col1024 (V m c main_v11))
      p (sortPos m c p)
      (by rw [col1024_apply, v11_apply, toInt_ofNat_small _ (by have := (sortPos m c p).isLt; omega)])]
  exact v5_apply m c _

/-- The token rows along the sorted order. -/
theorem v21_apply (p : Fin 1024) (d : Fin 2048) :
    (V m c main_v21 : S1024x2048.Idx → EReal) (ix2 p d)
      = (m ((c : Thread nD τ).loc main_arg0) : S1024x2048.Idx → EReal) (ix2 (sortPos m c p) d) := by
  rw [(reads m c).2.2.2.2.2.1,
    Cert.LibIndex.gather_rows_apply gather_S1024x2048_S1024x1_S1024x2048_1_0_n_n_0_1_12048 rfl rfl rfl rfl rfl rfl rfl _
      (col1024 (V m c main_v19)) p d (sortPos m c p)
      (by rw [col1024_apply, v19_apply, toInt_ofNat_small _ (by have := (sortPos m c p).isLt; omega)])]
  rfl

theorem v28_apply (j : Fin 1024) : V m c main_v28 (ix1 j) = BitVec.ofNat 32 (KEY j).val := by
  rw [(reads m c).2.2.2.2.2.2.2.1]
  refine wrapBy_apply _ _ j _ (by have := (KEY j).isLt; omega) ?_
  rw [(reads m c).2.2.2.2.2.2.1]
  exact clip0_apply _ j _ (by have := (KEY j).isLt; omega) (v5_apply m c j)

/-- The counts: entry `a` is the number of tokens of slot `a`. -/
theorem v31_apply (a : Fin 5) : V m c main_v31 (ix1 a) = BitVec.ofNat 32 (cnt KEY a) := by
  rw [(reads m c).2.2.2.2.2.2.2.2,
    scatter_vec_count scatter_S5_S1024x1_S1024_n_0_0_1 rfl rfl rfl rfl
      (broadcastInDim S5 ![] bcast_S_S5 (constantI S_ 32 0#32)) (fun _ => rfl) (col1024 (V m c main_v28)) (fill1024 1#32)
      (fun _ => rfl) a]
  refine congrArg (BitVec.ofNat 32) ?_
  unfold Cert.Route.cnt
  refine congrArg Finset.card (Finset.filter_congr fun e _ => ?_)
  rw [col1024_apply, v28_apply, toInt_ofNat_small _ (by have := (KEY e).isLt; omega), Nat.cast_inj, Fin.val_inj]

end Cert.KernelIdeal.HandRoute

end
-- ==== Proof.KI.RouteTilesDefs.lean ====
/-
  Names for the five-entry vector operations the routing arithmetic is made of: a word laid along five entries, the running
  sum, the shift by one position with a zero in front, and floor division by 256.
-/
import proofs.«421023_j28973849379100_3_alg».proof.Proof.KI.Base

noncomputable section

namespace Cert.KernelIdeal.HandRoute

open Cert.KernelIdeal Cert.KernelIdeal.Gen Idealize.ShloMosaic

/-- A word laid along five entries. -/
abbrev fill5 (b : BitVec 32) : S5.Idx → BitVec 32 := broadcastInDim S5 ![] bcast_S_S5 (constantI S_ 32 b)
/-- The word 256 laid along five entries. -/
abbrev by256 : S5.Idx → BitVec 32 := broadcastInDim S5 ![] bcast_S_S5 (id (constantI S_ 32 256#32))
/-- The running sum of five entries. -/
abbrev cumsum5 (v : S5.Idx → BitVec 32) : S5.Idx → BitVec 32 :=
  Host.reduceWindow IntOp.addi ![5] ![1] ![4] ![0] v (broadcastInDim S_ ![] bcast_S_S_ (constantI S_ 32 0#32)) reduceWindows_S5_S5_w5s1p4_0 h_S_
/-- A zero in front of the first four entries. -/
abbrev shift5 (v : S5.Idx → BitVec 32) : S5.Idx → BitVec 32 :=
  concatenate S5 0 [⟨S1, broadcastInDim S1 ![] bcast_S_S1 (constantI S_ 32 0#32)⟩, ⟨S4, extractStridedSlice S4 ![0] v slices_S5_S4_0⟩] concatenates_S1_S4_S5_d0
/-- Floor division by 256: the truncating quotient, less one where the signs differ and the remainder is not zero. -/
abbrev floorDiv256 (v : S5.Idx → BitVec 32) : S5.Idx → BitVec 32 :=
  select (andi (cmpi .ne (signi v) (broadcastInDim S5 ![] bcast_S_S5 (signi (id (constantI S_ 32 256#32))))) (cmpi .ne (Host.remsi v by256) (fill5 0#32)))
    (subi (Host.divsi v by256) (fill5 1#32)) (Host.divsi v by256)

end Cert.KernelIdeal.HandRoute

end
-- ==== Proof.KI.RouteTilesRead.lean ====
/-
  What the five-entry routing vectors hold when the region is entered, each as its operation over the buffers it reads:
  the running counts, the group starts (the running counts shifted by one position), the counts plus 255, their floor
  division by 256, the padded sizes, their running sums and the padded block starts.

  The host operations run in order, so the contents at the region's entry are the last twelve stretches applied to the
  contents W after the earlier ones. A stretch that does not write a buffer leaves it as it was, whatever W is; the stretch
  that writes a buffer computes it from the contents before it. Both facts are read off the stretch's own list, over an
  arbitrary W, and composed.
-/
import proofs.«421023_j28973849379100_3_alg».proof.Proof.KI.Base
import proofs.«421023_j28973849379100_3_alg».proof.Proof.KI.RouteTilesDefs

noncomputable section

namespace Cert.KernelIdeal.HandRoute

open Cert.KernelIdeal Cert.KernelIdeal.Gen Cert.KernelIdeal.Hand Idealize.ShloMosaic
open Idealize.ShloMosaic.TcCoe Idealize.SL.Sem

variable {F : FTy → Type} [FloatOps F]

/-- The host stretches before the one that counts the tokens of each slot. -/
abbrev thHead : List (List (HloOp τ sig (Elt F))) := [hostOps0, hostOps0_1, hostOps0_2, hostOps0_3, hostOps0_4]

theorem th_cut : List.flatten (preOps (F := F))
    = List.flatten (thHead (F := F)) ++ (hostOps0_5 ++ (hostOps0_6 ++ (hostOps0_7 ++ (hostOps0_8 ++ (hostOps0_9 ++ (hostOps0_10 ++ (hostOps0_11
        ++ (hostOps0_12 ++ (hostOps0_13 ++ (hostOps0_14 ++ (hostOps0_15 ++ hostOps0_16))))))))))) := by
  simp only [preOps, thHead, List.flatten_cons, List.flatten_nil, List.append_nil, List.append_assoc]

/-- The buffer contents after the stretches before the cut. -/
abbrev thW (m : (ℓ : Loc nD τ sig) → Buf (Elt F) ℓ) (c : Dev nD) : Valuation τ sig (Elt F) :=
  StableHlo.after (List.flatten thHead) (fun b => m (c, b))

/-- The contents at the region's entry, as the last twelve stretches applied after the cut. -/
theorem th_V_eq (m : (ℓ : Loc nD τ sig) → Buf (Elt F) ℓ) (c : Dev nD) (b : Ref sig .tc) :
    V m c b = (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (thW m c))))))))))))) (Proc.devRef .tc b) := by
  dsimp only [V, V0, thW]
  rw [th_cut, StableHlo.after_append, StableHlo.after_append, StableHlo.after_append, StableHlo.after_append,
    StableHlo.after_append, StableHlo.after_append, StableHlo.after_append, StableHlo.after_append, StableHlo.after_append,
    StableHlo.after_append, StableHlo.after_append, StableHlo.after_append]

/-! ### What each stretch computes, over any contents before it -/

set_option maxHeartbeats 4000000 in
theorem th_rd32 (W : Valuation τ sig (Elt F)) :
    StableHlo.after hostOps0_5 W (Proc.devRef .tc main_v32) = broadcastInDim S1 ![] bcast_S_S1 (constantI S_ 32 0#32) := by
  simp only [hostOps0_5]
  after_results
  all_goals rfl

set_option maxHeartbeats 4000000 in
theorem th_rd33 (W : Valuation τ sig (Elt F)) :
    StableHlo.after hostOps0_6 W (Proc.devRef .tc main_v33) = cumsum5 (W (Proc.devRef .tc main_v31)) := by
  simp only [hostOps0_6]
  after_results
  all_goals rfl

set_option maxHeartbeats 4000000 in
theorem th_rd35 (W : Valuation τ sig (Elt F)) :
    StableHlo.after hostOps0_7 W (Proc.devRef .tc main_v35)
      = concatenate S5 0 [⟨S1, W (Proc.devRef .tc main_v32)⟩, ⟨S4, extractStridedSlice S4 ![0] (W (Proc.devRef .tc main_v33) : S5.Idx → BitVec 32) slices_S5_S4_0⟩] concatenates_S1_S4_S5_d0 := by
  simp only [hostOps0_7]
  after_results
  all_goals rfl

set_option maxHeartbeats 4000000 in
theorem th_rd39 (W : Valuation τ sig (Elt F)) :
    StableHlo.after hostOps0_7 W (Proc.devRef .tc main_v39)
      = subi (addi (W (Proc.devRef .tc main_v31)) (fill5 256#32)) (fill5 1#32) := by
  simp only [hostOps0_7]
  after_results
  all_goals rfl

set_option maxHeartbeats 4000000 in
theorem th_rd40 (W : Valuation τ sig (Elt F)) :
    StableHlo.after hostOps0_8 (StableHlo.after hostOps0_7 W) (Proc.devRef .tc main_v40)
      = floorDiv256 (StableHlo.after hostOps0_7 W (Proc.devRef .tc main_v39)) := by
  have e14 : StableHlo.after hostOps0_7 W (Proc.devRef .tc main_c_14) = constantI S_ 32 256#32 := by
    simp only [hostOps0_7]
    after_results
  have e : ∀ W' : Valuation τ sig (Elt F), StableHlo.after hostOps0_8 W' (Proc.devRef .tc main_v40)
      = select (andi (cmpi .ne (signi (W' (Proc.devRef .tc main_v39))) (broadcastInDim S5 ![] bcast_S_S5 (signi (id (W' (Proc.devRef .tc main_c_14))))))
          (cmpi .ne (Host.remsi (W' (Proc.devRef .tc main_v39)) (broadcastInDim S5 ![] bcast_S_S5 (id (W' (Proc.devRef .tc main_c_14))))) (fill5 0#32)))
          (subi (Host.divsi (W' (Proc.devRef .tc main_v39)) (broadcastInDim S5 ![] bcast_S_S5 (id (W' (Proc.devRef .tc main_c_14))))) (fill5 1#32))
          (Host.divsi (W' (Proc.devRef .tc main_v39)) (broadcastInDim S5 ![] bcast_S_S5 (id (W' (Proc.devRef .tc main_c_14))))) := by
    intro W'
    simp only [hostOps0_8]
    after_results
    all_goals rfl
  rw [e, e14]

set_option maxHeartbeats 4000000 in
theorem th_rd42 (W : Valuation τ sig (Elt F)) :
    StableHlo.after hostOps0_9 W (Proc.devRef .tc main_v42) = muli (W (Proc.devRef .tc main_v40)) (fill5 256#32) := by
  simp only [hostOps0_9]
  after_results
  all_goals rfl

set_option maxHeartbeats 4000000 in
theorem th_rd43 (W : Valuation τ sig (Elt F)) :
    StableHlo.after hostOps0_9 W (Proc.devRef .tc main_v43) = broadcastInDim S1 ![] bcast_S_S1 (constantI S_ 32 0#32) := by
  simp only [hostOps0_9]
  after_results
  all_goals rfl

set_option maxHeartbeats 4000000 in
theorem th_rd44 (W : Valuation τ sig (Elt F)) :
    StableHlo.after hostOps0_10 W (Proc.devRef .tc main_v44) = cumsum5 (W (Proc.devRef .tc main_v42)) := by
  simp only [hostOps0_10]
  after_results
  all_goals rfl

set_option maxHeartbeats 4000000 in
theorem th_rd46 (W : Valuation τ sig (Elt F)) :
    StableHlo.after hostOps0_11 W (Proc.devRef .tc main_v46)
      = concatenate S5 0 [⟨S1, W (Proc.devRef .tc main_v43)⟩, ⟨S4, extractStridedSlice S4 ![0] (W (Proc.devRef .tc main_v44) : S5.Idx → BitVec 32) slices_S5_S4_0⟩] concatenates_S1_S4_S5_d0 := by
  simp only [hostOps0_11]
  after_results_simp
  all_goals rfl

/-! ### The later stretches leave the earlier buffers alone -/

set_option maxHeartbeats 16000000 in
theorem th_k16 (W : Valuation τ sig (Elt F)) :
    StableHlo.after hostOps0_16 W (Proc.devRef .tc main_v31) = W (Proc.devRef .tc main_v31) ∧
    StableHlo.after hostOps0_16 W (Proc.devRef .tc main_v33) = W (Proc.devRef .tc main_v33) ∧
    StableHlo.after hostOps0_16 W (Proc.devRef .tc main_v35) = W (Proc.devRef .tc main_v35) ∧
    StableHlo.after hostOps0_16 W (Proc.devRef .tc main_v39) = W (Proc.devRef .tc main_v39) ∧
    StableHlo.after hostOps0_16 W (Proc.devRef .tc main_v40) = W (Proc.devRef .tc main_v40) ∧
    StableHlo.after hostOps0_16 W (Proc.devRef .tc main_v42) = W (Proc.devRef .tc main_v42) ∧
    StableHlo.after hostOps0_16 W (Proc.devRef .tc main_v44) = W (Proc.devRef .tc main_v44) ∧
    StableHlo.after hostOps0_16 W (Proc.devRef .tc main_v46) = W (Proc.devRef .tc main_v46) := by
  simp only [hostOps0_16]
  refine ⟨?_, ?_, ?_, ?_, ?_, ?_, ?_, ?_⟩ <;> after_results_simp

set_option maxHeartbeats 4000000 in
theorem th_k15 (W : Valuation τ sig (Elt F)) :
    StableHlo.after hostOps0_15 W (Proc.devRef .tc main_v31) = W (Proc.devRef .tc main_v31) ∧
    StableHlo.after hostOps0_15 W (Proc.devRef .tc main_v33) = W (Proc.devRef .tc main_v33) ∧
    StableHlo.after hostOps0_15 W (Proc.devRef .tc main_v35) = W (Proc.devRef .tc main_v35) ∧
    StableHlo.after hostOps0_15 W (Proc.devRef .tc main_v39) = W (Proc.devRef .tc main_v39) ∧
    StableHlo.after hostOps0_15 W (Proc.devRef .tc main_v40) = W (Proc.devRef .tc main_v40) ∧
    StableHlo.after hostOps0_15 W (Proc.devRef .tc main_v42) = W (Proc.devRef .tc main_v42) ∧
    StableHlo.after hostOps0_15 W (Proc.devRef .tc main_v44) = W (Proc.devRef .tc main_v44) ∧
    StableHlo.after hostOps0_15 W (Proc.devRef .tc main_v46) = W (Proc.devRef .tc main_v46) := by
  simp only [hostOps0_15]
  refine ⟨?_, ?_, ?_, ?_, ?_, ?_, ?_, ?_⟩ <;> after_results_simp

set_option maxHeartbeats 4000000 in
theorem th_k14 (W : Valuation τ sig (Elt F)) :
    StableHlo.after hostOps0_14 W (Proc.devRef .tc main_v31) = W (Proc.devRef .tc main_v31) ∧
    StableHlo.after hostOps0_14 W (Proc.devRef .tc main_v33) = W (Proc.devRef .tc main_v33) ∧
    StableHlo.after hostOps0_14 W (Proc.devRef .tc main_v35) = W (Proc.devRef .tc main_v35) ∧
    StableHlo.after hostOps0_14 W (Proc.devRef .tc main_v39) = W (Proc.devRef .tc main_v39) ∧
    StableHlo.after hostOps0_14 W (Proc.devRef .tc main_v40) = W (Proc.devRef .tc main_v40) ∧
    StableHlo.after hostOps0_14 W (Proc.devRef .tc main_v42) = W (Proc.devRef .tc main_v42) ∧
    StableHlo.after hostOps0_14 W (Proc.devRef .tc main_v44) = W (Proc.devRef .tc main_v44) ∧
    StableHlo.after hostOps0_14 W (Proc.devRef .tc main_v46) = W (Proc.devRef .tc main_v46) := by
  simp only [hostOps0_14]
  refine ⟨?_, ?_, ?_, ?_, ?_, ?_, ?_, ?_⟩ <;> after_results_simp

set_option maxHeartbeats 4000000 in
theorem th_k13 (W : Valuation τ sig (Elt F)) :
    StableHlo.after hostOps0_13 W (Proc.devRef .tc main_v31) = W (Proc.devRef .tc main_v31) ∧
    StableHlo.after hostOps0_13 W (Proc.devRef .tc main_v33) = W (Proc.devRef .tc main_v33) ∧
    StableHlo.after hostOps0_13 W (Proc.devRef .tc main_v35) = W (Proc.devRef .tc main_v35) ∧
    StableHlo.after hostOps0_13 W (Proc.devRef .tc main_v39) = W (Proc.devRef .tc main_v39) ∧
    StableHlo.after hostOps0_13 W (Proc.devRef .tc main_v40) = W (Proc.devRef .tc main_v40) ∧
    StableHlo.after hostOps0_13 W (Proc.devRef .tc main_v42) = W (Proc.devRef .tc main_v42) ∧
    StableHlo.after hostOps0_13 W (Proc.devRef .tc main_v44) = W (Proc.devRef .tc main_v44) ∧
    StableHlo.after hostOps0_13 W (Proc.devRef .tc main_v46) = W (Proc.devRef .tc main_v46) := by
  simp only [hostOps0_13]
  refine ⟨?_, ?_, ?_, ?_, ?_, ?_, ?_, ?_⟩ <;> after_results_simp

set_option maxHeartbeats 4000000 in
theorem th_k12 (W : Valuation τ sig (Elt F)) :
    StableHlo.after hostOps0_12 W (Proc.devRef .tc main_v31) = W (Proc.devRef .tc main_v31) ∧
    StableHlo.after hostOps0_12 W (Proc.devRef .tc main_v33) = W (Proc.devRef .tc main_v33) ∧
    StableHlo.after hostOps0_12 W (Proc.devRef .tc main_v35) = W (Proc.devRef .tc main_v35) ∧
    StableHlo.after hostOps0_12 W (Proc.devRef .tc main_v39) = W (Proc.devRef .tc main_v39) ∧
    StableHlo.after hostOps0_12 W (Proc.devRef .tc main_v40) = W (Proc.devRef .tc main_v40) ∧
    StableHlo.after hostOps0_12 W (Proc.devRef .tc main_v42) = W (Proc.devRef .tc main_v42) ∧
    StableHlo.after hostOps0_12 W (Proc.devRef .tc main_v44) = W (Proc.devRef .tc main_v44) ∧
    StableHlo.after hostOps0_12 W (Proc.devRef .tc main_v46) = W (Proc.devRef .tc main_v46) := by
  simp only [hostOps0_12]
  refine ⟨?_, ?_, ?_, ?_, ?_, ?_, ?_, ?_⟩ <;> after_results_simp

set_option maxHeartbeats 8000000 in
theorem th_k11 (W : Valuation τ sig (Elt F)) :
    StableHlo.after hostOps0_11 W (Proc.devRef .tc main_v31) = W (Proc.devRef .tc main_v31) ∧
    StableHlo.after hostOps0_11 W (Proc.devRef .tc main_v33) = W (Proc.devRef .tc main_v33) ∧
    StableHlo.after hostOps0_11 W (Proc.devRef .tc main_v35) = W (Proc.devRef .tc main_v35) ∧
    StableHlo.after hostOps0_11 W (Proc.devRef .tc main_v39) = W (Proc.devRef .tc main_v39) ∧
    StableHlo.after hostOps0_11 W (Proc.devRef .tc main_v40) = W (Proc.devRef .tc main_v40) ∧
    StableHlo.after hostOps0_11 W (Proc.devRef .tc main_v42) = W (Proc.devRef .tc main_v42) ∧
    StableHlo.after hostOps0_11 W (Proc.devRef .tc main_v44) = W (Proc.devRef .tc main_v44) := by
  simp only [hostOps0_11]
  refine ⟨?_, ?_, ?_, ?_, ?_, ?_, ?_⟩ <;> after_results_simp

set_option maxHeartbeats 4000000 in
theorem th_k10 (W : Valuation τ sig (Elt F)) :
    StableHlo.after hostOps0_10 W (Proc.devRef .tc main_v31) = W (Proc.devRef .tc main_v31) ∧
    StableHlo.after hostOps0_10 W (Proc.devRef .tc main_v33) = W (Proc.devRef .tc main_v33) ∧
    StableHlo.after hostOps0_10 W (Proc.devRef .tc main_v35) = W (Proc.devRef .tc main_v35) ∧
    StableHlo.after hostOps0_10 W (Proc.devRef .tc main_v39) = W (Proc.devRef .tc main_v39) ∧
    StableHlo.after hostOps0_10 W (Proc.devRef .tc main_v40) = W (Proc.devRef .tc main_v40) ∧
    StableHlo.after hostOps0_10 W (Proc.devRef .tc main_v42) = W (Proc.devRef .tc main_v42) ∧
    StableHlo.after hostOps0_10 W (Proc.devRef .tc main_v43) = W (Proc.devRef .tc main_v43) := by
  simp only [hostOps0_10]
  refine ⟨?_, ?_, ?_, ?_, ?_, ?_, ?_⟩ <;> after_results_simp

set_option maxHeartbeats 4000000 in
theorem th_k9 (W : Valuation τ sig (Elt F)) :
    StableHlo.after hostOps0_9 W (Proc.devRef .tc main_v31) = W (Proc.devRef .tc main_v31) ∧
    StableHlo.after hostOps0_9 W (Proc.devRef .tc main_v33) = W (Proc.devRef .tc main_v33) ∧
    StableHlo.after hostOps0_9 W (Proc.devRef .tc main_v35) = W (Proc.devRef .tc main_v35) ∧
    StableHlo.after hostOps0_9 W (Proc.devRef .tc main_v39) = W (Proc.devRef .tc main_v39) ∧
    StableHlo.after hostOps0_9 W (Proc.devRef .tc main_v40) = W (Proc.devRef .tc main_v40) := by
  simp only [hostOps0_9]
  refine ⟨?_, ?_, ?_, ?_, ?_⟩ <;> after_results_simp

set_option maxHeartbeats 4000000 in
theorem th_k8 (W : Valuation τ sig (Elt F)) :
    StableHlo.after hostOps0_8 W (Proc.devRef .tc main_v31) = W (Proc.devRef .tc main_v31) ∧
    StableHlo.after hostOps0_8 W (Proc.devRef .tc main_v33) = W (Proc.devRef .tc main_v33) ∧
    StableHlo.after hostOps0_8 W (Proc.devRef .tc main_v35) = W (Proc.devRef .tc main_v35) ∧
    StableHlo.after hostOps0_8 W (Proc.devRef .tc main_v39) = W (Proc.devRef .tc main_v39) := by
  simp only [hostOps0_8]
  refine ⟨?_, ?_, ?_, ?_⟩ <;> after_results_simp

set_option maxHeartbeats 4000000 in
theorem th_k7 (W : Valuation τ sig (Elt F)) :
    StableHlo.after hostOps0_7 W (Proc.devRef .tc main_v31) = W (Proc.devRef .tc main_v31) ∧
    StableHlo.after hostOps0_7 W (Proc.devRef .tc main_v33) = W (Proc.devRef .tc main_v33) := by
  simp only [hostOps0_7]
  refine ⟨?_, ?_⟩ <;> after_results_simp

set_option maxHeartbeats 4000000 in
theorem th_k6 (W : Valuation τ sig (Elt F)) :
    StableHlo.after hostOps0_6 W (Proc.devRef .tc main_v31) = W (Proc.devRef .tc main_v31) ∧
    StableHlo.after hostOps0_6 W (Proc.devRef .tc main_v32) = W (Proc.devRef .tc main_v32) := by
  simp only [hostOps0_6]
  refine ⟨?_, ?_⟩ <;> after_results_simp

/-! ### Each buffer as its operation over the buffers it reads -/

section Reads

variable (m : (ℓ : Loc nD τ sig) → Buf (Elt F) ℓ) (c : Dev nD)

theorem th_e31 : V m c main_v31 = (StableHlo.after hostOps0_5 (thW m c)) (Proc.devRef .tc main_v31) := by
  rw [th_V_eq, (th_k16 _).1, (th_k15 _).1, (th_k14 _).1, (th_k13 _).1, (th_k12 _).1, (th_k11 _).1, (th_k10 _).1, (th_k9 _).1, (th_k8 _).1, (th_k7 _).1, (th_k6 _).1]

theorem th_e33 : V m c main_v33 = (StableHlo.after hostOps0_6 (StableHlo.after hostOps0_5 (thW m c))) (Proc.devRef .tc main_v33) := by
  rw [th_V_eq, (th_k16 _).2.1, (th_k15 _).2.1, (th_k14 _).2.1, (th_k13 _).2.1, (th_k12 _).2.1, (th_k11 _).2.1, (th_k10 _).2.1, (th_k9 _).2.1, (th_k8 _).2.1, (th_k7 _).2]

theorem th_e39 : V m c main_v39 = (StableHlo.after hostOps0_7 (StableHlo.after hostOps0_6 (StableHlo.after hostOps0_5 (thW m c)))) (Proc.devRef .tc main_v39) := by
  rw [th_V_eq, (th_k16 _).2.2.2.1, (th_k15 _).2.2.2.1, (th_k14 _).2.2.2.1, (th_k13 _).2.2.2.1, (th_k12 _).2.2.2.1, (th_k11 _).2.2.2.1, (th_k10 _).2.2.2.1, (th_k9 _).2.2.2.1, (th_k8 _).2.2.2]

theorem th_e40 : V m c main_v40 = (StableHlo.after hostOps0_8 (StableHlo.after hostOps0_7 (StableHlo.after hostOps0_6 (StableHlo.after hostOps0_5 (thW m c))))) (Proc.devRef .tc main_v40) := by
  rw [th_V_eq, (th_k16 _).2.2.2.2.1, (th_k15 _).2.2.2.2.1, (th_k14 _).2.2.2.2.1, (th_k13 _).2.2.2.2.1, (th_k12 _).2.2.2.2.1, (th_k11 _).2.2.2.2.1, (th_k10 _).2.2.2.2.1, (th_k9 _).2.2.2.2]

theorem th_e42 : V m c main_v42 = (StableHlo.after hostOps0_9 (StableHlo.after hostOps0_8 (StableHlo.after hostOps0_7 (StableHlo.after hostOps0_6 (StableHlo.after hostOps0_5 (thW m c)))))) (Proc.devRef .tc main_v42) := by
  rw [th_V_eq, (th_k16 _).2.2.2.2.2.1, (th_k15 _).2.2.2.2.2.1, (th_k14 _).2.2.2.2.2.1, (th_k13 _).2.2.2.2.2.1, (th_k12 _).2.2.2.2.2.1, (th_k11 _).2.2.2.2.2.1, (th_k10 _).2.2.2.2.2.1]

theorem th_e44 : V m c main_v44 = (StableHlo.after hostOps0_10 (StableHlo.after hostOps0_9 (StableHlo.after hostOps0_8 (StableHlo.after hostOps0_7 (StableHlo.after hostOps0_6 (StableHlo.after hostOps0_5 (thW m c))))))) (Proc.devRef .tc main_v44) := by
  rw [th_V_eq, (th_k16 _).2.2.2.2.2.2.1, (th_k15 _).2.2.2.2.2.2.1, (th_k14 _).2.2.2.2.2.2.1, (th_k13 _).2.2.2.2.2.2.1, (th_k12 _).2.2.2.2.2.2.1, (th_k11 _).2.2.2.2.2.2]

theorem read_v33 : (V m c main_v33 : S5.Idx → BitVec 32) = cumsum5 (V m c main_v31) := by
  rw [th_e33, th_e31]; exact th_rd33 _

theorem read_v35 : (V m c main_v35 : S5.Idx → BitVec 32) = shift5 (V m c main_v33) := by
  rw [th_e33, th_V_eq m c main_v35, (th_k16 _).2.2.1, (th_k15 _).2.2.1, (th_k14 _).2.2.1, (th_k13 _).2.2.1, (th_k12 _).2.2.1, (th_k11 _).2.2.1, (th_k10 _).2.2.1, (th_k9 _).2.2.1, (th_k8 _).2.2.1, th_rd35, (th_k6 _).2, th_rd32]

theorem read_v39 : (V m c main_v39 : S5.Idx → BitVec 32) = subi (addi (V m c main_v31) (fill5 256#32)) (fill5 1#32) := by
  rw [th_e39, th_e31, th_rd39, (th_k6 _).1]

theorem read_v40 : (V m c main_v40 : S5.Idx → BitVec 32) = floorDiv256 (V m c main_v39) := by
  rw [th_e40, th_e39]; exact th_rd40 _

theorem read_v42 : (V m c main_v42 : S5.Idx → BitVec 32) = muli (V m c main_v40) (fill5 256#32) := by
  rw [th_e42, th_e40]; exact th_rd42 _

theorem read_v44 : (V m c main_v44 : S5.Idx → BitVec 32) = cumsum5 (V m c main_v42) := by
  rw [th_e44, th_e42]; exact th_rd44 _

theorem read_v46 : (V m c main_v46 : S5.Idx → BitVec 32) = shift5 (V m c main_v44) := by
  rw [th_e44, th_V_eq m c main_v46, (th_k16 _).2.2.2.2.2.2.2, (th_k15 _).2.2.2.2.2.2.2, (th_k14 _).2.2.2.2.2.2.2, (th_k13 _).2.2.2.2.2.2.2, (th_k12 _).2.2.2.2.2.2.2, th_rd46, (th_k10 _).2.2.2.2.2.2, th_rd43]

end Reads

end Cert.KernelIdeal.HandRoute

end
-- ==== Proof.KI.RouteTilesRead2.lean ====
/-
  What the buffers of the tile tables hold when the region is entered, each as its operation over the buffers it reads:
  the tiles per slot (the padded sizes floor-divided by 256), their running sum, its last entry as a scalar, the tile
  numbers, the count of running sums at most each tile number, its clipping to [0, 4], and the mask of tiles below the
  total.

  The host operations run in order, so the contents at the region's entry are the last six stretches applied to the
  contents W after the earlier ones. A stretch that does not write a buffer leaves it as it was, whatever W is; the stretch
  that writes a buffer computes it from the contents before it. Both facts are read off the stretch's own list, over an
  arbitrary W, and composed.
-/
import proofs.«421023_j28973849379100_3_alg».proof.Proof.KI.Base
import proofs.«421023_j28973849379100_3_alg».proof.Proof.KI.Tables
import proofs.«421023_j28973849379100_3_alg».proof.Proof.KI.RouteTilesDefs

noncomputable section

namespace Cert.KernelIdeal.HandRoute

open Cert.KernelIdeal Cert.KernelIdeal.Gen Cert.KernelIdeal.Hand Idealize.ShloMosaic
open Idealize.ShloMosaic.TcCoe Idealize.SL.Sem

variable {F : FTy → Type} [FloatOps F]

/-- The host stretches before the one that computes the padded positions. -/
abbrev tlHead : List (List (HloOp τ sig (Elt F))) :=
  [hostOps0, hostOps0_1, hostOps0_2, hostOps0_3, hostOps0_4, hostOps0_5, hostOps0_6, hostOps0_7, hostOps0_8,
   hostOps0_9, hostOps0_10]

theorem tl_cut : List.flatten (preOps (F := F))
    = List.flatten (tlHead (F := F)) ++ (hostOps0_11 ++ (hostOps0_12 ++ (hostOps0_13 ++ (hostOps0_14 ++ (hostOps0_15 ++ hostOps0_16))))) := by
  simp only [preOps, tlHead, List.flatten_cons, List.flatten_nil, List.append_nil, List.append_assoc]

/-- The buffer contents after the stretches before the cut. -/
abbrev tlW (m : (ℓ : Loc nD τ sig) → Buf (Elt F) ℓ) (c : Dev nD) : Valuation τ sig (Elt F) :=
  StableHlo.after (List.flatten tlHead) (fun b => m (c, b))

/-- The contents at the region's entry, as the last six stretches applied after the cut. -/
theorem tl_V_eq (m : (ℓ : Loc nD τ sig) → Buf (Elt F) ℓ) (c : Dev nD) (b : Ref sig .tc) :
    V m c b = StableHlo.after hostOps0_16 (StableHlo.after hostOps0_15 (StableHlo.after hostOps0_14 (StableHlo.after hostOps0_13
      (StableHlo.after hostOps0_12 (StableHlo.after hostOps0_11 (tlW m c)))))) (Proc.devRef .tc b) := by
  dsimp only [V, V0, tlW]
  rw [tl_cut, StableHlo.after_append, StableHlo.after_append, StableHlo.after_append, StableHlo.after_append,
    StableHlo.after_append, StableHlo.after_append]

/-! ### What each of the last stretches computes, over any contents before it -/

set_option maxHeartbeats 4000000 in
theorem tl_rd73 (W : Valuation τ sig (Elt F)) :
    StableHlo.after hostOps0_13 W (Proc.devRef .tc main_v73) = cumsum5 (W (Proc.devRef .tc main_v72)) := by
  simp only [hostOps0_13]
  after_results
  all_goals rfl

set_option maxHeartbeats 4000000 in
theorem tl_rd76 (W : Valuation τ sig (Elt F)) :
    StableHlo.after hostOps0_14 W (Proc.devRef .tc main_v76) = iotaInDim S8 32 0 := by
  simp only [hostOps0_14]
  after_results

set_option maxHeartbeats 4000000 in
theorem tl_rd72 (W : Valuation τ sig (Elt F)) :
    StableHlo.after hostOps0_12 (StableHlo.after hostOps0_11 W) (Proc.devRef .tc main_v72)
      = floorDiv256 (W (Proc.devRef .tc main_v42)) := by
  simp only [hostOps0_11, hostOps0_12]
  after_results_simp
  all_goals rfl

set_option maxHeartbeats 4000000 in
theorem tl_rd75 (W : Valuation τ sig (Elt F)) :
    (StableHlo.after hostOps0_14 W (Proc.devRef .tc main_v75) : S_.Idx → BitVec 32)
      = fun i => shapeCast S_ (extractStridedSlice S1 ![4] (W (Proc.devRef .tc main_v73) : S5.Idx → BitVec 32) slices_S5_S1_4) shapeCasts_S1_S_ i := by
  simp only [hostOps0_14]
  after_results
  all_goals rfl

set_option maxHeartbeats 4000000 in
theorem tl_rd83 (W : Valuation τ sig (Elt F)) :
    StableHlo.after hostOps0_14 W (Proc.devRef .tc main_v83)
      = Host.reduce IntOp.addi (extui 32 (cmpi .sge
          (broadcastInDim S8x5 ![0, 1] bcast_S8x1_S8x5_0_1 (broadcastInDim S8x1 ![0] bcast_S8_S8x1_0 (iotaInDim S8 32 0)))
          (broadcastInDim S8x5 ![0, 1] bcast_S1x5_S8x5_0_1 (broadcastInDim S1x5 ![1] bcast_S5_S1x5_1 (W (Proc.devRef .tc main_v73)))))
          natLt_1_32) (constantI S_ 32 0#32) reducesTo_S8x5_S8_d1 h_S_ := by
  simp only [hostOps0_14]
  after_results
  all_goals rfl

set_option maxHeartbeats 4000000 in
theorem tl_rd87 (W : Valuation τ sig (Elt F)) :
    StableHlo.after hostOps0_16 W (Proc.devRef .tc main_v87)
      = extui 32 (cmpi .slt (W (Proc.devRef .tc main_v76)) (broadcastInDim S8 ![] bcast_S_S8 (W (Proc.devRef .tc main_v75)))) natLt_1_32 := by
  simp only [hostOps0_16]
  after_results_simp
  all_goals rfl

/-! ### The later stretches leave the earlier buffers alone -/

set_option maxHeartbeats 8000000 in
theorem tl_k16 (W : Valuation τ sig (Elt F)) :
    StableHlo.after hostOps0_16 W (Proc.devRef .tc main_v42) = W (Proc.devRef .tc main_v42) ∧
    StableHlo.after hostOps0_16 W (Proc.devRef .tc main_v72) = W (Proc.devRef .tc main_v72) ∧
    StableHlo.after hostOps0_16 W (Proc.devRef .tc main_v73) = W (Proc.devRef .tc main_v73) ∧
    StableHlo.after hostOps0_16 W (Proc.devRef .tc main_v75) = W (Proc.devRef .tc main_v75) ∧
    StableHlo.after hostOps0_16 W (Proc.devRef .tc main_v76) = W (Proc.devRef .tc main_v76) ∧
    StableHlo.after hostOps0_16 W (Proc.devRef .tc main_v83) = W (Proc.devRef .tc main_v83) := by
  simp only [hostOps0_16]
  refine ⟨?_, ?_, ?_, ?_, ?_, ?_⟩ <;> after_results_simp

set_option maxHeartbeats 4000000 in
theorem tl_k15 (W : Valuation τ sig (Elt F)) :
    StableHlo.after hostOps0_15 W (Proc.devRef .tc main_v42) = W (Proc.devRef .tc main_v42) ∧
    StableHlo.after hostOps0_15 W (Proc.devRef .tc main_v72) = W (Proc.devRef .tc main_v72) ∧
    StableHlo.after hostOps0_15 W (Proc.devRef .tc main_v73) = W (Proc.devRef .tc main_v73) ∧
    StableHlo.after hostOps0_15 W (Proc.devRef .tc main_v75) = W (Proc.devRef .tc main_v75) ∧
    StableHlo.after hostOps0_15 W (Proc.devRef .tc main_v76) = W (Proc.devRef .tc main_v76) ∧
    StableHlo.after hostOps0_15 W (Proc.devRef .tc main_v83) = W (Proc.devRef .tc main_v83) := by
  simp only [hostOps0_15]
  refine ⟨?_, ?_, ?_, ?_, ?_, ?_⟩ <;> after_results_simp

set_option maxHeartbeats 4000000 in
theorem tl_k14 (W : Valuation τ sig (Elt F)) :
    StableHlo.after hostOps0_14 W (Proc.devRef .tc main_v42) = W (Proc.devRef .tc main_v42) ∧
    StableHlo.after hostOps0_14 W (Proc.devRef .tc main_v72) = W (Proc.devRef .tc main_v72) ∧
    StableHlo.after hostOps0_14 W (Proc.devRef .tc main_v73) = W (Proc.devRef .tc main_v73) := by
  simp only [hostOps0_14]
  refine ⟨?_, ?_, ?_⟩ <;> after_results_simp

set_option maxHeartbeats 4000000 in
theorem tl_k13 (W : Valuation τ sig (Elt F)) :
    StableHlo.after hostOps0_13 W (Proc.devRef .tc main_v42) = W (Proc.devRef .tc main_v42) ∧
    StableHlo.after hostOps0_13 W (Proc.devRef .tc main_v72) = W (Proc.devRef .tc main_v72) := by
  simp only [hostOps0_13]
  refine ⟨?_, ?_⟩ <;> after_results_simp

set_option maxHeartbeats 4000000 in
theorem tl_k12 (W : Valuation τ sig (Elt F)) :
    StableHlo.after hostOps0_12 W (Proc.devRef .tc main_v42) = W (Proc.devRef .tc main_v42) := by
  simp only [hostOps0_12]
  after_results_simp

set_option maxHeartbeats 4000000 in
theorem tl_k11 (W : Valuation τ sig (Elt F)) :
    StableHlo.after hostOps0_11 W (Proc.devRef .tc main_v42) = W (Proc.devRef .tc main_v42) := by
  simp only [hostOps0_11]
  after_results_simp

/-! ### Each buffer as its operation over the buffers it reads -/

section Reads

variable (m : (ℓ : Loc nD τ sig) → Buf (Elt F) ℓ) (c : Dev nD)

theorem tl_e42 : V m c main_v42 = tlW m c (Proc.devRef .tc main_v42) := by
  rw [tl_V_eq, (tl_k16 _).1, (tl_k15 _).1, (tl_k14 _).1, (tl_k13 _).1, tl_k12, tl_k11]

theorem tl_e72 : V m c main_v72
    = StableHlo.after hostOps0_12 (StableHlo.after hostOps0_11 (tlW m c)) (Proc.devRef .tc main_v72) := by
  rw [tl_V_eq, (tl_k16 _).2.1, (tl_k15 _).2.1, (tl_k14 _).2.1, (tl_k13 _).2]

theorem tl_e73 : V m c main_v73
    = StableHlo.after hostOps0_13 (StableHlo.after hostOps0_12 (StableHlo.after hostOps0_11 (tlW m c))) (Proc.devRef .tc main_v73) := by
  rw [tl_V_eq, (tl_k16 _).2.2.1, (tl_k15 _).2.2.1, (tl_k14 _).2.2]

theorem tl_e83 : V m c main_v83
    = StableHlo.after hostOps0_14 (StableHlo.after hostOps0_13 (StableHlo.after hostOps0_12 (StableHlo.after hostOps0_11 (tlW m c))))
        (Proc.devRef .tc main_v83) := by
  rw [tl_V_eq, (tl_k16 _).2.2.2.2.2, (tl_k15 _).2.2.2.2.2]

theorem tl_e75 : V m c main_v75
    = StableHlo.after hostOps0_15 (StableHlo.after hostOps0_14 (StableHlo.after hostOps0_13 (StableHlo.after hostOps0_12
        (StableHlo.after hostOps0_11 (tlW m c))))) (Proc.devRef .tc main_v75) := by
  rw [tl_V_eq, (tl_k16 _).2.2.2.1]

theorem read_v72 : (V m c main_v72 : S5.Idx → BitVec 32) = floorDiv256 (V m c main_v42) := by
  rw [tl_e72, tl_e42]; exact tl_rd72 _

theorem read_v73 : (V m c main_v73 : S5.Idx → BitVec 32) = cumsum5 (V m c main_v72) := by
  rw [tl_e73, tl_e72]; exact tl_rd73 _

theorem read_v75 : (V m c main_v75 : S_.Idx → BitVec 32)
    = fun i => shapeCast S_ (extractStridedSlice S1 ![4] (V m c main_v73 : S5.Idx → BitVec 32) slices_S5_S1_4) shapeCasts_S1_S_ i := by
  rw [tl_e75, tl_e73, (tl_k15 _).2.2.2.1]; exact tl_rd75 _

theorem read_v76 : (V m c main_v76 : S8.Idx → BitVec 32) = iotaInDim S8 32 0 := by
  rw [tl_V_eq, (tl_k16 _).2.2.2.2.1, (tl_k15 _).2.2.2.2.1]; exact tl_rd76 _

theorem read_v83 : (V m c main_v83 : S8.Idx → BitVec 32)
    = Host.reduce IntOp.addi (extui 32 (cmpi .sge
        (broadcastInDim S8x5 ![0, 1] bcast_S8x1_S8x5_0_1 (broadcastInDim S8x1 ![0] bcast_S8_S8x1_0 (iotaInDim S8 32 0)))
        (broadcastInDim S8x5 ![0, 1] bcast_S1x5_S8x5_0_1 (broadcastInDim S1x5 ![1] bcast_S5_S1x5_1 (V m c main_v73))))
        natLt_1_32) (constantI S_ 32 0#32) reducesTo_S8x5_S8_d1 h_S_ := by
  rw [tl_e83, tl_e73]; exact tl_rd83 _

theorem read_v84 : (V m c main_v84 : S8.Idx → BitVec 32)
    = minsi (broadcastInDim S8 ![] bcast_S_S8 (id (constantI S_ 32 4#32)))
        (maxsi (broadcastInDim S8 ![] bcast_S_S8 (id (constantI S_ 32 0#32))) (V m c main_v83)) := by
  rw [tl_e83, tl_V_eq m c main_v84, v84_read, c25_read, c26_read]
  rfl

theorem read_v87 : (V m c main_v87 : S8.Idx → BitVec 32)
    = extui 32 (cmpi .slt (iotaInDim S8 32 0) (broadcastInDim S8 ![] bcast_S_S8 (V m c main_v75))) natLt_1_32 := by
  rw [tl_e75, tl_V_eq m c main_v87, tl_rd87, (tl_k15 _).2.2.2.2.1, tl_rd76]

end Reads

end Cert.KernelIdeal.HandRoute

end
-- ==== Proof.LibCumsum.lean ====
/-
  A running sum written as a windowed reduction: over a vector of five words, the window of five positions ending at
  position j (four positions of padding in front), summed from zero, is the sum of the entries 0 … j.
-/
import Idealize.ShloMosaic.PureOps.Contract
import Idealize.ShloMosaic.Lib.ValueIdx
import Mathlib.Data.BitVec
import Mathlib.Algebra.BigOperators.Fin

namespace Cert.LibCumsum

open Idealize.ShloMosaic Idealize.ShloMosaic.ValueIdx

/-- A left fold of word addition over all positions is the start plus the sum. -/
theorem foldl_addi_finRange {N : Nat} (g : Fin N → BitVec 32) (v : BitVec 32) :
    (List.finRange N).foldl (fun r n => IntOp.addi r (g n)) v = v + ∑ n : Fin N, g n := by
  rw [Fin.sum_univ_def]
  generalize List.finRange N = l
  induction l generalizing v with
  | nil => simp
  | cons a l ih => rw [List.foldl_cons, ih, List.map_cons, List.sum_cons]; show v + g a + _ = _; rw [add_assoc]

/-- A vector's indices are its positions. -/
def idxEquiv1 {n : Nat} : (⟨1, ![n]⟩ : Shape).Idx ≃ Fin n where
  toFun i := i 0
  invFun p := ix1 p
  left_inv i := (eq_ix1 i).symm
  right_inv _ := rfl

/-- A sum over row-major positions of a vector shape is the sum over its positions. -/
theorem sum_rowMajor_symm {n : Nat} (G : (⟨1, ![n]⟩ : Shape).Idx → BitVec 32) :
    ∑ m, G ((⟨1, ![n]⟩ : Shape).rowMajor.symm m) = ∑ k : Fin n, G (ix1 k) := by
  rw [Equiv.sum_comp, ← Equiv.sum_comp idxEquiv1.symm G]; rfl

/-- The windowed sum at position j, as a sum over the window's positions. -/
theorem reduceWindow_five_apply (x : (⟨1, ![5]⟩ : Shape).Idx → BitVec 32) {u : Shape} (init : u.Idx → BitVec 32)
    (h : (⟨1, ![5]⟩ : Shape).ReduceWindows (![5] : Fin 1 → Nat) ![1] ![4] ![0] ⟨1, ![5]⟩) (hu : 0 < u.numel)
    (hinit : init (Shape.Idx.first hu) = 0#32) (j : Fin 5) :
    Host.reduceWindow IntOp.addi ![5] ![1] ![4] ![0] x init h hu (ix1 j)
      = ∑ k : Fin 5, if hk : 4 ≤ j.val + k.val ∧ j.val + k.val - 4 < 5 then x (ix1 ⟨j.val + k.val - 4, hk.2⟩) else 0#32 := by
  unfold Host.reduceWindow
  simp only [hinit]
  rw [foldl_addi_finRange, show (0#32 : BitVec 32) = 0 from rfl, zero_add]
  refine (sum_rowMajor_symm (fun q => if h_1 : ∀ a : Fin 1, (![4] : Fin 1 → Nat) a ≤ (ix1 j (a.cast h.1.symm)).val * (![1] : Fin 1 → Nat) a + (q a).val ∧
      (ix1 j (a.cast h.1.symm)).val * (![1] : Fin 1 → Nat) a + (q a).val - (![4] : Fin 1 → Nat) a < (![5] : Fin 1 → Nat) a
      then x (fun a => ⟨(ix1 j (a.cast h.1.symm)).val * (![1] : Fin 1 → Nat) a + (q a).val - (![4] : Fin 1 → Nat) a, (h_1 a).2⟩) else 0)).trans ?_
  refine Finset.sum_congr rfl fun k _ => ?_
  by_cases hk : 4 ≤ j.val + k.val ∧ j.val + k.val - 4 < 5
  · have h1 : ∀ a : Fin 1, (![4] : Fin 1 → Nat) a ≤ (ix1 j (a.cast h.1.symm)).val * (![1] : Fin 1 → Nat) a + (ix1 k a).val ∧
        (ix1 j (a.cast h.1.symm)).val * (![1] : Fin 1 → Nat) a + (ix1 k a).val - (![4] : Fin 1 → Nat) a < (![5] : Fin 1 → Nat) a := by
      intro a; match a with
      | ⟨0, _⟩ => show 4 ≤ j.val * 1 + k.val ∧ j.val * 1 + k.val - 4 < 5; omega
    rw [dif_pos hk, dif_pos h1]
    refine congrArg x (funext fun a => ?_)
    match a with
    | ⟨0, _⟩ => exact Fin.ext (show j.val * 1 + k.val - 4 = j.val + k.val - 4 by omega)
  · have h1 : ¬ ∀ a : Fin 1, (![4] : Fin 1 → Nat) a ≤ (ix1 j (a.cast h.1.symm)).val * (![1] : Fin 1 → Nat) a + (ix1 k a).val ∧
        (ix1 j (a.cast h.1.symm)).val * (![1] : Fin 1 → Nat) a + (ix1 k a).val - (![4] : Fin 1 → Nat) a < (![5] : Fin 1 → Nat) a := by
      intro hh; have := hh ⟨0, by decide⟩
      apply hk
      have e : 4 ≤ j.val * 1 + k.val ∧ j.val * 1 + k.val - 4 < 5 := this
      omega
    rw [dif_neg hk, dif_neg h1]

/-- The running sum: the windowed sum at position j is the sum of the entries at positions at most j. -/
theorem cumsum_five_apply (x : (⟨1, ![5]⟩ : Shape).Idx → BitVec 32) {u : Shape} (init : u.Idx → BitVec 32)
    (h : (⟨1, ![5]⟩ : Shape).ReduceWindows (![5] : Fin 1 → Nat) ![1] ![4] ![0] ⟨1, ![5]⟩) (hu : 0 < u.numel)
    (hinit : init (Shape.Idx.first hu) = 0#32) (j : Fin 5) :
    Host.reduceWindow IntOp.addi ![5] ![1] ![4] ![0] x init h hu (ix1 j)
      = ∑ i ∈ Finset.univ.filter (fun i : Fin 5 => i.val ≤ j.val), x (ix1 i) := by
  rw [reduceWindow_five_apply x init h hu hinit j, Finset.sum_filter]
  fin_cases j <;> simp [Fin.sum_univ_five]

end Cert.LibCumsum
-- ==== Proof.LibWords.lean ====
/-
  Word arithmetic on small non-negative 32-bit words: a word written as the image of a natural number below 2³¹ divides,
  compares and clips as that number does, and sums of such words are the images of the sums.
-/
import Idealize.ShloMosaic.PureOps.Vector
import Idealize.ShloMosaic.Lib.StableHlo.Predicate
import Mathlib.Data.BitVec
import Mathlib.Algebra.BigOperators.Fin

namespace Cert.LibWords

open Idealize.ShloMosaic

/-- The value of the image of a small number is the number. -/
theorem toNat_ofNat_small (k : ℕ) (hk : k < 2 ^ 32) : (BitVec.ofNat 32 k).toNat = k := by
  rw [BitVec.toNat_ofNat]; exact Nat.mod_eq_of_lt hk

/-- A sum of images is the image of the sum. -/
theorem sum_ofNat {ι : Type} (s : Finset ι) (n : ι → ℕ) :
    ∑ i ∈ s, BitVec.ofNat 32 (n i) = BitVec.ofNat 32 (∑ i ∈ s, n i) := by
  classical
  induction s using Finset.induction_on with
  | empty => rfl
  | insert a s ha ih => rw [Finset.sum_insert ha, Finset.sum_insert ha, ih, BitVec.ofNat_add]

/-- A small word divided by 256, signed: no corner is met and the quotient is the quotient of the values. -/
theorem divsi_256 (k : ℕ) (hk : k < 2 ^ 31) : IntOp.divsi .host (BitVec.ofNat 32 k) 256#32 = BitVec.ofNat 32 (k / 256) := by
  have hcorner : ¬ IntOp.SDivCorner (BitVec.ofNat 32 k) 256#32 := by
    intro hc; rcases hc with hc | ⟨_, hc⟩ <;> exact absurd hc (by decide)
  have hkn : (BitVec.ofNat 32 k).toNat = k := toNat_ofNat_small k (by omega)
  have hm : (BitVec.ofNat 32 k).msb = false := BitVec.msb_eq_false_iff_two_mul_lt.mpr (by rw [hkn]; omega)
  apply BitVec.eq_of_toNat_eq
  simp only [IntOp.divsi, if_neg hcorner, BitVec.sdiv_eq, hm, show (256#32 : BitVec 32).msb = false from by decide, BitVec.udiv_eq,
    BitVec.toNat_udiv, hkn]
  rw [BitVec.toNat_ofNat, BitVec.toNat_ofNat]
  show k / (256 % 2 ^ 32) = k / 256 % 2 ^ 32
  have : k / 256 < 2 ^ 32 := by omega
  exact (Nat.mod_eq_of_lt this).symm

/-- The sign of a word: 0, −1 or 1. -/
def sgn (w : BitVec 32) : BitVec 32 := if w = 0 then 0 else if w.msb then -1 else 1

/-- Floor division of a small non-negative word by 256, written as the truncating quotient corrected by one when the signs
    differ and the remainder is not zero: the correction never applies (the signs agree, or the word is zero and so is the
    remainder), and the result is the quotient of the values. -/
theorem floor_divide_word (k : ℕ) (hk : k < 2 ^ 31) :
    Scalar.select (IntOp.andi (IntOp.cmpi .ne (sgn (BitVec.ofNat 32 k)) (sgn 256#32))
        (IntOp.cmpi .ne (IntOp.remsi .host (BitVec.ofNat 32 k) 256#32) 0#32))
      (IntOp.subi (IntOp.divsi .host (BitVec.ofNat 32 k) 256#32) 1#32) (IntOp.divsi .host (BitVec.ofNat 32 k) 256#32)
      = BitVec.ofNat 32 (k / 256) := by
  have hc : IntOp.andi (IntOp.cmpi .ne (sgn (BitVec.ofNat 32 k)) (sgn 256#32))
        (IntOp.cmpi .ne (IntOp.remsi .host (BitVec.ofNat 32 k) 256#32) 0#32) = 0#1 := by
    by_cases h0 : k = 0
    · subst h0; decide
    · have hkn : (BitVec.ofNat 32 k).toNat = k := toNat_ofNat_small k (by omega)
      have hne : BitVec.ofNat 32 k ≠ 0 := fun e => h0 (by rw [← hkn, e]; rfl)
      have hm : (BitVec.ofNat 32 k).msb = false := BitVec.msb_eq_false_iff_two_mul_lt.mpr (by rw [hkn]; omega)
      have e1 : sgn (BitVec.ofNat 32 k) = 1 := by unfold sgn; rw [if_neg hne, hm]; rfl
      have e2 : sgn 256#32 = 1 := by decide
      rw [e1, e2]
      have e3 : IntOp.cmpi .ne (1 : BitVec 32) 1 = 0#1 := by decide
      rw [e3]; unfold IntOp.andi; exact BitVec.zero_and
  rw [hc, divsi_256 k hk]; rfl

/-- Clipping a small non-negative word to [0, 4]: the smaller of 4 and its value. -/
theorem clip_ofNat (k : ℕ) (hk : k < 2 ^ 31) :
    IntOp.minsi 4#32 (IntOp.maxsi 0#32 (BitVec.ofNat 32 k)) = BitVec.ofNat 32 (min 4 k) := by
  have hi : (BitVec.ofNat 32 k).toInt = k := StableHlo.Predicate.toInt_ofNat_small k hk
  have h0 : (0#32 : BitVec 32).toInt = 0 := by decide
  have h4 : (4#32 : BitVec 32).toInt = 4 := by decide
  have hmax : IntOp.maxsi 0#32 (BitVec.ofNat 32 k) = BitVec.ofNat 32 k := by
    unfold IntOp.maxsi
    rw [if_neg]; simp only [BitVec.slt, hi, h0, decide_eq_true_eq]; omega
  rw [hmax]
  unfold IntOp.minsi
  by_cases h : 4 < k
  · rw [if_pos (by simp only [BitVec.slt, hi, h4, decide_eq_true_eq]; omega), Nat.min_eq_left (by omega)]
  · rw [if_neg (by simp only [BitVec.slt, hi, h4, decide_eq_true_eq]; omega), Nat.min_eq_right (by omega)]

/-- Signed "at least" on small words is "at least" on the numbers. -/
theorem sge_ofNat_iff (a b : ℕ) (ha : a < 2 ^ 31) (hb : b < 2 ^ 31) :
    IntOp.cmpi .sge (BitVec.ofNat 32 a) (BitVec.ofNat 32 b) = 1#1 ↔ b ≤ a := by
  rw [StableHlo.Predicate.sge_iff_toNat (by rw [toNat_ofNat_small a (by omega)]; exact ha) (by rw [toNat_ofNat_small b (by omega)]; exact hb),
    toNat_ofNat_small a (by omega), toNat_ofNat_small b (by omega)]

/-- Signed "less than" on small words is "less than" on the numbers. -/
theorem slt_ofNat_iff (a b : ℕ) (ha : a < 2 ^ 31) (hb : b < 2 ^ 31) :
    IntOp.cmpi .slt (BitVec.ofNat 32 a) (BitVec.ofNat 32 b) = 1#1 ↔ a < b := by
  rw [StableHlo.Predicate.slt_iff_toNat (by rw [toNat_ofNat_small a (by omega)]; exact ha) (by rw [toNat_ofNat_small b (by omega)]; exact hb),
    toNat_ofNat_small a (by omega), toNat_ofNat_small b (by omega)]

/-- A one-bit word is 0 or 1; widened to 32 bits it is the word 1 when set, else the word 0. -/
theorem setWidth_bit (b : BitVec 1) : b.setWidth 32 = if b = 1#1 then 1#32 else 0#32 := by
  rcases BitVec.eq_zero_or_eq_one b with rfl | rfl <;> rfl

end Cert.LibWords
-- ==== Proof.KI.RouteTiles.lean ====
/-
  The routing arithmetic of the host code, from the per-slot token counts onward: where each slot's group starts in the
  sorted order, where its padded block starts, which slot each tile of 256 rows belongs to and whether the tile is in use.

  The counts are a five-entry vector of words, each the image of a number at most 1024. Running sums of images are images
  of the running sums; a running sum shifted by one position is the sum over the earlier positions; adding 255 and
  floor-dividing by 256 (the truncating quotient, whose rounding correction never applies to a non-negative word) rounds
  the count up to whole tiles; multiplying back gives the padded size. The tile table compares each tile number with the
  five running tile counts and counts the ones at most it, capped at 4; the use mask compares the tile number with the
  total. Every quantity is at most 2304, far below 2³¹, so signed comparisons and divisions agree with the numbers'.
-/
import proofs.«421023_j28973849379100_3_alg».proof.Proof.KI.Base
import proofs.«421023_j28973849379100_3_alg».proof.Proof.KI.RouteTilesDefs
import proofs.«421023_j28973849379100_3_alg».proof.Proof.KI.RouteTilesRead
import proofs.«421023_j28973849379100_3_alg».proof.Proof.KI.RouteTilesRead2
import proofs.«421023_j28973849379100_3_alg».proof.Proof.Route.Defs
import proofs.«421023_j28973849379100_3_alg».proof.Proof.Route.Math
import proofs.«421023_j28973849379100_3_alg».proof.Proof.LibCumsum
import proofs.«421023_j28973849379100_3_alg».proof.Proof.LibWords
import Idealize.ShloMosaic.PureOps.Contract
import Idealize.ShloMosaic.PureOps.Vector
import Idealize.ShloMosaic.Lib.StableHlo.Predicate
import Idealize.ShloMosaic.Lib.Pipeline.Value
import Idealize.ShloMosaic.Lib.ValueIdx
import Mathlib.Data.BitVec
import Mathlib.Algebra.BigOperators.Fin

noncomputable section

namespace Cert.KernelIdeal.HandRoute

open Cert.KernelIdeal Cert.KernelIdeal.Gen Cert.KernelIdeal.Hand Cert.Route Idealize.ShloMosaic Idealize.ShloMosaic.ValueIdx
open Idealize.ShloMosaic.StableHlo.Predicate

/-- The vector index built from a position, in its two spellings. -/
theorem tl_ofFin {n : Nat} (k : Fin n) : Shape.Idx.ofFin k = ix1 k := (Shape.Idx.eq_ofFin (ix1 k)).symm

/-- A five-vector's first four entries behind one entry in front: position 0 reads the entry in front, position a + 1 reads
    the vector's position a. -/
theorem tl_shift_apply {α : Type} (y : S1.Idx → α) (z : S5.Idx → α) (h : Shape.Concatenates [S1, S4] S5 0)
    (hs : S5.Slices ![0] S4) (a : Fin 5) :
    concatenate S5 0 [⟨S1, y⟩, ⟨S4, extractStridedSlice S4 ![0] z hs⟩] h (ix1 a)
      = if h0 : a.val = 0 then y (ix1 0) else z (ix1 ⟨a.val - 1, by omega⟩) := by
  split
  · next h0 =>
    exact concatenate_pair_apply_left (0 : Fin S5.rank) y _ h (ix1 a) rfl (ix1 0)
      (fun b => by match b with | ⟨0, _⟩ => exact h0.symm)
  · next h0 =>
    have ha4 : a.val - 1 < 4 := by omega
    have ha5 : a.val - 1 < 5 := by omega
    rw [concatenate_pair_apply_right (0 : Fin S5.rank) y _ h (ix1 a) rfl rfl (ix1 ⟨a.val - 1, ha4⟩)
      (fun b hb => absurd (Subsingleton.elim _ _) hb) (by show a.val - 1 + 1 = a.val; omega)]
    exact extractStridedSlice_apply ![0] z hs (ix1 ⟨a.val - 1, ha4⟩) (ix1 ⟨a.val - 1, ha5⟩)
      (fun b => by match b with | ⟨0, _⟩ => show a.val - 1 = 0 + (a.val - 1); omega)

/-- The running sums of a five-vector of images of numbers are the images of the numbers' running sums. -/
theorem tl_csum_ofNat (x : S5.Idx → BitVec 32) (n : Fin 5 → ℕ) (hx : ∀ a : Fin 5, x (ix1 a) = BitVec.ofNat 32 (n a))
    {u : Shape} (init : u.Idx → BitVec 32) (h : S5.ReduceWindows (![5] : Fin 1 → Nat) ![1] ![4] ![0] S5) (hu : 0 < u.numel)
    (hinit : init (Shape.Idx.first hu) = 0#32) (j : Fin 5) :
    Host.reduceWindow IntOp.addi ![5] ![1] ![4] ![0] x init h hu (ix1 j)
      = BitVec.ofNat 32 (∑ i ∈ Finset.univ.filter (fun i : Fin 5 => i.val ≤ j.val), n i) := by
  rw [Cert.LibCumsum.cumsum_five_apply x init h hu hinit j, Finset.sum_congr rfl (fun i _ => hx i)]
  exact Cert.LibWords.sum_ofNat _ _

/-! ### The five-entry operations at an entry -/

theorem tl_cumsum5 (v : S5.Idx → BitVec 32) (n : Fin 5 → ℕ) (hv : ∀ a : Fin 5, v (ix1 a) = BitVec.ofNat 32 (n a)) (j : Fin 5) :
    cumsum5 v (ix1 j) = BitVec.ofNat 32 (∑ i ∈ Finset.univ.filter (fun i : Fin 5 => i.val ≤ j.val), n i) :=
  tl_csum_ofNat v n hv _ _ _ rfl j

theorem tl_shift5 (v : S5.Idx → BitVec 32) (a : Fin 5) :
    shift5 v (ix1 a) = if h0 : a.val = 0 then 0#32 else v (ix1 ⟨a.val - 1, by omega⟩) :=
  (tl_shift_apply (broadcastInDim S1 ![] bcast_S_S1 (constantI S_ 32 0#32)) v concatenates_S1_S4_S5_d0 slices_S5_S4_0 a).trans rfl

theorem tl_floorDiv256 (v : S5.Idx → BitVec 32) (i : S5.Idx) (k : ℕ) (hk : k < 2 ^ 31) (hv : v i = BitVec.ofNat 32 k) :
    floorDiv256 v i = BitVec.ofNat 32 (k / 256) := by
  show Scalar.select (IntOp.andi (IntOp.cmpi .ne (Cert.LibWords.sgn (v i)) (Cert.LibWords.sgn 256#32))
      (IntOp.cmpi .ne (IntOp.remsi .host (v i) 256#32) 0#32)) (IntOp.subi (IntOp.divsi .host (v i) 256#32) 1#32)
      (IntOp.divsi .host (v i) 256#32) = _
  rw [hv]; exact Cert.LibWords.floor_divide_word k hk

theorem tl_add255 (v : S5.Idx → BitVec 32) (i : S5.Idx) (k : ℕ) (hv : v i = BitVec.ofNat 32 k) :
    subi (addi v (fill5 256#32)) (fill5 1#32) i = BitVec.ofNat 32 (k + 255) := by
  show v i + 256#32 - 1#32 = _
  rw [hv, BitVec.ofNat_add, add_sub_assoc]; rfl

theorem tl_mul256 (v : S5.Idx → BitVec 32) (i : S5.Idx) (k : ℕ) (hv : v i = BitVec.ofNat 32 k) :
    muli v (fill5 256#32) i = BitVec.ofNat 32 (k * 256) := by
  show v i * 256#32 = _
  rw [hv, BitVec.ofNat_mul]

/-- The running sums shifted by one position are the sums over the earlier positions. -/
theorem tl_prefix (g : Fin 5 → ℕ) (w : S5.Idx → BitVec 32)
    (hw : ∀ j : Fin 5, w (ix1 j) = BitVec.ofNat 32 (∑ i ∈ Finset.univ.filter (fun i : Fin 5 => i.val ≤ j.val), g i)) (a : Fin 5) :
    shift5 w (ix1 a) = BitVec.ofNat 32 (∑ b ∈ Finset.univ.filter (fun b : Fin 5 => b.val < a.val), g b) := by
  rw [tl_shift5]
  split
  · next h0 =>
    have e : (Finset.univ.filter fun b : Fin 5 => b.val < a.val) = ∅ :=
      Finset.filter_false_of_mem (fun b _ => by omega)
    rw [e, Finset.sum_empty]
  · next h0 =>
    rw [hw]
    refine congrArg (BitVec.ofNat 32) (Finset.sum_congr (Finset.filter_congr fun b _ => ?_) fun _ _ => rfl)
    show b.val ≤ a.val - 1 ↔ b.val < a.val
    omega

/-- At most five of five positions satisfy a condition. -/
theorem tl_card_le (p : Fin 5 → Prop) [DecidablePred p] : (Finset.univ.filter p).card ≤ 5 :=
  (Finset.card_le_univ _).trans (by simp)

/-! ### The routing vectors and the two tile tables, from the counts -/

section Chain

variable (m : (ℓ : Loc nD τ sig) → Buf (Elt Ideal) ℓ) (c : Dev nD) (key' : Fin 1024 → Fin 5)
  (hcnt : ∀ a : Fin 5, (V m c main_v31 : S5.Idx → BitVec 32) (ix1 a) = BitVec.ofNat 32 (cnt key' a))
include hcnt

/-- The running counts. -/
theorem tl_v33 (j : Fin 5) : (V m c main_v33 : S5.Idx → BitVec 32) (ix1 j)
    = BitVec.ofNat 32 (∑ i ∈ Finset.univ.filter (fun i : Fin 5 => i.val ≤ j.val), cnt key' i) := by
  rw [read_v33 m c]; exact tl_cumsum5 _ _ hcnt j

/-- Where each slot's group starts in the sorted order. -/
theorem v35_apply (a : Fin 5) : (V m c main_v35 : S5.Idx → BitVec 32) (ix1 a) = BitVec.ofNat 32 (roff key' a.val) := by
  rw [read_v35 m c]; exact tl_prefix (cnt key') _ (tl_v33 m c key' hcnt) a

theorem tl_v39 (a : Fin 5) : (V m c main_v39 : S5.Idx → BitVec 32) (ix1 a) = BitVec.ofNat 32 (cnt key' a + 255) := by
  rw [read_v39 m c]; exact tl_add255 _ _ _ (hcnt a)

theorem tl_v40 (a : Fin 5) : (V m c main_v40 : S5.Idx → BitVec 32) (ix1 a) = BitVec.ofNat 32 ((cnt key' a + 255) / 256) := by
  rw [read_v40 m c]
  exact tl_floorDiv256 _ _ _ (by have := cnt_le key' a; omega) (tl_v39 m c key' hcnt a)

/-- The padded group sizes. -/
theorem tl_v42 (a : Fin 5) : (V m c main_v42 : S5.Idx → BitVec 32) (ix1 a) = BitVec.ofNat 32 (pc key' a) := by
  rw [read_v42 m c]; exact tl_mul256 _ _ _ (tl_v40 m c key' hcnt a)

theorem tl_v44 (j : Fin 5) : (V m c main_v44 : S5.Idx → BitVec 32) (ix1 j)
    = BitVec.ofNat 32 (∑ i ∈ Finset.univ.filter (fun i : Fin 5 => i.val ≤ j.val), pc key' i) := by
  rw [read_v44 m c]; exact tl_cumsum5 _ _ (tl_v42 m c key' hcnt) j

/-- Where each slot's padded block starts. -/
theorem v46_apply (a : Fin 5) : (V m c main_v46 : S5.Idx → BitVec 32) (ix1 a) = BitVec.ofNat 32 (poff key' a.val) := by
  rw [read_v46 m c]; exact tl_prefix (pc key') _ (tl_v44 m c key' hcnt) a

/-- The number of tiles of each slot. -/
theorem tl_v72 (a : Fin 5) : (V m c main_v72 : S5.Idx → BitVec 32) (ix1 a) = BitVec.ofNat 32 (pc key' a / 256) := by
  rw [read_v72 m c]
  exact tl_floorDiv256 _ _ _ (by have := pc_le key' a; omega) (tl_v42 m c key' hcnt a)

/-- The running tile counts. -/
theorem tl_v73 (j : Fin 5) : (V m c main_v73 : S5.Idx → BitVec 32) (ix1 j) = BitVec.ofNat 32 (cum key' j) := by
  rw [read_v73 m c]; exact tl_cumsum5 _ (fun i => pc key' i / 256) (tl_v72 m c key' hcnt) j

/-- The total number of tiles in use. -/
theorem tl_v75 (i : S_.Idx) : (V m c main_v75 : S_.Idx → BitVec 32) i = BitVec.ofNat 32 (cum key' 4) := by
  rw [read_v75 m c]
  show shapeCast S_ (extractStridedSlice S1 ![4] (V m c main_v73 : S5.Idx → BitVec 32) slices_S5_S1_4) shapeCasts_S1_S_ i = _
  rw [shapeCast_apply _ shapeCasts_S1_S_ i (ix1 (0 : Fin 1)) (by
    rw [Shape.rowMajor_val_one]
    have h1 := (S_.rowMajor i).isLt
    have e : S_.numel = 1 := by decide
    show (0 : ℕ) = _
    omega)]
  rw [extractStridedSlice_apply ![4] _ slices_S5_S1_4 (ix1 (0 : Fin 1)) (ix1 (4 : Fin 5)) (fun b => by match b with | ⟨0, _⟩ => rfl)]
  exact tl_v73 m c key' hcnt 4

/-- How many running tile counts are at most the tile's number. -/
theorem tl_v83 (t : Fin 8) : (V m c main_v83 : S8.Idx → BitVec 32) (ix1 t)
    = BitVec.ofNat 32 (Finset.univ.filter fun b : Fin 5 => cum key' b ≤ t.val).card := by
  apply BitVec.eq_of_toNat_eq
  rw [read_v83 m c,
    Cert.LibWords.toNat_ofNat_small _ (lt_of_le_of_lt (tl_card_le _) (by norm_num))]
  refine (toNat_reduce_count_cols (n := 8) (m := 5) (by norm_num) _ natLt_1_32 reducesTo_S8x5_S8_d1 h_S_ (ix1 t)).trans ?_
  refine congrArg Finset.card (Finset.filter_congr fun q _ => ?_)
  have hA : broadcastInDim S8x5 ![0, 1] bcast_S8x1_S8x5_0_1 (broadcastInDim S8x1 ![0] bcast_S8_S8x1_0 (iotaInDim S8 32 0)) (ij t q)
      = BitVec.ofNat 32 t.val := (bcast_rows bcast_S8_S8x1_0 bcast_S8x1_S8x5_0_1 (iotaInDim S8 32 0) t q).trans (iota_apply t)
  have hB : broadcastInDim S8x5 ![0, 1] bcast_S1x5_S8x5_0_1 (broadcastInDim S1x5 ![1] bcast_S5_S1x5_1 (V m c main_v73 : S5.Idx → BitVec 32)) (ij t q)
      = BitVec.ofNat 32 (cum key' q) :=
    (bcast_cols bcast_S5_S1x5_1 bcast_S1x5_S8x5_0_1 (V m c main_v73 : S5.Idx → BitVec 32) t q).trans
      (by rw [tl_ofFin]; exact tl_v73 m c key' hcnt q)
  show IntOp.cmpi .sge (broadcastInDim S8x5 ![0, 1] bcast_S8x1_S8x5_0_1 (broadcastInDim S8x1 ![0] bcast_S8_S8x1_0 (iotaInDim S8 32 0)) (ij t q))
      (broadcastInDim S8x5 ![0, 1] bcast_S1x5_S8x5_0_1 (broadcastInDim S1x5 ![1] bcast_S5_S1x5_1 (V m c main_v73 : S5.Idx → BitVec 32)) (ij t q)) = 1#1 ↔ _
  rw [hA, hB]
  exact Cert.LibWords.sge_ofNat_iff _ _ (by omega) (by have := cum_le key' q; omega)

/-- The slot of each tile. -/
theorem v84_apply (t : Fin 8) : (V m c main_v84 : S8.Idx → BitVec 32) (ix1 t) = BitVec.ofNat 32 (tileAd key' t) := by
  rw [read_v84 m c]
  show IntOp.minsi 4#32 (IntOp.maxsi 0#32 ((V m c main_v83 : S8.Idx → BitVec 32) (ix1 t))) = _
  rw [tl_v83 m c key' hcnt t]
  exact Cert.LibWords.clip_ofNat _ (lt_of_le_of_lt (tl_card_le _) (by norm_num))

/-- Whether each tile is in use. -/
theorem v87_apply (t : Fin 8) :
    (V m c main_v87 : S8.Idx → BitVec 32) (ix1 t) = if tileOk key' t then 1#32 else 0#32 := by
  rw [read_v87 m c]
  show (IntOp.cmpi .slt (BitVec.ofNat 32 t.val) ((V m c main_v75 : S_.Idx → BitVec 32) _)).setWidth 32 = _
  rw [tl_v75 m c key' hcnt, Cert.LibWords.setWidth_bit]
  have hi := Cert.LibWords.slt_ofNat_iff t.val (cum key' 4) (by omega) (by have := cum_le key' 4; omega)
  by_cases h : tileOk key' t
  · rw [if_pos h, if_pos (hi.mpr h)]
  · rw [if_neg h, if_neg (fun e => h (hi.mp e))]

end Chain

end Cert.KernelIdeal.HandRoute

end
-- ==== Proof.KI.RoutePos.lean ====
/-
  The padded positions, the two writes and the routing, at the program's own sorted order.

  The token ids are the launch contents of the id buffer, a token's slot is read off its id, and the sorted order is
  the one the program's sort produces. With the slot counts, the group starts, the padded starts and the two tile
  tables read as the natural-number routing arithmetic says, sorted position p lands on padded row ppos p; that row
  of the padded buffer holds the row of the token at p; the inverse map sends that token back to ppos p; and so every
  token has a padded row that holds its row, in a tile that is in use and belongs to the token's slot.
-/
import proofs.«421023_j28973849379100_3_alg».proof.Proof.KI.RoutePosCore
import proofs.«421023_j28973849379100_3_alg».proof.Proof.KI.RouteSort
import proofs.«421023_j28973849379100_3_alg».proof.Proof.KI.RouteTiles

noncomputable section

namespace Cert.KernelIdeal.HandRoute

open Cert.KernelIdeal Cert.KernelIdeal.Gen Cert.KernelIdeal.Hand Cert.Route Idealize.ShloMosaic Idealize.ShloMosaic.ValueIdx
open Idealize.ShloMosaic.TcCoe Idealize.SL Idealize.SL.Sem

variable (m : (ℓ : Loc nD τ sig) → Buf (Elt Ideal) ℓ) (c : Dev nD)

/-- Sorted position p goes to the padded row ppos p. -/
theorem v63_apply (p : Fin 1024) :
    (V m c main_v63 : S1024.Idx → BitVec 32) (ix1 p)
      = BitVec.ofNat 32 (ppos (keyOf (m ((c : Thread nD τ).loc main_arg11))) (sortPos m c) p) :=
  Pos.v63_of m c _ _ (sorted m c) (v13_apply m c) (v35_apply m c _ (v31_apply m c)) (v46_apply m c _ (v31_apply m c)) p

/-- Padded row ppos p holds the row of the token at sorted position p. -/
theorem v71_apply (p : Fin 1024) (d : Fin 2048) :
    (V m c main_v71 : S2048x2048.Idx → EReal)
        (ix2 (⟨ppos (keyOf (m ((c : Thread nD τ).loc main_arg11))) (sortPos m c) p, ppos_lt (sorted m c) p⟩ : Fin 2048) d)
      = (m ((c : Thread nD τ).loc main_arg0) : S1024x2048.Idx → EReal) (ix2 (sortPos m c p) d) :=
  Pos.v71_of m c _ _ _ (sorted m c) (v13_apply m c) (v21_apply m c) (v35_apply m c _ (v31_apply m c))
    (v46_apply m c _ (v31_apply m c)) p d

/-- The inverse map at the token of sorted position p is ppos p. -/
theorem v95_apply (p : Fin 1024) :
    (V m c main_v95 : S1024.Idx → BitVec 32) (ix1 (sortPos m c p))
      = BitVec.ofNat 32 (ppos (keyOf (m ((c : Thread nD τ).loc main_arg11))) (sortPos m c) p) :=
  Pos.v95_of m c _ _ (sorted m c) (v6_apply m c) (v13_apply m c) (v35_apply m c _ (v31_apply m c))
    (v46_apply m c _ (v31_apply m c)) p

/-- THE ROUTING: every token j has a padded row r that the inverse map names, that holds j's row, whose tile is in
    use, and whose tile's slot is j's slot. -/
theorem route (j : Fin 1024) : ∃ r : Fin 2048,
    (V m c main_v95 : S1024.Idx → BitVec 32) (ix1 j) = BitVec.ofNat 32 r.val
    ∧ (∀ d : Fin 2048, (V m c main_v71 : S2048x2048.Idx → EReal) (ix2 r d)
        = (m ((c : Thread nD τ).loc main_arg0) : S1024x2048.Idx → EReal) (ix2 j d))
    ∧ (V m c main_v87 : S8.Idx → BitVec 32) (ix1 (⟨r.val / 256, by omega⟩ : Fin 8)) ≠ 0#32
    ∧ (V m c main_v84 : S8.Idx → BitVec 32) (ix1 (⟨r.val / 256, by omega⟩ : Fin 8))
        = BitVec.ofNat 32 (keyOf (m ((c : Thread nD τ).loc main_arg11)) j).val :=
  Pos.route_of m c _ _ _ (sorted m c) (v6_apply m c) (v13_apply m c) (v21_apply m c)
    (v35_apply m c _ (v31_apply m c)) (v46_apply m c _ (v31_apply m c))
    (v84_apply m c _ (v31_apply m c)) (v87_apply m c _ (v31_apply m c)) j

/-- Every tile's slot word is at most 4. -/
theorem ta_le (t : Fin 8) : ((V m c main_v84 : S8.Idx → BitVec 32) (ix1 t)).toNat ≤ 4 :=
  Pos.ta_le_of m c (keyOf (m ((c : Thread nD τ).loc main_arg11))) (v84_apply m c _ (v31_apply m c)) t

end Cert.KernelIdeal.HandRoute

end
-- ==== Proof.Ref.Forms.lean ====
/-
  The shapes the reference's operations give, element by element, brought to the specification's words.

  * A dequantised weight: a scale times the difference of two signed readings of a four-bit field, the field of a word
    being the word shifted right by four times the field's number and masked to its low four bits.
  * A masked token entry: the entry where the token's id equals the adapter's number, zero elsewhere.
  * One slice's masked product, and the specification's masked product on either half of the columns.
-/
import proofs.«421023_j28973849379100_3_alg».proof.Proof.Spec
import Idealize.ShloMosaic.PureOps.Ideal.Laws

noncomputable section

open scoped BigOperators

namespace Cert.ReferenceIdeal.HandValue

open Cert.Spec Idealize.ShloMosaic Idealize.ShloMosaic.ValueIdx

/-- A signed reading of a word as the ideal float conversion gives it. -/
theorem sitofp_eq_toR (w : BitVec 32) : FloatOps.sitofp (F := Ideal) .f32 w = toR w := rfl

/-- Scale times (weight field minus zero field), read at any indices equal to the specification's, is the delta. -/
theorem delta_of (qw : (⟨3, ![4, 4096, 256]⟩ : Shape).Idx → BitVec 32) (qz : (⟨3, ![4, 512, 1]⟩ : Shape).Idx → BitVec 32)
    (sc : (⟨3, ![4, 4096, 1]⟩ : Shape).Idx → EReal) (a : Fin 4) (n : Fin 4096) (d : Fin 2048)
    (i1 : (⟨3, ![4, 4096, 1]⟩ : Shape).Idx) (i2 : (⟨3, ![4, 4096, 256]⟩ : Shape).Idx) (k : Nat)
    (i3 : (⟨3, ![4, 512, 1]⟩ : Shape).Idx) (kz : Nat)
    (h1 : i1 = ix3 a n (0 : Fin 1)) (h2 : i2 = ix3 a n (⟨d.val / 8, by omega⟩ : Fin 256)) (hk : k = d.val % 8)
    (h3 : i3 = ix3 a (⟨n.val / 8, by omega⟩ : Fin 512) (0 : Fin 1)) (hkz : kz = n.val % 8) :
    FloatOps.mulf (F := Ideal) (φ := .f32) (sc i1)
      (FloatOps.subf (F := Ideal) (φ := .f32)
        (FloatOps.sitofp (F := Ideal) .f32 (IntOp.andi (IntOp.shrsi .host (qw i2) (IntOp.muli (BitVec.ofNat 32 k) 4#32)) 15#32))
        (FloatOps.sitofp (F := Ideal) .f32 (IntOp.andi (IntOp.shrsi .host (qz i3) (IntOp.muli (BitVec.ofNat 32 kz) 4#32)) 15#32)))
      = delta ⟨qw, qz, sc⟩ a n d := by
  subst h1 h2 hk h3 hkz
  rfl

/-- Choosing by an equality test of two words is choosing by their equality. -/
theorem select_cmpi_eq {α : Type} (v w : BitVec 32) (p q : α) :
    Scalar.select (IntOp.cmpi .eq v w) p q = if v = w then p else q := by
  unfold Scalar.select IntOp.cmpi
  by_cases h : v = w
  · have hb : (v == w) = true := by simpa using h
    simp [hb, h]
  · have hb : (v == w) = false := by simpa using h
    simp [hb, h]

/-- A token entry chosen by the test of its id against a constant word, with the zero pattern elsewhere, is the masked entry. -/
theorem masked_of (x : (⟨2, ![1024, 2048]⟩ : Shape).Idx → EReal) (ind : (⟨1, ![1024]⟩ : Shape).Idx → BitVec 32) (a : Fin 4)
    (j : Fin 1024) (d : Fin 2048) (i : (⟨1, ![1024]⟩ : Shape).Idx) (c : BitVec 32)
    (hi : i = ix1 j) (hc : c = BitVec.ofNat 32 a.val) :
    Scalar.select (IntOp.cmpi .eq (ind i) c) (x (ix2 j d)) (FloatOps.ofBits (F := Ideal) .f32 0x00000000#32) = masked x ind a j d := by
  subst hi hc
  rw [select_cmpi_eq, Ideal.ofBits_def, Ideal.ofBits_zero_f32]
  rfl

/-- One slice's masked product of adapter `a` at (token `j`, the slice's column `c`). -/
def sliceDot (x : (⟨2, ![1024, 2048]⟩ : Shape).Idx → EReal) (ind : (⟨1, ![1024]⟩ : Shape).Idx → BitVec 32) (S : Slice)
    (a : Fin 4) (j : Fin 1024) (c : Fin 4096) : EReal :=
  ∑ d : Fin 2048, masked x ind a j d * delta S a c d

/-- On the first 4096 columns the masked product is the first slice's, at the same column. -/
theorem maskedDot_lt (x : (⟨2, ![1024, 2048]⟩ : Shape).Idx → EReal) (S0 S1 : Slice) (ind : (⟨1, ![1024]⟩ : Shape).Idx → BitVec 32)
    (a : Fin 4) (j : Fin 1024) (col : Fin 8192) (h : col.val < 4096) :
    maskedDot x S0 S1 ind a j col = sliceDot x ind S0 a j ⟨col.val, h⟩ := by
  unfold maskedDot sliceDot sliceOf
  rw [if_pos h, show (⟨col.val % 4096, by omega⟩ : Fin 4096) = ⟨col.val, h⟩ from Fin.ext (Nat.mod_eq_of_lt h)]

/-- On the last 4096 columns the masked product is the second slice's, at the column less 4096. -/
theorem maskedDot_ge (x : (⟨2, ![1024, 2048]⟩ : Shape).Idx → EReal) (S0 S1 : Slice) (ind : (⟨1, ![1024]⟩ : Shape).Idx → BitVec 32)
    (a : Fin 4) (j : Fin 1024) (col : Fin 8192) (h : ¬ col.val < 4096) :
    maskedDot x S0 S1 ind a j col = sliceDot x ind S1 a j ⟨col.val - 4096, by omega⟩ := by
  unfold maskedDot sliceDot sliceOf
  rw [if_neg h, show (⟨col.val % 4096, by omega⟩ : Fin 4096) = ⟨col.val - 4096, by omega⟩ from Fin.ext (by
    show col.val % 4096 = col.val - 4096
    have := col.isLt
    omega)]

end Cert.ReferenceIdeal.HandValue

end
-- ==== Proof.Ref.S0A0.lean ====
/-
  The first slice, adapter 0: its dequantised weight, its masked token rows and their product, element by element.
-/
import proofs.«421023_j28973849379100_3_alg».proof.Proof.RefRead
import proofs.«421023_j28973849379100_3_alg».proof.Proof.Ref.Forms

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x3 : (⟨S4x4096x256, .i32⟩ : BufTy).Contents (Elt Ideal))
  (x5 : (⟨S4x512x1, .i32⟩ : BufTy).Contents (Elt Ideal)) (x7 : (⟨S4x4096x1, .f32⟩ : BufTy).Contents (Elt Ideal))
  (x11 : (⟨S1024, .i32⟩ : BufTy).Contents (Elt Ideal))

/-- The dequantised weight at (output row `n`, input column `d`): the scale of row `n` times the difference of
    field `d % 8` of weight word `d / 8` and field `n % 8` of zero word `n / 8`. -/
theorem w_s0_a0 (n : Fin 4096) (d : Fin 2048) :
    val_main_v38 (F := Ideal) x3 x5 x7 (ix2 n d) = delta ⟨x3, x5, x7⟩ 0 n d := by
  simp only [val_main_v38_apply, val_main_v37_apply, val_main_v11_apply, val_main_v10_apply, val_main_v36_apply,
    val_main_v23_apply, val_main_v22_apply, val_main_v21_apply, val_main_v19_apply, val_main_v17_apply,
    val_main_v15_apply, val_main_v7_apply, val_main_v6_apply, val_main_v18_apply, val_main_v16_apply,
    val_main_v14_apply, val_main_v12_apply, val_main_v13_apply, val_main_c_apply, val_main_v20_apply,
    val_main_c_0_apply, val_main_v35_apply, val_main_v34_apply, val_main_v33_apply, val_main_v32_apply,
    val_main_v31_apply, val_main_v29_apply, val_main_v27_apply, val_main_v25_apply, val_main_v24_apply,
    val_main_v9_apply, val_main_v8_apply, val_main_v28_apply, val_main_v26_apply, val_main_v30_apply,
    val_main_c_1_apply]
  refine delta_of x3 x5 x7 0 n d _ _ _ _ _ ?_ ?_ ?_ ?_ ?_
  · exact funext fun a => Fin.ext (by
      match a with
      | ⟨0, _⟩ => rfl
      | ⟨1, _⟩ => show (n.val * 1 + 0) / 1 % 4096 = n.val; omega
      | ⟨2, _⟩ => rfl)
  · exact funext fun a => Fin.ext (by
      have hn := n.isLt
      have hd := d.isLt
      match a with
      | ⟨0, _⟩ => rfl
      | ⟨1, _⟩ =>
        show ((n.val * 2048 + d.val) / 2048 * 256 + (n.val * 2048 + d.val) / 8 % 256) / 256 % 4096 = n.val
        omega
      | ⟨2, _⟩ =>
        show ((n.val * 2048 + d.val) / 2048 * 256 + (n.val * 2048 + d.val) / 8 % 256) % 256 = d.val / 8
        omega)
  · show (n.val * 2048 + d.val) % 8 = d.val % 8
    omega
  · exact funext fun a => Fin.ext (by
      have hn := n.isLt
      match a with
      | ⟨0, _⟩ => rfl
      | ⟨1, _⟩ => show (n.val / 8 / 1 * 1 + 0) / 1 % 512 = n.val / 8; omega
      | ⟨2, _⟩ => rfl)
  · rfl

/-- The masked token entry: the entry where the id is the word 0, zero elsewhere. -/
theorem xm_s0_a0 (j : Fin 1024) (d : Fin 2048) :
    val_main_v42 (F := Ideal) x0 x11 (ix2 j d) = masked x0 x11 0 j d := by
  simp only [val_main_v42_apply, val_main_call0_v1_apply, val_main_v41_apply, val_main_v40_apply, val_main_v39_apply,
    val_main_c_2_apply, val_main_call0_v2_apply, val_main_call0_v0_apply, val_main_cst_3_apply]
  refine masked_of x0 x11 0 j d _ _ ?_ ?_
  · exact funext fun a => Fin.ext (by
      match a with
      | ⟨0, _⟩ => rfl)
  · rfl

/-- The masked product at (token `j`, the slice's column `c`). -/
theorem dot_s0_a0 (j : Fin 1024) (c : Fin 4096) :
    val_main_v44 (F := Ideal) x0 x3 x5 x7 x11 (ix2 j c) = sliceDot x0 x11 ⟨x3, x5, x7⟩ 0 j c := by
  rw [val_main_v44_apply]
  refine Finset.sum_congr rfl fun k _ => ?_
  rw [val_main_v43_apply,
    show lidx_main_v44 (ix2 j c) k = ix2 j k from funext fun a => Fin.ext (by
      match a with
      | ⟨0, _⟩ => rfl
      | ⟨1, _⟩ => rfl),
    show idx_main_v43 (ridx_main_v44 (ix2 j c) k) = ix2 c k from funext fun a => Fin.ext (by
      match a with
      | ⟨0, _⟩ => rfl
      | ⟨1, _⟩ => rfl),
    xm_s0_a0, w_s0_a0]

end Cert.ReferenceIdeal.HandValue

end
-- ==== Proof.Ref.S0A1.lean ====
/-
  The first slice, adapter 1: its dequantised weight, its masked token rows and their product, element by element.
-/
import proofs.«421023_j28973849379100_3_alg».proof.Proof.RefRead
import proofs.«421023_j28973849379100_3_alg».proof.Proof.Ref.Forms

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x3 : (⟨S4x4096x256, .i32⟩ : BufTy).Contents (Elt Ideal))
  (x5 : (⟨S4x512x1, .i32⟩ : BufTy).Contents (Elt Ideal)) (x7 : (⟨S4x4096x1, .f32⟩ : BufTy).Contents (Elt Ideal))
  (x11 : (⟨S1024, .i32⟩ : BufTy).Contents (Elt Ideal))

/-- The dequantised weight at (output row `n`, input column `d`): the scale of row `n` times the difference of
    field `d % 8` of weight word `d / 8` and field `n % 8` of zero word `n / 8`. -/
theorem w_s0_a1 (n : Fin 4096) (d : Fin 2048) :
    val_main_v78 (F := Ideal) x3 x5 x7 (ix2 n d) = delta ⟨x3, x5, x7⟩ 1 n d := by
  simp only [val_main_v78_apply, val_main_v77_apply, val_main_v51_apply, val_main_v50_apply, val_main_v76_apply,
    val_main_v63_apply, val_main_v62_apply, val_main_v61_apply, val_main_v59_apply, val_main_v57_apply,
    val_main_v55_apply, val_main_v47_apply, val_main_v46_apply, val_main_v58_apply, val_main_v56_apply,
    val_main_v54_apply, val_main_v52_apply, val_main_v53_apply, val_main_c_4_apply, val_main_v60_apply,
    val_main_c_5_apply, val_main_v75_apply, val_main_v74_apply, val_main_v73_apply, val_main_v72_apply,
    val_main_v71_apply, val_main_v69_apply, val_main_v67_apply, val_main_v65_apply, val_main_v64_apply,
    val_main_v49_apply, val_main_v48_apply, val_main_v68_apply, val_main_v66_apply, val_main_v70_apply,
    val_main_c_6_apply]
  refine delta_of x3 x5 x7 1 n d _ _ _ _ _ ?_ ?_ ?_ ?_ ?_
  · exact funext fun a => Fin.ext (by
      match a with
      | ⟨0, _⟩ => rfl
      | ⟨1, _⟩ => show (n.val * 1 + 0) / 1 % 4096 = n.val; omega
      | ⟨2, _⟩ => rfl)
  · exact funext fun a => Fin.ext (by
      have hn := n.isLt
      have hd := d.isLt
      match a with
      | ⟨0, _⟩ => rfl
      | ⟨1, _⟩ =>
        show ((n.val * 2048 + d.val) / 2048 * 256 + (n.val * 2048 + d.val) / 8 % 256) / 256 % 4096 = n.val
        omega
      | ⟨2, _⟩ =>
        show ((n.val * 2048 + d.val) / 2048 * 256 + (n.val * 2048 + d.val) / 8 % 256) % 256 = d.val / 8
        omega)
  · show (n.val * 2048 + d.val) % 8 = d.val % 8
    omega
  · exact funext fun a => Fin.ext (by
      have hn := n.isLt
      match a with
      | ⟨0, _⟩ => rfl
      | ⟨1, _⟩ => show (n.val / 8 / 1 * 1 + 0) / 1 % 512 = n.val / 8; omega
      | ⟨2, _⟩ => rfl)
  · rfl

/-- The masked token entry: the entry where the id is the word 1, zero elsewhere. -/
theorem xm_s0_a1 (j : Fin 1024) (d : Fin 2048) :
    val_main_v82 (F := Ideal) x0 x11 (ix2 j d) = masked x0 x11 1 j d := by
  simp only [val_main_v82_apply, val_main_call1_v1_apply, val_main_v81_apply, val_main_v80_apply, val_main_v79_apply,
    val_main_c_7_apply, val_main_call1_v2_apply, val_main_call1_v0_apply, val_main_cst_8_apply]
  refine masked_of x0 x11 1 j d _ _ ?_ ?_
  · exact funext fun a => Fin.ext (by
      match a with
      | ⟨0, _⟩ => rfl)
  · rfl

/-- The masked product at (token `j`, the slice's column `c`). -/
theorem dot_s0_a1 (j : Fin 1024) (c : Fin 4096) :
    val_main_v84 (F := Ideal) x0 x3 x5 x7 x11 (ix2 j c) = sliceDot x0 x11 ⟨x3, x5, x7⟩ 1 j c := by
  rw [val_main_v84_apply]
  refine Finset.sum_congr rfl fun k _ => ?_
  rw [val_main_v83_apply,
    show lidx_main_v84 (ix2 j c) k = ix2 j k from funext fun a => Fin.ext (by
      match a with
      | ⟨0, _⟩ => rfl
      | ⟨1, _⟩ => rfl),
    show idx_main_v83 (ridx_main_v84 (ix2 j c) k) = ix2 c k from funext fun a => Fin.ext (by
      match a with
      | ⟨0, _⟩ => rfl
      | ⟨1, _⟩ => rfl),
    xm_s0_a1, w_s0_a1]

end Cert.ReferenceIdeal.HandValue

end
-- ==== Proof.Ref.S0A2.lean ====
/-
  The first slice, adapter 2: its dequantised weight, its masked token rows and their product, element by element.
-/
import proofs.«421023_j28973849379100_3_alg».proof.Proof.RefRead
import proofs.«421023_j28973849379100_3_alg».proof.Proof.Ref.Forms

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x3 : (⟨S4x4096x256, .i32⟩ : BufTy).Contents (Elt Ideal))
  (x5 : (⟨S4x512x1, .i32⟩ : BufTy).Contents (Elt Ideal)) (x7 : (⟨S4x4096x1, .f32⟩ : BufTy).Contents (Elt Ideal))
  (x11 : (⟨S1024, .i32⟩ : BufTy).Contents (Elt Ideal))

/-- The dequantised weight at (output row `n`, input column `d`): the scale of row `n` times the difference of
    field `d % 8` of weight word `d / 8` and field `n % 8` of zero word `n / 8`. -/
theorem w_s0_a2 (n : Fin 4096) (d : Fin 2048) :
    val_main_v118 (F := Ideal) x3 x5 x7 (ix2 n d) = delta ⟨x3, x5, x7⟩ 2 n d := by
  simp only [val_main_v118_apply, val_main_v117_apply, val_main_v91_apply, val_main_v90_apply, val_main_v116_apply,
    val_main_v103_apply, val_main_v102_apply, val_main_v101_apply, val_main_v99_apply, val_main_v97_apply,
    val_main_v95_apply, val_main_v87_apply, val_main_v86_apply, val_main_v98_apply, val_main_v96_apply,
    val_main_v94_apply, val_main_v92_apply, val_main_v93_apply, val_main_c_9_apply, val_main_v100_apply,
    val_main_c_10_apply, val_main_v115_apply, val_main_v114_apply, val_main_v113_apply, val_main_v112_apply,
    val_main_v111_apply, val_main_v109_apply, val_main_v107_apply, val_main_v105_apply, val_main_v104_apply,
    val_main_v89_apply, val_main_v88_apply, val_main_v108_apply, val_main_v106_apply, val_main_v110_apply,
    val_main_c_11_apply]
  refine delta_of x3 x5 x7 2 n d _ _ _ _ _ ?_ ?_ ?_ ?_ ?_
  · exact funext fun a => Fin.ext (by
      match a with
      | ⟨0, _⟩ => rfl
      | ⟨1, _⟩ => show (n.val * 1 + 0) / 1 % 4096 = n.val; omega
      | ⟨2, _⟩ => rfl)
  · exact funext fun a => Fin.ext (by
      have hn := n.isLt
      have hd := d.isLt
      match a with
      | ⟨0, _⟩ => rfl
      | ⟨1, _⟩ =>
        show ((n.val * 2048 + d.val) / 2048 * 256 + (n.val * 2048 + d.val) / 8 % 256) / 256 % 4096 = n.val
        omega
      | ⟨2, _⟩ =>
        show ((n.val * 2048 + d.val) / 2048 * 256 + (n.val * 2048 + d.val) / 8 % 256) % 256 = d.val / 8
        omega)
  · show (n.val * 2048 + d.val) % 8 = d.val % 8
    omega
  · exact funext fun a => Fin.ext (by
      have hn := n.isLt
      match a with
      | ⟨0, _⟩ => rfl
      | ⟨1, _⟩ => show (n.val / 8 / 1 * 1 + 0) / 1 % 512 = n.val / 8; omega
      | ⟨2, _⟩ => rfl)
  · rfl

/-- The masked token entry: the entry where the id is the word 2, zero elsewhere. -/
theorem xm_s0_a2 (j : Fin 1024) (d : Fin 2048) :
    val_main_v122 (F := Ideal) x0 x11 (ix2 j d) = masked x0 x11 2 j d := by
  simp only [val_main_v122_apply, val_main_call2_v1_apply, val_main_v121_apply, val_main_v120_apply, val_main_v119_apply,
    val_main_c_12_apply, val_main_call2_v2_apply, val_main_call2_v0_apply, val_main_cst_13_apply]
  refine masked_of x0 x11 2 j d _ _ ?_ ?_
  · exact funext fun a => Fin.ext (by
      match a with
      | ⟨0, _⟩ => rfl)
  · rfl

/-- The masked product at (token `j`, the slice's column `c`). -/
theorem dot_s0_a2 (j : Fin 1024) (c : Fin 4096) :
    val_main_v124 (F := Ideal) x0 x3 x5 x7 x11 (ix2 j c) = sliceDot x0 x11 ⟨x3, x5, x7⟩ 2 j c := by
  rw [val_main_v124_apply]
  refine Finset.sum_congr rfl fun k _ => ?_
  rw [val_main_v123_apply,
    show lidx_main_v124 (ix2 j c) k = ix2 j k from funext fun a => Fin.ext (by
      match a with
      | ⟨0, _⟩ => rfl
      | ⟨1, _⟩ => rfl),
    show idx_main_v123 (ridx_main_v124 (ix2 j c) k) = ix2 c k from funext fun a => Fin.ext (by
      match a with
      | ⟨0, _⟩ => rfl
      | ⟨1, _⟩ => rfl),
    xm_s0_a2, w_s0_a2]

end Cert.ReferenceIdeal.HandValue

end
-- ==== Proof.Ref.S0A3.lean ====
/-
  The first slice, adapter 3: its dequantised weight, its masked token rows and their product, element by element.
-/
import proofs.«421023_j28973849379100_3_alg».proof.Proof.RefRead
import proofs.«421023_j28973849379100_3_alg».proof.Proof.Ref.Forms

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x3 : (⟨S4x4096x256, .i32⟩ : BufTy).Contents (Elt Ideal))
  (x5 : (⟨S4x512x1, .i32⟩ : BufTy).Contents (Elt Ideal)) (x7 : (⟨S4x4096x1, .f32⟩ : BufTy).Contents (Elt Ideal))
  (x11 : (⟨S1024, .i32⟩ : BufTy).Contents (Elt Ideal))

/-- The dequantised weight at (output row `n`, input column `d`): the scale of row `n` times the difference of
    field `d % 8` of weight word `d / 8` and field `n % 8` of zero word `n / 8`. -/
theorem w_s0_a3 (n : Fin 4096) (d : Fin 2048) :
    val_main_v158 (F := Ideal) x3 x5 x7 (ix2 n d) = delta ⟨x3, x5, x7⟩ 3 n d := by
  simp only [val_main_v158_apply, val_main_v157_apply, val_main_v131_apply, val_main_v130_apply, val_main_v156_apply,
    val_main_v143_apply, val_main_v142_apply, val_main_v141_apply, val_main_v139_apply, val_main_v137_apply,
    val_main_v135_apply, val_main_v127_apply, val_main_v126_apply, val_main_v138_apply, val_main_v136_apply,
    val_main_v134_apply, val_main_v132_apply, val_main_v133_apply, val_main_c_14_apply, val_main_v140_apply,
    val_main_c_15_apply, val_main_v155_apply, val_main_v154_apply, val_main_v153_apply, val_main_v152_apply,
    val_main_v151_apply, val_main_v149_apply, val_main_v147_apply, val_main_v145_apply, val_main_v144_apply,
    val_main_v129_apply, val_main_v128_apply, val_main_v148_apply, val_main_v146_apply, val_main_v150_apply,
    val_main_c_16_apply]
  refine delta_of x3 x5 x7 3 n d _ _ _ _ _ ?_ ?_ ?_ ?_ ?_
  · exact funext fun a => Fin.ext (by
      match a with
      | ⟨0, _⟩ => rfl
      | ⟨1, _⟩ => show (n.val * 1 + 0) / 1 % 4096 = n.val; omega
      | ⟨2, _⟩ => rfl)
  · exact funext fun a => Fin.ext (by
      have hn := n.isLt
      have hd := d.isLt
      match a with
      | ⟨0, _⟩ => rfl
      | ⟨1, _⟩ =>
        show ((n.val * 2048 + d.val) / 2048 * 256 + (n.val * 2048 + d.val) / 8 % 256) / 256 % 4096 = n.val
        omega
      | ⟨2, _⟩ =>
        show ((n.val * 2048 + d.val) / 2048 * 256 + (n.val * 2048 + d.val) / 8 % 256) % 256 = d.val / 8
        omega)
  · show (n.val * 2048 + d.val) % 8 = d.val % 8
    omega
  · exact funext fun a => Fin.ext (by
      have hn := n.isLt
      match a with
      | ⟨0, _⟩ => rfl
      | ⟨1, _⟩ => show (n.val / 8 / 1 * 1 + 0) / 1 % 512 = n.val / 8; omega
      | ⟨2, _⟩ => rfl)
  · rfl

/-- The masked token entry: the entry where the id is the word 3, zero elsewhere. -/
theorem xm_s0_a3 (j : Fin 1024) (d : Fin 2048) :
    val_main_v162 (F := Ideal) x0 x11 (ix2 j d) = masked x0 x11 3 j d := by
  simp only [val_main_v162_apply, val_main_call3_v1_apply, val_main_v161_apply, val_main_v160_apply, val_main_v159_apply,
    val_main_c_17_apply, val_main_call3_v2_apply, val_main_call3_v0_apply, val_main_cst_18_apply]
  refine masked_of x0 x11 3 j d _ _ ?_ ?_
  · exact funext fun a => Fin.ext (by
      match a with
      | ⟨0, _⟩ => rfl)
  · rfl

/-- The masked product at (token `j`, the slice's column `c`). -/
theorem dot_s0_a3 (j : Fin 1024) (c : Fin 4096) :
    val_main_v164 (F := Ideal) x0 x3 x5 x7 x11 (ix2 j c) = sliceDot x0 x11 ⟨x3, x5, x7⟩ 3 j c := by
  rw [val_main_v164_apply]
  refine Finset.sum_congr rfl fun k _ => ?_
  rw [val_main_v163_apply,
    show lidx_main_v164 (ix2 j c) k = ix2 j k from funext fun a => Fin.ext (by
      match a with
      | ⟨0, _⟩ => rfl
      | ⟨1, _⟩ => rfl),
    show idx_main_v163 (ridx_main_v164 (ix2 j c) k) = ix2 c k from funext fun a => Fin.ext (by
      match a with
      | ⟨0, _⟩ => rfl
      | ⟨1, _⟩ => rfl),
    xm_s0_a3, w_s0_a3]

end Cert.ReferenceIdeal.HandValue

end
-- ==== Proof.Ref.Acc0.lean ====
/-
  The first slice's delta at (token `j`, the slice's column `c`): its four masked products added left to right,
  starting from zero.
-/
import proofs.«421023_j28973849379100_3_alg».proof.Proof.Ref.S0A0
import proofs.«421023_j28973849379100_3_alg».proof.Proof.Ref.S0A1
import proofs.«421023_j28973849379100_3_alg».proof.Proof.Ref.S0A2
import proofs.«421023_j28973849379100_3_alg».proof.Proof.Ref.S0A3

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x3 : (⟨S4x4096x256, .i32⟩ : BufTy).Contents (Elt Ideal))
  (x5 : (⟨S4x512x1, .i32⟩ : BufTy).Contents (Elt Ideal)) (x7 : (⟨S4x4096x1, .f32⟩ : BufTy).Contents (Elt Ideal))
  (x11 : (⟨S1024, .i32⟩ : BufTy).Contents (Elt Ideal))

theorem acc_s0 (j : Fin 1024) (c : Fin 4096) :
    val_main_v165 (F := Ideal) x0 x3 x5 x7 x11 (ix2 j c)
      = (((0 + sliceDot x0 x11 ⟨x3, x5, x7⟩ 0 j c) + sliceDot x0 x11 ⟨x3, x5, x7⟩ 1 j c)
          + sliceDot x0 x11 ⟨x3, x5, x7⟩ 2 j c) + sliceDot x0 x11 ⟨x3, x5, x7⟩ 3 j c := by
  rw [val_main_v165_apply, val_main_v125_apply, val_main_v85_apply, val_main_v45_apply, val_main_v5_apply,
    val_main_cst_apply, dot_s0_a0, dot_s0_a1, dot_s0_a2, dot_s0_a3, Ideal.ofBits_def, Ideal.ofBits_zero_f32]
  rfl

end Cert.ReferenceIdeal.HandValue

end
-- ==== Proof.Ref.S1A0.lean ====
/-
  The second slice, adapter 0: its dequantised weight, its masked token rows and their product, element by element.
-/
import proofs.«421023_j28973849379100_3_alg».proof.Proof.RefRead
import proofs.«421023_j28973849379100_3_alg».proof.Proof.Ref.Forms

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x4 : (⟨S4x4096x256, .i32⟩ : BufTy).Contents (Elt Ideal))
  (x6 : (⟨S4x512x1, .i32⟩ : BufTy).Contents (Elt Ideal)) (x8 : (⟨S4x4096x1, .f32⟩ : BufTy).Contents (Elt Ideal))
  (x11 : (⟨S1024, .i32⟩ : BufTy).Contents (Elt Ideal))

/-- The dequantised weight at (output row `n`, input column `d`): the scale of row `n` times the difference of
    field `d % 8` of weight word `d / 8` and field `n % 8` of zero word `n / 8`. -/
theorem w_s1_a0 (n : Fin 4096) (d : Fin 2048) :
    val_main_v199 (F := Ideal) x4 x6 x8 (ix2 n d) = delta ⟨x4, x6, x8⟩ 0 n d := by
  simp only [val_main_v199_apply, val_main_v198_apply, val_main_v172_apply, val_main_v171_apply, val_main_v197_apply,
    val_main_v184_apply, val_main_v183_apply, val_main_v182_apply, val_main_v180_apply, val_main_v178_apply,
    val_main_v176_apply, val_main_v168_apply, val_main_v167_apply, val_main_v179_apply, val_main_v177_apply,
    val_main_v175_apply, val_main_v173_apply, val_main_v174_apply, val_main_c_20_apply, val_main_v181_apply,
    val_main_c_21_apply, val_main_v196_apply, val_main_v195_apply, val_main_v194_apply, val_main_v193_apply,
    val_main_v192_apply, val_main_v190_apply, val_main_v188_apply, val_main_v186_apply, val_main_v185_apply,
    val_main_v170_apply, val_main_v169_apply, val_main_v189_apply, val_main_v187_apply, val_main_v191_apply,
    val_main_c_22_apply]
  refine delta_of x4 x6 x8 0 n d _ _ _ _ _ ?_ ?_ ?_ ?_ ?_
  · exact funext fun a => Fin.ext (by
      match a with
      | ⟨0, _⟩ => rfl
      | ⟨1, _⟩ => show (n.val * 1 + 0) / 1 % 4096 = n.val; omega
      | ⟨2, _⟩ => rfl)
  · exact funext fun a => Fin.ext (by
      have hn := n.isLt
      have hd := d.isLt
      match a with
      | ⟨0, _⟩ => rfl
      | ⟨1, _⟩ =>
        show ((n.val * 2048 + d.val) / 2048 * 256 + (n.val * 2048 + d.val) / 8 % 256) / 256 % 4096 = n.val
        omega
      | ⟨2, _⟩ =>
        show ((n.val * 2048 + d.val) / 2048 * 256 + (n.val * 2048 + d.val) / 8 % 256) % 256 = d.val / 8
        omega)
  · show (n.val * 2048 + d.val) % 8 = d.val % 8
    omega
  · exact funext fun a => Fin.ext (by
      have hn := n.isLt
      match a with
      | ⟨0, _⟩ => rfl
      | ⟨1, _⟩ => show (n.val / 8 / 1 * 1 + 0) / 1 % 512 = n.val / 8; omega
      | ⟨2, _⟩ => rfl)
  · rfl

/-- The masked token entry: the entry where the id is the word 0, zero elsewhere. -/
theorem xm_s1_a0 (j : Fin 1024) (d : Fin 2048) :
    val_main_v203 (F := Ideal) x0 x11 (ix2 j d) = masked x0 x11 0 j d := by
  simp only [val_main_v203_apply, val_main_call4_v1_apply, val_main_v202_apply, val_main_v201_apply, val_main_v200_apply,
    val_main_c_23_apply, val_main_call4_v2_apply, val_main_call4_v0_apply, val_main_cst_24_apply]
  refine masked_of x0 x11 0 j d _ _ ?_ ?_
  · exact funext fun a => Fin.ext (by
      match a with
      | ⟨0, _⟩ => rfl)
  · rfl

/-- The masked product at (token `j`, the slice's column `c`). -/
theorem dot_s1_a0 (j : Fin 1024) (c : Fin 4096) :
    val_main_v205 (F := Ideal) x0 x4 x6 x8 x11 (ix2 j c) = sliceDot x0 x11 ⟨x4, x6, x8⟩ 0 j c := by
  rw [val_main_v205_apply]
  refine Finset.sum_congr rfl fun k _ => ?_
  rw [val_main_v204_apply,
    show lidx_main_v205 (ix2 j c) k = ix2 j k from funext fun a => Fin.ext (by
      match a with
      | ⟨0, _⟩ => rfl
      | ⟨1, _⟩ => rfl),
    show idx_main_v204 (ridx_main_v205 (ix2 j c) k) = ix2 c k from funext fun a => Fin.ext (by
      match a with
      | ⟨0, _⟩ => rfl
      | ⟨1, _⟩ => rfl),
    xm_s1_a0, w_s1_a0]

end Cert.ReferenceIdeal.HandValue

end
-- ==== Proof.Ref.S1A1.lean ====
/-
  The second slice, adapter 1: its dequantised weight, its masked token rows and their product, element by element.
-/
import proofs.«421023_j28973849379100_3_alg».proof.Proof.RefRead
import proofs.«421023_j28973849379100_3_alg».proof.Proof.Ref.Forms

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x4 : (⟨S4x4096x256, .i32⟩ : BufTy).Contents (Elt Ideal))
  (x6 : (⟨S4x512x1, .i32⟩ : BufTy).Contents (Elt Ideal)) (x8 : (⟨S4x4096x1, .f32⟩ : BufTy).Contents (Elt Ideal))
  (x11 : (⟨S1024, .i32⟩ : BufTy).Contents (Elt Ideal))

/-- The dequantised weight at (output row `n`, input column `d`): the scale of row `n` times the difference of
    field `d % 8` of weight word `d / 8` and field `n % 8` of zero word `n / 8`. -/
theorem w_s1_a1 (n : Fin 4096) (d : Fin 2048) :
    val_main_v239 (F := Ideal) x4 x6 x8 (ix2 n d) = delta ⟨x4, x6, x8⟩ 1 n d := by
  simp only [val_main_v239_apply, val_main_v238_apply, val_main_v212_apply, val_main_v211_apply, val_main_v237_apply,
    val_main_v224_apply, val_main_v223_apply, val_main_v222_apply, val_main_v220_apply, val_main_v218_apply,
    val_main_v216_apply, val_main_v208_apply, val_main_v207_apply, val_main_v219_apply, val_main_v217_apply,
    val_main_v215_apply, val_main_v213_apply, val_main_v214_apply, val_main_c_25_apply, val_main_v221_apply,
    val_main_c_26_apply, val_main_v236_apply, val_main_v235_apply, val_main_v234_apply, val_main_v233_apply,
    val_main_v232_apply, val_main_v230_apply, val_main_v228_apply, val_main_v226_apply, val_main_v225_apply,
    val_main_v210_apply, val_main_v209_apply, val_main_v229_apply, val_main_v227_apply, val_main_v231_apply,
    val_main_c_27_apply]
  refine delta_of x4 x6 x8 1 n d _ _ _ _ _ ?_ ?_ ?_ ?_ ?_
  · exact funext fun a => Fin.ext (by
      match a with
      | ⟨0, _⟩ => rfl
      | ⟨1, _⟩ => show (n.val * 1 + 0) / 1 % 4096 = n.val; omega
      | ⟨2, _⟩ => rfl)
  · exact funext fun a => Fin.ext (by
      have hn := n.isLt
      have hd := d.isLt
      match a with
      | ⟨0, _⟩ => rfl
      | ⟨1, _⟩ =>
        show ((n.val * 2048 + d.val) / 2048 * 256 + (n.val * 2048 + d.val) / 8 % 256) / 256 % 4096 = n.val
        omega
      | ⟨2, _⟩ =>
        show ((n.val * 2048 + d.val) / 2048 * 256 + (n.val * 2048 + d.val) / 8 % 256) % 256 = d.val / 8
        omega)
  · show (n.val * 2048 + d.val) % 8 = d.val % 8
    omega
  · exact funext fun a => Fin.ext (by
      have hn := n.isLt
      match a with
      | ⟨0, _⟩ => rfl
      | ⟨1, _⟩ => show (n.val / 8 / 1 * 1 + 0) / 1 % 512 = n.val / 8; omega
      | ⟨2, _⟩ => rfl)
  · rfl

/-- The masked token entry: the entry where the id is the word 1, zero elsewhere. -/
theorem xm_s1_a1 (j : Fin 1024) (d : Fin 2048) :
    val_main_v243 (F := Ideal) x0 x11 (ix2 j d) = masked x0 x11 1 j d := by
  simp only [val_main_v243_apply, val_main_call5_v1_apply, val_main_v242_apply, val_main_v241_apply, val_main_v240_apply,
    val_main_c_28_apply, val_main_call5_v2_apply, val_main_call5_v0_apply, val_main_cst_29_apply]
  refine masked_of x0 x11 1 j d _ _ ?_ ?_
  · exact funext fun a => Fin.ext (by
      match a with
      | ⟨0, _⟩ => rfl)
  · rfl

/-- The masked product at (token `j`, the slice's column `c`). -/
theorem dot_s1_a1 (j : Fin 1024) (c : Fin 4096) :
    val_main_v245 (F := Ideal) x0 x4 x6 x8 x11 (ix2 j c) = sliceDot x0 x11 ⟨x4, x6, x8⟩ 1 j c := by
  rw [val_main_v245_apply]
  refine Finset.sum_congr rfl fun k _ => ?_
  rw [val_main_v244_apply,
    show lidx_main_v245 (ix2 j c) k = ix2 j k from funext fun a => Fin.ext (by
      match a with
      | ⟨0, _⟩ => rfl
      | ⟨1, _⟩ => rfl),
    show idx_main_v244 (ridx_main_v245 (ix2 j c) k) = ix2 c k from funext fun a => Fin.ext (by
      match a with
      | ⟨0, _⟩ => rfl
      | ⟨1, _⟩ => rfl),
    xm_s1_a1, w_s1_a1]

end Cert.ReferenceIdeal.HandValue

end
-- ==== Proof.Ref.S1A2.lean ====
/-
  The second slice, adapter 2: its dequantised weight, its masked token rows and their product, element by element.
-/
import proofs.«421023_j28973849379100_3_alg».proof.Proof.RefRead
import proofs.«421023_j28973849379100_3_alg».proof.Proof.Ref.Forms

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x4 : (⟨S4x4096x256, .i32⟩ : BufTy).Contents (Elt Ideal))
  (x6 : (⟨S4x512x1, .i32⟩ : BufTy).Contents (Elt Ideal)) (x8 : (⟨S4x4096x1, .f32⟩ : BufTy).Contents (Elt Ideal))
  (x11 : (⟨S1024, .i32⟩ : BufTy).Contents (Elt Ideal))

/-- The dequantised weight at (output row `n`, input column `d`): the scale of row `n` times the difference of
    field `d % 8` of weight word `d / 8` and field `n % 8` of zero word `n / 8`. -/
theorem w_s1_a2 (n : Fin 4096) (d : Fin 2048) :
    val_main_v279 (F := Ideal) x4 x6 x8 (ix2 n d) = delta ⟨x4, x6, x8⟩ 2 n d := by
  simp only [val_main_v279_apply, val_main_v278_apply, val_main_v252_apply, val_main_v251_apply, val_main_v277_apply,
    val_main_v264_apply, val_main_v263_apply, val_main_v262_apply, val_main_v260_apply, val_main_v258_apply,
    val_main_v256_apply, val_main_v248_apply, val_main_v247_apply, val_main_v259_apply, val_main_v257_apply,
    val_main_v255_apply, val_main_v253_apply, val_main_v254_apply, val_main_c_30_apply, val_main_v261_apply,
    val_main_c_31_apply, val_main_v276_apply, val_main_v275_apply, val_main_v274_apply, val_main_v273_apply,
    val_main_v272_apply, val_main_v270_apply, val_main_v268_apply, val_main_v266_apply, val_main_v265_apply,
    val_main_v250_apply, val_main_v249_apply, val_main_v269_apply, val_main_v267_apply, val_main_v271_apply,
    val_main_c_32_apply]
  refine delta_of x4 x6 x8 2 n d _ _ _ _ _ ?_ ?_ ?_ ?_ ?_
  · exact funext fun a => Fin.ext (by
      match a with
      | ⟨0, _⟩ => rfl
      | ⟨1, _⟩ => show (n.val * 1 + 0) / 1 % 4096 = n.val; omega
      | ⟨2, _⟩ => rfl)
  · exact funext fun a => Fin.ext (by
      have hn := n.isLt
      have hd := d.isLt
      match a with
      | ⟨0, _⟩ => rfl
      | ⟨1, _⟩ =>
        show ((n.val * 2048 + d.val) / 2048 * 256 + (n.val * 2048 + d.val) / 8 % 256) / 256 % 4096 = n.val
        omega
      | ⟨2, _⟩ =>
        show ((n.val * 2048 + d.val) / 2048 * 256 + (n.val * 2048 + d.val) / 8 % 256) % 256 = d.val / 8
        omega)
  · show (n.val * 2048 + d.val) % 8 = d.val % 8
    omega
  · exact funext fun a => Fin.ext (by
      have hn := n.isLt
      match a with
      | ⟨0, _⟩ => rfl
      | ⟨1, _⟩ => show (n.val / 8 / 1 * 1 + 0) / 1 % 512 = n.val / 8; omega
      | ⟨2, _⟩ => rfl)
  · rfl

/-- The masked token entry: the entry where the id is the word 2, zero elsewhere. -/
theorem xm_s1_a2 (j : Fin 1024) (d : Fin 2048) :
    val_main_v283 (F := Ideal) x0 x11 (ix2 j d) = masked x0 x11 2 j d := by
  simp only [val_main_v283_apply, val_main_call6_v1_apply, val_main_v282_apply, val_main_v281_apply, val_main_v280_apply,
    val_main_c_33_apply, val_main_call6_v2_apply, val_main_call6_v0_apply, val_main_cst_34_apply]
  refine masked_of x0 x11 2 j d _ _ ?_ ?_
  · exact funext fun a => Fin.ext (by
      match a with
      | ⟨0, _⟩ => rfl)
  · rfl

/-- The masked product at (token `j`, the slice's column `c`). -/
theorem dot_s1_a2 (j : Fin 1024) (c : Fin 4096) :
    val_main_v285 (F := Ideal) x0 x4 x6 x8 x11 (ix2 j c) = sliceDot x0 x11 ⟨x4, x6, x8⟩ 2 j c := by
  rw [val_main_v285_apply]
  refine Finset.sum_congr rfl fun k _ => ?_
  rw [val_main_v284_apply,
    show lidx_main_v285 (ix2 j c) k = ix2 j k from funext fun a => Fin.ext (by
      match a with
      | ⟨0, _⟩ => rfl
      | ⟨1, _⟩ => rfl),
    show idx_main_v284 (ridx_main_v285 (ix2 j c) k) = ix2 c k from funext fun a => Fin.ext (by
      match a with
      | ⟨0, _⟩ => rfl
      | ⟨1, _⟩ => rfl),
    xm_s1_a2, w_s1_a2]

end Cert.ReferenceIdeal.HandValue

end
-- ==== Proof.Ref.S1A3.lean ====
/-
  The second slice, adapter 3: its dequantised weight, its masked token rows and their product, element by element.
-/
import proofs.«421023_j28973849379100_3_alg».proof.Proof.RefRead
import proofs.«421023_j28973849379100_3_alg».proof.Proof.Ref.Forms

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x4 : (⟨S4x4096x256, .i32⟩ : BufTy).Contents (Elt Ideal))
  (x6 : (⟨S4x512x1, .i32⟩ : BufTy).Contents (Elt Ideal)) (x8 : (⟨S4x4096x1, .f32⟩ : BufTy).Contents (Elt Ideal))
  (x11 : (⟨S1024, .i32⟩ : BufTy).Contents (Elt Ideal))

/-- The dequantised weight at (output row `n`, input column `d`): the scale of row `n` times the difference of
    field `d % 8` of weight word `d / 8` and field `n % 8` of zero word `n / 8`. -/
theorem w_s1_a3 (n : Fin 4096) (d : Fin 2048) :
    val_main_v319 (F := Ideal) x4 x6 x8 (ix2 n d) = delta ⟨x4, x6, x8⟩ 3 n d := by
  simp only [val_main_v319_apply, val_main_v318_apply, val_main_v292_apply, val_main_v291_apply, val_main_v317_apply,
    val_main_v304_apply, val_main_v303_apply, val_main_v302_apply, val_main_v300_apply, val_main_v298_apply,
    val_main_v296_apply, val_main_v288_apply, val_main_v287_apply, val_main_v299_apply, val_main_v297_apply,
    val_main_v295_apply, val_main_v293_apply, val_main_v294_apply, val_main_c_35_apply, val_main_v301_apply,
    val_main_c_36_apply, val_main_v316_apply, val_main_v315_apply, val_main_v314_apply, val_main_v313_apply,
    val_main_v312_apply, val_main_v310_apply, val_main_v308_apply, val_main_v306_apply, val_main_v305_apply,
    val_main_v290_apply, val_main_v289_apply, val_main_v309_apply, val_main_v307_apply, val_main_v311_apply,
    val_main_c_37_apply]
  refine delta_of x4 x6 x8 3 n d _ _ _ _ _ ?_ ?_ ?_ ?_ ?_
  · exact funext fun a => Fin.ext (by
      match a with
      | ⟨0, _⟩ => rfl
      | ⟨1, _⟩ => show (n.val * 1 + 0) / 1 % 4096 = n.val; omega
      | ⟨2, _⟩ => rfl)
  · exact funext fun a => Fin.ext (by
      have hn := n.isLt
      have hd := d.isLt
      match a with
      | ⟨0, _⟩ => rfl
      | ⟨1, _⟩ =>
        show ((n.val * 2048 + d.val) / 2048 * 256 + (n.val * 2048 + d.val) / 8 % 256) / 256 % 4096 = n.val
        omega
      | ⟨2, _⟩ =>
        show ((n.val * 2048 + d.val) / 2048 * 256 + (n.val * 2048 + d.val) / 8 % 256) % 256 = d.val / 8
        omega)
  · show (n.val * 2048 + d.val) % 8 = d.val % 8
    omega
  · exact funext fun a => Fin.ext (by
      have hn := n.isLt
      match a with
      | ⟨0, _⟩ => rfl
      | ⟨1, _⟩ => show (n.val / 8 / 1 * 1 + 0) / 1 % 512 = n.val / 8; omega
      | ⟨2, _⟩ => rfl)
  · rfl

/-- The masked token entry: the entry where the id is the word 3, zero elsewhere. -/
theorem xm_s1_a3 (j : Fin 1024) (d : Fin 2048) :
    val_main_v323 (F := Ideal) x0 x11 (ix2 j d) = masked x0 x11 3 j d := by
  simp only [val_main_v323_apply, val_main_call7_v1_apply, val_main_v322_apply, val_main_v321_apply, val_main_v320_apply,
    val_main_c_38_apply, val_main_call7_v2_apply, val_main_call7_v0_apply, val_main_cst_39_apply]
  refine masked_of x0 x11 3 j d _ _ ?_ ?_
  · exact funext fun a => Fin.ext (by
      match a with
      | ⟨0, _⟩ => rfl)
  · rfl

/-- The masked product at (token `j`, the slice's column `c`). -/
theorem dot_s1_a3 (j : Fin 1024) (c : Fin 4096) :
    val_main_v325 (F := Ideal) x0 x4 x6 x8 x11 (ix2 j c) = sliceDot x0 x11 ⟨x4, x6, x8⟩ 3 j c := by
  rw [val_main_v325_apply]
  refine Finset.sum_congr rfl fun k _ => ?_
  rw [val_main_v324_apply,
    show lidx_main_v325 (ix2 j c) k = ix2 j k from funext fun a => Fin.ext (by
      match a with
      | ⟨0, _⟩ => rfl
      | ⟨1, _⟩ => rfl),
    show idx_main_v324 (ridx_main_v325 (ix2 j c) k) = ix2 c k from funext fun a => Fin.ext (by
      match a with
      | ⟨0, _⟩ => rfl
      | ⟨1, _⟩ => rfl),
    xm_s1_a3, w_s1_a3]

end Cert.ReferenceIdeal.HandValue

end
-- ==== Proof.Ref.Acc1.lean ====
/-
  The second slice's delta at (token `j`, the slice's column `c`): its four masked products added left to right,
  starting from zero.
-/
import proofs.«421023_j28973849379100_3_alg».proof.Proof.Ref.S1A0
import proofs.«421023_j28973849379100_3_alg».proof.Proof.Ref.S1A1
import proofs.«421023_j28973849379100_3_alg».proof.Proof.Ref.S1A2
import proofs.«421023_j28973849379100_3_alg».proof.Proof.Ref.S1A3

noncomputable section

open scoped BigOperators

namespace Cert.ReferenceIdeal.HandValue

open Cert.ReferenceIdeal Cert.ReferenceIdeal.ReadP Cert.Spec Idealize.ShloMosaic Idealize.ShloMosaic.ValueIdx

variable (x0 : (⟨S1024x2048, .f32⟩ : BufTy).Contents (Elt Ideal)) (x4 : (⟨S4x4096x256, .i32⟩ : BufTy).Contents (Elt Ideal))
  (x6 : (⟨S4x512x1, .i32⟩ : BufTy).Contents (Elt Ideal)) (x8 : (⟨S4x4096x1, .f32⟩ : BufTy).Contents (Elt Ideal))
  (x11 : (⟨S1024, .i32⟩ : BufTy).Contents (Elt Ideal))

theorem acc_s1 (j : Fin 1024) (c : Fin 4096) :
    val_main_v326 (F := Ideal) x0 x4 x6 x8 x11 (ix2 j c)
      = (((0 + sliceDot x0 x11 ⟨x4, x6, x8⟩ 0 j c) + sliceDot x0 x11 ⟨x4, x6, x8⟩ 1 j c)
          + sliceDot x0 x11 ⟨x4, x6, x8⟩ 2 j c) + sliceDot x0 x11 ⟨x4, x6, x8⟩ 3 j c := by
  rw [val_main_v326_apply, val_main_v286_apply, val_main_v246_apply, val_main_v206_apply, val_main_v166_apply,
    val_main_cst_19_apply, dot_s1_a0, dot_s1_a1, dot_s1_a2, dot_s1_a3, Ideal.ofBits_def, Ideal.ofBits_zero_f32]
  rfl

end Cert.ReferenceIdeal.HandValue

end
-- ==== Proof.RefValue.lean ====
/-
  The reference's result at (token `j`, column `col`) is the specification's summed form: the base product plus the
  bias, plus the delta of the slice the column lies in.
-/
import proofs.«421023_j28973849379100_3_alg».proof.Proof.Ref.Acc0
import proofs.«421023_j28973849379100_3_alg».proof.Proof.Ref.Acc1

noncomputable section

open scoped BigOperators

namespace Cert.ReferenceIdeal.HandValue

open Cert.ReferenceIdeal Cert.ReferenceIdeal.Gen Cert.ReferenceIdeal.ReadP Cert.Spec Idealize.ShloMosaic Idealize.ShloMosaic.ValueIdx

variable (x0 : (⟨S1024x2048, .f32⟩ : BufTy).Contents (Elt Ideal)) (x1 : (⟨S8192x2048, .f32⟩ : BufTy).Contents (Elt Ideal))
  (x2 : (⟨S8192, .f32⟩ : BufTy).Contents (Elt Ideal)) (x3 x4 : (⟨S4x4096x256, .i32⟩ : BufTy).Contents (Elt Ideal))
  (x5 x6 : (⟨S4x512x1, .i32⟩ : BufTy).Contents (Elt Ideal)) (x7 x8 : (⟨S4x4096x1, .f32⟩ : BufTy).Contents (Elt Ideal))
  (x11 : (⟨S1024, .i32⟩ : BufTy).Contents (Elt Ideal))

/-- The base product plus the bias. -/
theorem base_apply (j : Fin 1024) (col : Fin 8192) :
    val_main_v4 (F := Ideal) x0 x1 x2 (ix2 j col) = (∑ d : Fin 2048, x0 (ix2 j d) * x1 (ix2 col d)) + x2 (ix1 col) := by
  rw [val_main_v4_apply, Ideal.addf_def, val_main_v1_apply, val_main_v3_apply, val_main_v2_apply,
    show idx_main_v2 (idx_main_v3 (ix2 j col)) = ix1 col from funext fun a => Fin.ext (by
      match a with
      | ⟨0, _⟩ => rfl)]
  congr 1
  refine Finset.sum_congr rfl fun k _ => ?_
  rw [val_main_v0_apply,
    show lidx_main_v1 (ix2 j col) k = ix2 j k from funext fun a => Fin.ext (by
      match a with
      | ⟨0, _⟩ => rfl
      | ⟨1, _⟩ => rfl),
    show idx_main_v0 (ridx_main_v1 (ix2 j col) k) = ix2 col k from funext fun a => Fin.ext (by
      match a with
      | ⟨0, _⟩ => rfl
      | ⟨1, _⟩ => rfl)]

/-- On the first 4096 columns the two slices laid side by side read the first slice, at the same column. -/
theorem cat_lt (j : Fin 1024) (col : Fin 8192) (h : col.val < 4096) :
    val_main_v327 (F := Ideal) x0 x3 x4 x5 x6 x7 x8 x11 (ix2 j col)
      = val_main_v165 (F := Ideal) x0 x3 x5 x7 x11 (ix2 j ⟨col.val, h⟩) := by
  unfold val_main_v327
  exact concatenate_pair_apply_left 1 _ _ concatenates_S1024x4096_S1024x4096_S1024x8192_d1 (ix2 j col) rfl
    (ix2 j ⟨col.val, h⟩) (fun b => by
      match b with
      | ⟨0, _⟩ => rfl
      | ⟨1, _⟩ => rfl)

/-- On the last 4096 columns they read the second slice, at the column less 4096. -/
theorem cat_ge (j : Fin 1024) (col : Fin 8192) (h : ¬ col.val < 4096) :
    val_main_v327 (F := Ideal) x0 x3 x4 x5 x6 x7 x8 x11 (ix2 j col)
      = val_main_v326 (F := Ideal) x0 x4 x6 x8 x11 (ix2 j ⟨col.val - 4096, by omega⟩) := by
  unfold val_main_v327
  exact concatenate_pair_apply_right 1 _ _ concatenates_S1024x4096_S1024x4096_S1024x8192_d1 (ix2 j col) rfl rfl
    (ix2 j ⟨col.val - 4096, by omega⟩) (fun b hb => by
      match b, hb with
      | ⟨0, _⟩, _ => rfl
      | ⟨1, _⟩, hb => exact absurd rfl hb)
    (by
      show col.val - 4096 + 4096 = col.val
      omega)

/-- The reference at an index is the summed form. -/
theorem ref_apply (j : Fin 1024) (col : Fin 8192) :
    val_main_v328 (F := Ideal) x0 x1 x2 x3 x4 x5 x6 x7 x8 x11 (ix2 j col)
      = summed x0 x1 x2 ⟨x3, x5, x7⟩ ⟨x4, x6, x8⟩ x11 j col := by
  rw [val_main_v328_apply, Ideal.addf_def, base_apply]
  unfold summed
  congr 1
  by_cases h : col.val < 4096
  · rw [cat_lt x0 x3 x4 x5 x6 x7 x8 x11 j col h, acc_s0, maskedDot_lt _ _ _ _ 0 j col h, maskedDot_lt _ _ _ _ 1 j col h,
      maskedDot_lt _ _ _ _ 2 j col h, maskedDot_lt _ _ _ _ 3 j col h]
  · rw [cat_ge x0 x3 x4 x5 x6 x7 x8 x11 j col h, acc_s1, maskedDot_ge _ _ _ _ 0 j col h, maskedDot_ge _ _ _ _ 1 j col h,
      maskedDot_ge _ _ _ _ 2 j col h, maskedDot_ge _ _ _ _ 3 j col h]

end Cert.ReferenceIdeal.HandValue

end
-- ==== Proof.Algebra.lean ====
/-
  The law between the two forms of the specification: for real inputs, the fused form (one product against the base
  row plus the selected adapter's delta row) equals the summed form (the base product plus four masked products).

  An adapter id selects slot `a < 4` exactly when it is the word `a`; then three of the four masked rows are zero and
  the fourth is the token row itself, and the law is distributivity of the product over the sum of the base weight and
  the delta, which holds for real numbers (not for infinities: hence the finiteness hypothesis). Any other id selects
  the empty fifth slot, every masked row is zero, and both forms are the base product plus the bias.
-/
import proofs.«421023_j28973849379100_3_alg».proof.Proof.Spec
import Mathlib.Data.EReal.Operations
import Mathlib.Algebra.BigOperators.Fin
import Mathlib.Algebra.BigOperators.Group.Finset.Basic
import Mathlib.Algebra.BigOperators.Ring.Finset
import Mathlib.Tactic.Ring

noncomputable section

open scoped BigOperators

namespace Cert.Spec

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A word is the word `b` (for `b < 4`) exactly when, read signed, it selects adapter slot `b`. -/
theorem eq_ofNat_iff (v : BitVec 32) (b : Fin 4) :
    v = BitVec.ofNat 32 b.val ↔ (adapter v).val = b.val := by
  have hb := b.isLt
  have hv : v.toNat < 2 ^ 32 := v.isLt
  have hi := BitVec.toInt_eq_toNat_cond v
  have hm : b.val % 2 ^ 32 = b.val := Nat.mod_eq_of_lt (by omega)
  rw [← BitVec.toNat_inj, BitVec.toNat_ofNat, hm]
  unfold adapter
  by_cases h : 0 ≤ v.toInt ∧ v.toInt < 4
  · rw [dif_pos h]
    show v.toNat = b.val ↔ v.toInt.toNat = b.val
    split at hi <;> omega
  · rw [dif_neg h]
    show v.toNat = b.val ↔ 4 = b.val
    split at hi <;> omega

/-- A masked product is the plain product of the token row with the delta row when the token's slot is `b`, else zero. -/
theorem maskedDot_eq (x : (⟨2, ![1024, 2048]⟩ : Shape).Idx → EReal) (S0 S1 : Slice)
    (ind : (⟨1, ![1024]⟩ : Shape).Idx → BitVec 32) (b : Fin 4) (j : Fin 1024) (col : Fin 8192) :
    maskedDot x S0 S1 ind b j col =
      if (adapter (ind (ix1 j))).val = b.val then
        ∑ d : Fin 2048, x (ix2 j d) * delta (sliceOf S0 S1 col) b ⟨col.val % 4096, by omega⟩ d
      else 0 := by
  by_cases h : ind (ix1 j) = BitVec.ofNat 32 b.val
  · rw [if_pos ((eq_ofNat_iff _ b).1 h)]
    simp only [maskedDot, masked, if_pos h]
  · rw [if_neg (fun h' => h ((eq_ofNat_iff _ b).2 h'))]
    simp only [maskedDot, masked, if_neg h, zero_mul, Finset.sum_const_zero]

/-- Four terms added left to right from zero are their sum over the four slots. -/
theorem sum_left_four (M : Fin 4 → EReal) : (((0 + M 0) + M 1) + M 2) + M 3 = ∑ b : Fin 4, M b := by
  rw [Fin.sum_univ_four, zero_add]

/-- Of four terms each guarded by "the slot is `b`", only the slot's own term survives. -/
theorem sum_ite_val (k : ℕ) (T : Fin 4 → EReal) (h : k < 4) :
    (∑ b : Fin 4, if k = b.val then T b else 0) = T ⟨k, h⟩ := by
  rw [Finset.sum_eq_single (⟨k, h⟩ : Fin 4)]
  · rw [if_pos rfl]
  · intro b _ hb
    rw [if_neg]
    intro e
    exact hb (Fin.ext e.symm)
  · intro h'
    exact absurd (Finset.mem_univ _) h'

/-- When the slot is the empty fifth one, all four guarded terms vanish. -/
theorem sum_ite_val_ge (k : ℕ) (T : Fin 4 → EReal) (h : ¬ k < 4) :
    (∑ b : Fin 4, if k = b.val then T b else 0) = 0 := by
  apply Finset.sum_eq_zero
  intro b _
  rw [if_neg]
  intro e
  exact h (e ▸ b.isLt)

/-- A delta is a real number as soon as the scales are. -/
theorem delta_real (S : Slice) (hsc : ∀ i, ∃ r : ℝ, S.sc i = (r : EReal)) (a : Fin 4) (n : Fin 4096) (d : Fin 2048) :
    ∃ r : ℝ, delta S a n d = (r : EReal) := by
  obtain ⟨s, hs⟩ := hsc (ix3 a n (0 : Fin 1))
  exact ⟨_, by rw [delta, hs, toR, toR, ← EReal.coe_sub, ← EReal.coe_mul]⟩

/-- Distributivity for real entries: the product against `b + δ` plus `c` is the product against `b` plus `c`, plus
    the product against `δ`. -/
theorem dot_add_split {ι : Type*} [Fintype ι] (x b δ : ι → EReal) (c : EReal)
    (hx : ∀ i, ∃ r : ℝ, x i = (r : EReal)) (hb : ∀ i, ∃ r : ℝ, b i = (r : EReal))
    (hδ : ∀ i, ∃ r : ℝ, δ i = (r : EReal)) (hc : ∃ r : ℝ, c = (r : EReal)) :
    (∑ i, x i * (b i + δ i)) + c = ((∑ i, x i * b i) + c) + ∑ i, x i * δ i := by
  choose xr hx using hx
  choose br hb using hb
  choose δr hδ using hδ
  obtain ⟨cr, rfl⟩ := hc
  simp only [hx, hb, hδ, ← EReal.coe_mul, ← EReal.coe_add, ← coe_sum]
  rw [EReal.coe_eq_coe_iff]
  simp only [mul_add, Finset.sum_add_distrib]
  ring

theorem wEff_of_lt (bw : (⟨2, ![8192, 2048]⟩ : Shape).Idx → EReal) (S0 S1 : Slice) (a : Fin 5) (h : a.val < 4)
    (col : Fin 8192) (d : Fin 2048) :
    wEff bw S0 S1 a col d
      = bw (ix2 col d) + delta (sliceOf S0 S1 col) ⟨a.val, h⟩ ⟨col.val % 4096, by omega⟩ d := dif_pos h

theorem wEff_of_not_lt (bw : (⟨2, ![8192, 2048]⟩ : Shape).Idx → EReal) (S0 S1 : Slice) (a : Fin 5) (h : ¬ a.val < 4)
    (col : Fin 8192) (d : Fin 2048) : wEff bw S0 S1 a col d = bw (ix2 col d) := dif_neg h

/-- THE LAW: for real inputs the fused form and the summed form agree at every token and column. -/
theorem fused_eq_summed {x : (⟨2, ![1024, 2048]⟩ : Shape).Idx → EReal} {bw : (⟨2, ![8192, 2048]⟩ : Shape).Idx → EReal}
    {bb : (⟨1, ![8192]⟩ : Shape).Idx → EReal} {S0 S1 : Slice} (ind : (⟨1, ![1024]⟩ : Shape).Idx → BitVec 32)
    (hfin : Finite x bw bb S0 S1) (j : Fin 1024) (col : Fin 8192) :
    fused x bw bb S0 S1 ind j col = summed x bw bb S0 S1 ind j col := by
  have hS : ∀ i, ∃ r : ℝ, (sliceOf S0 S1 col).sc i = (r : EReal) := by
    intro i
    unfold sliceOf
    split
    · exact hfin.sc0 i
    · exact hfin.sc1 i
  unfold fused summed
  rw [sum_left_four (fun b => maskedDot x S0 S1 ind b j col)]
  simp only [maskedDot_eq]
  by_cases h : (adapter (ind (ix1 j))).val < 4
  · simp only [wEff_of_lt _ _ _ _ h]
    rw [sum_ite_val _ _ h]
    exact dot_add_split (fun d => x (ix2 j d)) (fun d => bw (ix2 col d))
      (fun d => delta (sliceOf S0 S1 col) ⟨_, h⟩ ⟨col.val % 4096, by omega⟩ d) (bb (ix1 col))
      (fun d => hfin.x _) (fun d => hfin.bw _) (fun d => delta_real _ hS _ _ d) (hfin.bb _)
  · simp only [wEff_of_not_lt _ _ _ _ h]
    rw [sum_ite_val_ge _ _ h, add_zero]

end Cert.Spec

end
-- ==== Proof.FiniteOfPre.lean ====
/-
  The precondition says every float input lies strictly between the two infinities in absolute value; here that is
  read back entry by entry: each of the five float arrays (the token rows, the base weight, the bias, and the two
  slices' scales) holds real numbers only.

  The predicate is a conjunction of five "for all entries, |v| < +∞"; each conjunct is a reduction by `and` of the
  entrywise comparison, and an `and`-reduction that is one had a one at every entry. An extended real whose absolute
  value max(v, −v) is below +∞ is neither infinity, hence a real.
-/
import proofs.«421023_j28973849379100_3_alg».proof.Pre_finite_inputs
import proofs.«421023_j28973849379100_3_alg».proof.Proof.Gen.Pre_finite_inputs
import proofs.«421023_j28973849379100_3_alg».proof.Proof.Spec
import Idealize.ShloMosaic.Lib.ReduceAll

noncomputable section

namespace Cert.Spec

open Idealize.ShloMosaic Idealize.ShloMosaic.ValueIdx Cert.Pre_finite_inputs

/-- The shape of a scalar has one index. -/
instance subsingleton_scalar_idx : Subsingleton (⟨0, ![]⟩ : Shape).Idx := ⟨fun a b => funext fun d => d.elim0⟩

/-- The pattern `0x7F800000` denotes +∞. -/
theorem inf_word : Ideal.ofBits .f32 0x7F800000#32 = (⊤ : EReal) := by simp [Ideal.ofBits, Ideal.ieee]

/-- An extended real whose absolute value compares below +∞ is a real number. -/
theorem real_of_abs_lt (v : EReal) (h : Ideal.cmp .olt (max v (-v)) (Ideal.ofBits .f32 0x7F800000#32) = 1#1) :
    ∃ r : ℝ, v = (r : EReal) := by
  rw [inf_word] at h
  induction v using EReal.rec with
  | bot => simp [Ideal.cmp] at h
  | coe r => exact ⟨r, rfl⟩
  | top => simp [Ideal.cmp] at h

/-- One conjunct of the predicate, read back: an array all of whose entries compare below +∞ in absolute value holds
    real numbers only. -/
theorem real_of_all_lt {s : Shape} {axes : List (Fin s.rank)} (hr : s.ReducesTo axes S_) (hu : 0 < S_.numel)
    (v : FVec Ideal s .f32) (bc : S_.BroadcastsInDim s (![] : Fin 0 → Fin s.rank))
    (e : Host.reduce IntOp.andi
          (cmpf .olt (Host.absf v) (broadcastInDim s ![] bc (constant S_ .f32 0x7F800000#32)))
          (constantI S_ 1 1#1) hr hu ix0 = 1#1) :
    ∀ i, ∃ r : ℝ, v i = (r : EReal) := by
  intro i
  have hi := Host.reduce_andi_all _ _ hr hu ix0 e i
  exact real_of_abs_lt (v i) hi

/-- The precondition makes the five float inputs real. -/
theorem finite_of_pre [Cert.Pre_finite_inputs.Facts]
    (a0 : FVec Ideal S1024x2048 .f32) (a1 : FVec Ideal S8192x2048 .f32) (a2 : FVec Ideal S8192 .f32)
    (a3 a4 : IVec S4x4096x256 32) (a5 a6 : IVec S4x512x1 32) (a7 a8 : FVec Ideal S4x4096x1 .f32)
    (a9 a10 : IVec S2048 32) (a11 : IVec S1024 32)
    (h : Cert.Pre_finite_inputs.fn (F := Ideal) a0 a1 a2 a3 a4 a5 a6 a7 a8 a9 a10 a11 = fun _ => 1#1) :
    Finite a0 a1 a2 ⟨a3, a5, a7⟩ ⟨a4, a6, a8⟩ := by
  have h0 := congrFun h ix0
  dsimp only [fn, fn_part1] at h0
  obtain ⟨h18, e8⟩ := IntOp.andi_eq_one.1 h0
  obtain ⟨h13, e7⟩ := IntOp.andi_eq_one.1 h18
  obtain ⟨h8, e2⟩ := IntOp.andi_eq_one.1 h13
  obtain ⟨e0, e1⟩ := IntOp.andi_eq_one.1 h8
  exact ⟨real_of_all_lt _ _ a0 _ e0, real_of_all_lt _ _ a1 _ e1, real_of_all_lt _ _ a2 _ e2,
    real_of_all_lt _ _ a7 _ e7, real_of_all_lt _ _ a8 _ e8⟩

end Cert.Spec

end
-- ==== Proof.lean ====
/-
  The kernel routes each token to one of five weight slots, multiplies token tiles by the slot's effective weight
  (base weight plus the slot's dequantised delta) and adds the bias; the reference adds the base product, the bias and
  four masked delta products. Over real inputs the two are one function: distributivity of the product over the sum
  of the base weight and the delta, the masked products of the other slots being sums of zeros.

  The frames: the kernel region runs under the side condition that the slot table's words name weight blocks inside
  the stacked weights, which holds because the table is clipped to 0 … 4 by the host code itself; the reference is
  host operations only.
-/
import proofs.«421023_j28973849379100_3_alg».proof.Defs
import proofs.«421023_j28973849379100_3_alg».proof.Proof.Gen.Kernel
import proofs.«421023_j28973849379100_3_alg».proof.Proof.Gen.KernelIdeal
import proofs.«421023_j28973849379100_3_alg».proof.Proof.Gen.ReferenceIdeal
import proofs.«421023_j28973849379100_3_alg».proof.Proof.Gen.Pre_finite_inputs
import proofs.«421023_j28973849379100_3_alg».proof.Proof.K.Body
import proofs.«421023_j28973849379100_3_alg».proof.Proof.KI.Final
import proofs.«421023_j28973849379100_3_alg».proof.Proof.KI.RoutePos
import proofs.«421023_j28973849379100_3_alg».proof.Proof.RefValue
import proofs.«421023_j28973849379100_3_alg».proof.Proof.Algebra
import proofs.«421023_j28973849379100_3_alg».proof.Proof.FiniteOfPre

set_option maxRecDepth 8192

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m ρ m' ρ' hpre hagree
  refine ⟨fun c => Cert.KernelIdeal.HandResult.kernelOut m c, Cert.KernelIdeal.HandResult.kernel_value_of m ρ
    (fun c j => Cert.KernelIdeal.HandRoute.route m c j) (fun c t => Cert.KernelIdeal.HandRoute.ta_le m c t), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v328_eq]
  obtain ⟨h0, h1, h2, h3, h4, h5, h6, h7, h8, -, -, h11⟩ := hagree c
  rw [h0, h1, h2, h3, h4, h5, h6, h7, h8, h11]
  funext i
  obtain ⟨j, col, rfl⟩ : ∃ (j : Fin 1024) (col : Fin 8192), i = ix2 j col := ⟨i 0, i 1, eq_ix2 i⟩
  rw [Cert.ReferenceIdeal.HandValue.ref_apply]
  exact (Cert.Spec.fused_eq_summed _ (Cert.Spec.finite_of_pre _ _ _ _ _ _ _ _ _ _ _ _ (hpre c)) j col).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
